-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14)) (m ((c.tc : Thread Cert.Kernel.nD Cert.Kernel.τ).loc Cert.Kernel.main_arg15)) (m ((c.tc : Thread Cert.Kernel.nD Cert.Kernel.τ).loc Cert.Kernel.main_arg16)) (m ((c.tc : Thread Cert.Kernel.nD Cert.Kernel.τ).loc Cert.Kernel.main_arg17)) (m ((c.tc : Thread Cert.Kernel.nD Cert.Kernel.τ).loc Cert.Kernel.main_arg18)) (m ((c.tc : Thread Cert.Kernel.nD Cert.Kernel.τ).loc Cert.Kernel.main_arg19)) (m ((c.tc : Thread Cert.Kernel.nD Cert.Kernel.τ).loc Cert.Kernel.main_arg20)) (m ((c.tc : Thread Cert.Kernel.nD Cert.Kernel.τ).loc Cert.Kernel.main_arg21)) (m ((c.tc : Thread Cert.Kernel.nD Cert.Kernel.τ).loc Cert.Kernel.main_arg22))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v120)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v120) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v245) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x64 : Shape := ⟨2, ![50000, 64]⟩
abbrev S64x64 : Shape := ⟨2, ![64, 64]⟩
abbrev S64 : Shape := ⟨1, ![64]⟩
abbrev S1 : Shape := ⟨1, ![1]⟩
abbrev S2x800000 : Shape := ⟨2, ![2, 800000]⟩
abbrev S50000 : Shape := ⟨1, ![50000]⟩
abbrev S_ : Shape := ⟨0, ![]⟩

class Facts : Prop where
  bcast_S_S50000x64 : S_.BroadcastsInDim S50000x64 (![] : Fin 0 → Fin S50000x64.rank)
  reducesTo_S50000x64_S_d0_1 : S50000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S1 : S_.BroadcastsInDim S1 (![] : Fin 0 → Fin S1.rank)
  reducesTo_S1_S_d0 : S1.ReducesTo [0] S_
  bcast_S_S50000 : S_.BroadcastsInDim S50000 (![] : Fin 0 → Fin S50000.rank)
  reducesTo_S50000_S_d0 : S50000.ReducesTo [0] S_

variable [Facts]

def fn_part6 {F : FTy → Type} [FloatOps F] (main_arg22 : IVec S50000 32) (main_v98 : IVec S_ 1) (main_v101 : IVec S1 1) (main_c_39 : IVec S_ 1) : IVec S_ 1 :=
  let main_v102 : IVec S_ 1 := (fun x v => Host.reduce IntOp.andi x v reducesTo_S1_S_d0 h_S_) main_v101 main_c_39
  let main_v103 : IVec S_ 1 := andi main_v98 main_v102
  let main_c_40 : IVec S_ 32 := constantI S_ 32 0#32
  let main_v104 : IVec S50000 32 := broadcastInDim S50000 ![] bcast_S_S50000 main_c_40
  let main_v105 : IVec S50000 1 := cmpi .sge main_arg22 main_v104
  let main_c_41 : IVec S_ 1 := constantI S_ 1 1#1
  let main_v106 : IVec S_ 1 := (fun x v => Host.reduce IntOp.andi x v reducesTo_S50000_S_d0 h_S_) main_v105 main_c_41
  let main_v107 : IVec S_ 1 := andi main_v103 main_v106
  let main_c_42 : IVec S_ 32 := constantI S_ 32 128#32
  let main_v108 : IVec S50000 32 := broadcastInDim S50000 ![] bcast_S_S50000 main_c_42
  let main_v109 : IVec S50000 1 := cmpi .slt main_arg22 main_v108
  let main_c_43 : IVec S_ 1 := constantI S_ 1 1#1
  let main_v110 : IVec S_ 1 := (fun x v => Host.reduce IntOp.andi x v reducesTo_S50000_S_d0 h_S_) main_v109 main_c_43
  let main_v111 : IVec S_ 1 := andi main_v107 main_v110
  main_v111

def fn_part5 {F : FTy → Type} [FloatOps F] (main_arg18 : FVec F S1 .f32) (main_arg19 : FVec F S1 .f32) (main_arg20 : FVec F S1 .f32) (main_arg22 : IVec S50000 32) (main_v83 : IVec S_ 1) (main_v84 : FVec F S64 .f32) (main_cst_32 : FVec F S_ .f32) : IVec S_ 1 :=
  let main_v85 : FVec F S64 .f32 := broadcastInDim S64 ![] bcast_S_S64 main_cst_32
  let main_v86 : IVec S64 1 := cmpf .olt main_v84 main_v85
  let main_c_33 : IVec S_ 1 := constantI S_ 1 1#1
  let main_v87 : IVec S_ 1 := (fun x v => Host.reduce IntOp.andi x v reducesTo_S64_S_d0 h_S_) main_v86 main_c_33
  let main_v88 : IVec S_ 1 := andi main_v83 main_v87
  let main_v89 : FVec F S1 .f32 := Host.absf main_arg18
  let main_cst_34 : FVec F S_ .f32 := constant S_ .f32 0x7F800000#32
  let main_v90 : FVec F S1 .f32 := broadcastInDim S1 ![] bcast_S_S1 main_cst_34
  let main_v91 : IVec S1 1 := cmpf .olt main_v89 main_v90
  let main_c_35 : IVec S_ 1 := constantI S_ 1 1#1
  let main_v92 : IVec S_ 1 := (fun x v => Host.reduce IntOp.andi x v reducesTo_S1_S_d0 h_S_) main_v91 main_c_35
  let main_v93 : IVec S_ 1 := andi main_v88 main_v92
  let main_v94 : FVec F S1 .f32 := Host.absf main_arg19
  let main_cst_36 : FVec F S_ .f32 := constant S_ .f32 0x7F800000#32
  let main_v95 : FVec F S1 .f32 := broadcastInDim S1 ![] bcast_S_S1 main_cst_36
  let main_v96 : IVec S1 1 := cmpf .olt main_v94 main_v95
  let main_c_37 : IVec S_ 1 := constantI S_ 1 1#1
  let main_v97 : IVec S_ 1 := (fun x v => Host.reduce IntOp.andi x v reducesTo_S1_S_d0 h_S_) main_v96 main_c_37
  let main_v98 : IVec S_ 1 := andi main_v93 main_v97
  let main_v99 : FVec F S1 .f32 := Host.absf main_arg20
  let main_cst_38 : FVec F S_ .f32 := constant S_ .f32 0x7F800000#32
  let main_v100 : FVec F S1 .f32 := broadcastInDim S1 ![] bcast_S_S1 main_cst_38
  let main_v101 : IVec S1 1 := cmpf .olt main_v99 main_v100
  let main_c_39 : IVec S_ 1 := constantI S_ 1 1#1
  fn_part6 (F := F) main_arg22 main_v98 main_v101 main_c_39

def fn_part4 {F : FTy → Type} [FloatOps F] (main_arg14 : FVec F S64 .f32) (main_arg15 : FVec F S64 .f32) (main_arg16 : FVec F S64 .f32) (main_arg17 : FVec F S64 .f32) (main_arg18 : FVec F S1 .f32) (main_arg19 : FVec F S1 .f32) (main_arg20 : FVec F S1 .f32) (main_arg22 : IVec S50000 32) (main_v63 : IVec S_ 1) (main_v67 : IVec S_ 1) : IVec S_ 1 :=
  let main_v68 : IVec S_ 1 := andi main_v63 main_v67
  let main_v69 : FVec F S64 .f32 := Host.absf main_arg14
  let main_cst_26 : FVec F S_ .f32 := constant S_ .f32 0x7F800000#32
  let main_v70 : FVec F S64 .f32 := broadcastInDim S64 ![] bcast_S_S64 main_cst_26
  let main_v71 : IVec S64 1 := cmpf .olt main_v69 main_v70
  let main_c_27 : IVec S_ 1 := constantI S_ 1 1#1
  let main_v72 : IVec S_ 1 := (fun x v => Host.reduce IntOp.andi x v reducesTo_S64_S_d0 h_S_) main_v71 main_c_27
  let main_v73 : IVec S_ 1 := andi main_v68 main_v72
  let main_v74 : FVec F S64 .f32 := Host.absf main_arg15
  let main_cst_28 : FVec F S_ .f32 := constant S_ .f32 0x7F800000#32
  let main_v75 : FVec F S64 .f32 := broadcastInDim S64 ![] bcast_S_S64 main_cst_28
  let main_v76 : IVec S64 1 := cmpf .olt main_v74 main_v75
  let main_c_29 : IVec S_ 1 := constantI S_ 1 1#1
  let main_v77 : IVec S_ 1 := (fun x v => Host.reduce IntOp.andi x v reducesTo_S64_S_d0 h_S_) main_v76 main_c_29
  let main_v78 : IVec S_ 1 := andi main_v73 main_v77
  let main_v79 : FVec F S64 .f32 := Host.absf main_arg16
  let main_cst_30 : FVec F S_ .f32 := constant S_ .f32 0x7F800000#32
  let main_v80 : FVec F S64 .f32 := broadcastInDim S64 ![] bcast_S_S64 main_cst_30
  let main_v81 : IVec S64 1 := cmpf .olt main_v79 main_v80
  let main_c_31 : IVec S_ 1 := constantI S_ 1 1#1
  let main_v82 : IVec S_ 1 := (fun x v => Host.reduce IntOp.andi x v reducesTo_S64_S_d0 h_S_) main_v81 main_c_31
  let main_v83 : IVec S_ 1 := andi main_v78 main_v82
  let main_v84 : FVec F S64 .f32 := Host.absf main_arg17
  let main_cst_32 : FVec F S_ .f32 := constant S_ .f32 0x7F800000#32
  fn_part5 (F := F) main_arg18 main_arg19 main_arg20 main_arg22 main_v83 main_v84 main_cst_32

def fn_part3 {F : FTy → Type} [FloatOps F] (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64 .f32) (main_arg18 : FVec F S1 .f32) (main_arg19 : FVec F S1 .f32) (main_arg20 : FVec F S1 .f32) (main_arg22 : IVec S50000 32) (main_v48 : IVec S_ 1) (main_v49 : FVec F S64x64 .f32) (main_v50 : FVec F S64x64 .f32) : IVec S_ 1 :=
  let main_v51 : IVec S64x64 1 := cmpf .olt main_v49 main_v50
  let main_c_19 : IVec S_ 1 := constantI S_ 1 1#1
  let main_v52 : IVec S_ 1 := (fun x v => Host.reduce IntOp.andi x v reducesTo_S64x64_S_d0_1 h_S_) main_v51 main_c_19
  let main_v53 : IVec S_ 1 := andi main_v48 main_v52
  let main_v54 : FVec F S64x64 .f32 := Host.absf main_arg11
  let main_cst_20 : FVec F S_ .f32 := constant S_ .f32 0x7F800000#32
  let main_v55 : FVec F S64x64 .f32 := broadcastInDim S64x64 ![] bcast_S_S64x64 main_cst_20
  let main_v56 : IVec S64x64 1 := cmpf .olt main_v54 main_v55
  let main_c_21 : IVec S_ 1 := constantI S_ 1 1#1
  let main_v57 : IVec S_ 1 := (fun x v => Host.reduce IntOp.andi x v reducesTo_S64x64_S_d0_1 h_S_) main_v56 main_c_21
  let main_v58 : IVec S_ 1 := andi main_v53 main_v57
  let main_v59 : FVec F S64 .f32 := Host.absf main_arg12
  let main_cst_22 : FVec F S_ .f32 := constant S_ .f32 0x7F800000#32
  let main_v60 : FVec F S64 .f32 := broadcastInDim S64 ![] bcast_S_S64 main_cst_22
  let main_v61 : IVec S64 1 := cmpf .olt main_v59 main_v60
  let main_c_23 : IVec S_ 1 := constantI S_ 1 1#1
  let main_v62 : IVec S_ 1 := (fun x v => Host.reduce IntOp.andi x v reducesTo_S64_S_d0 h_S_) main_v61 main_c_23
  let main_v63 : IVec S_ 1 := andi main_v58 main_v62
  let main_v64 : FVec F S64 .f32 := Host.absf main_arg13
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg14 main_arg15 main_arg16 main_arg17 main_arg18 main_arg19 main_arg20 main_arg22 main_v63 main_v67

def fn_part2 {F : FTy → Type} [FloatOps F] (main_arg7 : FVec F S64x64 .f32) (main_arg8 : FVec F S64 .f32) (main_arg9 : FVec F S64x64 .f32) (main_arg10 : FVec F S64x64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64 .f32) (main_arg18 : FVec F S1 .f32) (main_arg19 : FVec F S1 .f32) (main_arg20 : FVec F S1 .f32) (main_arg22 : IVec S50000 32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x64 .f32 := Host.absf main_arg9
  let main_cst_16 : FVec F S_ .f32 := constant S_ .f32 0x7F800000#32
  let main_v45 : FVec F S64x64 .f32 := broadcastInDim S64x64 ![] bcast_S_S64x64 main_cst_16
  let main_v46 : IVec S64x64 1 := cmpf .olt main_v44 main_v45
  let main_c_17 : IVec S_ 1 := constantI S_ 1 1#1
  let main_v47 : IVec S_ 1 := (fun x v => Host.reduce IntOp.andi x v reducesTo_S64x64_S_d0_1 h_S_) main_v46 main_c_17
  let main_v48 : IVec S_ 1 := andi main_v43 main_v47
  let main_v49 : FVec F S64x64 .f32 := Host.absf main_arg10
  let main_cst_18 : FVec F S_ .f32 := constant S_ .f32 0x7F800000#32
  let main_v50 : FVec F S64x64 .f32 := broadcastInDim S64x64 ![] bcast_S_S64x64 main_cst_18
  fn_part3 (F := F) main_arg11 main_arg12 main_arg13 main_arg14 main_arg15 main_arg16 main_arg17 main_arg18 main_arg19 main_arg20 main_arg22 main_v48 main_v49 main_v50

def fn_part1 {F : FTy → Type} [FloatOps F] (main_arg4 : FVec F S64x64 .f32) (main_arg5 : FVec F S64 .f32) (main_arg6 : FVec F S64x64 .f32) (main_arg7 : FVec F S64x64 .f32) (main_arg8 : FVec F S64 .f32) (main_arg9 : FVec F S64x64 .f32) (main_arg10 : FVec F S64x64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64 .f32) (main_arg18 : FVec F S1 .f32) (main_arg19 : FVec F S1 .f32) (main_arg20 : FVec F S1 .f32) (main_arg22 : IVec S50000 32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64x64 .f32 := Host.absf main_arg4
  let main_cst_6 : FVec F S_ .f32 := constant S_ .f32 0x7F800000#32
  let main_v20 : FVec F S64x64 .f32 := broadcastInDim S64x64 ![] bcast_S_S64x64 main_cst_6
  let main_v21 : IVec S64x64 1 := cmpf .olt main_v19 main_v20
  let main_c_7 : IVec S_ 1 := constantI S_ 1 1#1
  let main_v22 : IVec S_ 1 := (fun x v => Host.reduce IntOp.andi x v reducesTo_S64x64_S_d0_1 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64x64 .f32 := Host.absf main_arg6
  let main_cst_10 : FVec F S_ .f32 := constant S_ .f32 0x7F800000#32
  let main_v30 : FVec F S64x64 .f32 := broadcastInDim S64x64 ![] bcast_S_S64x64 main_cst_10
  let main_v31 : IVec S64x64 1 := cmpf .olt main_v29 main_v30
  let main_c_11 : IVec S_ 1 := constantI S_ 1 1#1
  let main_v32 : IVec S_ 1 := (fun x v => Host.reduce IntOp.andi x v reducesTo_S64x64_S_d0_1 h_S_) main_v31 main_c_11
  let main_v33 : IVec S_ 1 := andi main_v28 main_v32
  fn_part2 (F := F) main_arg7 main_arg8 main_arg9 main_arg10 main_arg11 main_arg12 main_arg13 main_arg14 main_arg15 main_arg16 main_arg17 main_arg18 main_arg19 main_arg20 main_arg22 main_v33

def fn {F : FTy → Type} [FloatOps F] (main_arg0 : FVec F S50000x64 .f32) (main_arg1 : FVec F S64x64 .f32) (main_arg2 : FVec F S64 .f32) (main_arg3 : FVec F S64x64 .f32) (main_arg4 : FVec F S64x64 .f32) (main_arg5 : FVec F S64 .f32) (main_arg6 : FVec F S64x64 .f32) (main_arg7 : FVec F S64x64 .f32) (main_arg8 : FVec F S64 .f32) (main_arg9 : FVec F S64x64 .f32) (main_arg10 : FVec F S64x64 .f32) (main_arg11 : FVec F S64x64 .f32) (main_arg12 : FVec F S64 .f32) (main_arg13 : FVec F S64 .f32) (main_arg14 : FVec F S64 .f32) (main_arg15 : FVec F S64 .f32) (main_arg16 : FVec F S64 .f32) (main_arg17 : FVec F S64 .f32) (main_arg18 : FVec F S1 .f32) (main_arg19 : FVec F S1 .f32) (main_arg20 : FVec F S1 .f32) (main_arg21 : IVec S2x800000 32) (main_arg22 : IVec S50000 32) : IVec S_ 1 :=
  let main_v0 : FVec F S50000x64 .f32 := Host.absf main_arg0
  let main_cst : FVec F S_ .f32 := constant S_ .f32 0x7F800000#32
  let main_v1 : FVec F S50000x64 .f32 := broadcastInDim S50000x64 ![] bcast_S_S50000x64 main_cst
  let main_v2 : IVec S50000x64 1 := cmpf .olt main_v0 main_v1
  let main_c : IVec S_ 1 := constantI S_ 1 1#1
  let main_v3 : IVec S_ 1 := (fun x v => Host.reduce IntOp.andi x v reducesTo_S50000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg2
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg3
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg4 main_arg5 main_arg6 main_arg7 main_arg8 main_arg9 main_arg10 main_arg11 main_arg12 main_arg13 main_arg14 main_arg15 main_arg16 main_arg17 main_arg18 main_arg19 main_arg20 main_arg22 main_v13 main_v16
-- ==== Kernel.lean ====
abbrev S50000x64 : Shape := ⟨2, ![50000, 64]⟩
abbrev S64x64 : Shape := ⟨2, ![64, 64]⟩
abbrev S64 : Shape := ⟨1, ![64]⟩
abbrev S1 : Shape := ⟨1, ![1]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S50000x1 : Shape := ⟨2, ![50000, 1]⟩
abbrev S_ : Shape := ⟨0, ![]⟩
abbrev S800000x1 : Shape := ⟨2, ![800000, 1]⟩
abbrev S128 : Shape := ⟨1, ![128]⟩
abbrev S800000x64 : Shape := ⟨2, ![800000, 64]⟩
abbrev S1x64 : Shape := ⟨2, ![1, 64]⟩
abbrev S2x128 : Shape := ⟨2, ![2, 128]⟩
abbrev S2000x64 : Shape := ⟨2, ![2000, 64]⟩
abbrev S2000x1 : Shape := ⟨2, ![2000, 1]⟩
abbrev S2000 : Shape := ⟨1, ![2000]⟩
abbrev S2000x128 : Shape := ⟨2, ![2000, 128]⟩
abbrev S1x128 : Shape := ⟨2, ![1, 128]⟩
abbrev S1x1 : Shape := ⟨2, ![1, 1]⟩

abbrev nBuf : Space → Nat
  | .hbm => 168
  | .vmem => 85
  | .smem => 0
  | _ => 0

abbrev hbmTy0_0 (i : Nat) : BufTy := match i % 128 with
  | 0 => ⟨S50000x64, .f32⟩
  | 1 => ⟨S64x64, .f32⟩
  | 2 => ⟨S64, .f32⟩
  | 3 => ⟨S64x64, .f32⟩
  | 4 => ⟨S64x64, .f32⟩
  | 5 => ⟨S64, .f32⟩
  | 6 => ⟨S64x64, .f32⟩
  | 7 => ⟨S64x64, .f32⟩
  | 8 => ⟨S64, .f32⟩
  | 9 => ⟨S64x64, .f32⟩
  | 10 => ⟨S64x64, .f32⟩
  | 11 => ⟨S64x64, .f32⟩
  | 12 => ⟨S64, .f32⟩
  | 13 => ⟨S64, .f32⟩
  | 14 => ⟨S64, .f32⟩
  | 15 => ⟨S64, .f32⟩
  | 16 => ⟨S64, .f32⟩
  | 17 => ⟨S64, .f32⟩
  | 18 => ⟨S1, .f32⟩
  | 19 => ⟨S1, .f32⟩
  | 20 => ⟨S1, .f32⟩
  | 21 => ⟨S2x800000, .i32⟩
  | 22 => ⟨S50000, .i32⟩
  | 23 => ⟨S1x800000, .i32⟩
  | 24 => ⟨S800000, .i32⟩
  | 25 => ⟨S1x800000, .i32⟩
  | 26 => ⟨S800000, .i32⟩
  | 27 => ⟨S50000x1, .i32⟩
  | 28 => ⟨S_, .f32⟩
  | 29 => ⟨S800000, .f32⟩
  | 30 => ⟨S_, .f32⟩
  | 31 => ⟨S50000, .f32⟩
  | 32 => ⟨S800000x1, .i32⟩
  | 33 => ⟨S50000, .f32⟩
  | 34 => ⟨S_, .f32⟩
  | 35 => ⟨S50000, .f32⟩
  | 36 => ⟨S50000, .f32⟩
  | 37 => ⟨S_, .f32⟩
  | 38 => ⟨S50000, .f32⟩
  | 39 => ⟨S50000, .f32⟩
  | 40 => ⟨S_, .f32⟩
  | 41 => ⟨S50000, .f32⟩
  | 42 => ⟨S_, .f32⟩
  | 43 => ⟨S128, .f32⟩
  | 44 => ⟨S50000x1, .i32⟩
  | 45 => ⟨S128, .f32⟩
  | 46 => ⟨S_, .f32⟩
  | 47 => ⟨S128, .f32⟩
  | 48 => ⟨S128, .f32⟩
  | 49 => ⟨S_, .f32⟩
  | 50 => ⟨S128, .f32⟩
  | 51 => ⟨S128, .f32⟩
  | 52 => ⟨S_, .f32⟩
  | 53 => ⟨S128, .f32⟩
  | 54 => ⟨S128, .f32⟩
  | 55 => ⟨S_, .i32⟩
  | 56 => ⟨S800000, .i32⟩
  | 57 => ⟨S800000, .i1⟩
  | 58 => ⟨S_, .i32⟩
  | 59 => ⟨S800000, .i32⟩
  | 60 => ⟨S800000, .i32⟩
  | 61 => ⟨S800000, .i32⟩
  | 62 => ⟨S800000x1, .i32⟩
  | 63 => ⟨S800000x64, .f32⟩
  | 64 => ⟨S_, .f32⟩
  | 65 => ⟨S50000x64, .f32⟩
  | 66 => ⟨S800000x1, .i32⟩
  | 67 => ⟨S50000x64, .f32⟩
  | 68 => ⟨S50000x1, .f32⟩
  | 69 => ⟨S50000x64, .f32⟩
  | 70 => ⟨S50000x64, .f32⟩
  | 71 => ⟨S1x64, .f32⟩
  | 72 => ⟨S50000x64, .f32⟩
  | 73 => ⟨S2x128, .f32⟩
  | 74 => ⟨S1x128, .f32⟩
  | 75 => ⟨S128, .f32⟩
  | 76 => ⟨S1x128, .f32⟩
  | 77 => ⟨S128, .f32⟩
  | 78 => ⟨S128, .f32⟩
  | 79 => ⟨S128, .f32⟩
  | 80 => ⟨S128, .f32⟩
  | 81 => ⟨S128, .f32⟩
  | 82 => ⟨S_, .f32⟩
  | 83 => ⟨S128, .f32⟩
  | 84 => ⟨S128, .f32⟩
  | 85 => ⟨S128, .f32⟩
  | 86 => ⟨S1x128, .f32⟩
  | 87 => ⟨S1x128, .f32⟩
  | 88 => ⟨S1x64, .f32⟩
  | 89 => ⟨S1x64, .f32⟩
  | 90 => ⟨S1x1, .f32⟩
  | 91 => ⟨S50000x64, .f32⟩
  | 92 => ⟨S50000x64, .f32⟩
  | 93 => ⟨S_, .i32⟩
  | 94 => ⟨S800000, .i32⟩
  | 95 => ⟨S800000, .i1⟩
  | 96 => ⟨S_, .i32⟩
  | 97 => ⟨S800000, .i32⟩
  | 98 => ⟨S800000, .i32⟩
  | 99 => ⟨S800000, .i32⟩
  | 100 => ⟨S800000x1, .i32⟩
  | 101 => ⟨S800000x64, .f32⟩
  | 102 => ⟨S_, .f32⟩
  | 103 => ⟨S50000x64, .f32⟩
  | 104 => ⟨S800000x1, .i32⟩
  | 105 => ⟨S50000x64, .f32⟩
  | 106 => ⟨S50000x1, .f32⟩
  | 107 => ⟨S50000x64, .f32⟩
  | 108 => ⟨S50000x64, .f32⟩
  | 109 => ⟨S1x64, .f32⟩
  | 110 => ⟨S50000x64, .f32⟩
  | 111 => ⟨S2x128, .f32⟩
  | 112 => ⟨S1x128, .f32⟩
  | 113 => ⟨S128, .f32⟩
  | 114 => ⟨S1x128, .f32⟩
  | 115 => ⟨S128, .f32⟩
  | 116 => ⟨S128, .f32⟩
  | 117 => ⟨S128, .f32⟩
  | 118 => ⟨S128, .f32⟩
  | 119 => ⟨S128, .f32⟩
  | 120 => ⟨S_, .f32⟩
  | 121 => ⟨S128, .f32⟩
  | 122 => ⟨S128, .f32⟩
  | 123 => ⟨S128, .f32⟩
  | 124 => ⟨S1x128, .f32⟩
  | 125 => ⟨S1x128, .f32⟩
  | 126 => ⟨S1x64, .f32⟩
  | 127 => ⟨S1x64, .f32⟩
  | _ => ⟨S50000x64, .f32⟩

abbrev hbmTy0_1 (i : Nat) : BufTy := match i % 128 with
  | 0 => ⟨S1x1, .f32⟩
  | 1 => ⟨S50000x64, .f32⟩
  | 2 => ⟨S50000x64, .f32⟩
  | 3 => ⟨S_, .i32⟩
  | 4 => ⟨S800000, .i32⟩
  | 5 => ⟨S800000, .i1⟩
  | 6 => ⟨S_, .i32⟩
  | 7 => ⟨S800000, .i32⟩
  | 8 => ⟨S800000, .i32⟩
  | 9 => ⟨S800000, .i32⟩
  | 10 => ⟨S800000x1, .i32⟩
  | 11 => ⟨S800000x64, .f32⟩
  | 12 => ⟨S_, .f32⟩
  | 13 => ⟨S50000x64, .f32⟩
  | 14 => ⟨S800000x1, .i32⟩
  | 15 => ⟨S50000x64, .f32⟩
  | 16 => ⟨S50000x1, .f32⟩
  | 17 => ⟨S50000x64, .f32⟩
  | 18 => ⟨S50000x64, .f32⟩
  | 19 => ⟨S1x64, .f32⟩
  | 20 => ⟨S50000x64, .f32⟩
  | 21 => ⟨S2x128, .f32⟩
  | 22 => ⟨S1x128, .f32⟩
  | 23 => ⟨S128, .f32⟩
  | 24 => ⟨S1x128, .f32⟩
  | 25 => ⟨S128, .f32⟩
  | 26 => ⟨S128, .f32⟩
  | 27 => ⟨S128, .f32⟩
  | 28 => ⟨S128, .f32⟩
  | 29 => ⟨S128, .f32⟩
  | 30 => ⟨S_, .f32⟩
  | 31 => ⟨S128, .f32⟩
  | 32 => ⟨S128, .f32⟩
  | 33 => ⟨S128, .f32⟩
  | 34 => ⟨S1x128, .f32⟩
  | 35 => ⟨S1x128, .f32⟩
  | 36 => ⟨S1x64, .f32⟩
  | 37 => ⟨S1x64, .f32⟩
  | 38 => ⟨S1x1, .f32⟩
  | 39 => ⟨S50000x64, .f32⟩
  | _ => ⟨S50000x64, .f32⟩

abbrev hbmTy (i : Nat) : BufTy := match i / 128 with
  | 0 => hbmTy0_0 i
  | 1 => hbmTy0_1 i
  | _ => ⟨S50000x64, .f32⟩

abbrev bufTy : (tb : Table) → Fin (tcTables nBuf tb) → BufTy
  | .hbm, ⟨i, _⟩ => hbmTy i
  | .local _ .vmem, ⟨0, _⟩ => ⟨S2000x64, .f32⟩
  | .local _ .vmem, ⟨1, _⟩ => ⟨S2000x64, .f32⟩
  | .local _ .vmem, ⟨2, _⟩ => ⟨S2000x64, .f32⟩
  | .local _ .vmem, ⟨3, _⟩ => ⟨S2000x64, .f32⟩
  | .local _ .vmem, ⟨4, _⟩ => ⟨S64x64, .f32⟩
  | .local _ .vmem, ⟨5, _⟩ => ⟨S1x64, .f32⟩
  | .local _ .vmem, ⟨6, _⟩ => ⟨S64x64, .f32⟩
  | .local _ .vmem, ⟨7, _⟩ => ⟨S2000x1, .i32⟩
  | .local _ .vmem, ⟨8, _⟩ => ⟨S2000x1, .i32⟩
  | .local _ .vmem, ⟨9, _⟩ => ⟨S2000x64, .f32⟩
  | .local _ .vmem, ⟨10, _⟩ => ⟨S2000x64, .f32⟩
  | .local _ .vmem, ⟨11, _⟩ => ⟨S2x128, .f32⟩
  | .local _ .vmem, ⟨12, _⟩ => ⟨S2000x64, .f32⟩
  | .local _ .vmem, ⟨13, _⟩ => ⟨S2000x64, .f32⟩
  | .local _ .vmem, ⟨14, _⟩ => ⟨S1x128, .f32⟩
  | .local _ .vmem, ⟨15, _⟩ => ⟨S1x128, .f32⟩
  | .local _ .vmem, ⟨16, _⟩ => ⟨S2000x1, .i32⟩
  | .local _ .vmem, ⟨17, _⟩ => ⟨S2000x1, .i32⟩
  | .local _ .vmem, ⟨18, _⟩ => ⟨S1x64, .f32⟩
  | .local _ .vmem, ⟨19, _⟩ => ⟨S1x64, .f32⟩
  | .local _ .vmem, ⟨20, _⟩ => ⟨S1x1, .f32⟩
  | .local _ .vmem, ⟨21, _⟩ => ⟨S2000x64, .f32⟩
  | .local _ .vmem, ⟨22, _⟩ => ⟨S2000x64, .f32⟩
  | .local _ .vmem, ⟨23, _⟩ => ⟨S2000x64, .f32⟩
  | .local _ .vmem, ⟨24, _⟩ => ⟨S2000x64, .f32⟩
  | .local _ .vmem, ⟨25, _⟩ => ⟨S2000x64, .f32⟩
  | .local _ .vmem, ⟨26, _⟩ => ⟨S2000x64, .f32⟩
  | .local _ .vmem, ⟨27, _⟩ => ⟨S64x64, .f32⟩
  | .local _ .vmem, ⟨28, _⟩ => ⟨S2000x64, .f32⟩
  | .local _ .vmem, ⟨29, _⟩ => ⟨S2000x64, .f32⟩
  | .local _ .vmem, ⟨30, _⟩ => ⟨S2000x64, .f32⟩
  | .local _ .vmem, ⟨31, _⟩ => ⟨S2000x64, .f32⟩
  | .local _ .vmem, ⟨32, _⟩ => ⟨S2000x64, .f32⟩
  | .local _ .vmem, ⟨33, _⟩ => ⟨S2000x64, .f32⟩
  | .local _ .vmem, ⟨34, _⟩ => ⟨S64x64, .f32⟩
  | .local _ .vmem, ⟨35, _⟩ => ⟨S1x64, .f32⟩
  | .local _ .vmem, ⟨36, _⟩ => ⟨S64x64, .f32⟩
  | .local _ .vmem, ⟨37, _⟩ => ⟨S2000x1, .i32⟩
  | .local _ .vmem, ⟨38, _⟩ => ⟨S2000x1, .i32⟩
  | .local _ .vmem, ⟨39, _⟩ => ⟨S2000x64, .f32⟩
  | .local _ .vmem, ⟨40, _⟩ => ⟨S2000x64, .f32⟩
  | .local _ .vmem, ⟨41, _⟩ => ⟨S2x128, .f32⟩
  | .local _ .vmem, ⟨42, _⟩ => ⟨S2000x64, .f32⟩
  | .local _ .vmem, ⟨43, _⟩ => ⟨S2000x64, .f32⟩
  | .local _ .vmem, ⟨44, _⟩ => ⟨S1x128, .f32⟩
  | .local _ .vmem, ⟨45, _⟩ => ⟨S1x128, .f32⟩
  | .local _ .vmem, ⟨46, _⟩ => ⟨S2000x1, .i32⟩
  | .local _ .vmem, ⟨47, _⟩ => ⟨S2000x1, .i32⟩
  | .local _ .vmem, ⟨48, _⟩ => ⟨S1x64, .f32⟩
  | .local _ .vmem, ⟨49, _⟩ => ⟨S1x64, .f32⟩
  | .local _ .vmem, ⟨50, _⟩ => ⟨S1x1, .f32⟩
  | .local _ .vmem, ⟨51, _⟩ => ⟨S2000x64, .f32⟩
  | .local _ .vmem, ⟨52, _⟩ => ⟨S2000x64, .f32⟩
  | .local _ .vmem, ⟨53, _⟩ => ⟨S2000x64, .f32⟩
  | .local _ .vmem, ⟨54, _⟩ => ⟨S2000x64, .f32⟩
  | .local _ .vmem, ⟨55, _⟩ => ⟨S2000x64, .f32⟩
  | .local _ .vmem, ⟨56, _⟩ => ⟨S2000x64, .f32⟩
  | .local _ .vmem, ⟨57, _⟩ => ⟨S2000x64, .f32⟩
  | .local _ .vmem, ⟨58, _⟩ => ⟨S2000x64, .f32⟩
  | .local _ .vmem, ⟨59, _⟩ => ⟨S64x64, .f32⟩
  | .local _ .vmem, ⟨60, _⟩ => ⟨S2000x64, .f32⟩
  | .local _ .vmem, ⟨61, _⟩ => ⟨S2000x64, .f32⟩
  | .local _ .vmem, ⟨62, _⟩ => ⟨S2000x64, .f32⟩
  | .local _ .vmem, ⟨63, _⟩ => ⟨S2000x64, .f32⟩
  | .local _ .vmem, ⟨64, _⟩ => ⟨S2000x64, .f32⟩
  | .local _ .vmem, ⟨65, _⟩ => ⟨S2000x64, .f32⟩
  | .local _ .vmem, ⟨66, _⟩ => ⟨S64x64, .f32⟩
  | .local _ .vmem, ⟨67, _⟩ => ⟨S1x64, .f32⟩
  | .local _ .vmem, ⟨68, _⟩ => ⟨S64x64, .f32⟩
  | .local _ .vmem, ⟨69, _⟩ => ⟨S2000x1, .i32⟩
  | .local _ .vmem, ⟨70, _⟩ => ⟨S2000x1, .i32⟩
  | .local _ .vmem, ⟨71, _⟩ => ⟨S2000x64, .f32⟩
  | .local _ .vmem, ⟨72, _⟩ => ⟨S2000x64, .f32⟩
  | .local _ .vmem, ⟨73, _⟩ => ⟨S2x128, .f32⟩
  | .local _ .vmem, ⟨74, _⟩ => ⟨S2000x64, .f32⟩
  | .local _ .vmem, ⟨75, _⟩ => ⟨S2000x64, .f32⟩
  | .local _ .vmem, ⟨76, _⟩ => ⟨S1x128, .f32⟩
  | .local _ .vmem, ⟨77, _⟩ => ⟨S1x128, .f32⟩
  | .local _ .vmem, ⟨78, _⟩ => ⟨S2000x1, .i32⟩
  | .local _ .vmem, ⟨79, _⟩ => ⟨S2000x1, .i32⟩
  | .local _ .vmem, ⟨80, _⟩ => ⟨S1x64, .f32⟩
  | .local _ .vmem, ⟨81, _⟩ => ⟨S1x64, .f32⟩
  | .local _ .vmem, ⟨82, _⟩ => ⟨S1x1, .f32⟩
  | .local _ .vmem, ⟨83, _⟩ => ⟨S2000x64, .f32⟩
  | .local _ .vmem, ⟨84, _⟩ => ⟨S2000x64, .f32⟩
  | _, _ => ⟨S50000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | .vmem, ⟨47, _⟩ => true
  | .vmem, ⟨48, _⟩ => true
  | .vmem, ⟨49, _⟩ => true
  | .vmem, ⟨50, _⟩ => true
  | .vmem, ⟨51, _⟩ => true
  | .vmem, ⟨52, _⟩ => true
  | .vmem, ⟨53, _⟩ => true
  | .vmem, ⟨54, _⟩ => true
  | .vmem, ⟨55, _⟩ => true
  | .vmem, ⟨56, _⟩ => true
  | .vmem, ⟨57, _⟩ => true
  | .vmem, ⟨58, _⟩ => true
  | .vmem, ⟨59, _⟩ => true
  | .vmem, ⟨60, _⟩ => true
  | .vmem, ⟨61, _⟩ => true
  | .vmem, ⟨62, _⟩ => true
  | .vmem, ⟨63, _⟩ => true
  | .vmem, ⟨64, _⟩ => true
  | .vmem, ⟨65, _⟩ => true
  | .vmem, ⟨66, _⟩ => true
  | .vmem, ⟨67, _⟩ => true
  | .vmem, ⟨68, _⟩ => true
  | .vmem, ⟨69, _⟩ => true
  | .vmem, ⟨70, _⟩ => true
  | .vmem, ⟨71, _⟩ => true
  | .vmem, ⟨72, _⟩ => true
  | .vmem, ⟨73, _⟩ => true
  | .vmem, ⟨74, _⟩ => true
  | .vmem, ⟨75, _⟩ => true
  | .vmem, ⟨76, _⟩ => true
  | .vmem, ⟨77, _⟩ => true
  | .vmem, ⟨78, _⟩ => true
  | .vmem, ⟨79, _⟩ => true
  | .vmem, ⟨80, _⟩ => true
  | .vmem, ⟨81, _⟩ => true
  | .vmem, ⟨82, _⟩ => true
  | .vmem, ⟨83, _⟩ => true
  | .vmem, ⟨84, _⟩ => true
  | _, _ => false

abbrev semScoped : Fin 0 → Bool
  | ⟨_, h⟩ => absurd h (Nat.not_lt_zero _)

abbrev dmaSemScoped : Fin 85 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | ⟨47, _⟩ => true
  | ⟨48, _⟩ => true
  | ⟨49, _⟩ => true
  | ⟨50, _⟩ => true
  | ⟨51, _⟩ => true
  | ⟨52, _⟩ => true
  | ⟨53, _⟩ => true
  | ⟨54, _⟩ => true
  | ⟨55, _⟩ => true
  | ⟨56, _⟩ => true
  | ⟨57, _⟩ => true
  | ⟨58, _⟩ => true
  | ⟨59, _⟩ => true
  | ⟨60, _⟩ => true
  | ⟨61, _⟩ => true
  | ⟨62, _⟩ => true
  | ⟨63, _⟩ => true
  | ⟨64, _⟩ => true
  | ⟨65, _⟩ => true
  | ⟨66, _⟩ => true
  | ⟨67, _⟩ => true
  | ⟨68, _⟩ => true
  | ⟨69, _⟩ => true
  | ⟨70, _⟩ => true
  | ⟨71, _⟩ => true
  | ⟨72, _⟩ => true
  | ⟨73, _⟩ => true
  | ⟨74, _⟩ => true
  | ⟨75, _⟩ => true
  | ⟨76, _⟩ => true
  | ⟨77, _⟩ => true
  | ⟨78, _⟩ => true
  | ⟨79, _⟩ => true
  | ⟨80, _⟩ => true
  | ⟨81, _⟩ => true
  | ⟨82, _⟩ => true
  | ⟨83, _⟩ => true
  | ⟨84, _⟩ => true
  | _ => false

abbrev sig : RefSig :=
  ofTc nBuf bufTy 0 85 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_v4 : Ref sig .tc := ⟨.hbm, 27, rfl⟩
abbrev main_cst : Ref sig .tc := ⟨.hbm, 28, rfl⟩
abbrev main_v5 : Ref sig .tc := ⟨.hbm, 29, rfl⟩
abbrev main_cst_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_cst_1 : Ref sig .tc := ⟨.hbm, 34, rfl⟩
abbrev main_v9 : Ref sig .tc := ⟨.hbm, 35, rfl⟩
abbrev main_v10 : Ref sig .tc := ⟨.hbm, 36, rfl⟩
abbrev main_cst_2 : Ref sig .tc := ⟨.hbm, 37, rfl⟩
abbrev main_v11 : Ref sig .tc := ⟨.hbm, 38, rfl⟩
abbrev main_v12 : Ref sig .tc := ⟨.hbm, 39, rfl⟩
abbrev main_cst_3 : Ref sig .tc := ⟨.hbm, 40, rfl⟩
abbrev main_v13 : Ref sig .tc := ⟨.hbm, 41, rfl⟩
abbrev main_cst_4 : Ref sig .tc := ⟨.hbm, 42, rfl⟩
abbrev main_v14 : Ref sig .tc := ⟨.hbm, 43, rfl⟩
abbrev main_v15 : Ref sig .tc := ⟨.hbm, 44, rfl⟩
abbrev main_v16 : Ref sig .tc := ⟨.hbm, 45, rfl⟩
abbrev main_cst_5 : Ref sig .tc := ⟨.hbm, 46, rfl⟩
abbrev main_v17 : Ref sig .tc := ⟨.hbm, 47, rfl⟩
abbrev main_v18 : Ref sig .tc := ⟨.hbm, 48, rfl⟩
abbrev main_cst_6 : Ref sig .tc := ⟨.hbm, 49, rfl⟩
abbrev main_v19 : Ref sig .tc := ⟨.hbm, 50, rfl⟩
abbrev main_v20 : Ref sig .tc := ⟨.hbm, 51, rfl⟩
abbrev main_cst_7 : Ref sig .tc := ⟨.hbm, 52, rfl⟩
abbrev main_v21 : Ref sig .tc := ⟨.hbm, 53, rfl⟩
abbrev main_v22 : Ref sig .tc := ⟨.hbm, 54, rfl⟩
abbrev main_c : Ref sig .tc := ⟨.hbm, 55, rfl⟩
abbrev main_v23 : Ref sig .tc := ⟨.hbm, 56, rfl⟩
abbrev main_v24 : Ref sig .tc := ⟨.hbm, 57, rfl⟩
abbrev main_c_8 : Ref sig .tc := ⟨.hbm, 58, rfl⟩
abbrev main_v25 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_v29 : Ref sig .tc := ⟨.hbm, 63, rfl⟩
abbrev main_cst_9 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37_0 : Ref sig .tc := ⟨.hbm, 72, rfl⟩
abbrev main_v37_1 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_cst_10 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_v54 : Ref sig .tc := ⟨.hbm, 91, rfl⟩
abbrev main_v55 : Ref sig .tc := ⟨.hbm, 92, rfl⟩
abbrev main_c_11 : Ref sig .tc := ⟨.hbm, 93, rfl⟩
abbrev main_v56 : Ref sig .tc := ⟨.hbm, 94, rfl⟩
abbrev main_v57 : Ref sig .tc := ⟨.hbm, 95, rfl⟩
abbrev main_c_12 : Ref sig .tc := ⟨.hbm, 96, rfl⟩
abbrev main_v58 : Ref sig .tc := ⟨.hbm, 97, rfl⟩
abbrev main_v59 : Ref sig .tc := ⟨.hbm, 98, rfl⟩
abbrev main_v60 : Ref sig .tc := ⟨.hbm, 99, rfl⟩
abbrev main_v61 : Ref sig .tc := ⟨.hbm, 100, rfl⟩
abbrev main_v62 : Ref sig .tc := ⟨.hbm, 101, rfl⟩
abbrev main_cst_13 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70_0 : Ref sig .tc := ⟨.hbm, 110, rfl⟩
abbrev main_v70_1 : Ref sig .tc := ⟨.hbm, 111, rfl⟩
abbrev main_v71 : Ref sig .tc := ⟨.hbm, 112, rfl⟩
abbrev main_v72 : Ref sig .tc := ⟨.hbm, 113, rfl⟩
abbrev main_v73 : Ref sig .tc := ⟨.hbm, 114, rfl⟩
abbrev main_v74 : Ref sig .tc := ⟨.hbm, 115, rfl⟩
abbrev main_v75 : Ref sig .tc := ⟨.hbm, 116, rfl⟩
abbrev main_v76 : Ref sig .tc := ⟨.hbm, 117, rfl⟩
abbrev main_v77 : Ref sig .tc := ⟨.hbm, 118, rfl⟩
abbrev main_v78 : Ref sig .tc := ⟨.hbm, 119, rfl⟩
abbrev main_cst_14 : Ref sig .tc := ⟨.hbm, 120, rfl⟩
abbrev main_v79 : Ref sig .tc := ⟨.hbm, 121, rfl⟩
abbrev main_v80 : Ref sig .tc := ⟨.hbm, 122, rfl⟩
abbrev main_v81 : Ref sig .tc := ⟨.hbm, 123, rfl⟩
abbrev main_v82 : Ref sig .tc := ⟨.hbm, 124, rfl⟩
abbrev main_v83 : Ref sig .tc := ⟨.hbm, 125, rfl⟩
abbrev main_v84 : Ref sig .tc := ⟨.hbm, 126, rfl⟩
abbrev main_v85 : Ref sig .tc := ⟨.hbm, 127, rfl⟩
abbrev main_v86 : Ref sig .tc := ⟨.hbm, 128, rfl⟩
abbrev main_v87 : Ref sig .tc := ⟨.hbm, 129, rfl⟩
abbrev main_v88 : Ref sig .tc := ⟨.hbm, 130, rfl⟩
abbrev main_c_15 : Ref sig .tc := ⟨.hbm, 131, rfl⟩
abbrev main_v89 : Ref sig .tc := ⟨.hbm, 132, rfl⟩
abbrev main_v90 : Ref sig .tc := ⟨.hbm, 133, rfl⟩
abbrev main_c_16 : Ref sig .tc := ⟨.hbm, 134, rfl⟩
abbrev main_v91 : Ref sig .tc := ⟨.hbm, 135, rfl⟩
abbrev main_v92 : Ref sig .tc := ⟨.hbm, 136, rfl⟩
abbrev main_v93 : Ref sig .tc := ⟨.hbm, 137, rfl⟩
abbrev main_v94 : Ref sig .tc := ⟨.hbm, 138, rfl⟩
abbrev main_v95 : Ref sig .tc := ⟨.hbm, 139, rfl⟩
abbrev main_cst_17 : Ref sig .tc := ⟨.hbm, 140, rfl⟩
abbrev main_v96 : Ref sig .tc := ⟨.hbm, 141, rfl⟩
abbrev main_v97 : Ref sig .tc := ⟨.hbm, 142, rfl⟩
abbrev main_v98 : Ref sig .tc := ⟨.hbm, 143, rfl⟩
abbrev main_v99 : Ref sig .tc := ⟨.hbm, 144, rfl⟩
abbrev main_v100 : Ref sig .tc := ⟨.hbm, 145, rfl⟩
abbrev main_v101 : Ref sig .tc := ⟨.hbm, 146, rfl⟩
abbrev main_v102 : Ref sig .tc := ⟨.hbm, 147, rfl⟩
abbrev main_v103_0 : Ref sig .tc := ⟨.hbm, 148, rfl⟩
abbrev main_v103_1 : Ref sig .tc := ⟨.hbm, 149, rfl⟩
abbrev main_v104 : Ref sig .tc := ⟨.hbm, 150, rfl⟩
abbrev main_v105 : Ref sig .tc := ⟨.hbm, 151, rfl⟩
abbrev main_v106 : Ref sig .tc := ⟨.hbm, 152, rfl⟩
abbrev main_v107 : Ref sig .tc := ⟨.hbm, 153, rfl⟩
abbrev main_v108 : Ref sig .tc := ⟨.hbm, 154, rfl⟩
abbrev main_v109 : Ref sig .tc := ⟨.hbm, 155, rfl⟩
abbrev main_v110 : Ref sig .tc := ⟨.hbm, 156, rfl⟩
abbrev main_v111 : Ref sig .tc := ⟨.hbm, 157, rfl⟩
abbrev main_cst_18 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg3_1 : Ref sig .tc := ⟨.vmem, 17, rfl⟩
abbrev cc1_stg4_0 : Ref sig .tc := ⟨.vmem, 18, rfl⟩
abbrev cc1_stg5_0 : Ref sig .tc := ⟨.vmem, 19, rfl⟩
abbrev cc1_stg6_0 : Ref sig .tc := ⟨.vmem, 20, rfl⟩
abbrev cc1_stg7_0 : Ref sig .tc := ⟨.vmem, 21, rfl⟩
abbrev cc1_stg7_1 : Ref sig .tc := ⟨.vmem, 22, rfl⟩
abbrev cc2_stg0_0 : Ref sig .tc := ⟨.vmem, 23, rfl⟩
abbrev cc2_stg0_1 : Ref sig .tc := ⟨.vmem, 24, rfl⟩
abbrev cc2_stg1_0 : Ref sig .tc := ⟨.vmem, 25, rfl⟩
abbrev cc2_stg1_1 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg3_1 : Ref sig .tc := ⟨.vmem, 29, rfl⟩
abbrev cc3_stg0_0 : Ref sig .tc := ⟨.vmem, 30, rfl⟩
abbrev cc3_stg0_1 : Ref sig .tc := ⟨.vmem, 31, rfl⟩
abbrev cc3_stg1_0 : Ref sig .tc := ⟨.vmem, 32, rfl⟩
abbrev cc3_stg1_1 : Ref sig .tc := ⟨.vmem, 33, rfl⟩
abbrev cc3_stg2_0 : Ref sig .tc := ⟨.vmem, 34, rfl⟩
abbrev cc3_stg3_0 : Ref sig .tc := ⟨.vmem, 35, rfl⟩
abbrev cc3_stg4_0 : Ref sig .tc := ⟨.vmem, 36, rfl⟩
abbrev cc3_stg5_0 : Ref sig .tc := ⟨.vmem, 37, rfl⟩
abbrev cc3_stg5_1 : Ref sig .tc := ⟨.vmem, 38, rfl⟩
abbrev cc3_stg6_0 : Ref sig .tc := ⟨.vmem, 39, rfl⟩
abbrev cc3_stg6_1 : Ref sig .tc := ⟨.vmem, 40, rfl⟩
abbrev cc3_stg7_0 : Ref sig .tc := ⟨.vmem, 41, rfl⟩
abbrev cc4_stg0_0 : Ref sig .tc := ⟨.vmem, 42, rfl⟩
abbrev cc4_stg0_1 : Ref sig .tc := ⟨.vmem, 43, rfl⟩
abbrev cc4_stg1_0 : Ref sig .tc := ⟨.vmem, 44, rfl⟩
abbrev cc4_stg2_0 : Ref sig .tc := ⟨.vmem, 45, rfl⟩
abbrev cc4_stg3_0 : Ref sig .tc := ⟨.vmem, 46, rfl⟩
abbrev cc4_stg3_1 : Ref sig .tc := ⟨.vmem, 47, rfl⟩
abbrev cc4_stg4_0 : Ref sig .tc := ⟨.vmem, 48, rfl⟩
abbrev cc4_stg5_0 : Ref sig .tc := ⟨.vmem, 49, rfl⟩
abbrev cc4_stg6_0 : Ref sig .tc := ⟨.vmem, 50, rfl⟩
abbrev cc4_stg7_0 : Ref sig .tc := ⟨.vmem, 51, rfl⟩
abbrev cc4_stg7_1 : Ref sig .tc := ⟨.vmem, 52, rfl⟩
abbrev cc5_stg0_0 : Ref sig .tc := ⟨.vmem, 53, rfl⟩
abbrev cc5_stg0_1 : Ref sig .tc := ⟨.vmem, 54, rfl⟩
abbrev cc5_stg1_0 : Ref sig .tc := ⟨.vmem, 55, rfl⟩
abbrev cc5_stg1_1 : Ref sig .tc := ⟨.vmem, 56, rfl⟩
abbrev cc5_stg2_0 : Ref sig .tc := ⟨.vmem, 57, rfl⟩
abbrev cc5_stg2_1 : Ref sig .tc := ⟨.vmem, 58, rfl⟩
abbrev cc5_stg3_0 : Ref sig .tc := ⟨.vmem, 59, rfl⟩
abbrev cc5_stg4_0 : Ref sig .tc := ⟨.vmem, 60, rfl⟩
abbrev cc5_stg4_1 : Ref sig .tc := ⟨.vmem, 61, rfl⟩
abbrev cc6_stg0_0 : Ref sig .tc := ⟨.vmem, 62, rfl⟩
abbrev cc6_stg0_1 : Ref sig .tc := ⟨.vmem, 63, rfl⟩
abbrev cc6_stg1_0 : Ref sig .tc := ⟨.vmem, 64, rfl⟩
abbrev cc6_stg1_1 : Ref sig .tc := ⟨.vmem, 65, rfl⟩
abbrev cc6_stg2_0 : Ref sig .tc := ⟨.vmem, 66, rfl⟩
abbrev cc6_stg3_0 : Ref sig .tc := ⟨.vmem, 67, rfl⟩
abbrev cc6_stg4_0 : Ref sig .tc := ⟨.vmem, 68, rfl⟩
abbrev cc6_stg5_0 : Ref sig .tc := ⟨.vmem, 69, rfl⟩
abbrev cc6_stg5_1 : Ref sig .tc := ⟨.vmem, 70, rfl⟩
abbrev cc6_stg6_0 : Ref sig .tc := ⟨.vmem, 71, rfl⟩
abbrev cc6_stg6_1 : Ref sig .tc := ⟨.vmem, 72, rfl⟩
abbrev cc6_stg7_0 : Ref sig .tc := ⟨.vmem, 73, rfl⟩
abbrev cc7_stg0_0 : Ref sig .tc := ⟨.vmem, 74, rfl⟩
abbrev cc7_stg0_1 : Ref sig .tc := ⟨.vmem, 75, rfl⟩
abbrev cc7_stg1_0 : Ref sig .tc := ⟨.vmem, 76, rfl⟩
abbrev cc7_stg2_0 : Ref sig .tc := ⟨.vmem, 77, rfl⟩
abbrev cc7_stg3_0 : Ref sig .tc := ⟨.vmem, 78, rfl⟩
abbrev cc7_stg3_1 : Ref sig .tc := ⟨.vmem, 79, rfl⟩
abbrev cc7_stg4_0 : Ref sig .tc := ⟨.vmem, 80, rfl⟩
abbrev cc7_stg5_0 : Ref sig .tc := ⟨.vmem, 81, rfl⟩
abbrev cc7_stg6_0 : Ref sig .tc := ⟨.vmem, 82, rfl⟩
abbrev cc7_stg7_0 : Ref sig .tc := ⟨.vmem, 83, rfl⟩
abbrev cc7_stg7_1 : Ref sig .tc := ⟨.vmem, 84, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc1_sem0_0 : DmaSem sig := 12
abbrev cc1_sem0_1 : DmaSem sig := 13
abbrev cc1_sem1_0 : DmaSem sig := 14
abbrev cc1_sem2_0 : DmaSem sig := 15
abbrev cc1_sem3_0 : DmaSem sig := 16
abbrev cc1_sem3_1 : DmaSem sig := 17
abbrev cc1_sem4_0 : DmaSem sig := 18
abbrev cc1_sem5_0 : DmaSem sig := 19
abbrev cc1_sem6_0 : DmaSem sig := 20
abbrev cc1_sem7_0 : DmaSem sig := 21
abbrev cc1_sem7_1 : DmaSem sig := 22
abbrev cc2_sem0_0 : DmaSem sig := 23
abbrev cc2_sem0_1 : DmaSem sig := 24
abbrev cc2_sem1_0 : DmaSem sig := 25
abbrev cc2_sem1_1 : DmaSem sig := 26
abbrev cc2_sem2_0 : DmaSem sig := 27
abbrev cc2_sem3_0 : DmaSem sig := 28
abbrev cc2_sem3_1 : DmaSem sig := 29
abbrev cc3_sem0_0 : DmaSem sig := 30
abbrev cc3_sem0_1 : DmaSem sig := 31
abbrev cc3_sem1_0 : DmaSem sig := 32
abbrev cc3_sem1_1 : DmaSem sig := 33
abbrev cc3_sem2_0 : DmaSem sig := 34
abbrev cc3_sem3_0 : DmaSem sig := 35
abbrev cc3_sem4_0 : DmaSem sig := 36
abbrev cc3_sem5_0 : DmaSem sig := 37
abbrev cc3_sem5_1 : DmaSem sig := 38
abbrev cc3_sem6_0 : DmaSem sig := 39
abbrev cc3_sem6_1 : DmaSem sig := 40
abbrev cc3_sem7_0 : DmaSem sig := 41
abbrev cc4_sem0_0 : DmaSem sig := 42
abbrev cc4_sem0_1 : DmaSem sig := 43
abbrev cc4_sem1_0 : DmaSem sig := 44
abbrev cc4_sem2_0 : DmaSem sig := 45
abbrev cc4_sem3_0 : DmaSem sig := 46
abbrev cc4_sem3_1 : DmaSem sig := 47
abbrev cc4_sem4_0 : DmaSem sig := 48
abbrev cc4_sem5_0 : DmaSem sig := 49
abbrev cc4_sem6_0 : DmaSem sig := 50
abbrev cc4_sem7_0 : DmaSem sig := 51
abbrev cc4_sem7_1 : DmaSem sig := 52
abbrev cc5_sem0_0 : DmaSem sig := 53
abbrev cc5_sem0_1 : DmaSem sig := 54
abbrev cc5_sem1_0 : DmaSem sig := 55
abbrev cc5_sem1_1 : DmaSem sig := 56
abbrev cc5_sem2_0 : DmaSem sig := 57
abbrev cc5_sem2_1 : DmaSem sig := 58
abbrev cc5_sem3_0 : DmaSem sig := 59
abbrev cc5_sem4_0 : DmaSem sig := 60
abbrev cc5_sem4_1 : DmaSem sig := 61
abbrev cc6_sem0_0 : DmaSem sig := 62
abbrev cc6_sem0_1 : DmaSem sig := 63
abbrev cc6_sem1_0 : DmaSem sig := 64
abbrev cc6_sem1_1 : DmaSem sig := 65
abbrev cc6_sem2_0 : DmaSem sig := 66
abbrev cc6_sem3_0 : DmaSem sig := 67
abbrev cc6_sem4_0 : DmaSem sig := 68
abbrev cc6_sem5_0 : DmaSem sig := 69
abbrev cc6_sem5_1 : DmaSem sig := 70
abbrev cc6_sem6_0 : DmaSem sig := 71
abbrev cc6_sem6_1 : DmaSem sig := 72
abbrev cc6_sem7_0 : DmaSem sig := 73
abbrev cc7_sem0_0 : DmaSem sig := 74
abbrev cc7_sem0_1 : DmaSem sig := 75
abbrev cc7_sem1_0 : DmaSem sig := 76
abbrev cc7_sem2_0 : DmaSem sig := 77
abbrev cc7_sem3_0 : DmaSem sig := 78
abbrev cc7_sem3_1 : DmaSem sig := 79
abbrev cc7_sem4_0 : DmaSem sig := 80
abbrev cc7_sem5_0 : DmaSem sig := 81
abbrev cc7_sem6_0 : DmaSem sig := 82
abbrev cc7_sem7_0 : DmaSem sig := 83
abbrev cc7_sem7_1 : DmaSem sig := 84

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S64x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S64x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x1 .i32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S2x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S2000x1 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S1x64 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x64 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x1 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x64 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x64 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![25], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_5 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_6 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_7 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage3_0 : Fin 2 → Memref sig .tc .vmem S2000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S2000x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 1 → Memref sig .tc .vmem S64x64 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S1x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S64x64 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S2000x1 .i32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]

abbrev stage3_6 : Fin 2 → Memref sig .tc .vmem S2000x64 .f32 := fun | 0 => Memref.whole cc3_stg6_0 | 1 => Memref.whole cc3_stg6_1 | ⟨_ + 2, h⟩ => absurd h (Nat.not_lt.2 (Nat.le_add_left _ _))
abbrev sem3_6 : Fin 2 → DmaSem sig := fun | 0 => cc3_sem6_0 | 1 => cc3_sem6_1 | ⟨_ + 2, h⟩ => absurd h (Nat.not_lt.2 (Nat.le_add_left _ _))
abbrev reads3_6 : Fin grid3.rank → Bool := ![true]

abbrev stage3_7 : Fin 1 → Memref sig .tc .vmem S2x128 .f32 := fun | 0 => Memref.whole cc3_stg7_0 | ⟨_ + 1, h⟩ => absurd h (Nat.not_lt.2 (Nat.le_add_left _ _))
abbrev sem3_7 : Fin 1 → DmaSem sig := fun | 0 => cc3_sem7_0 | ⟨_ + 1, h⟩ => absurd h (Nat.not_lt.2 (Nat.le_add_left _ _))
abbrev reads3_7 : Fin grid3.rank → Bool := ![false]

abbrev grid4 : Pipeline.Grid := ⟨1, ![25], ![false]⟩

def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_5 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_7 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage4_0 : Fin 2 → Memref sig .tc .vmem S2000x64 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S1x128 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S1x128 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S2000x1 .i32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 1 → Memref sig .tc .vmem S1x64 .f32 := fun | 0 => Memref.whole cc4_stg4_0 | ⟨_ + 1, h⟩ => absurd h (Nat.not_lt.2 (Nat.le_add_left _ _))
abbrev sem4_4 : Fin 1 → DmaSem sig := fun | 0 => cc4_sem4_0 | ⟨_ + 1, h⟩ => absurd h (Nat.not_lt.2 (Nat.le_add_left _ _))
abbrev reads4_4 : Fin grid4.rank → Bool := ![false]

abbrev stage4_5 : Fin 1 → Memref sig .tc .vmem S1x64 .f32 := fun | 0 => Memref.whole cc4_stg5_0 | ⟨_ + 1, h⟩ => absurd h (Nat.not_lt.2 (Nat.le_add_left _ _))
abbrev sem4_5 : Fin 1 → DmaSem sig := fun | 0 => cc4_sem5_0 | ⟨_ + 1, h⟩ => absurd h (Nat.not_lt.2 (Nat.le_add_left _ _))
abbrev reads4_5 : Fin grid4.rank → Bool := ![false]

abbrev stage4_6 : Fin 1 → Memref sig .tc .vmem S1x1 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]

abbrev stage4_7 : Fin 2 → Memref sig .tc .vmem S2000x64 .f32 := fun | 0 => Memref.whole cc4_stg7_0 | 1 => Memref.whole cc4_stg7_1 | ⟨_ + 2, h⟩ => absurd h (Nat.not_lt.2 (Nat.le_add_left _ _))
abbrev sem4_7 : Fin 2 → DmaSem sig := fun | 0 => cc4_sem7_0 | 1 => cc4_sem7_1 | ⟨_ + 2, h⟩ => absurd h (Nat.not_lt.2 (Nat.le_add_left _ _))
abbrev reads4_7 : Fin grid4.rank → Bool := ![true]

abbrev grid5 : Pipeline.Grid := ⟨1, ![25], ![false]⟩

def cc5_transform_0 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_1 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_2 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

def cc5_transform_3 (i : grid5.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc5_transform_4 (i : grid5.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage5_0 : Fin 2 → Memref sig .tc .vmem S2000x64 .f32 := fun | 0 => Memref.whole cc5_stg0_0 | 1 => Memref.whole cc5_stg0_1 | ⟨_ + 2, h⟩ => absurd h (Nat.not_lt.2 (Nat.le_add_left _ _))
abbrev sem5_0 : Fin 2 → DmaSem sig := fun | 0 => cc5_sem0_0 | 1 => cc5_sem0_1 | ⟨_ + 2, h⟩ => absurd h (Nat.not_lt.2 (Nat.le_add_left _ _))
abbrev reads5_0 : Fin grid5.rank → Bool := ![true]

abbrev stage5_1 : Fin 2 → Memref sig .tc .vmem S2000x64 .f32 := fun | 0 => Memref.whole cc5_stg1_0 | 1 => Memref.whole cc5_stg1_1 | ⟨_ + 2, h⟩ => absurd h (Nat.not_lt.2 (Nat.le_add_left _ _))
abbrev sem5_1 : Fin 2 → DmaSem sig := fun | 0 => cc5_sem1_0 | 1 => cc5_sem1_1 | ⟨_ + 2, h⟩ => absurd h (Nat.not_lt.2 (Nat.le_add_left _ _))
abbrev reads5_1 : Fin grid5.rank → Bool := ![true]

abbrev stage5_2 : Fin 2 → Memref sig .tc .vmem S2000x64 .f32 := fun | 0 => Memref.whole cc5_stg2_0 | 1 => Memref.whole cc5_stg2_1 | ⟨_ + 2, h⟩ => absurd h (Nat.not_lt.2 (Nat.le_add_left _ _))
abbrev sem5_2 : Fin 2 → DmaSem sig := fun | 0 => cc5_sem2_0 | 1 => cc5_sem2_1 | ⟨_ + 2, h⟩ => absurd h (Nat.not_lt.2 (Nat.le_add_left _ _))
abbrev reads5_2 : Fin grid5.rank → Bool := ![true]

abbrev stage5_3 : Fin 1 → Memref sig .tc .vmem S64x64 .f32 := fun | 0 => Memref.whole cc5_stg3_0 | ⟨_ + 1, h⟩ => absurd h (Nat.not_lt.2 (Nat.le_add_left _ _))
abbrev sem5_3 : Fin 1 → DmaSem sig := fun | 0 => cc5_sem3_0 | ⟨_ + 1, h⟩ => absurd h (Nat.not_lt.2 (Nat.le_add_left _ _))
abbrev reads5_3 : Fin grid5.rank → Bool := ![false]

abbrev stage5_4 : Fin 2 → Memref sig .tc .vmem S2000x64 .f32 := fun | 0 => Memref.whole cc5_stg4_0 | 1 => Memref.whole cc5_stg4_1 | ⟨_ + 2, h⟩ => absurd h (Nat.not_lt.2 (Nat.le_add_left _ _))
abbrev sem5_4 : Fin 2 → DmaSem sig := fun | 0 => cc5_sem4_0 | 1 => cc5_sem4_1 | ⟨_ + 2, h⟩ => absurd h (Nat.not_lt.2 (Nat.le_add_left _ _))
abbrev reads5_4 : Fin grid5.rank → Bool := ![true]

abbrev grid6 : Pipeline.Grid := ⟨1, ![25], ![false]⟩

def cc6_transform_0 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_1 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_2 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_3 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_4 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc6_transform_5 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_6 (i : grid6.Coords) : Fin 2 → Nat :=
  let arg0 : BitVec 32 := BitVec.ofNat 32 (i 0).val
  let c0_i32 : BitVec 32 := 0#32
  let c0_i32_0 : BitVec 32 := 0#32
  ![arg0.toNat, c0_i32.toNat]

def cc6_transform_7 (i : grid6.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage6_0 : Fin 2 → Memref sig .tc .vmem S2000x64 .f32 := fun | 0 => Memref.whole cc6_stg0_0 | 1 => Memref.whole cc6_stg0_1 | ⟨_ + 2, h⟩ => absurd h (Nat.not_lt.2 (Nat.le_add_left _ _))
abbrev sem6_0 : Fin 2 → DmaSem sig := fun | 0 => cc6_sem0_0 | 1 => cc6_sem0_1 | ⟨_ + 2, h⟩ => absurd h (Nat.not_lt.2 (Nat.le_add_left _ _))
abbrev reads6_0 : Fin grid6.rank → Bool := ![true]

abbrev stage6_1 : Fin 2 → Memref sig .tc .vmem S2000x64 .f32 := fun | 0 => Memref.whole cc6_stg1_0 | 1 => Memref.whole cc6_stg1_1 | ⟨_ + 2, h⟩ => absurd h (Nat.not_lt.2 (Nat.le_add_left _ _))
abbrev sem6_1 : Fin 2 → DmaSem sig := fun | 0 => cc6_sem1_0 | 1 => cc6_sem1_1 | ⟨_ + 2, h⟩ => absurd h (Nat.not_lt.2 (Nat.le_add_left _ _))
abbrev reads6_1 : Fin grid6.rank → Bool := ![true]

abbrev stage6_2 : Fin 1 → Memref sig .tc .vmem S64x64 .f32 := fun | 0 => Memref.whole cc6_stg2_0 | ⟨_ + 1, h⟩ => absurd h (Nat.not_lt.2 (Nat.le_add_left _ _))
abbrev sem6_2 : Fin 1 → DmaSem sig := fun | 0 => cc6_sem2_0 | ⟨_ + 1, h⟩ => absurd h (Nat.not_lt.2 (Nat.le_add_left _ _))
abbrev reads6_2 : Fin grid6.rank → Bool := ![false]

abbrev stage6_3 : Fin 1 → Memref sig .tc .vmem S1x64 .f32 := fun | 0 => Memref.whole cc6_stg3_0 | ⟨_ + 1, h⟩ => absurd h (Nat.not_lt.2 (Nat.le_add_left _ _))
abbrev sem6_3 : Fin 1 → DmaSem sig := fun | 0 => cc6_sem3_0 | ⟨_ + 1, h⟩ => absurd h (Nat.not_lt.2 (Nat.le_add_left _ _))
abbrev reads6_3 : Fin grid6.rank → Bool := ![false]

abbrev stage6_4 : Fin 1 → Memref sig .tc .vmem S64x64 .f32 := fun | 0 => Memref.whole cc6_stg4_0 | ⟨_ + 1, h⟩ => absurd h (Nat.not_lt.2 (Nat.le_add_left _ _))
abbrev sem6_4 : Fin 1 → DmaSem sig := fun | 0 => cc6_sem4_0 | ⟨_ + 1, h⟩ => absurd h (Nat.not_lt.2 (Nat.le_add_left _ _))
abbrev reads6_4 : Fin grid6.rank → Bool := ![false]

abbrev stage6_5 : Fin 2 → Memref sig .tc .vmem S2000x1 .i32 := fun | 0 => Memref.whole cc6_stg5_0 | 1 => Memref.whole cc6_stg5_1 | ⟨_ + 2, h⟩ => absurd h (Nat.not_lt.2 (Nat.le_add_left _ _))
abbrev sem6_5 : Fin 2 → DmaSem sig := fun | 0 => cc6_sem5_0 | 1 => cc6_sem5_1 | ⟨_ + 2, h⟩ => absurd h (Nat.not_lt.2 (Nat.le_add_left _ _))
abbrev reads6_5 : Fin grid6.rank → Bool := ![true]

abbrev stage6_6 : Fin 2 → Memref sig .tc .vmem S2000x64 .f32 := fun | 0 => Memref.whole cc6_stg6_0 | 1 => Memref.whole cc6_stg6_1 | ⟨_ + 2, h⟩ => absurd h (Nat.not_lt.2 (Nat.le_add_left _ _))
abbrev sem6_6 : Fin 2 → DmaSem sig := fun | 0 => cc6_sem6_0 | 1 => cc6_sem6_1 | ⟨_ + 2, h⟩ => absurd h (Nat.not_lt.2 (Nat.le_add_left _ _))
abbrev reads6_6 : Fin grid6.rank → Bool := ![true]

abbrev stage6_7 : Fin 1 → Memref sig .tc .vmem S2x128 .f32 := fun | 0 => Memref.whole cc6_stg7_0 | ⟨_ + 1, h⟩ => absurd h (Nat.not_lt.2 (Nat.le_add_left _ _))
abbrev sem6_7 : Fin 1 → DmaSem sig := fun | 0 => cc6_sem7_0 | ⟨_ + 1, h⟩ => absurd h (Nat.not_lt.2 (Nat.le_add_left _ _))
abbrev reads6_7 : Fin grid6.rank → Bool := ![false]

abbrev grid7 : Pipeline.Grid := ⟨1, ![25], ![false]⟩

def cc7_transform_0 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_1 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_2 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_3 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

def cc7_transform_4 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_5 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_6 (i : grid7.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc7_transform_7 (i : grid7.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage7_0 : Fin 2 → Memref sig .tc .vmem S2000x64 .f32 := fun | 0 => Memref.whole cc7_stg0_0 | 1 => Memref.whole cc7_stg0_1 | ⟨_ + 2, h⟩ => absurd h (Nat.not_lt.2 (Nat.le_add_left _ _))
abbrev sem7_0 : Fin 2 → DmaSem sig := fun | 0 => cc7_sem0_0 | 1 => cc7_sem0_1 | ⟨_ + 2, h⟩ => absurd h (Nat.not_lt.2 (Nat.le_add_left _ _))
abbrev reads7_0 : Fin grid7.rank → Bool := ![true]

abbrev stage7_1 : Fin 1 → Memref sig .tc .vmem S1x128 .f32 := fun | 0 => Memref.whole cc7_stg1_0 | ⟨_ + 1, h⟩ => absurd h (Nat.not_lt.2 (Nat.le_add_left _ _))
abbrev sem7_1 : Fin 1 → DmaSem sig := fun | 0 => cc7_sem1_0 | ⟨_ + 1, h⟩ => absurd h (Nat.not_lt.2 (Nat.le_add_left _ _))
abbrev reads7_1 : Fin grid7.rank → Bool := ![false]

abbrev stage7_2 : Fin 1 → Memref sig .tc .vmem S1x128 .f32 := fun | 0 => Memref.whole cc7_stg2_0 | ⟨_ + 1, h⟩ => absurd h (Nat.not_lt.2 (Nat.le_add_left _ _))
abbrev sem7_2 : Fin 1 → DmaSem sig := fun | 0 => cc7_sem2_0 | ⟨_ + 1, h⟩ => absurd h (Nat.not_lt.2 (Nat.le_add_left _ _))
abbrev reads7_2 : Fin grid7.rank → Bool := ![false]

abbrev stage7_3 : Fin 2 → Memref sig .tc .vmem S2000x1 .i32 := fun | 0 => Memref.whole cc7_stg3_0 | 1 => Memref.whole cc7_stg3_1 | ⟨_ + 2, h⟩ => absurd h (Nat.not_lt.2 (Nat.le_add_left _ _))
abbrev sem7_3 : Fin 2 → DmaSem sig := fun | 0 => cc7_sem3_0 | 1 => cc7_sem3_1 | ⟨_ + 2, h⟩ => absurd h (Nat.not_lt.2 (Nat.le_add_left _ _))
abbrev reads7_3 : Fin grid7.rank → Bool := ![true]

abbrev stage7_4 : Fin 1 → Memref sig .tc .vmem S1x64 .f32 := fun | 0 => Memref.whole cc7_stg4_0 | ⟨_ + 1, h⟩ => absurd h (Nat.not_lt.2 (Nat.le_add_left _ _))
abbrev sem7_4 : Fin 1 → DmaSem sig := fun | 0 => cc7_sem4_0 | ⟨_ + 1, h⟩ => absurd h (Nat.not_lt.2 (Nat.le_add_left _ _))
abbrev reads7_4 : Fin grid7.rank → Bool := ![false]

abbrev stage7_5 : Fin 1 → Memref sig .tc .vmem S1x64 .f32 := fun | 0 => Memref.whole cc7_stg5_0 | ⟨_ + 1, h⟩ => absurd h (Nat.not_lt.2 (Nat.le_add_left _ _))
abbrev sem7_5 : Fin 1 → DmaSem sig := fun | 0 => cc7_sem5_0 | ⟨_ + 1, h⟩ => absurd h (Nat.not_lt.2 (Nat.le_add_left _ _))
abbrev reads7_5 : Fin grid7.rank → Bool := ![false]

abbrev stage7_6 : Fin 1 → Memref sig .tc .vmem S1x1 .f32 := fun | 0 => Memref.whole cc7_stg6_0 | ⟨_ + 1, h⟩ => absurd h (Nat.not_lt.2 (Nat.le_add_left _ _))
abbrev sem7_6 : Fin 1 → DmaSem sig := fun | 0 => cc7_sem6_0 | ⟨_ + 1, h⟩ => absurd h (Nat.not_lt.2 (Nat.le_add_left _ _))
abbrev reads7_6 : Fin grid7.rank → Bool := ![false]

abbrev stage7_7 : Fin 2 → Memref sig .tc .vmem S2000x64 .f32 := fun | 0 => Memref.whole cc7_stg7_0 | 1 => Memref.whole cc7_stg7_1 | ⟨_ + 2, h⟩ => absurd h (Nat.not_lt.2 (Nat.le_add_left _ _))
abbrev sem7_7 : Fin 2 → DmaSem sig := fun | 0 => cc7_sem7_0 | 1 => cc7_sem7_1 | ⟨_ + 2, h⟩ => absurd h (Nat.not_lt.2 (Nat.le_add_left _ _))
abbrev reads7_7 : Fin grid7.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  shapeCasts_S50000_S50000x1 : S50000.ShapeCasts S50000x1
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  bcast_S_S128 : S_.BroadcastsInDim S128 (![] : Fin 0 → Fin S128.rank)
  bcast_S50000_S50000x1_0 : S50000.BroadcastsInDim S50000x1 (![0] : Fin 1 → Fin S50000x1.rank)
  bcast_S_S50000x64 : S_.BroadcastsInDim S50000x64 (![] : Fin 0 → Fin S50000x64.rank)
  bcast_S50000x1_S50000x64_0_1 : S50000x1.BroadcastsInDim S50000x64 (![0, 1] : Fin 2 → Fin S50000x64.rank)
  shapeCasts_S64_S1x64 : S64.ShapeCasts S1x64
  inb_S2x128_S2x128_0_0 : ∀ a, (![0, 0] : Fin 2 → Nat) a + S2x128.size a ≤ S2x128.size a
  h_S2x128 : 0 < S2x128.numel
  inb_S2000x64_S2000x64_0_0 : ∀ a, (![0, 0] : Fin 2 → Nat) a + S2000x64.size a ≤ S2000x64.size a
  h_S2000x64 : 0 < S2000x64.numel
  shapeCasts_S2000x64_S2000x64 : S2000x64.ShapeCasts S2000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  reduces_S2000x64_S2000 : S2000x64.Reduces [1] S2000
  shapeCasts_S2000_S2000x1 : S2000.ShapeCasts S2000x1
  iota_S2000x128_d1_w32 : S2000x128.Iotas .tc 32 [1]
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x128 : S2000x1.Broadcasts S2000x128
  natLt_1_32 : 1 < 32
  reduces_S2000x128_S128 : S2000x128.Reduces [0] S128
  shapeCasts_S128_S1x128 : S128.ShapeCasts S1x128
  shapeCasts_S2x128_S2x128 : S2x128.ShapeCasts S2x128
  concatenates_S1x128_S1x128_S2x128_d0 : Shape.Concatenates [S1x128, S1x128] S2x128 0
  slices_S2x128_S1x128_0_0 : S2x128.Slices ![0, 0] S1x128
  shapeCasts_S1x128_S128 : S1x128.ShapeCasts S128
  slices_S2x128_S1x128_1_0 : S2x128.Slices ![1, 0] S1x128
  shapeCasts_S1_S1x1 : S1.ShapeCasts S1x1
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  broadcasts_S2000x1_S2000x64 : S2000x1.Broadcasts S2000x64
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S2000x64 : S1x1.Broadcasts S2000x64
  scatter_S50000_S800000x1_S800000_n_0_0_1_wf : ScatterDims.WF S50000 S800000x1 S800000 [] [0] [0] 1
  scatter_S128_S50000x1_S50000_n_0_0_1_wf : ScatterDims.WF S128 S50000x1 S50000 [] [0] [0] 1
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  dot_S2000x64_S64x64_S2000x64_1_0_0_1_n_n_wf : DotDims.WF S2000x64 S64x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x64.size a ≤ S50000x64.size a
  hwx0_0 : ∀ i : grid0.Coords, EltTy.bits .f32 = 32 ∨ (Rect.block (s := S50000x64) S2000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x64.size a ≤ S50000x64.size a
  hwx0_1 : ∀ i : grid0.Coords, EltTy.bits .f32 = 32 ∨ (Rect.block (s := S50000x64) S2000x64.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S64x64.size a ≤ S64x64.size a
  hwx0_2 : ∀ i : grid0.Coords, EltTy.bits .f32 = 32 ∨ (Rect.block (s := S64x64) S64x64.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x64.size a ≤ S1x64.size a
  hwx0_3 : ∀ i : grid0.Coords, EltTy.bits .f32 = 32 ∨ (Rect.block (s := S1x64) S1x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S64x64.size a ≤ S64x64.size a
  hwx0_4 : ∀ i : grid0.Coords, EltTy.bits .f32 = 32 ∨ (Rect.block (s := S64x64) S64x64.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1.size a ≤ S50000x1.size a
  hwx0_5 : ∀ i : grid0.Coords, EltTy.bits .i32 = 32 ∨ (Rect.block (s := S50000x1) S2000x1.size (cc0_transform_5 i) (hinb0_5 i)).WholeWords (EltTy.packing .i32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x64.size a ≤ S50000x64.size a
  hwx0_6 : ∀ i : grid0.Coords, EltTy.bits .f32 = 32 ∨ (Rect.block (s := S50000x64) S2000x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S2x128.size a ≤ S2x128.size a
  hwx0_7 : ∀ i : grid0.Coords, EltTy.bits .f32 = 32 ∨ (Rect.block (s := S2x128) S2x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x64.size a ≤ S50000x64.size a
  hwx1_0 : ∀ i : grid1.Coords, EltTy.bits .f32 = 32 ∨ (Rect.block (s := S50000x64) S2000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x128.size a ≤ S1x128.size a
  hwx1_1 : ∀ i : grid1.Coords, EltTy.bits .f32 = 32 ∨ (Rect.block (s := S1x128) S1x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x128.size a ≤ S1x128.size a
  hwx1_2 : ∀ i : grid1.Coords, EltTy.bits .f32 = 32 ∨ (Rect.block (s := S1x128) S1x128.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S2000x1.size a ≤ S50000x1.size a
  hwx1_3 : ∀ i : grid1.Coords, EltTy.bits .i32 = 32 ∨ (Rect.block (s := S50000x1) S2000x1.size (cc1_transform_3 i) (hinb1_3 i)).WholeWords (EltTy.packing .i32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x64.size a ≤ S1x64.size a
  hwx1_4 : ∀ i : grid1.Coords, EltTy.bits .f32 = 32 ∨ (Rect.block (s := S1x64) S1x64.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x64.size a ≤ S1x64.size a
  hwx1_5 : ∀ i : grid1.Coords, EltTy.bits .f32 = 32 ∨ (Rect.block (s := S1x64) S1x64.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x1.size a ≤ S1x1.size a
  hwx1_6 : ∀ i : grid1.Coords, EltTy.bits .f32 = 32 ∨ (Rect.block (s := S1x1) S1x1.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x64.size a ≤ S50000x64.size a
  hwx1_7 : ∀ i : grid1.Coords, EltTy.bits .f32 = 32 ∨ (Rect.block (s := S50000x64) S2000x64.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S50000x64.size a
  hwx2_0 : ∀ i : grid2.Coords, EltTy.bits .f32 = 32 ∨ (Rect.block (s := S50000x64) S2000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x64.size a ≤ S50000x64.size a
  hwx2_1 : ∀ i : grid2.Coords, EltTy.bits .f32 = 32 ∨ (Rect.block (s := S50000x64) S2000x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S50000x64.size a
  hwx2_3 : ∀ i : grid2.Coords, EltTy.bits .f32 = 32 ∨ (Rect.block (s := S50000x64) S2000x64.size (cc2_transform_3 i) (hinb2_3 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S2000x64.size a ≤ S50000x64.size a
  hwx3_0 : ∀ i : grid3.Coords, EltTy.bits .f32 = 32 ∨ (Rect.block (s := S50000x64) S2000x64.size (cc3_transform_0 i) (hinb3_0 i)).WholeWords (EltTy.packing .f32)
  hstage3_1 : ∀ j, (stage3_1 j).IsWhole
  nbuf3_1 : grid3.bufCount reads3_1 false = 2
  hreads3_1 : ∀ i i' : grid3.Coords, (∀ a, reads3_1 a = true → i a = i' a) → cc3_transform_1 i = cc3_transform_1 i'
  hinb3_1 : ∀ (i : grid3.Coords) a, (cc3_transform_1 i a + 1) * S2000x64.size a ≤ S50000x64.size a
  hwx3_1 : ∀ i : grid3.Coords, EltTy.bits .f32 = 32 ∨ (Rect.block (s := S50000x64) S2000x64.size (cc3_transform_1 i) (hinb3_1 i)).WholeWords (EltTy.packing .f32)
  hstage3_2 : ∀ j, (stage3_2 j).IsWhole
  nbuf3_2 : grid3.bufCount reads3_2 true = 1
  hreads3_2 : ∀ i i' : grid3.Coords, (∀ a, reads3_2 a = true → i a = i' a) → cc3_transform_2 i = cc3_transform_2 i'
  hinb3_2 : ∀ (i : grid3.Coords) a, (cc3_transform_2 i a + 1) * S64x64.size a ≤ S64x64.size a
  hwx3_2 : ∀ i : grid3.Coords, EltTy.bits .f32 = 32 ∨ (Rect.block (s := S64x64) S64x64.size (cc3_transform_2 i) (hinb3_2 i)).WholeWords (EltTy.packing .f32)
  hstage3_3 : ∀ j, (stage3_3 j).IsWhole
  nbuf3_3 : grid3.bufCount reads3_3 true = 1
  hreads3_3 : ∀ i i' : grid3.Coords, (∀ a, reads3_3 a = true → i a = i' a) → cc3_transform_3 i = cc3_transform_3 i'
  hinb3_3 : ∀ (i : grid3.Coords) a, (cc3_transform_3 i a + 1) * S1x64.size a ≤ S1x64.size a
  hwx3_3 : ∀ i : grid3.Coords, EltTy.bits .f32 = 32 ∨ (Rect.block (s := S1x64) S1x64.size (cc3_transform_3 i) (hinb3_3 i)).WholeWords (EltTy.packing .f32)
  hstage3_4 : ∀ j, (stage3_4 j).IsWhole
  nbuf3_4 : grid3.bufCount reads3_4 true = 1
  hreads3_4 : ∀ i i' : grid3.Coords, (∀ a, reads3_4 a = true → i a = i' a) → cc3_transform_4 i = cc3_transform_4 i'
  hinb3_4 : ∀ (i : grid3.Coords) a, (cc3_transform_4 i a + 1) * S64x64.size a ≤ S64x64.size a
  hwx3_4 : ∀ i : grid3.Coords, EltTy.bits .f32 = 32 ∨ (Rect.block (s := S64x64) S64x64.size (cc3_transform_4 i) (hinb3_4 i)).WholeWords (EltTy.packing .f32)
  hstage3_5 : ∀ j, (stage3_5 j).IsWhole
  nbuf3_5 : grid3.bufCount reads3_5 false = 2
  hreads3_5 : ∀ i i' : grid3.Coords, (∀ a, reads3_5 a = true → i a = i' a) → cc3_transform_5 i = cc3_transform_5 i'
  hinb3_5 : ∀ (i : grid3.Coords) a, (cc3_transform_5 i a + 1) * S2000x1.size a ≤ S50000x1.size a
  hwx3_5 : ∀ i : grid3.Coords, EltTy.bits .i32 = 32 ∨ (Rect.block (s := S50000x1) S2000x1.size (cc3_transform_5 i) (hinb3_5 i)).WholeWords (EltTy.packing .i32)
  hstage3_6 : ∀ j, (stage3_6 j).IsWhole
  nbuf3_6 : grid3.bufCount reads3_6 false = 2
  hreads3_6 : ∀ i i' : grid3.Coords, (∀ a, reads3_6 a = true → i a = i' a) → cc3_transform_6 i = cc3_transform_6 i'
  hinb3_6 : ∀ (i : grid3.Coords) a, (cc3_transform_6 i a + 1) * S2000x64.size a ≤ S50000x64.size a
  hwx3_6 : ∀ i : grid3.Coords, EltTy.bits .f32 = 32 ∨ (Rect.block (s := S50000x64) S2000x64.size (cc3_transform_6 i) (hinb3_6 i)).WholeWords (EltTy.packing .f32)
  hstage3_7 : ∀ j, (stage3_7 j).IsWhole
  nbuf3_7 : grid3.bufCount reads3_7 true = 1
  hreads3_7 : ∀ i i' : grid3.Coords, (∀ a, reads3_7 a = true → i a = i' a) → cc3_transform_7 i = cc3_transform_7 i'
  hinb3_7 : ∀ (i : grid3.Coords) a, (cc3_transform_7 i a + 1) * S2x128.size a ≤ S2x128.size a
  hwx3_7 : ∀ i : grid3.Coords, EltTy.bits .f32 = 32 ∨ (Rect.block (s := S2x128) S2x128.size (cc3_transform_7 i) (hinb3_7 i)).WholeWords (EltTy.packing .f32)
  hrank4 : 0 < grid4.rank
  hstage4_0 : ∀ j, (stage4_0 j).IsWhole
  nbuf4_0 : grid4.bufCount reads4_0 false = 2
  hreads4_0 : ∀ i i' : grid4.Coords, (∀ a, reads4_0 a = true → i a = i' a) → cc4_transform_0 i = cc4_transform_0 i'
  hinb4_0 : ∀ (i : grid4.Coords) a, (cc4_transform_0 i a + 1) * S2000x64.size a ≤ S50000x64.size a
  hwx4_0 : ∀ i : grid4.Coords, EltTy.bits .f32 = 32 ∨ (Rect.block (s := S50000x64) S2000x64.size (cc4_transform_0 i) (hinb4_0 i)).WholeWords (EltTy.packing .f32)
  hstage4_1 : ∀ j, (stage4_1 j).IsWhole
  nbuf4_1 : grid4.bufCount reads4_1 true = 1
  hreads4_1 : ∀ i i' : grid4.Coords, (∀ a, reads4_1 a = true → i a = i' a) → cc4_transform_1 i = cc4_transform_1 i'
  hinb4_1 : ∀ (i : grid4.Coords) a, (cc4_transform_1 i a + 1) * S1x128.size a ≤ S1x128.size a
  hwx4_1 : ∀ i : grid4.Coords, EltTy.bits .f32 = 32 ∨ (Rect.block (s := S1x128) S1x128.size (cc4_transform_1 i) (hinb4_1 i)).WholeWords (EltTy.packing .f32)
  hstage4_2 : ∀ j, (stage4_2 j).IsWhole
  nbuf4_2 : grid4.bufCount reads4_2 true = 1
  hreads4_2 : ∀ i i' : grid4.Coords, (∀ a, reads4_2 a = true → i a = i' a) → cc4_transform_2 i = cc4_transform_2 i'
  hinb4_2 : ∀ (i : grid4.Coords) a, (cc4_transform_2 i a + 1) * S1x128.size a ≤ S1x128.size a
  hwx4_2 : ∀ i : grid4.Coords, EltTy.bits .f32 = 32 ∨ (Rect.block (s := S1x128) S1x128.size (cc4_transform_2 i) (hinb4_2 i)).WholeWords (EltTy.packing .f32)
  hstage4_3 : ∀ j, (stage4_3 j).IsWhole
  nbuf4_3 : grid4.bufCount reads4_3 false = 2
  hreads4_3 : ∀ i i' : grid4.Coords, (∀ a, reads4_3 a = true → i a = i' a) → cc4_transform_3 i = cc4_transform_3 i'
  hinb4_3 : ∀ (i : grid4.Coords) a, (cc4_transform_3 i a + 1) * S2000x1.size a ≤ S50000x1.size a
  hwx4_3 : ∀ i : grid4.Coords, EltTy.bits .i32 = 32 ∨ (Rect.block (s := S50000x1) S2000x1.size (cc4_transform_3 i) (hinb4_3 i)).WholeWords (EltTy.packing .i32)
  hstage4_4 : ∀ j, (stage4_4 j).IsWhole
  nbuf4_4 : grid4.bufCount reads4_4 true = 1
  hreads4_4 : ∀ i i' : grid4.Coords, (∀ a, reads4_4 a = true → i a = i' a) → cc4_transform_4 i = cc4_transform_4 i'
  hinb4_4 : ∀ (i : grid4.Coords) a, (cc4_transform_4 i a + 1) * S1x64.size a ≤ S1x64.size a
  hwx4_4 : ∀ i : grid4.Coords, EltTy.bits .f32 = 32 ∨ (Rect.block (s := S1x64) S1x64.size (cc4_transform_4 i) (hinb4_4 i)).WholeWords (EltTy.packing .f32)
  hstage4_5 : ∀ j, (stage4_5 j).IsWhole
  nbuf4_5 : grid4.bufCount reads4_5 true = 1
  hreads4_5 : ∀ i i' : grid4.Coords, (∀ a, reads4_5 a = true → i a = i' a) → cc4_transform_5 i = cc4_transform_5 i'
  hinb4_5 : ∀ (i : grid4.Coords) a, (cc4_transform_5 i a + 1) * S1x64.size a ≤ S1x64.size a
  hwx4_5 : ∀ i : grid4.Coords, EltTy.bits .f32 = 32 ∨ (Rect.block (s := S1x64) S1x64.size (cc4_transform_5 i) (hinb4_5 i)).WholeWords (EltTy.packing .f32)
  hstage4_6 : ∀ j, (stage4_6 j).IsWhole
  nbuf4_6 : grid4.bufCount reads4_6 true = 1
  hreads4_6 : ∀ i i' : grid4.Coords, (∀ a, reads4_6 a = true → i a = i' a) → cc4_transform_6 i = cc4_transform_6 i'
  hinb4_6 : ∀ (i : grid4.Coords) a, (cc4_transform_6 i a + 1) * S1x1.size a ≤ S1x1.size a
  hwx4_6 : ∀ i : grid4.Coords, EltTy.bits .f32 = 32 ∨ (Rect.block (s := S1x1) S1x1.size (cc4_transform_6 i) (hinb4_6 i)).WholeWords (EltTy.packing .f32)
  hstage4_7 : ∀ j, (stage4_7 j).IsWhole
  nbuf4_7 : grid4.bufCount reads4_7 false = 2
  hreads4_7 : ∀ i i' : grid4.Coords, (∀ a, reads4_7 a = true → i a = i' a) → cc4_transform_7 i = cc4_transform_7 i'
  hinb4_7 : ∀ (i : grid4.Coords) a, (cc4_transform_7 i a + 1) * S2000x64.size a ≤ S50000x64.size a
  hwx4_7 : ∀ i : grid4.Coords, EltTy.bits .f32 = 32 ∨ (Rect.block (s := S50000x64) S2000x64.size (cc4_transform_7 i) (hinb4_7 i)).WholeWords (EltTy.packing .f32)
  hrank5 : 0 < grid5.rank
  hstage5_0 : ∀ j, (stage5_0 j).IsWhole
  nbuf5_0 : grid5.bufCount reads5_0 false = 2
  hreads5_0 : ∀ i i' : grid5.Coords, (∀ a, reads5_0 a = true → i a = i' a) → cc5_transform_0 i = cc5_transform_0 i'
  hinb5_0 : ∀ (i : grid5.Coords) a, (cc5_transform_0 i a + 1) * S2000x64.size a ≤ S50000x64.size a
  hwx5_0 : ∀ i : grid5.Coords, EltTy.bits .f32 = 32 ∨ (Rect.block (s := S50000x64) S2000x64.size (cc5_transform_0 i) (hinb5_0 i)).WholeWords (EltTy.packing .f32)
  hstage5_1 : ∀ j, (stage5_1 j).IsWhole
  nbuf5_1 : grid5.bufCount reads5_1 false = 2
  hreads5_1 : ∀ i i' : grid5.Coords, (∀ a, reads5_1 a = true → i a = i' a) → cc5_transform_1 i = cc5_transform_1 i'
  hinb5_1 : ∀ (i : grid5.Coords) a, (cc5_transform_1 i a + 1) * S2000x64.size a ≤ S50000x64.size a
  hwx5_1 : ∀ i : grid5.Coords, EltTy.bits .f32 = 32 ∨ (Rect.block (s := S50000x64) S2000x64.size (cc5_transform_1 i) (hinb5_1 i)).WholeWords (EltTy.packing .f32)
  hstage5_2 : ∀ j, (stage5_2 j).IsWhole
  nbuf5_2 : grid5.bufCount reads5_2 false = 2
  hreads5_2 : ∀ i i' : grid5.Coords, (∀ a, reads5_2 a = true → i a = i' a) → cc5_transform_2 i = cc5_transform_2 i'
  hinb5_2 : ∀ (i : grid5.Coords) a, (cc5_transform_2 i a + 1) * S2000x64.size a ≤ S50000x64.size a
  hwx5_2 : ∀ i : grid5.Coords, EltTy.bits .f32 = 32 ∨ (Rect.block (s := S50000x64) S2000x64.size (cc5_transform_2 i) (hinb5_2 i)).WholeWords (EltTy.packing .f32)
  hstage5_3 : ∀ j, (stage5_3 j).IsWhole
  nbuf5_3 : grid5.bufCount reads5_3 true = 1
  hreads5_3 : ∀ i i' : grid5.Coords, (∀ a, reads5_3 a = true → i a = i' a) → cc5_transform_3 i = cc5_transform_3 i'
  hinb5_3 : ∀ (i : grid5.Coords) a, (cc5_transform_3 i a + 1) * S64x64.size a ≤ S64x64.size a
  hwx5_3 : ∀ i : grid5.Coords, EltTy.bits .f32 = 32 ∨ (Rect.block (s := S64x64) S64x64.size (cc5_transform_3 i) (hinb5_3 i)).WholeWords (EltTy.packing .f32)
  hstage5_4 : ∀ j, (stage5_4 j).IsWhole
  nbuf5_4 : grid5.bufCount reads5_4 false = 2
  hreads5_4 : ∀ i i' : grid5.Coords, (∀ a, reads5_4 a = true → i a = i' a) → cc5_transform_4 i = cc5_transform_4 i'
  hinb5_4 : ∀ (i : grid5.Coords) a, (cc5_transform_4 i a + 1) * S2000x64.size a ≤ S50000x64.size a
  hwx5_4 : ∀ i : grid5.Coords, EltTy.bits .f32 = 32 ∨ (Rect.block (s := S50000x64) S2000x64.size (cc5_transform_4 i) (hinb5_4 i)).WholeWords (EltTy.packing .f32)
  hrank6 : 0 < grid6.rank
  hstage6_0 : ∀ j, (stage6_0 j).IsWhole
  nbuf6_0 : grid6.bufCount reads6_0 false = 2
  hreads6_0 : ∀ i i' : grid6.Coords, (∀ a, reads6_0 a = true → i a = i' a) → cc6_transform_0 i = cc6_transform_0 i'
  hinb6_0 : ∀ (i : grid6.Coords) a, (cc6_transform_0 i a + 1) * S2000x64.size a ≤ S50000x64.size a
  hwx6_0 : ∀ i : grid6.Coords, EltTy.bits .f32 = 32 ∨ (Rect.block (s := S50000x64) S2000x64.size (cc6_transform_0 i) (hinb6_0 i)).WholeWords (EltTy.packing .f32)
  hstage6_1 : ∀ j, (stage6_1 j).IsWhole
  nbuf6_1 : grid6.bufCount reads6_1 false = 2
  hreads6_1 : ∀ i i' : grid6.Coords, (∀ a, reads6_1 a = true → i a = i' a) → cc6_transform_1 i = cc6_transform_1 i'
  hinb6_1 : ∀ (i : grid6.Coords) a, (cc6_transform_1 i a + 1) * S2000x64.size a ≤ S50000x64.size a
  hwx6_1 : ∀ i : grid6.Coords, EltTy.bits .f32 = 32 ∨ (Rect.block (s := S50000x64) S2000x64.size (cc6_transform_1 i) (hinb6_1 i)).WholeWords (EltTy.packing .f32)
  hstage6_2 : ∀ j, (stage6_2 j).IsWhole
  nbuf6_2 : grid6.bufCount reads6_2 true = 1
  hreads6_2 : ∀ i i' : grid6.Coords, (∀ a, reads6_2 a = true → i a = i' a) → cc6_transform_2 i = cc6_transform_2 i'
  hinb6_2 : ∀ (i : grid6.Coords) a, (cc6_transform_2 i a + 1) * S64x64.size a ≤ S64x64.size a
  hwx6_2 : ∀ i : grid6.Coords, EltTy.bits .f32 = 32 ∨ (Rect.block (s := S64x64) S64x64.size (cc6_transform_2 i) (hinb6_2 i)).WholeWords (EltTy.packing .f32)
  hstage6_3 : ∀ j, (stage6_3 j).IsWhole
  nbuf6_3 : grid6.bufCount reads6_3 true = 1
  hreads6_3 : ∀ i i' : grid6.Coords, (∀ a, reads6_3 a = true → i a = i' a) → cc6_transform_3 i = cc6_transform_3 i'
  hinb6_3 : ∀ (i : grid6.Coords) a, (cc6_transform_3 i a + 1) * S1x64.size a ≤ S1x64.size a
  hwx6_3 : ∀ i : grid6.Coords, EltTy.bits .f32 = 32 ∨ (Rect.block (s := S1x64) S1x64.size (cc6_transform_3 i) (hinb6_3 i)).WholeWords (EltTy.packing .f32)
  hstage6_4 : ∀ j, (stage6_4 j).IsWhole
  nbuf6_4 : grid6.bufCount reads6_4 true = 1
  hreads6_4 : ∀ i i' : grid6.Coords, (∀ a, reads6_4 a = true → i a = i' a) → cc6_transform_4 i = cc6_transform_4 i'
  hinb6_4 : ∀ (i : grid6.Coords) a, (cc6_transform_4 i a + 1) * S64x64.size a ≤ S64x64.size a
  hwx6_4 : ∀ i : grid6.Coords, EltTy.bits .f32 = 32 ∨ (Rect.block (s := S64x64) S64x64.size (cc6_transform_4 i) (hinb6_4 i)).WholeWords (EltTy.packing .f32)
  hstage6_5 : ∀ j, (stage6_5 j).IsWhole
  nbuf6_5 : grid6.bufCount reads6_5 false = 2
  hreads6_5 : ∀ i i' : grid6.Coords, (∀ a, reads6_5 a = true → i a = i' a) → cc6_transform_5 i = cc6_transform_5 i'
  hinb6_5 : ∀ (i : grid6.Coords) a, (cc6_transform_5 i a + 1) * S2000x1.size a ≤ S50000x1.size a
  hwx6_5 : ∀ i : grid6.Coords, EltTy.bits .i32 = 32 ∨ (Rect.block (s := S50000x1) S2000x1.size (cc6_transform_5 i) (hinb6_5 i)).WholeWords (EltTy.packing .i32)
  hstage6_6 : ∀ j, (stage6_6 j).IsWhole
  nbuf6_6 : grid6.bufCount reads6_6 false = 2
  hreads6_6 : ∀ i i' : grid6.Coords, (∀ a, reads6_6 a = true → i a = i' a) → cc6_transform_6 i = cc6_transform_6 i'
  hinb6_6 : ∀ (i : grid6.Coords) a, (cc6_transform_6 i a + 1) * S2000x64.size a ≤ S50000x64.size a
  hwx6_6 : ∀ i : grid6.Coords, EltTy.bits .f32 = 32 ∨ (Rect.block (s := S50000x64) S2000x64.size (cc6_transform_6 i) (hinb6_6 i)).WholeWords (EltTy.packing .f32)
  hstage6_7 : ∀ j, (stage6_7 j).IsWhole
  nbuf6_7 : grid6.bufCount reads6_7 true = 1
  hreads6_7 : ∀ i i' : grid6.Coords, (∀ a, reads6_7 a = true → i a = i' a) → cc6_transform_7 i = cc6_transform_7 i'
  hinb6_7 : ∀ (i : grid6.Coords) a, (cc6_transform_7 i a + 1) * S2x128.size a ≤ S2x128.size a
  hwx6_7 : ∀ i : grid6.Coords, EltTy.bits .f32 = 32 ∨ (Rect.block (s := S2x128) S2x128.size (cc6_transform_7 i) (hinb6_7 i)).WholeWords (EltTy.packing .f32)
  hrank7 : 0 < grid7.rank
  hstage7_0 : ∀ j, (stage7_0 j).IsWhole
  nbuf7_0 : grid7.bufCount reads7_0 false = 2
  hreads7_0 : ∀ i i' : grid7.Coords, (∀ a, reads7_0 a = true → i a = i' a) → cc7_transform_0 i = cc7_transform_0 i'
  hinb7_0 : ∀ (i : grid7.Coords) a, (cc7_transform_0 i a + 1) * S2000x64.size a ≤ S50000x64.size a
  hwx7_0 : ∀ i : grid7.Coords, EltTy.bits .f32 = 32 ∨ (Rect.block (s := S50000x64) S2000x64.size (cc7_transform_0 i) (hinb7_0 i)).WholeWords (EltTy.packing .f32)
  hstage7_1 : ∀ j, (stage7_1 j).IsWhole
  nbuf7_1 : grid7.bufCount reads7_1 true = 1
  hreads7_1 : ∀ i i' : grid7.Coords, (∀ a, reads7_1 a = true → i a = i' a) → cc7_transform_1 i = cc7_transform_1 i'
  hinb7_1 : ∀ (i : grid7.Coords) a, (cc7_transform_1 i a + 1) * S1x128.size a ≤ S1x128.size a
  hwx7_1 : ∀ i : grid7.Coords, EltTy.bits .f32 = 32 ∨ (Rect.block (s := S1x128) S1x128.size (cc7_transform_1 i) (hinb7_1 i)).WholeWords (EltTy.packing .f32)
  hstage7_2 : ∀ j, (stage7_2 j).IsWhole
  nbuf7_2 : grid7.bufCount reads7_2 true = 1
  hreads7_2 : ∀ i i' : grid7.Coords, (∀ a, reads7_2 a = true → i a = i' a) → cc7_transform_2 i = cc7_transform_2 i'
  hinb7_2 : ∀ (i : grid7.Coords) a, (cc7_transform_2 i a + 1) * S1x128.size a ≤ S1x128.size a
  hwx7_2 : ∀ i : grid7.Coords, EltTy.bits .f32 = 32 ∨ (Rect.block (s := S1x128) S1x128.size (cc7_transform_2 i) (hinb7_2 i)).WholeWords (EltTy.packing .f32)
  hstage7_3 : ∀ j, (stage7_3 j).IsWhole
  nbuf7_3 : grid7.bufCount reads7_3 false = 2
  hreads7_3 : ∀ i i' : grid7.Coords, (∀ a, reads7_3 a = true → i a = i' a) → cc7_transform_3 i = cc7_transform_3 i'
  hinb7_3 : ∀ (i : grid7.Coords) a, (cc7_transform_3 i a + 1) * S2000x1.size a ≤ S50000x1.size a
  hwx7_3 : ∀ i : grid7.Coords, EltTy.bits .i32 = 32 ∨ (Rect.block (s := S50000x1) S2000x1.size (cc7_transform_3 i) (hinb7_3 i)).WholeWords (EltTy.packing .i32)
  hstage7_4 : ∀ j, (stage7_4 j).IsWhole
  nbuf7_4 : grid7.bufCount reads7_4 true = 1
  hreads7_4 : ∀ i i' : grid7.Coords, (∀ a, reads7_4 a = true → i a = i' a) → cc7_transform_4 i = cc7_transform_4 i'
  hinb7_4 : ∀ (i : grid7.Coords) a, (cc7_transform_4 i a + 1) * S1x64.size a ≤ S1x64.size a
  hwx7_4 : ∀ i : grid7.Coords, EltTy.bits .f32 = 32 ∨ (Rect.block (s := S1x64) S1x64.size (cc7_transform_4 i) (hinb7_4 i)).WholeWords (EltTy.packing .f32)
  hstage7_5 : ∀ j, (stage7_5 j).IsWhole
  nbuf7_5 : grid7.bufCount reads7_5 true = 1
  hreads7_5 : ∀ i i' : grid7.Coords, (∀ a, reads7_5 a = true → i a = i' a) → cc7_transform_5 i = cc7_transform_5 i'
  hinb7_5 : ∀ (i : grid7.Coords) a, (cc7_transform_5 i a + 1) * S1x64.size a ≤ S1x64.size a
  hwx7_5 : ∀ i : grid7.Coords, EltTy.bits .f32 = 32 ∨ (Rect.block (s := S1x64) S1x64.size (cc7_transform_5 i) (hinb7_5 i)).WholeWords (EltTy.packing .f32)
  hstage7_6 : ∀ j, (stage7_6 j).IsWhole
  nbuf7_6 : grid7.bufCount reads7_6 true = 1
  hreads7_6 : ∀ i i' : grid7.Coords, (∀ a, reads7_6 a = true → i a = i' a) → cc7_transform_6 i = cc7_transform_6 i'
  hinb7_6 : ∀ (i : grid7.Coords) a, (cc7_transform_6 i a + 1) * S1x1.size a ≤ S1x1.size a
  hwx7_6 : ∀ i : grid7.Coords, EltTy.bits .f32 = 32 ∨ (Rect.block (s := S1x1) S1x1.size (cc7_transform_6 i) (hinb7_6 i)).WholeWords (EltTy.packing .f32)
  hstage7_7 : ∀ j, (stage7_7 j).IsWhole
  nbuf7_7 : grid7.bufCount reads7_7 false = 2
  hreads7_7 : ∀ i i' : grid7.Coords, (∀ a, reads7_7 a = true → i a = i' a) → cc7_transform_7 i = cc7_transform_7 i'
  hinb7_7 : ∀ (i : grid7.Coords) a, (cc7_transform_7 i a + 1) * S2000x64.size a ≤ S50000x64.size a
  hwx7_7 : ∀ i : grid7.Coords, EltTy.bits .f32 = 32 ∨ (Rect.block (s := S50000x64) S2000x64.size (cc7_transform_7 i) (hinb7_7 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf

abbrev win0_0 : Pipeline.Window sig grid0 :=
  Pipeline.Window.ofSpec (Memref.whole main_v35) S2000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S64x64.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v36) S1x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg3) S64x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v4) S2000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v37_0) S2000x64.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v37_1) S2x128.size cc0_transform_7 reads0_7 true true 1 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v37_0) S2000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v49) S1x128.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v50) S1x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v4) S2000x1.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_v51) S1x64.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v52) S1x64.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v53) S1x1.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v54) S2000x64.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v54) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg0) S2000x64.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg10) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v55) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

abbrev win3_0 : Pipeline.Window sig grid3 :=
  Pipeline.Window.ofSpec (Memref.whole main_v68) S2000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v55) S2000x64.size cc3_transform_1 reads3_1 false false 2 stage3_1 sem3_1
    hrank3 hreads3_1 hinb3_1 nbuf3_1 (Memref.isWhole_whole _) hwx3_1 hstage3_1

abbrev win3_2 : Pipeline.Window sig grid3 :=
  Pipeline.Window.ofSpec (Memref.whole main_arg4) S64x64.size cc3_transform_2 reads3_2 false true 1 stage3_2 sem3_2
    hrank3 hreads3_2 hinb3_2 nbuf3_2 (Memref.isWhole_whole _) hwx3_2 hstage3_2

abbrev win3_3 : Pipeline.Window sig grid3 :=
  Pipeline.Window.ofSpec (Memref.whole main_v69) S1x64.size cc3_transform_3 reads3_3 false true 1 stage3_3 sem3_3
    hrank3 hreads3_3 hinb3_3 nbuf3_3 (Memref.isWhole_whole _) hwx3_3 hstage3_3

abbrev win3_4 : Pipeline.Window sig grid3 :=
  Pipeline.Window.ofSpec (Memref.whole main_arg6) S64x64.size cc3_transform_4 reads3_4 false true 1 stage3_4 sem3_4
    hrank3 hreads3_4 hinb3_4 nbuf3_4 (Memref.isWhole_whole _) hwx3_4 hstage3_4

abbrev win3_5 : Pipeline.Window sig grid3 :=
  Pipeline.Window.ofSpec (Memref.whole main_v4) S2000x1.size cc3_transform_5 reads3_5 false false 2 stage3_5 sem3_5
    hrank3 hreads3_5 hinb3_5 nbuf3_5 (Memref.isWhole_whole _) hwx3_5 hstage3_5

abbrev win3_6 : Pipeline.Window sig grid3 :=
  Pipeline.Window.ofSpec (Memref.whole main_v70_0) S2000x64.size cc3_transform_6 reads3_6 true false 2 stage3_6 sem3_6
    hrank3 hreads3_6 hinb3_6 nbuf3_6 (Memref.isWhole_whole _) hwx3_6 hstage3_6

abbrev win3_7 : Pipeline.Window sig grid3 :=
  Pipeline.Window.ofSpec (Memref.whole main_v70_1) S2x128.size cc3_transform_7 reads3_7 true true 1 stage3_7 sem3_7
    hrank3 hreads3_7 hinb3_7 nbuf3_7 (Memref.isWhole_whole _) hwx3_7 hstage3_7

abbrev win3 : Fin 8 → Pipeline.Window sig grid3 := fun | 0 => win3_0 | 1 => win3_1 | 2 => win3_2 | 3 => win3_3 | 4 => win3_4 | 5 => win3_5 | 6 => win3_6 | 7 => win3_7 | ⟨_ + 8, h⟩ => absurd h (Nat.not_lt.2 (Nat.le_add_left _ _))
abbrev spec3 : Fin 8 → Pipeline.WinSpec sig grid3.rank := fun w => (win3 w).toWinSpec

abbrev win4_0 : Pipeline.Window sig grid4 :=
  Pipeline.Window.ofSpec (Memref.whole main_v70_0) S2000x64.size cc4_transform_0 reads4_0 false false 2 stage4_0 sem4_0
    hrank4 hreads4_0 hinb4_0 nbuf4_0 (Memref.isWhole_whole _) hwx4_0 hstage4_0

abbrev win4_1 : Pipeline.Window sig grid4 :=
  Pipeline.Window.ofSpec (Memref.whole main_v82) S1x128.size cc4_transform_1 reads4_1 false true 1 stage4_1 sem4_1
    hrank4 hreads4_1 hinb4_1 nbuf4_1 (Memref.isWhole_whole _) hwx4_1 hstage4_1

abbrev win4_2 : Pipeline.Window sig grid4 :=
  Pipeline.Window.ofSpec (Memref.whole main_v83) S1x128.size cc4_transform_2 reads4_2 false true 1 stage4_2 sem4_2
    hrank4 hreads4_2 hinb4_2 nbuf4_2 (Memref.isWhole_whole _) hwx4_2 hstage4_2

abbrev win4_3 : Pipeline.Window sig grid4 :=
  Pipeline.Window.ofSpec (Memref.whole main_v4) S2000x1.size cc4_transform_3 reads4_3 false false 2 stage4_3 sem4_3
    hrank4 hreads4_3 hinb4_3 nbuf4_3 (Memref.isWhole_whole _) hwx4_3 hstage4_3

abbrev win4_4 : Pipeline.Window sig grid4 :=
  Pipeline.Window.ofSpec (Memref.whole main_v84) S1x64.size cc4_transform_4 reads4_4 false true 1 stage4_4 sem4_4
    hrank4 hreads4_4 hinb4_4 nbuf4_4 (Memref.isWhole_whole _) hwx4_4 hstage4_4

abbrev win4_5 : Pipeline.Window sig grid4 :=
  Pipeline.Window.ofSpec (Memref.whole main_v85) S1x64.size cc4_transform_5 reads4_5 false true 1 stage4_5 sem4_5
    hrank4 hreads4_5 hinb4_5 nbuf4_5 (Memref.isWhole_whole _) hwx4_5 hstage4_5

abbrev win4_6 : Pipeline.Window sig grid4 :=
  Pipeline.Window.ofSpec (Memref.whole main_v86) S1x1.size cc4_transform_6 reads4_6 false true 1 stage4_6 sem4_6
    hrank4 hreads4_6 hinb4_6 nbuf4_6 (Memref.isWhole_whole _) hwx4_6 hstage4_6

abbrev win4_7 : Pipeline.Window sig grid4 :=
  Pipeline.Window.ofSpec (Memref.whole main_v87) S2000x64.size cc4_transform_7 reads4_7 true false 2 stage4_7 sem4_7
    hrank4 hreads4_7 hinb4_7 nbuf4_7 (Memref.isWhole_whole _) hwx4_7 hstage4_7

abbrev win4 : Fin 8 → Pipeline.Window sig grid4 := fun | 0 => win4_0 | 1 => win4_1 | 2 => win4_2 | 3 => win4_3 | 4 => win4_4 | 5 => win4_5 | 6 => win4_6 | 7 => win4_7 | ⟨_ + 8, h⟩ => absurd h (Nat.not_lt.2 (Nat.le_add_left _ _))
abbrev spec4 : Fin 8 → Pipeline.WinSpec sig grid4.rank := fun w => (win4 w).toWinSpec

abbrev win5_0 : Pipeline.Window sig grid5 :=
  Pipeline.Window.ofSpec (Memref.whole main_v54) S2000x64.size cc5_transform_0 reads5_0 false false 2 stage5_0 sem5_0
    hrank5 hreads5_0 hinb5_0 nbuf5_0 (Memref.isWhole_whole _) hwx5_0 hstage5_0

abbrev win5_1 : Pipeline.Window sig grid5 :=
  Pipeline.Window.ofSpec (Memref.whole main_v87) S2000x64.size cc5_transform_1 reads5_1 false false 2 stage5_1 sem5_1
    hrank5 hreads5_1 hinb5_1 nbuf5_1 (Memref.isWhole_whole _) hwx5_1 hstage5_1

abbrev win5_2 : Pipeline.Window sig grid5 :=
  Pipeline.Window.ofSpec (Memref.whole main_arg0) S2000x64.size cc5_transform_2 reads5_2 false false 2 stage5_2 sem5_2
    hrank5 hreads5_2 hinb5_2 nbuf5_2 (Memref.isWhole_whole _) hwx5_2 hstage5_2

abbrev win5_3 : Pipeline.Window sig grid5 :=
  Pipeline.Window.ofSpec (Memref.whole main_arg11) S64x64.size cc5_transform_3 reads5_3 false true 1 stage5_3 sem5_3
    hrank5 hreads5_3 hinb5_3 nbuf5_3 (Memref.isWhole_whole _) hwx5_3 hstage5_3

abbrev win5_4 : Pipeline.Window sig grid5 :=
  Pipeline.Window.ofSpec (Memref.whole main_v88) S2000x64.size cc5_transform_4 reads5_4 true false 2 stage5_4 sem5_4
    hrank5 hreads5_4 hinb5_4 nbuf5_4 (Memref.isWhole_whole _) hwx5_4 hstage5_4

abbrev win5 : Fin 5 → Pipeline.Window sig grid5 := fun | 0 => win5_0 | 1 => win5_1 | 2 => win5_2 | 3 => win5_3 | 4 => win5_4 | ⟨_ + 5, h⟩ => absurd h (Nat.not_lt.2 (Nat.le_add_left _ _))
abbrev spec5 : Fin 5 → Pipeline.WinSpec sig grid5.rank := fun w => (win5 w).toWinSpec

abbrev win6_0 : Pipeline.Window sig grid6 :=
  Pipeline.Window.ofSpec (Memref.whole main_v101) S2000x64.size cc6_transform_0 reads6_0 false false 2 stage6_0 sem6_0
    hrank6 hreads6_0 hinb6_0 nbuf6_0 (Memref.isWhole_whole _) hwx6_0 hstage6_0

abbrev win6_1 : Pipeline.Window sig grid6 :=
  Pipeline.Window.ofSpec (Memref.whole main_v88) S2000x64.size cc6_transform_1 reads6_1 false false 2 stage6_1 sem6_1
    hrank6 hreads6_1 hinb6_1 nbuf6_1 (Memref.isWhole_whole _) hwx6_1 hstage6_1

abbrev win6_2 : Pipeline.Window sig grid6 :=
  Pipeline.Window.ofSpec (Memref.whole main_arg7) S64x64.size cc6_transform_2 reads6_2 false true 1 stage6_2 sem6_2
    hrank6 hreads6_2 hinb6_2 nbuf6_2 (Memref.isWhole_whole _) hwx6_2 hstage6_2

abbrev win6_3 : Pipeline.Window sig grid6 :=
  Pipeline.Window.ofSpec (Memref.whole main_v102) S1x64.size cc6_transform_3 reads6_3 false true 1 stage6_3 sem6_3
    hrank6 hreads6_3 hinb6_3 nbuf6_3 (Memref.isWhole_whole _) hwx6_3 hstage6_3

abbrev win6_4 : Pipeline.Window sig grid6 :=
  Pipeline.Window.ofSpec (Memref.whole main_arg9) S64x64.size cc6_transform_4 reads6_4 false true 1 stage6_4 sem6_4
    hrank6 hreads6_4 hinb6_4 nbuf6_4 (Memref.isWhole_whole _) hwx6_4 hstage6_4

abbrev win6_5 : Pipeline.Window sig grid6 :=
  Pipeline.Window.ofSpec (Memref.whole main_v4) S2000x1.size cc6_transform_5 reads6_5 false false 2 stage6_5 sem6_5
    hrank6 hreads6_5 hinb6_5 nbuf6_5 (Memref.isWhole_whole _) hwx6_5 hstage6_5

abbrev win6_6 : Pipeline.Window sig grid6 :=
  Pipeline.Window.ofSpec (Memref.whole main_v103_0) S2000x64.size cc6_transform_6 reads6_6 true false 2 stage6_6 sem6_6
    hrank6 hreads6_6 hinb6_6 nbuf6_6 (Memref.isWhole_whole _) hwx6_6 hstage6_6

abbrev win6_7 : Pipeline.Window sig grid6 :=
  Pipeline.Window.ofSpec (Memref.whole main_v103_1) S2x128.size cc6_transform_7 reads6_7 true true 1 stage6_7 sem6_7
    hrank6 hreads6_7 hinb6_7 nbuf6_7 (Memref.isWhole_whole _) hwx6_7 hstage6_7

abbrev win6 : Fin 8 → Pipeline.Window sig grid6 := fun | 0 => win6_0 | 1 => win6_1 | 2 => win6_2 | 3 => win6_3 | 4 => win6_4 | 5 => win6_5 | 6 => win6_6 | 7 => win6_7 | ⟨_ + 8, h⟩ => absurd h (Nat.not_lt.2 (Nat.le_add_left _ _))
abbrev spec6 : Fin 8 → Pipeline.WinSpec sig grid6.rank := fun w => (win6 w).toWinSpec

abbrev win7_0 : Pipeline.Window sig grid7 :=
  Pipeline.Window.ofSpec (Memref.whole main_v103_0) S2000x64.size cc7_transform_0 reads7_0 false false 2 stage7_0 sem7_0
    hrank7 hreads7_0 hinb7_0 nbuf7_0 (Memref.isWhole_whole _) hwx7_0 hstage7_0

abbrev win7_1 : Pipeline.Window sig grid7 :=
  Pipeline.Window.ofSpec (Memref.whole main_v115) S1x128.size cc7_transform_1 reads7_1 false true 1 stage7_1 sem7_1
    hrank7 hreads7_1 hinb7_1 nbuf7_1 (Memref.isWhole_whole _) hwx7_1 hstage7_1

abbrev win7_2 : Pipeline.Window sig grid7 :=
  Pipeline.Window.ofSpec (Memref.whole main_v116) S1x128.size cc7_transform_2 reads7_2 false true 1 stage7_2 sem7_2
    hrank7 hreads7_2 hinb7_2 nbuf7_2 (Memref.isWhole_whole _) hwx7_2 hstage7_2

abbrev win7_3 : Pipeline.Window sig grid7 :=
  Pipeline.Window.ofSpec (Memref.whole main_v4) S2000x1.size cc7_transform_3 reads7_3 false false 2 stage7_3 sem7_3
    hrank7 hreads7_3 hinb7_3 nbuf7_3 (Memref.isWhole_whole _) hwx7_3 hstage7_3

abbrev win7_4 : Pipeline.Window sig grid7 :=
  Pipeline.Window.ofSpec (Memref.whole main_v117) S1x64.size cc7_transform_4 reads7_4 false true 1 stage7_4 sem7_4
    hrank7 hreads7_4 hinb7_4 nbuf7_4 (Memref.isWhole_whole _) hwx7_4 hstage7_4

abbrev win7_5 : Pipeline.Window sig grid7 :=
  Pipeline.Window.ofSpec (Memref.whole main_v118) S1x64.size cc7_transform_5 reads7_5 false true 1 stage7_5 sem7_5
    hrank7 hreads7_5 hinb7_5 nbuf7_5 (Memref.isWhole_whole _) hwx7_5 hstage7_5

abbrev win7_6 : Pipeline.Window sig grid7 :=
  Pipeline.Window.ofSpec (Memref.whole main_v119) S1x1.size cc7_transform_6 reads7_6 false true 1 stage7_6 sem7_6
    hrank7 hreads7_6 hinb7_6 nbuf7_6 (Memref.isWhole_whole _) hwx7_6 hstage7_6

abbrev win7_7 : Pipeline.Window sig grid7 :=
  Pipeline.Window.ofSpec (Memref.whole main_v120) S2000x64.size cc7_transform_7 reads7_7 true false 2 stage7_7 sem7_7
    hrank7 hreads7_7 hinb7_7 nbuf7_7 (Memref.isWhole_whole _) hwx7_7 hstage7_7

abbrev win7 : Fin 8 → Pipeline.Window sig grid7 := fun | 0 => win7_0 | 1 => win7_1 | 2 => win7_2 | 3 => win7_3 | 4 => win7_4 | 5 => win7_5 | 6 => win7_6 | 7 => win7_7 | ⟨_ + 8, h⟩ => absurd h (Nat.not_lt.2 (Nat.le_add_left _ _))
abbrev spec7 : Fin 8 → Pipeline.WinSpec sig grid7.rank := fun w => (win7 w).toWinSpec

class Facts : Prop extends Facts₀ where

variable [Facts]
-- ==== ReferenceIdeal.lean ====
abbrev S50000x64 : Shape := ⟨2, ![50000, 64]⟩
abbrev S64x64 : Shape := ⟨2, ![64, 64]⟩
abbrev S64 : Shape := ⟨1, ![64]⟩
abbrev S1 : Shape := ⟨1, ![1]⟩
abbrev S2x800000 : Shape := ⟨2, ![2, 800000]⟩
abbrev S50000 : Shape := ⟨1, ![50000]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x64 : Shape := ⟨2, ![800000, 64]⟩
abbrev S50000x1 : Shape := ⟨2, ![50000, 1]⟩
abbrev S1x64 : Shape := ⟨2, ![1, 64]⟩
abbrev S128 : Shape := ⟨1, ![128]⟩
abbrev S128x64 : Shape := ⟨2, ![128, 64]⟩

abbrev nBuf : Space → Nat
  | .hbm => 329
  | .vmem => 0
  | .smem => 0
  | _ => 0

abbrev hbmTy0_0 (i : Nat) : BufTy := match i % 128 with
  | 0 => ⟨S50000x64, .f32⟩
  | 1 => ⟨S64x64, .f32⟩
  | 2 => ⟨S64, .f32⟩
  | 3 => ⟨S64x64, .f32⟩
  | 4 => ⟨S64x64, .f32⟩
  | 5 => ⟨S64, .f32⟩
  | 6 => ⟨S64x64, .f32⟩
  | 7 => ⟨S64x64, .f32⟩
  | 8 => ⟨S64, .f32⟩
  | 9 => ⟨S64x64, .f32⟩
  | 10 => ⟨S64x64, .f32⟩
  | 11 => ⟨S64x64, .f32⟩
  | 12 => ⟨S64, .f32⟩
  | 13 => ⟨S64, .f32⟩
  | 14 => ⟨S64, .f32⟩
  | 15 => ⟨S64, .f32⟩
  | 16 => ⟨S64, .f32⟩
  | 17 => ⟨S64, .f32⟩
  | 18 => ⟨S1, .f32⟩
  | 19 => ⟨S1, .f32⟩
  | 20 => ⟨S1, .f32⟩
  | 21 => ⟨S2x800000, .i32⟩
  | 22 => ⟨S50000, .i32⟩
  | 23 => ⟨S1x800000, .i32⟩
  | 24 => ⟨S800000, .i32⟩
  | 25 => ⟨S1x800000, .i32⟩
  | 26 => ⟨S800000, .i32⟩
  | 27 => ⟨S_, .i32⟩
  | 28 => ⟨S800000, .i32⟩
  | 29 => ⟨S800000, .i1⟩
  | 30 => ⟨S_, .i32⟩
  | 31 => ⟨S800000, .i32⟩
  | 32 => ⟨S800000, .i32⟩
  | 33 => ⟨S800000, .i32⟩
  | 34 => ⟨S800000x1, .i32⟩
  | 35 => ⟨S800000x64, .f32⟩
  | 36 => ⟨S_, .f32⟩
  | 37 => ⟨S50000x64, .f32⟩
  | 38 => ⟨S800000x1, .i32⟩
  | 39 => ⟨S50000x64, .f32⟩
  | 40 => ⟨S_, .f32⟩
  | 41 => ⟨S800000, .f32⟩
  | 42 => ⟨S_, .f32⟩
  | 43 => ⟨S50000, .f32⟩
  | 44 => ⟨S800000x1, .i32⟩
  | 45 => ⟨S50000, .f32⟩
  | 46 => ⟨S_, .f32⟩
  | 47 => ⟨S50000, .f32⟩
  | 48 => ⟨S50000, .f32⟩
  | 49 => ⟨S50000x1, .f32⟩
  | 50 => ⟨S50000x64, .f32⟩
  | 51 => ⟨S50000x64, .f32⟩
  | 52 => ⟨S50000x64, .f32⟩
  | 53 => ⟨S1x64, .f32⟩
  | 54 => ⟨S50000x64, .f32⟩
  | 55 => ⟨S50000x64, .f32⟩
  | 56 => ⟨S50000x64, .f32⟩
  | 57 => ⟨S50000x64, .f32⟩
  | 58 => ⟨S_, .f32⟩
  | 59 => ⟨S50000, .f32⟩
  | 60 => ⟨S_, .f32⟩
  | 61 => ⟨S128, .f32⟩
  | 62 => ⟨S50000x1, .i32⟩
  | 63 => ⟨S128, .f32⟩
  | 64 => ⟨S_, .f32⟩
  | 65 => ⟨S128, .f32⟩
  | 66 => ⟨S128, .f32⟩
  | 67 => ⟨S_, .f32⟩
  | 68 => ⟨S128, .f32⟩
  | 69 => ⟨S128, .f32⟩
  | 70 => ⟨S_, .f32⟩
  | 71 => ⟨S128x64, .f32⟩
  | 72 => ⟨S50000x1, .i32⟩
  | 73 => ⟨S128x64, .f32⟩
  | 74 => ⟨S_, .f32⟩
  | 75 => ⟨S128, .f32⟩
  | 76 => ⟨S128, .f32⟩
  | 77 => ⟨S_, .i32⟩
  | 78 => ⟨S50000, .i32⟩
  | 79 => ⟨S50000, .i1⟩
  | 80 => ⟨S_, .i32⟩
  | 81 => ⟨S50000, .i32⟩
  | 82 => ⟨S50000, .i32⟩
  | 83 => ⟨S50000, .i32⟩
  | 84 => ⟨S50000x1, .i32⟩
  | 85 => ⟨S50000, .f32⟩
  | 86 => ⟨S50000x1, .f32⟩
  | 87 => ⟨S50000x64, .f32⟩
  | 88 => ⟨S50000x64, .f32⟩
  | 89 => ⟨S50000x64, .f32⟩
  | 90 => ⟨S_, .f32⟩
  | 91 => ⟨S128x64, .f32⟩
  | 92 => ⟨S50000x1, .i32⟩
  | 93 => ⟨S128x64, .f32⟩
  | 94 => ⟨S_, .f32⟩
  | 95 => ⟨S128, .f32⟩
  | 96 => ⟨S128, .f32⟩
  | 97 => ⟨S_, .f32⟩
  | 98 => ⟨S128, .f32⟩
  | 99 => ⟨S128, .f32⟩
  | 100 => ⟨S128, .f32⟩
  | 101 => ⟨S_, .i32⟩
  | 102 => ⟨S50000, .i32⟩
  | 103 => ⟨S50000, .i1⟩
  | 104 => ⟨S_, .i32⟩
  | 105 => ⟨S50000, .i32⟩
  | 106 => ⟨S50000, .i32⟩
  | 107 => ⟨S50000, .i32⟩
  | 108 => ⟨S50000x1, .i32⟩
  | 109 => ⟨S50000, .f32⟩
  | 110 => ⟨S50000x1, .f32⟩
  | 111 => ⟨S50000x64, .f32⟩
  | 112 => ⟨S50000x64, .f32⟩
  | 113 => ⟨S1x64, .f32⟩
  | 114 => ⟨S50000x64, .f32⟩
  | 115 => ⟨S50000x64, .f32⟩
  | 116 => ⟨S1x64, .f32⟩
  | 117 => ⟨S50000x64, .f32⟩
  | 118 => ⟨S50000x64, .f32⟩
  | 119 => ⟨S_, .f32⟩
  | 120 => ⟨S50000x64, .f32⟩
  | 121 => ⟨S50000x64, .i1⟩
  | 122 => ⟨S_, .f32⟩
  | 123 => ⟨S50000x64, .f32⟩
  | 124 => ⟨S50000x64, .f32⟩
  | 125 => ⟨S50000x64, .f32⟩
  | 126 => ⟨S50000x64, .f32⟩
  | 127 => ⟨S50000x64, .f32⟩
  | _ => ⟨S50000x64, .f32⟩

abbrev hbmTy0_1 (i : Nat) : BufTy := match i % 128 with
  | 0 => ⟨S_, .i32⟩
  | 1 => ⟨S800000, .i32⟩
  | 2 => ⟨S800000, .i1⟩
  | 3 => ⟨S_, .i32⟩
  | 4 => ⟨S800000, .i32⟩
  | 5 => ⟨S800000, .i32⟩
  | 6 => ⟨S800000, .i32⟩
  | 7 => ⟨S800000x1, .i32⟩
  | 8 => ⟨S800000x64, .f32⟩
  | 9 => ⟨S_, .f32⟩
  | 10 => ⟨S50000x64, .f32⟩
  | 11 => ⟨S800000x1, .i32⟩
  | 12 => ⟨S50000x64, .f32⟩
  | 13 => ⟨S_, .f32⟩
  | 14 => ⟨S800000, .f32⟩
  | 15 => ⟨S_, .f32⟩
  | 16 => ⟨S50000, .f32⟩
  | 17 => ⟨S800000x1, .i32⟩
  | 18 => ⟨S50000, .f32⟩
  | 19 => ⟨S_, .f32⟩
  | 20 => ⟨S50000, .f32⟩
  | 21 => ⟨S50000, .f32⟩
  | 22 => ⟨S50000x1, .f32⟩
  | 23 => ⟨S50000x64, .f32⟩
  | 24 => ⟨S50000x64, .f32⟩
  | 25 => ⟨S50000x64, .f32⟩
  | 26 => ⟨S1x64, .f32⟩
  | 27 => ⟨S50000x64, .f32⟩
  | 28 => ⟨S50000x64, .f32⟩
  | 29 => ⟨S50000x64, .f32⟩
  | 30 => ⟨S50000x64, .f32⟩
  | 31 => ⟨S_, .f32⟩
  | 32 => ⟨S50000, .f32⟩
  | 33 => ⟨S_, .f32⟩
  | 34 => ⟨S128, .f32⟩
  | 35 => ⟨S50000x1, .i32⟩
  | 36 => ⟨S128, .f32⟩
  | 37 => ⟨S_, .f32⟩
  | 38 => ⟨S128, .f32⟩
  | 39 => ⟨S128, .f32⟩
  | 40 => ⟨S_, .f32⟩
  | 41 => ⟨S128, .f32⟩
  | 42 => ⟨S128, .f32⟩
  | 43 => ⟨S_, .f32⟩
  | 44 => ⟨S128x64, .f32⟩
  | 45 => ⟨S50000x1, .i32⟩
  | 46 => ⟨S128x64, .f32⟩
  | 47 => ⟨S_, .f32⟩
  | 48 => ⟨S128, .f32⟩
  | 49 => ⟨S128, .f32⟩
  | 50 => ⟨S_, .i32⟩
  | 51 => ⟨S50000, .i32⟩
  | 52 => ⟨S50000, .i1⟩
  | 53 => ⟨S_, .i32⟩
  | 54 => ⟨S50000, .i32⟩
  | 55 => ⟨S50000, .i32⟩
  | 56 => ⟨S50000, .i32⟩
  | 57 => ⟨S50000x1, .i32⟩
  | 58 => ⟨S50000, .f32⟩
  | 59 => ⟨S50000x1, .f32⟩
  | 60 => ⟨S50000x64, .f32⟩
  | 61 => ⟨S50000x64, .f32⟩
  | 62 => ⟨S50000x64, .f32⟩
  | 63 => ⟨S_, .f32⟩
  | 64 => ⟨S128x64, .f32⟩
  | 65 => ⟨S50000x1, .i32⟩
  | 66 => ⟨S128x64, .f32⟩
  | 67 => ⟨S_, .f32⟩
  | 68 => ⟨S128, .f32⟩
  | 69 => ⟨S128, .f32⟩
  | 70 => ⟨S_, .f32⟩
  | 71 => ⟨S128, .f32⟩
  | 72 => ⟨S128, .f32⟩
  | 73 => ⟨S128, .f32⟩
  | 74 => ⟨S_, .i32⟩
  | 75 => ⟨S50000, .i32⟩
  | 76 => ⟨S50000, .i1⟩
  | 77 => ⟨S_, .i32⟩
  | 78 => ⟨S50000, .i32⟩
  | 79 => ⟨S50000, .i32⟩
  | 80 => ⟨S50000, .i32⟩
  | 81 => ⟨S50000x1, .i32⟩
  | 82 => ⟨S50000, .f32⟩
  | 83 => ⟨S50000x1, .f32⟩
  | 84 => ⟨S50000x64, .f32⟩
  | 85 => ⟨S50000x64, .f32⟩
  | 86 => ⟨S1x64, .f32⟩
  | 87 => ⟨S50000x64, .f32⟩
  | 88 => ⟨S50000x64, .f32⟩
  | 89 => ⟨S1x64, .f32⟩
  | 90 => ⟨S50000x64, .f32⟩
  | 91 => ⟨S50000x64, .f32⟩
  | 92 => ⟨S_, .f32⟩
  | 93 => ⟨S50000x64, .f32⟩
  | 94 => ⟨S50000x64, .i1⟩
  | 95 => ⟨S_, .f32⟩
  | 96 => ⟨S50000x64, .f32⟩
  | 97 => ⟨S50000x64, .f32⟩
  | 98 => ⟨S50000x64, .f32⟩
  | 99 => ⟨S50000x64, .f32⟩
  | 100 => ⟨S50000x64, .f32⟩
  | 101 => ⟨S50000x64, .f32⟩
  | 102 => ⟨S_, .i32⟩
  | 103 => ⟨S800000, .i32⟩
  | 104 => ⟨S800000, .i1⟩
  | 105 => ⟨S_, .i32⟩
  | 106 => ⟨S800000, .i32⟩
  | 107 => ⟨S800000, .i32⟩
  | 108 => ⟨S800000, .i32⟩
  | 109 => ⟨S800000x1, .i32⟩
  | 110 => ⟨S800000x64, .f32⟩
  | 111 => ⟨S_, .f32⟩
  | 112 => ⟨S50000x64, .f32⟩
  | 113 => ⟨S800000x1, .i32⟩
  | 114 => ⟨S50000x64, .f32⟩
  | 115 => ⟨S_, .f32⟩
  | 116 => ⟨S800000, .f32⟩
  | 117 => ⟨S_, .f32⟩
  | 118 => ⟨S50000, .f32⟩
  | 119 => ⟨S800000x1, .i32⟩
  | 120 => ⟨S50000, .f32⟩
  | 121 => ⟨S_, .f32⟩
  | 122 => ⟨S50000, .f32⟩
  | 123 => ⟨S50000, .f32⟩
  | 124 => ⟨S50000x1, .f32⟩
  | 125 => ⟨S50000x64, .f32⟩
  | 126 => ⟨S50000x64, .f32⟩
  | 127 => ⟨S50000x64, .f32⟩
  | _ => ⟨S50000x64, .f32⟩

abbrev hbmTy0_2 (i : Nat) : BufTy := match i % 128 with
  | 0 => ⟨S1x64, .f32⟩
  | 1 => ⟨S50000x64, .f32⟩
  | 2 => ⟨S50000x64, .f32⟩
  | 3 => ⟨S50000x64, .f32⟩
  | 4 => ⟨S50000x64, .f32⟩
  | 5 => ⟨S_, .f32⟩
  | 6 => ⟨S50000, .f32⟩
  | 7 => ⟨S_, .f32⟩
  | 8 => ⟨S128, .f32⟩
  | 9 => ⟨S50000x1, .i32⟩
  | 10 => ⟨S128, .f32⟩
  | 11 => ⟨S_, .f32⟩
  | 12 => ⟨S128, .f32⟩
  | 13 => ⟨S128, .f32⟩
  | 14 => ⟨S_, .f32⟩
  | 15 => ⟨S128, .f32⟩
  | 16 => ⟨S128, .f32⟩
  | 17 => ⟨S_, .f32⟩
  | 18 => ⟨S128x64, .f32⟩
  | 19 => ⟨S50000x1, .i32⟩
  | 20 => ⟨S128x64, .f32⟩
  | 21 => ⟨S_, .f32⟩
  | 22 => ⟨S128, .f32⟩
  | 23 => ⟨S128, .f32⟩
  | 24 => ⟨S_, .i32⟩
  | 25 => ⟨S50000, .i32⟩
  | 26 => ⟨S50000, .i1⟩
  | 27 => ⟨S_, .i32⟩
  | 28 => ⟨S50000, .i32⟩
  | 29 => ⟨S50000, .i32⟩
  | 30 => ⟨S50000, .i32⟩
  | 31 => ⟨S50000x1, .i32⟩
  | 32 => ⟨S50000, .f32⟩
  | 33 => ⟨S50000x1, .f32⟩
  | 34 => ⟨S50000x64, .f32⟩
  | 35 => ⟨S50000x64, .f32⟩
  | 36 => ⟨S50000x64, .f32⟩
  | 37 => ⟨S_, .f32⟩
  | 38 => ⟨S128x64, .f32⟩
  | 39 => ⟨S50000x1, .i32⟩
  | 40 => ⟨S128x64, .f32⟩
  | 41 => ⟨S_, .f32⟩
  | 42 => ⟨S128, .f32⟩
  | 43 => ⟨S128, .f32⟩
  | 44 => ⟨S_, .f32⟩
  | 45 => ⟨S128, .f32⟩
  | 46 => ⟨S128, .f32⟩
  | 47 => ⟨S128, .f32⟩
  | 48 => ⟨S_, .i32⟩
  | 49 => ⟨S50000, .i32⟩
  | 50 => ⟨S50000, .i1⟩
  | 51 => ⟨S_, .i32⟩
  | 52 => ⟨S50000, .i32⟩
  | 53 => ⟨S50000, .i32⟩
  | 54 => ⟨S50000, .i32⟩
  | 55 => ⟨S50000x1, .i32⟩
  | 56 => ⟨S50000, .f32⟩
  | 57 => ⟨S50000x1, .f32⟩
  | 58 => ⟨S50000x64, .f32⟩
  | 59 => ⟨S50000x64, .f32⟩
  | 60 => ⟨S1x64, .f32⟩
  | 61 => ⟨S50000x64, .f32⟩
  | 62 => ⟨S50000x64, .f32⟩
  | 63 => ⟨S1x64, .f32⟩
  | 64 => ⟨S50000x64, .f32⟩
  | 65 => ⟨S50000x64, .f32⟩
  | 66 => ⟨S_, .f32⟩
  | 67 => ⟨S50000x64, .f32⟩
  | 68 => ⟨S50000x64, .i1⟩
  | 69 => ⟨S_, .f32⟩
  | 70 => ⟨S50000x64, .f32⟩
  | 71 => ⟨S50000x64, .f32⟩
  | 72 => ⟨S50000x64, .f32⟩
  | _ => ⟨S50000x64, .f32⟩

abbrev hbmTy (i : Nat) : BufTy := match i / 128 with
  | 0 => hbmTy0_0 i
  | 1 => hbmTy0_1 i
  | 2 => hbmTy0_2 i
  | _ => ⟨S50000x64, .f32⟩

abbrev bufTy : (tb : Table) → Fin (tcTables nBuf tb) → BufTy
  | .hbm, ⟨i, _⟩ => hbmTy i
  | _, _ => ⟨S50000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_v0 : Ref sig .tc := ⟨.hbm, 23, rfl⟩
abbrev main_v1 : Ref sig .tc := ⟨.hbm, 24, rfl⟩
abbrev main_v2 : Ref sig .tc := ⟨.hbm, 25, rfl⟩
abbrev main_v3 : Ref sig .tc := ⟨.hbm, 26, rfl⟩
abbrev main_c : Ref sig .tc := ⟨.hbm, 27, rfl⟩
abbrev main_v4 : Ref sig .tc := ⟨.hbm, 28, rfl⟩
abbrev main_v5 : Ref sig .tc := ⟨.hbm, 29, rfl⟩
abbrev main_c_0 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_v9 : Ref sig .tc := ⟨.hbm, 34, rfl⟩
abbrev main_v10 : Ref sig .tc := ⟨.hbm, 35, rfl⟩
abbrev main_cst : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_cst_1 : Ref sig .tc := ⟨.hbm, 40, rfl⟩
abbrev main_v14 : Ref sig .tc := ⟨.hbm, 41, rfl⟩
abbrev main_cst_2 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_cst_3 : Ref sig .tc := ⟨.hbm, 46, rfl⟩
abbrev main_v18 : Ref sig .tc := ⟨.hbm, 47, rfl⟩
abbrev main_v19 : Ref sig .tc := ⟨.hbm, 48, rfl⟩
abbrev main_v20 : Ref sig .tc := ⟨.hbm, 49, rfl⟩
abbrev main_v21 : Ref sig .tc := ⟨.hbm, 50, rfl⟩
abbrev main_v22 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_v27 : Ref sig .tc := ⟨.hbm, 56, rfl⟩
abbrev main_v28 : Ref sig .tc := ⟨.hbm, 57, rfl⟩
abbrev main_cst_4 : Ref sig .tc := ⟨.hbm, 58, rfl⟩
abbrev main_v29 : Ref sig .tc := ⟨.hbm, 59, rfl⟩
abbrev main_cst_5 : Ref sig .tc := ⟨.hbm, 60, rfl⟩
abbrev main_v30 : Ref sig .tc := ⟨.hbm, 61, rfl⟩
abbrev main_v31 : Ref sig .tc := ⟨.hbm, 62, rfl⟩
abbrev main_v32 : Ref sig .tc := ⟨.hbm, 63, rfl⟩
abbrev main_cst_6 : Ref sig .tc := ⟨.hbm, 64, rfl⟩
abbrev main_v33 : Ref sig .tc := ⟨.hbm, 65, rfl⟩
abbrev main_v34 : Ref sig .tc := ⟨.hbm, 66, rfl⟩
abbrev main_cst_7 : Ref sig .tc := ⟨.hbm, 67, rfl⟩
abbrev main_v35 : Ref sig .tc := ⟨.hbm, 68, rfl⟩
abbrev main_v36 : Ref sig .tc := ⟨.hbm, 69, rfl⟩
abbrev main_cst_8 : Ref sig .tc := ⟨.hbm, 70, rfl⟩
abbrev main_v37 : Ref sig .tc := ⟨.hbm, 71, rfl⟩
abbrev main_v38 : Ref sig .tc := ⟨.hbm, 72, rfl⟩
abbrev main_v39 : Ref sig .tc := ⟨.hbm, 73, rfl⟩
abbrev main_cst_9 : Ref sig .tc := ⟨.hbm, 74, rfl⟩
abbrev main_v40 : Ref sig .tc := ⟨.hbm, 75, rfl⟩
abbrev main_v41 : Ref sig .tc := ⟨.hbm, 76, rfl⟩
abbrev main_c_10 : Ref sig .tc := ⟨.hbm, 77, rfl⟩
abbrev main_v42 : Ref sig .tc := ⟨.hbm, 78, rfl⟩
abbrev main_v43 : Ref sig .tc := ⟨.hbm, 79, rfl⟩
abbrev main_c_11 : Ref sig .tc := ⟨.hbm, 80, rfl⟩
abbrev main_v44 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_v52 : Ref sig .tc := ⟨.hbm, 89, rfl⟩
abbrev main_cst_12 : Ref sig .tc := ⟨.hbm, 90, rfl⟩
abbrev main_v53 : Ref sig .tc := ⟨.hbm, 91, rfl⟩
abbrev main_v54 : Ref sig .tc := ⟨.hbm, 92, rfl⟩
abbrev main_v55 : Ref sig .tc := ⟨.hbm, 93, rfl⟩
abbrev main_cst_13 : Ref sig .tc := ⟨.hbm, 94, rfl⟩
abbrev main_v56 : Ref sig .tc := ⟨.hbm, 95, rfl⟩
abbrev main_v57 : Ref sig .tc := ⟨.hbm, 96, rfl⟩
abbrev main_cst_14 : Ref sig .tc := ⟨.hbm, 97, rfl⟩
abbrev main_v58 : Ref sig .tc := ⟨.hbm, 98, rfl⟩
abbrev main_v59 : Ref sig .tc := ⟨.hbm, 99, rfl⟩
abbrev main_v60 : Ref sig .tc := ⟨.hbm, 100, rfl⟩
abbrev main_c_15 : Ref sig .tc := ⟨.hbm, 101, rfl⟩
abbrev main_v61 : Ref sig .tc := ⟨.hbm, 102, rfl⟩
abbrev main_v62 : Ref sig .tc := ⟨.hbm, 103, rfl⟩
abbrev main_c_16 : Ref sig .tc := ⟨.hbm, 104, rfl⟩
abbrev main_v63 : Ref sig .tc := ⟨.hbm, 105, rfl⟩
abbrev main_v64 : Ref sig .tc := ⟨.hbm, 106, rfl⟩
abbrev main_v65 : Ref sig .tc := ⟨.hbm, 107, rfl⟩
abbrev main_v66 : Ref sig .tc := ⟨.hbm, 108, rfl⟩
abbrev main_v67 : Ref sig .tc := ⟨.hbm, 109, rfl⟩
abbrev main_v68 : Ref sig .tc := ⟨.hbm, 110, rfl⟩
abbrev main_v69 : Ref sig .tc := ⟨.hbm, 111, rfl⟩
abbrev main_v70 : Ref sig .tc := ⟨.hbm, 112, rfl⟩
abbrev main_v71 : Ref sig .tc := ⟨.hbm, 113, rfl⟩
abbrev main_v72 : Ref sig .tc := ⟨.hbm, 114, rfl⟩
abbrev main_v73 : Ref sig .tc := ⟨.hbm, 115, rfl⟩
abbrev main_v74 : Ref sig .tc := ⟨.hbm, 116, rfl⟩
abbrev main_v75 : Ref sig .tc := ⟨.hbm, 117, rfl⟩
abbrev main_v76 : Ref sig .tc := ⟨.hbm, 118, rfl⟩
abbrev main_cst_17 : Ref sig .tc := ⟨.hbm, 119, rfl⟩
abbrev main_v77 : Ref sig .tc := ⟨.hbm, 120, rfl⟩
abbrev main_v78 : Ref sig .tc := ⟨.hbm, 121, rfl⟩
abbrev main_v79 : Ref sig .tc := ⟨.hbm, 122, rfl⟩
abbrev main_v80 : Ref sig .tc := ⟨.hbm, 123, rfl⟩
abbrev main_v81 : Ref sig .tc := ⟨.hbm, 124, rfl⟩
abbrev main_v82 : Ref sig .tc := ⟨.hbm, 125, rfl⟩
abbrev main_v83 : Ref sig .tc := ⟨.hbm, 126, rfl⟩
abbrev main_v84 : Ref sig .tc := ⟨.hbm, 127, rfl⟩
abbrev main_c_18 : Ref sig .tc := ⟨.hbm, 128, rfl⟩
abbrev main_v85 : Ref sig .tc := ⟨.hbm, 129, rfl⟩
abbrev main_v86 : Ref sig .tc := ⟨.hbm, 130, rfl⟩
abbrev main_c_19 : Ref sig .tc := ⟨.hbm, 131, rfl⟩
abbrev main_v87 : Ref sig .tc := ⟨.hbm, 132, rfl⟩
abbrev main_v88 : Ref sig .tc := ⟨.hbm, 133, rfl⟩
abbrev main_v89 : Ref sig .tc := ⟨.hbm, 134, rfl⟩
abbrev main_v90 : Ref sig .tc := ⟨.hbm, 135, rfl⟩
abbrev main_v91 : Ref sig .tc := ⟨.hbm, 136, rfl⟩
abbrev main_cst_20 : Ref sig .tc := ⟨.hbm, 137, rfl⟩
abbrev main_v92 : Ref sig .tc := ⟨.hbm, 138, rfl⟩
abbrev main_v93 : Ref sig .tc := ⟨.hbm, 139, rfl⟩
abbrev main_v94 : Ref sig .tc := ⟨.hbm, 140, rfl⟩
abbrev main_cst_21 : Ref sig .tc := ⟨.hbm, 141, rfl⟩
abbrev main_v95 : Ref sig .tc := ⟨.hbm, 142, rfl⟩
abbrev main_cst_22 : Ref sig .tc := ⟨.hbm, 143, rfl⟩
abbrev main_v96 : Ref sig .tc := ⟨.hbm, 144, rfl⟩
abbrev main_v97 : Ref sig .tc := ⟨.hbm, 145, rfl⟩
abbrev main_v98 : Ref sig .tc := ⟨.hbm, 146, rfl⟩
abbrev main_cst_23 : Ref sig .tc := ⟨.hbm, 147, rfl⟩
abbrev main_v99 : Ref sig .tc := ⟨.hbm, 148, rfl⟩
abbrev main_v100 : Ref sig .tc := ⟨.hbm, 149, rfl⟩
abbrev main_v101 : Ref sig .tc := ⟨.hbm, 150, rfl⟩
abbrev main_v102 : Ref sig .tc := ⟨.hbm, 151, rfl⟩
abbrev main_v103 : Ref sig .tc := ⟨.hbm, 152, rfl⟩
abbrev main_v104 : Ref sig .tc := ⟨.hbm, 153, rfl⟩
abbrev main_v105 : Ref sig .tc := ⟨.hbm, 154, rfl⟩
abbrev main_v106 : Ref sig .tc := ⟨.hbm, 155, rfl⟩
abbrev main_v107 : Ref sig .tc := ⟨.hbm, 156, rfl⟩
abbrev main_v108 : Ref sig .tc := ⟨.hbm, 157, rfl⟩
abbrev main_v109 : Ref sig .tc := ⟨.hbm, 158, rfl⟩
abbrev main_cst_24 : Ref sig .tc := ⟨.hbm, 159, rfl⟩
abbrev main_v110 : Ref sig .tc := ⟨.hbm, 160, rfl⟩
abbrev main_cst_25 : Ref sig .tc := ⟨.hbm, 161, rfl⟩
abbrev main_v111 : Ref sig .tc := ⟨.hbm, 162, rfl⟩
abbrev main_v112 : Ref sig .tc := ⟨.hbm, 163, rfl⟩
abbrev main_v113 : Ref sig .tc := ⟨.hbm, 164, rfl⟩
abbrev main_cst_26 : Ref sig .tc := ⟨.hbm, 165, rfl⟩
abbrev main_v114 : Ref sig .tc := ⟨.hbm, 166, rfl⟩
abbrev main_v115 : Ref sig .tc := ⟨.hbm, 167, rfl⟩
abbrev main_cst_27 : Ref sig .tc := ⟨.hbm, 168, rfl⟩
abbrev main_v116 : Ref sig .tc := ⟨.hbm, 169, rfl⟩
abbrev main_v117 : Ref sig .tc := ⟨.hbm, 170, rfl⟩
abbrev main_cst_28 : Ref sig .tc := ⟨.hbm, 171, rfl⟩
abbrev main_v118 : Ref sig .tc := ⟨.hbm, 172, rfl⟩
abbrev main_v119 : Ref sig .tc := ⟨.hbm, 173, rfl⟩
abbrev main_v120 : Ref sig .tc := ⟨.hbm, 174, rfl⟩
abbrev main_cst_29 : Ref sig .tc := ⟨.hbm, 175, rfl⟩
abbrev main_v121 : Ref sig .tc := ⟨.hbm, 176, rfl⟩
abbrev main_v122 : Ref sig .tc := ⟨.hbm, 177, rfl⟩
abbrev main_c_30 : Ref sig .tc := ⟨.hbm, 178, rfl⟩
abbrev main_v123 : Ref sig .tc := ⟨.hbm, 179, rfl⟩
abbrev main_v124 : Ref sig .tc := ⟨.hbm, 180, rfl⟩
abbrev main_c_31 : Ref sig .tc := ⟨.hbm, 181, rfl⟩
abbrev main_v125 : Ref sig .tc := ⟨.hbm, 182, rfl⟩
abbrev main_v126 : Ref sig .tc := ⟨.hbm, 183, rfl⟩
abbrev main_v127 : Ref sig .tc := ⟨.hbm, 184, rfl⟩
abbrev main_v128 : Ref sig .tc := ⟨.hbm, 185, rfl⟩
abbrev main_v129 : Ref sig .tc := ⟨.hbm, 186, rfl⟩
abbrev main_v130 : Ref sig .tc := ⟨.hbm, 187, rfl⟩
abbrev main_v131 : Ref sig .tc := ⟨.hbm, 188, rfl⟩
abbrev main_v132 : Ref sig .tc := ⟨.hbm, 189, rfl⟩
abbrev main_v133 : Ref sig .tc := ⟨.hbm, 190, rfl⟩
abbrev main_cst_32 : Ref sig .tc := ⟨.hbm, 191, rfl⟩
abbrev main_v134 : Ref sig .tc := ⟨.hbm, 192, rfl⟩
abbrev main_v135 : Ref sig .tc := ⟨.hbm, 193, rfl⟩
abbrev main_v136 : Ref sig .tc := ⟨.hbm, 194, rfl⟩
abbrev main_cst_33 : Ref sig .tc := ⟨.hbm, 195, rfl⟩
abbrev main_v137 : Ref sig .tc := ⟨.hbm, 196, rfl⟩
abbrev main_v138 : Ref sig .tc := ⟨.hbm, 197, rfl⟩
abbrev main_cst_34 : Ref sig .tc := ⟨.hbm, 198, rfl⟩
abbrev main_v139 : Ref sig .tc := ⟨.hbm, 199, rfl⟩
abbrev main_v140 : Ref sig .tc := ⟨.hbm, 200, rfl⟩
abbrev main_v141 : Ref sig .tc := ⟨.hbm, 201, rfl⟩
abbrev main_c_35 : Ref sig .tc := ⟨.hbm, 202, rfl⟩
abbrev main_v142 : Ref sig .tc := ⟨.hbm, 203, rfl⟩
abbrev main_v143 : Ref sig .tc := ⟨.hbm, 204, rfl⟩
abbrev main_c_36 : Ref sig .tc := ⟨.hbm, 205, rfl⟩
abbrev main_v144 : Ref sig .tc := ⟨.hbm, 206, rfl⟩
abbrev main_v145 : Ref sig .tc := ⟨.hbm, 207, rfl⟩
abbrev main_v146 : Ref sig .tc := ⟨.hbm, 208, rfl⟩
abbrev main_v147 : Ref sig .tc := ⟨.hbm, 209, rfl⟩
abbrev main_v148 : Ref sig .tc := ⟨.hbm, 210, rfl⟩
abbrev main_v149 : Ref sig .tc := ⟨.hbm, 211, rfl⟩
abbrev main_v150 : Ref sig .tc := ⟨.hbm, 212, rfl⟩
abbrev main_v151 : Ref sig .tc := ⟨.hbm, 213, rfl⟩
abbrev main_v152 : Ref sig .tc := ⟨.hbm, 214, rfl⟩
abbrev main_v153 : Ref sig .tc := ⟨.hbm, 215, rfl⟩
abbrev main_v154 : Ref sig .tc := ⟨.hbm, 216, rfl⟩
abbrev main_v155 : Ref sig .tc := ⟨.hbm, 217, rfl⟩
abbrev main_v156 : Ref sig .tc := ⟨.hbm, 218, rfl⟩
abbrev main_v157 : Ref sig .tc := ⟨.hbm, 219, rfl⟩
abbrev main_cst_37 : Ref sig .tc := ⟨.hbm, 220, rfl⟩
abbrev main_v158 : Ref sig .tc := ⟨.hbm, 221, rfl⟩
abbrev main_v159 : Ref sig .tc := ⟨.hbm, 222, rfl⟩
abbrev main_v160 : Ref sig .tc := ⟨.hbm, 223, rfl⟩
abbrev main_v161 : Ref sig .tc := ⟨.hbm, 224, rfl⟩
abbrev main_v162 : Ref sig .tc := ⟨.hbm, 225, rfl⟩
abbrev main_v163 : Ref sig .tc := ⟨.hbm, 226, rfl⟩
abbrev main_v164 : Ref sig .tc := ⟨.hbm, 227, rfl⟩
abbrev main_v165 : Ref sig .tc := ⟨.hbm, 228, rfl⟩
abbrev main_v166 : Ref sig .tc := ⟨.hbm, 229, rfl⟩
abbrev main_c_38 : Ref sig .tc := ⟨.hbm, 230, rfl⟩
abbrev main_v167 : Ref sig .tc := ⟨.hbm, 231, rfl⟩
abbrev main_v168 : Ref sig .tc := ⟨.hbm, 232, rfl⟩
abbrev main_c_39 : Ref sig .tc := ⟨.hbm, 233, rfl⟩
abbrev main_v169 : Ref sig .tc := ⟨.hbm, 234, rfl⟩
abbrev main_v170 : Ref sig .tc := ⟨.hbm, 235, rfl⟩
abbrev main_v171 : Ref sig .tc := ⟨.hbm, 236, rfl⟩
abbrev main_v172 : Ref sig .tc := ⟨.hbm, 237, rfl⟩
abbrev main_v173 : Ref sig .tc := ⟨.hbm, 238, rfl⟩
abbrev main_cst_40 : Ref sig .tc := ⟨.hbm, 239, rfl⟩
abbrev main_v174 : Ref sig .tc := ⟨.hbm, 240, rfl⟩
abbrev main_v175 : Ref sig .tc := ⟨.hbm, 241, rfl⟩
abbrev main_v176 : Ref sig .tc := ⟨.hbm, 242, rfl⟩
abbrev main_cst_41 : Ref sig .tc := ⟨.hbm, 243, rfl⟩
abbrev main_v177 : Ref sig .tc := ⟨.hbm, 244, rfl⟩
abbrev main_cst_42 : Ref sig .tc := ⟨.hbm, 245, rfl⟩
abbrev main_v178 : Ref sig .tc := ⟨.hbm, 246, rfl⟩
abbrev main_v179 : Ref sig .tc := ⟨.hbm, 247, rfl⟩
abbrev main_v180 : Ref sig .tc := ⟨.hbm, 248, rfl⟩
abbrev main_cst_43 : Ref sig .tc := ⟨.hbm, 249, rfl⟩
abbrev main_v181 : Ref sig .tc := ⟨.hbm, 250, rfl⟩
abbrev main_v182 : Ref sig .tc := ⟨.hbm, 251, rfl⟩
abbrev main_v183 : Ref sig .tc := ⟨.hbm, 252, rfl⟩
abbrev main_v184 : Ref sig .tc := ⟨.hbm, 253, rfl⟩
abbrev main_v185 : Ref sig .tc := ⟨.hbm, 254, rfl⟩
abbrev main_v186 : Ref sig .tc := ⟨.hbm, 255, rfl⟩
abbrev main_v187 : Ref sig .tc := ⟨.hbm, 256, rfl⟩
abbrev main_v188 : Ref sig .tc := ⟨.hbm, 257, rfl⟩
abbrev main_v189 : Ref sig .tc := ⟨.hbm, 258, rfl⟩
abbrev main_v190 : Ref sig .tc := ⟨.hbm, 259, rfl⟩
abbrev main_v191 : Ref sig .tc := ⟨.hbm, 260, rfl⟩
abbrev main_cst_44 : Ref sig .tc := ⟨.hbm, 261, rfl⟩
abbrev main_v192 : Ref sig .tc := ⟨.hbm, 262, rfl⟩
abbrev main_cst_45 : Ref sig .tc := ⟨.hbm, 263, rfl⟩
abbrev main_v193 : Ref sig .tc := ⟨.hbm, 264, rfl⟩
abbrev main_v194 : Ref sig .tc := ⟨.hbm, 265, rfl⟩
abbrev main_v195 : Ref sig .tc := ⟨.hbm, 266, rfl⟩
abbrev main_cst_46 : Ref sig .tc := ⟨.hbm, 267, rfl⟩
abbrev main_v196 : Ref sig .tc := ⟨.hbm, 268, rfl⟩
abbrev main_v197 : Ref sig .tc := ⟨.hbm, 269, rfl⟩
abbrev main_cst_47 : Ref sig .tc := ⟨.hbm, 270, rfl⟩
abbrev main_v198 : Ref sig .tc := ⟨.hbm, 271, rfl⟩
abbrev main_v199 : Ref sig .tc := ⟨.hbm, 272, rfl⟩
abbrev main_cst_48 : Ref sig .tc := ⟨.hbm, 273, rfl⟩
abbrev main_v200 : Ref sig .tc := ⟨.hbm, 274, rfl⟩
abbrev main_v201 : Ref sig .tc := ⟨.hbm, 275, rfl⟩
abbrev main_v202 : Ref sig .tc := ⟨.hbm, 276, rfl⟩
abbrev main_cst_49 : Ref sig .tc := ⟨.hbm, 277, rfl⟩
abbrev main_v203 : Ref sig .tc := ⟨.hbm, 278, rfl⟩
abbrev main_v204 : Ref sig .tc := ⟨.hbm, 279, rfl⟩
abbrev main_c_50 : Ref sig .tc := ⟨.hbm, 280, rfl⟩
abbrev main_v205 : Ref sig .tc := ⟨.hbm, 281, rfl⟩
abbrev main_v206 : Ref sig .tc := ⟨.hbm, 282, rfl⟩
abbrev main_c_51 : Ref sig .tc := ⟨.hbm, 283, rfl⟩
abbrev main_v207 : Ref sig .tc := ⟨.hbm, 284, rfl⟩
abbrev main_v208 : Ref sig .tc := ⟨.hbm, 285, rfl⟩
abbrev main_v209 : Ref sig .tc := ⟨.hbm, 286, rfl⟩
abbrev main_v210 : Ref sig .tc := ⟨.hbm, 287, rfl⟩
abbrev main_v211 : Ref sig .tc := ⟨.hbm, 288, rfl⟩
abbrev main_v212 : Ref sig .tc := ⟨.hbm, 289, rfl⟩
abbrev main_v213 : Ref sig .tc := ⟨.hbm, 290, rfl⟩
abbrev main_v214 : Ref sig .tc := ⟨.hbm, 291, rfl⟩
abbrev main_v215 : Ref sig .tc := ⟨.hbm, 292, rfl⟩
abbrev main_cst_52 : Ref sig .tc := ⟨.hbm, 293, rfl⟩
abbrev main_v216 : Ref sig .tc := ⟨.hbm, 294, rfl⟩
abbrev main_v217 : Ref sig .tc := ⟨.hbm, 295, rfl⟩
abbrev main_v218 : Ref sig .tc := ⟨.hbm, 296, rfl⟩
abbrev main_cst_53 : Ref sig .tc := ⟨.hbm, 297, rfl⟩
abbrev main_v219 : Ref sig .tc := ⟨.hbm, 298, rfl⟩
abbrev main_v220 : Ref sig .tc := ⟨.hbm, 299, rfl⟩
abbrev main_cst_54 : Ref sig .tc := ⟨.hbm, 300, rfl⟩
abbrev main_v221 : Ref sig .tc := ⟨.hbm, 301, rfl⟩
abbrev main_v222 : Ref sig .tc := ⟨.hbm, 302, rfl⟩
abbrev main_v223 : Ref sig .tc := ⟨.hbm, 303, rfl⟩
abbrev main_c_55 : Ref sig .tc := ⟨.hbm, 304, rfl⟩
abbrev main_v224 : Ref sig .tc := ⟨.hbm, 305, rfl⟩
abbrev main_v225 : Ref sig .tc := ⟨.hbm, 306, rfl⟩
abbrev main_c_56 : Ref sig .tc := ⟨.hbm, 307, rfl⟩
abbrev main_v226 : Ref sig .tc := ⟨.hbm, 308, rfl⟩
abbrev main_v227 : Ref sig .tc := ⟨.hbm, 309, rfl⟩
abbrev main_v228 : Ref sig .tc := ⟨.hbm, 310, rfl⟩
abbrev main_v229 : Ref sig .tc := ⟨.hbm, 311, rfl⟩
abbrev main_v230 : Ref sig .tc := ⟨.hbm, 312, rfl⟩
abbrev main_v231 : Ref sig .tc := ⟨.hbm, 313, rfl⟩
abbrev main_v232 : Ref sig .tc := ⟨.hbm, 314, rfl⟩
abbrev main_v233 : Ref sig .tc := ⟨.hbm, 315, rfl⟩
abbrev main_v234 : Ref sig .tc := ⟨.hbm, 316, rfl⟩
abbrev main_v235 : Ref sig .tc := ⟨.hbm, 317, rfl⟩
abbrev main_v236 : Ref sig .tc := ⟨.hbm, 318, rfl⟩
abbrev main_v237 : Ref sig .tc := ⟨.hbm, 319, rfl⟩
abbrev main_v238 : Ref sig .tc := ⟨.hbm, 320, rfl⟩
abbrev main_v239 : Ref sig .tc := ⟨.hbm, 321, rfl⟩
abbrev main_cst_57 : Ref sig .tc := ⟨.hbm, 322, rfl⟩
abbrev main_v240 : Ref sig .tc := ⟨.hbm, 323, rfl⟩
abbrev main_v241 : Ref sig .tc := ⟨.hbm, 324, rfl⟩
abbrev main_v242 : Ref sig .tc := ⟨.hbm, 325, rfl⟩
abbrev main_v243 : Ref sig .tc := ⟨.hbm, 326, rfl⟩
abbrev main_v244 : Ref sig .tc := ⟨.hbm, 327, rfl⟩
abbrev main_v245 : Ref sig .tc := ⟨.hbm, 328, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x64 : S_.BroadcastsInDim S50000x64 (![] : Fin 0 → Fin S50000x64.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x64_0_1 : S50000x1.BroadcastsInDim S50000x64 (![0, 1] : Fin 2 → Fin S50000x64.rank)
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  bcast_S_S128 : S_.BroadcastsInDim S128 (![] : Fin 0 → Fin S128.rank)
  bcast_S_S128x64 : S_.BroadcastsInDim S128x64 (![] : Fin 0 → Fin S128x64.rank)
  reducesTo_S128x64_S128_d1 : S128x64.ReducesTo [1] S128
  h_S_ : 0 < S_.numel
  shapeCasts_S1_S_ : S1.ShapeCasts S_
  gather_S50000x64_S800000x1_S800000x64_1_0_n_n_0_1_164_wf : GatherDims.WF S50000x64 S800000x1 S800000x64 [1] [0] [] [0] [] 1 ![1, 64]
  scatter_S50000x64_S800000x1_S800000x64_1_0_0_1_wf : ScatterDims.WF S50000x64 S800000x1 S800000x64 [1] [0] [0] 1
  scatter_S50000_S800000x1_S800000_n_0_0_1_wf : ScatterDims.WF S50000 S800000x1 S800000 [] [0] [0] 1
  dot_S50000x64_S64x64_S50000x64_1_0_0_1_n_n_wf : DotDims.WF S50000x64 S64x64 S50000x64 [1] [0] [0] [1] [] []
  scatter_S128_S50000x1_S50000_n_0_0_1_wf : ScatterDims.WF S128 S50000x1 S50000 [] [0] [0] 1
  scatter_S128x64_S50000x1_S50000x64_1_0_0_1_wf : ScatterDims.WF S128x64 S50000x1 S50000x64 [1] [0] [0] 1
  gather_S128_S50000x1_S50000_n_0_n_n_0_1_1_wf : GatherDims.WF S128 S50000x1 S50000 [] [0] [] [0] [] 1 ![1]

variable [Facts₀]

def gather_S50000x64_S800000x1_S800000x64_1_0_n_n_0_1_164 : GatherDims S50000x64 S800000x1 S800000x64 where
  offsetDims := [1]
  collapsedSliceDims := [0]
  operandBatchingDims := []
  startIndicesBatchingDims := []
  startIndexMap := [0]
  indexVectorDim := 1
  sliceSizes := ![1, 64]
  wf := gather_S50000x64_S800000x1_S800000x64_1_0_n_n_0_1_164_wf
def scatter_S50000x64_S800000x1_S800000x64_1_0_0_1 : ScatterDims S50000x64 S800000x1 S800000x64 where
  updateWindowDims := [1]
  insertedWindowDims := [0]
  scatterDimsToOperandDims := [0]
  indexVectorDim := 1
  wf := scatter_S50000x64_S800000x1_S800000x64_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x64_S64x64_S50000x64_1_0_0_1_n_n : DotDims S50000x64 S64x64 S50000x64 where
  lhsContracting := [1]
  rhsContracting := [0]
  lhsNonContracting := [0]
  rhsNonContracting := [1]
  lhsBatch := []
  rhsBatch := []
  wf := dot_S50000x64_S64x64_S50000x64_1_0_0_1_n_n_wf
def scatter_S128_S50000x1_S50000_n_0_0_1 : ScatterDims S128 S50000x1 S50000 where
  updateWindowDims := []
  insertedWindowDims := [0]
  scatterDimsToOperandDims := [0]
  indexVectorDim := 1
  wf := scatter_S128_S50000x1_S50000_n_0_0_1_wf
def scatter_S128x64_S50000x1_S50000x64_1_0_0_1 : ScatterDims S128x64 S50000x1 S50000x64 where
  updateWindowDims := [1]
  insertedWindowDims := [0]
  scatterDimsToOperandDims := [0]
  indexVectorDim := 1
  wf := scatter_S128x64_S50000x1_S50000x64_1_0_0_1_wf
def gather_S128_S50000x1_S50000_n_0_n_n_0_1_1 : GatherDims S128 S50000x1 S50000 where
  offsetDims := []
  collapsedSliceDims := [0]
  operandBatchingDims := []
  startIndicesBatchingDims := []
  startIndexMap := [0]
  indexVectorDim := 1
  sliceSizes := ![1]
  wf := gather_S128_S50000x1_S50000_n_0_n_n_0_1_1_wf

class Facts : Prop extends Facts₀ where

variable [Facts]
-- ==== Proof.Spec.lean ====
/-
  The three-layer graph network that both programs compute, written as functions of matrices over the
  extended reals, once the way the tiled kernels arrange it and once the way the array program does.

  A layer takes node features `xin` (50000 nodes, 64 channels). Its linear part is
  `agg · Wl + bl + xin · Wr`, where `agg` is the neighbour sum `S` of `xin` scaled by the node's clamped
  in-degree `degm`: as a product with the reciprocal on one side, as a quotient on the other. The result `h` is
  then normalised per graph: node `r` belongs to graph `bI r` (128 graphs), and over the entries of the nodes of one
  graph `h` is centred and divided by the standard deviation, scaled and shifted per channel, and passed through
  the leaky rectifier with slope `a`.
  The tiled side gets a graph's sum and sum of squares by weighting every row with the indicator of its graph,
  tile by tile (25 tiles of 2000 rows), forms the variance as the mean square minus the squared mean, and selects
  a node's mean and reciprocal deviation again by an indicator-weighted sum over the 128 graphs. The array side
  sums the rows of a graph directly, centres first and then averages the squares, and divides by the root.
-/
import Idealize.ShloMosaic.PureOps.Ideal

noncomputable section

namespace Cert.Gnn

open Idealize.ShloMosaic

/-- A matrix of extended reals. -/
abbrev Mat (a b : Nat) := Fin a → Fin b → EReal

/-- Every entry is a real number. -/
def Fin2 {a b : Nat} (f : Mat a b) : Prop := ∀ r j, ∃ v : ℝ, f r j = (v : EReal)

/-- Every entry of a vector is a real number. -/
def Fin1 {a : Nat} (f : Fin a → EReal) : Prop := ∀ j, ∃ v : ℝ, f j = (v : EReal)

/-- Row `r'` of tile `t`: the 50000 rows are 25 tiles of 2000 consecutive rows. -/
def row (t : Fin 25) (r' : Fin 2000) : Fin 50000 :=
  ⟨2000 * t.val + r'.val, by have := t.isLt; have := r'.isLt; omega⟩

/-- The indicator that graph `g` is the graph `b` of a node. -/
def ohv (b g : Fin 128) : EReal := if g = b then 1 else 0

/-- The linear part of a layer: `agg · Wl + bl + x · Wr`. -/
def sageLin {n : Nat} (agg x : Mat n 64) (Wl Wr : Mat 64 64) (bl : Fin 64 → EReal) : Mat n 64 :=
  fun r j => ((∑ k : Fin 64, agg r k * Wl k j) + bl j) + ∑ k : Fin 64, x r k * Wr k j

/-- The neighbour sum times the reciprocal of the clamped degree. -/
def aggK (one : EReal) (S : Mat 50000 64) (degm : Fin 50000 → EReal) : Mat 50000 64 :=
  fun r k => S r k * Ideal.div one (degm r)

/-- The neighbour sum divided by the clamped degree. -/
def aggR (S : Mat 50000 64) (degm : Fin 50000 → EReal) : Mat 50000 64 :=
  fun r k => Ideal.div (S r k) (degm r)

/-- A row's sum and its sum of squares. -/
def rowSum (h : Mat 50000 64) (r : Fin 50000) : EReal := ∑ j : Fin 64, h r j
def rowSq (h : Mat 50000 64) (r : Fin 50000) : EReal := ∑ j : Fin 64, h r j * h r j

/-- A per-row quantity summed per graph with indicator weights, tile by tile. -/
def statSum (bI : Fin 50000 → Fin 128) (f : Fin 50000 → EReal) (g : Fin 128) : EReal :=
  ∑ t : Fin 25, ∑ r' : Fin 2000, ohv (bI (row t r')) g * f (row t r')

/-- The tiled side's per-graph mean: the weighted sum times the reciprocal of the count. -/
def meanK (one : EReal) (norm : Fin 128 → EReal) (bI : Fin 50000 → Fin 128) (h : Mat 50000 64) (g : Fin 128) : EReal :=
  statSum bI (rowSum h) g * Ideal.div one (norm g)

/-- The tiled side's per-graph reciprocal deviation: mean square minus squared mean, plus `eps`, under the
    reciprocal root. -/
def invstdK (one eps : EReal) (norm : Fin 128 → EReal) (bI : Fin 50000 → Fin 128) (h : Mat 50000 64) (g : Fin 128) : EReal :=
  Ideal.rsqrt (((statSum bI (rowSq h) g * Ideal.div one (norm g)) - meanK one norm bI h g * meanK one norm bI h g) + eps)

/-- The leaky rectifier with slope `a`. -/
def prelu (a y : EReal) : EReal := if (0 : EReal) ≤ y then y else a * y

/-- The tiled side's normalisation of `h` from per-graph means and reciprocal deviations, selected per node by
    indicator-weighted sums. -/
def lnApplyK (bI : Fin 50000 → Fin 128) (h : Mat 50000 64) (mean invstd : Fin 128 → EReal)
    (lnw lnb : Fin 64 → EReal) (a : EReal) : Mat 50000 64 :=
  fun r j => prelu a ((((h r j - ∑ g : Fin 128, ohv (bI r) g * mean g) * ∑ g : Fin 128, ohv (bI r) g * invstd g) * lnw j) + lnb j)

/-- The sum of the rows of graph `g`, channel by channel. -/
def segSum (bI : Fin 50000 → Fin 128) (f : Mat 50000 64) (g : Fin 128) (j : Fin 64) : EReal :=
  ∑ r ∈ Finset.univ.filter (fun r => bI r = g), f r j

/-- The array side's per-graph mean. -/
def meanR (norm : Fin 128 → EReal) (bI : Fin 50000 → Fin 128) (h : Mat 50000 64) (g : Fin 128) : EReal :=
  Ideal.div (∑ j : Fin 64, segSum bI h g j) (norm g)

/-- `h` with its graph's mean taken off. -/
def centred (norm : Fin 128 → EReal) (bI : Fin 50000 → Fin 128) (h : Mat 50000 64) : Mat 50000 64 :=
  fun r j => h r j - meanR norm bI h (bI r)

/-- The array side's per-graph variance: the mean of the squared centred entries. -/
def varR (norm : Fin 128 → EReal) (bI : Fin 50000 → Fin 128) (h : Mat 50000 64) (g : Fin 128) : EReal :=
  Ideal.div (∑ j : Fin 64, segSum bI (fun r j => centred norm bI h r j * centred norm bI h r j) g j) (norm g)

/-- The array side's normalisation of `h`. -/
def lnApplyR (eps : EReal) (norm : Fin 128 → EReal) (bI : Fin 50000 → Fin 128) (h : Mat 50000 64)
    (lnw lnb : Fin 64 → EReal) (a : EReal) : Mat 50000 64 :=
  fun r j => prelu a ((Ideal.div (centred norm bI h r j) (Ideal.sqrt (varR norm bI h (bI r) + eps)) * lnw j) + lnb j)

/-- One layer, the tiled way. `Agg` is the neighbour sum as a function of the features. -/
def layerK (one eps : EReal) (norm : Fin 128 → EReal) (degm : Fin 50000 → EReal)
    (Agg : Mat 50000 64 → Mat 50000 64) (bI : Fin 50000 → Fin 128) (xin : Mat 50000 64)
    (Wl : Mat 64 64) (bl : Fin 64 → EReal) (Wr : Mat 64 64) (lnw lnb : Fin 64 → EReal) (a : EReal) : Mat 50000 64 :=
  lnApplyK bI (sageLin (aggK one (Agg xin) degm) xin Wl Wr bl)
    (meanK one norm bI (sageLin (aggK one (Agg xin) degm) xin Wl Wr bl))
    (invstdK one eps norm bI (sageLin (aggK one (Agg xin) degm) xin Wl Wr bl)) lnw lnb a

/-- One layer, the array way. -/
def layerR (eps : EReal) (norm : Fin 128 → EReal) (degm : Fin 50000 → EReal)
    (Agg : Mat 50000 64 → Mat 50000 64) (bI : Fin 50000 → Fin 128) (xin : Mat 50000 64)
    (Wl : Mat 64 64) (bl : Fin 64 → EReal) (Wr : Mat 64 64) (lnw lnb : Fin 64 → EReal) (a : EReal) : Mat 50000 64 :=
  lnApplyR eps norm bI (sageLin (aggR (Agg xin) degm) xin Wl Wr bl) lnw lnb a

/-- The first skip connection: `h1 + x · W`. -/
def skip1 (h1 x : Mat 50000 64) (W : Mat 64 64) : Mat 50000 64 :=
  fun r j => h1 r j + ∑ k : Fin 64, x r k * W k j

/-- The second skip connection: `h1 + h2 + x · W`. -/
def skip2 (h1 h2 x : Mat 50000 64) (W : Mat 64 64) : Mat 50000 64 :=
  fun r j => (h1 r j + h2 r j) + ∑ k : Fin 64, x r k * W k j

/-- The network's float arguments. -/
structure Params where
  x : Mat 50000 64
  Wl0 : Mat 64 64
  bl0 : Fin 64 → EReal
  Wr0 : Mat 64 64
  Wl1 : Mat 64 64
  bl1 : Fin 64 → EReal
  Wr1 : Mat 64 64
  Wl2 : Mat 64 64
  bl2 : Fin 64 → EReal
  Wr2 : Mat 64 64
  s0 : Mat 64 64
  s1 : Mat 64 64
  lnw0 : Fin 64 → EReal
  lnb0 : Fin 64 → EReal
  lnw1 : Fin 64 → EReal
  lnb1 : Fin 64 → EReal
  lnw2 : Fin 64 → EReal
  lnb2 : Fin 64 → EReal
  a0 : EReal
  a1 : EReal
  a2 : EReal

/-- Every float argument is finite. -/
structure Params.Finite (P : Params) : Prop where
  x : Fin2 P.x
  Wl0 : Fin2 P.Wl0
  bl0 : Fin1 P.bl0
  Wr0 : Fin2 P.Wr0
  Wl1 : Fin2 P.Wl1
  bl1 : Fin1 P.bl1
  Wr1 : Fin2 P.Wr1
  Wl2 : Fin2 P.Wl2
  bl2 : Fin1 P.bl2
  Wr2 : Fin2 P.Wr2
  s0 : Fin2 P.s0
  s1 : Fin2 P.s1
  lnw0 : Fin1 P.lnw0
  lnb0 : Fin1 P.lnb0
  lnw1 : Fin1 P.lnw1
  lnb1 : Fin1 P.lnb1
  lnw2 : Fin1 P.lnw2
  lnb2 : Fin1 P.lnb2
  a0 : ∃ v : ℝ, P.a0 = (v : EReal)
  a1 : ∃ v : ℝ, P.a1 = (v : EReal)
  a2 : ∃ v : ℝ, P.a2 = (v : EReal)

/-- The whole network, the tiled way. -/
def netK (one eps : EReal) (norm : Fin 128 → EReal) (degm : Fin 50000 → EReal)
    (Agg : Mat 50000 64 → Mat 50000 64) (bI : Fin 50000 → Fin 128) (P : Params) : Mat 50000 64 :=
  layerK one eps norm degm Agg bI
    (skip2 (layerK one eps norm degm Agg bI P.x P.Wl0 P.bl0 P.Wr0 P.lnw0 P.lnb0 P.a0)
      (layerK one eps norm degm Agg bI
        (skip1 (layerK one eps norm degm Agg bI P.x P.Wl0 P.bl0 P.Wr0 P.lnw0 P.lnb0 P.a0) P.x P.s0)
        P.Wl1 P.bl1 P.Wr1 P.lnw1 P.lnb1 P.a1) P.x P.s1)
    P.Wl2 P.bl2 P.Wr2 P.lnw2 P.lnb2 P.a2

/-- The whole network, the array way. -/
def netR (eps : EReal) (norm : Fin 128 → EReal) (degm : Fin 50000 → EReal)
    (Agg : Mat 50000 64 → Mat 50000 64) (bI : Fin 50000 → Fin 128) (P : Params) : Mat 50000 64 :=
  layerR eps norm degm Agg bI
    (skip2 (layerR eps norm degm Agg bI P.x P.Wl0 P.bl0 P.Wr0 P.lnw0 P.lnb0 P.a0)
      (layerR eps norm degm Agg bI
        (skip1 (layerR eps norm degm Agg bI P.x P.Wl0 P.bl0 P.Wr0 P.lnw0 P.lnb0 P.a0) P.x P.s0)
        P.Wl1 P.bl1 P.Wr1 P.lnw1 P.lnb1 P.a1) P.x P.s1)
    P.Wl2 P.bl2 P.Wr2 P.lnw2 P.lnb2 P.a2

/-! ## The same statistics over the reals -/

/-- The number of nodes of graph `g`. -/
def cntRe (bI : Fin 50000 → Fin 128) (g : Fin 128) : ℝ := ((Finset.univ.filter (fun r => bI r = g)).card : ℝ)

/-- The number of entries a graph's statistics average over: 64 per node, and 64 for a graph with no node. -/
def normRe (bI : Fin 50000 → Fin 128) (g : Fin 128) : ℝ := max (cntRe bI g) 1 * 64

/-- A graph's mean. -/
def meanRe (bI : Fin 50000 → Fin 128) (hr : Fin 50000 → Fin 64 → ℝ) (g : Fin 128) : ℝ :=
  (∑ r ∈ Finset.univ.filter (fun r => bI r = g), ∑ j : Fin 64, hr r j) / normRe bI g

/-- A graph's variance. -/
def varRe (bI : Fin 50000 → Fin 128) (hr : Fin 50000 → Fin 64 → ℝ) (g : Fin 128) : ℝ :=
  (∑ r ∈ Finset.univ.filter (fun r => bI r = g), ∑ j : Fin 64, (hr r j - meanRe bI hr g) ^ 2) / normRe bI g

end Cert.Gnn

end
-- ==== Proof.Shapes.lean ====
/-
  Arrays over a literal two- or one-axis shape read as matrices and vectors indexed by row and column numbers,
  and back.
-/
import Idealize.ShloMosaic.Lib.ValueIdx
import proofs.«430900_j38714835206722_1_alg».proof.Proof.Spec

noncomputable section

namespace Cert.Gnn

open Idealize.ShloMosaic Idealize.ShloMosaic.ValueIdx

/-- A two-axis array as a matrix: entry `(r, j)`. -/
def un2 {a b : Nat} (v : (⟨2, ![a, b]⟩ : Shape).Idx → EReal) : Mat a b := fun r j => v (ix2 r j)

/-- A matrix as a two-axis array. -/
def mk2 {a b : Nat} (f : Mat a b) : (⟨2, ![a, b]⟩ : Shape).Idx → EReal := fun i => f (i 0) (i 1)

/-- A one-axis array as a vector. -/
def un1 {a : Nat} (v : (⟨1, ![a]⟩ : Shape).Idx → EReal) : Fin a → EReal := fun j => v (ix1 j)

/-- A vector as a one-axis array. -/
def mk1 {a : Nat} (f : Fin a → EReal) : (⟨1, ![a]⟩ : Shape).Idx → EReal := fun i => f (i 0)

/-- The one row of a `1 × b` array as a vector. -/
def unRow {b : Nat} (v : (⟨2, ![1, b]⟩ : Shape).Idx → EReal) : Fin b → EReal := fun j => v (ix2 0 j)

theorem mk2_un2 {a b : Nat} (v : (⟨2, ![a, b]⟩ : Shape).Idx → EReal) : mk2 (un2 v) = v := by
  funext i; exact congrArg v (eq_ix2 i).symm

theorem un2_mk2 {a b : Nat} (f : Mat a b) : un2 (mk2 f) = f := rfl

theorem mk2_apply {a b : Nat} (f : Mat a b) (r : Fin a) (j : Fin b) : mk2 f (ix2 r j) = f r j := rfl

theorem mk1_un1 {a : Nat} (v : (⟨1, ![a]⟩ : Shape).Idx → EReal) : mk1 (un1 v) = v := by
  funext i; exact congrArg v (eq_ix1 i).symm

theorem un1_mk1 {a : Nat} (f : Fin a → EReal) : un1 (mk1 f) = f := rfl

theorem mk1_apply {a : Nat} (f : Fin a → EReal) (j : Fin a) : mk1 f (ix1 j) = f j := rfl

/-- Two arrays that agree at every `(r, j)` are equal. -/
theorem ext2 {a b : Nat} {v w : (⟨2, ![a, b]⟩ : Shape).Idx → EReal} (h : ∀ r j, v (ix2 r j) = w (ix2 r j)) : v = w := by
  funext i; rw [eq_ix2 i]; exact h _ _

end Cert.Gnn

end
-- ==== Proof.HostTerms.lean ====
/-
  The host-side quantities both programs share, as functions of the integer arguments.

  The neighbour sum of a feature array: every edge's source row (a negative source number wrapped by 50000) added
  into its destination row. The clamped in-degree of a node: the number of edges landing on it, at least one. The
  number of entries a graph's statistics average over: its node count, at least one, times 64 channels. And the float
  arguments as the network's parameters.
-/
import proofs.«430900_j38714835206722_1_alg».proof.Proof.Gen.KernelIdeal
import proofs.«430900_j38714835206722_1_alg».proof.Proof.Shapes

noncomputable section

namespace Cert.Gnn

open Idealize.ShloMosaic Idealize.ShloMosaic.ValueIdx Cert.KernelIdeal
open Cert.KernelIdeal.Facts₀

/-- The edges' source numbers. -/
def srcT (ei : IVec S2x800000 32) : IVec S800000 32 :=
  shapeCast _ (extractStridedSlice S1x800000 ![0, 0] ei slices_S2x800000_S1x800000_0_0) shapeCasts_S1x800000_S800000

/-- The edges' destination numbers. -/
def dstT (ei : IVec S2x800000 32) : IVec S800000 32 :=
  shapeCast _ (extractStridedSlice S1x800000 ![1, 0] ei slices_S2x800000_S1x800000_1_0) shapeCasts_S1x800000_S800000

/-- The source numbers, a negative one wrapped by 50000, as a column of row indices. -/
def srcColT (ei : IVec S2x800000 32) : IVec S800000x1 32 :=
  broadcastInDim S800000x1 ![0] bcast_S800000_S800000x1_0
    (select (cmpi .slt (srcT ei) (broadcastInDim S800000 ![] bcast_S_S800000 (constantI S_ 32 0#32)))
      (addi (srcT ei) (broadcastInDim S800000 ![] bcast_S_S800000 (constantI S_ 32 50000#32))) (srcT ei))

/-- The destination numbers as a column of row indices. -/
def dstColT (ei : IVec S2x800000 32) : IVec S800000x1 32 :=
  broadcastInDim S800000x1 ![0] bcast_S800000_S800000x1_0 (dstT ei)

/-- The neighbour sum of `feat`: the gathered source rows added into the destination rows of a zero array. -/
def aggArr (ei : IVec S2x800000 32) (feat : FVec Ideal S50000x64 .f32) : FVec Ideal S50000x64 .f32 :=
  Host.scatterAdd scatter_S50000x64_S800000x1_S800000x64_1_0_0_1
    (broadcastInDim S50000x64 ![] bcast_S_S50000x64 (constant S_ .f32 0x00000000#32)) (dstColT ei)
    (Host.gather gather_S50000x64_S800000x1_S800000x64_1_0_n_n_0_1_164 feat (srcColT ei))

/-- The in-degree of every node, at least one. -/
def degArr (ei : IVec S2x800000 32) : FVec Ideal S50000 .f32 :=
  maximumf
    (Host.scatterAdd scatter_S50000_S800000x1_S800000_n_0_0_1
      (broadcastInDim S50000 ![] bcast_S_S50000 (constant S_ .f32 0x00000000#32)) (dstColT ei)
      (broadcastInDim S800000 ![] bcast_S_S800000 (constant S_ .f32 0x3F800000#32)))
    (broadcastInDim S50000 ![] bcast_S_S50000 (constant S_ .f32 0x3F800000#32))

/-- The batch numbers as a column of indices. -/
def batchColT (bt : IVec S50000 32) : IVec S50000x1 32 :=
  broadcastInDim S50000x1 ![0] bcast_S50000_S50000x1_0 bt

/-- The node count of every graph, at least one, times 64. -/
def normArr (bt : IVec S50000 32) : FVec Ideal S128 .f32 :=
  mulf
    (maximumf
      (Host.scatterAdd scatter_S128_S50000x1_S50000_n_0_0_1
        (broadcastInDim S128 ![] bcast_S_S128 (constant S_ .f32 0x00000000#32)) (batchColT bt)
        (broadcastInDim S50000 ![] bcast_S_S50000 (constant S_ .f32 0x3F800000#32)))
      (broadcastInDim S128 ![] bcast_S_S128 (constant S_ .f32 0x3F800000#32)))
    (broadcastInDim S128 ![] bcast_S_S128 (constant S_ .f32 0x42800000#32))

/-- The neighbour sum on matrices. -/
def AggF (ei : IVec S2x800000 32) : Mat 50000 64 → Mat 50000 64 := fun f => un2 (aggArr ei (mk2 f))

/-- The clamped in-degree per node. -/
def degmF (ei : IVec S2x800000 32) : Fin 50000 → EReal := un1 (degArr ei)

/-- The number of entries averaged over, per graph. -/
def normF (bt : IVec S50000 32) : Fin 128 → EReal := un1 (normArr bt)

/-- The float `1.0` and the float nearest `1e-5`, as extended reals. -/
def oneC : EReal := Ideal.ofBits .f32 0x3F800000#32
def epsC : EReal := Ideal.ofBits .f32 0x3727C5AC#32

/-- The network's parameters from the 21 float argument arrays, in the programs' argument order. -/
def paramsOf (x : FVec Ideal S50000x64 .f32) (c0Wl : FVec Ideal S64x64 .f32) (c0bl : FVec Ideal S64 .f32) (c0Wr : FVec Ideal S64x64 .f32)
    (c1Wl : FVec Ideal S64x64 .f32) (c1bl : FVec Ideal S64 .f32) (c1Wr : FVec Ideal S64x64 .f32)
    (c2Wl : FVec Ideal S64x64 .f32) (c2bl : FVec Ideal S64 .f32) (c2Wr : FVec Ideal S64x64 .f32)
    (s0W s1W : FVec Ideal S64x64 .f32) (ln0w ln0b ln1w ln1b ln2w ln2b : FVec Ideal S64 .f32)
    (p0a p1a p2a : FVec Ideal S1 .f32) : Params where
  x := un2 x
  Wl0 := un2 c0Wl
  bl0 := un1 c0bl
  Wr0 := un2 c0Wr
  Wl1 := un2 c1Wl
  bl1 := un1 c1bl
  Wr1 := un2 c1Wr
  Wl2 := un2 c2Wl
  bl2 := un1 c2bl
  Wr2 := un2 c2Wr
  s0 := un2 s0W
  s1 := un2 s1W
  lnw0 := un1 ln0w
  lnb0 := un1 ln0b
  lnw1 := un1 ln1w
  lnb1 := un1 ln1b
  lnw2 := un1 ln2w
  lnb2 := un1 ln2b
  a0 := p0a (ix1 (0 : Fin 1))
  a1 := p1a (ix1 (0 : Fin 1))
  a2 := p2a (ix1 (0 : Fin 1))

end Cert.Gnn

end
-- ==== Proof.KChainDefs.lean ====
/-
  The kernel program's run as three stretches, cut at the two skip connections, and what each stretch hands to
  the next: the buffers the first host stretch computes once and every layer reads again (the edge endpoints, the
  batch column, the reciprocal degrees and reciprocal counts), the arguments, and the layers' outputs.
-/
import proofs.«430900_j38714835206722_1_alg».proof.Proof.Gen.KernelIdeal.Frame
import proofs.«430900_j38714835206722_1_alg».proof.Proof.HostTerms

set_option maxRecDepth 16384

noncomputable section

namespace Cert.Gnn.KChain

open Idealize.ShloMosaic Idealize.ShloMosaic.TcCoe Idealize.ShloMosaic.ValueIdx Idealize.ShloMosaic.Pipeline
open Cert.KernelIdeal Cert.KernelIdeal.Gen Cert.Gnn

variable (m : (ℓ : Loc nD τ sig) → Buf (Elt Ideal) ℓ) (ρ : Dev nD → PrngReg) (c : Dev nD)

/-- The edge array and the batch array as launched. -/
abbrev eiOf : IVec S2x800000 32 := m ((c.tc : Thread nD τ).loc main_arg21)
abbrev btOf : IVec S50000 32 := m ((c.tc : Thread nD τ).loc main_arg22)

/-- The network's parameters as launched. -/
abbrev PK : Params := paramsOf (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20))

/-- The 23 argument buffers. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

/-- At a segment boundary with contents `W`: the buffers every layer reads again hold what the first host stretch
    computed from the integer arguments, and the argument buffers hold what was launched. -/
structure Live (W : Valuation τ sig (Elt Ideal)) : Prop where
  v1 : (W (Proc.devRef .tc main_v1) : IVec S800000 32) = srcT (eiOf m c)
  v3 : (W (Proc.devRef .tc main_v3) : IVec S800000 32) = dstT (eiOf m c)
  v4 : (W (Proc.devRef .tc main_v4) : IVec S50000x1 32) = shapeCast _ (btOf m c) Facts₀.shapeCasts_S50000_S50000x1
  v12 : (W (Proc.devRef .tc main_v12) : FVec Ideal S50000 .f32)
      = Host.divf (broadcastInDim S50000 ![] Facts₀.bcast_S_S50000 (constant S_ .f32 0x3F800000#32)) (degArr (eiOf m c))
  v22 : (W (Proc.devRef .tc main_v22) : FVec Ideal S128 .f32)
      = Host.divf (broadcastInDim S128 ![] Facts₀.bcast_S_S128 (constant S_ .f32 0x3F800000#32)) (normArr (btOf m c))
  arg : ∀ b ∈ argRefs, W (Proc.devRef .tc b) = m ((c.tc : Thread nD τ).loc b)

/-- One layer of the network the tiled way, over the launched integer arguments. -/
abbrev layerOf (bI : Fin 50000 → Fin 128) (xin : Mat 50000 64) (Wl : Mat 64 64) (bl : Fin 64 → EReal) (Wr : Mat 64 64)
    (lnw lnb : Fin 64 → EReal) (a : EReal) : Mat 50000 64 :=
  layerK oneC epsC (normF (btOf m c)) (degmF (eiOf m c)) (AggF (eiOf m c)) bI xin Wl bl Wr lnw lnb a

end Cert.Gnn.KChain

end
-- ==== Proof.LibPlainDot.lean ====
/-
  The plain matrix product read at an entry.

  For the dimension numbers of an `M×K` by `K×N` product (`DotDims.plain M K N`: contract the left operand's
  axis 1 with the right operand's axis 0, no batch axis) the result's entry `(p, q)` is, over the extended reals,
  `∑ k : Fin K, lhs (p, k) * rhs (k, q)`: for a `tpu.matmul` into the zero accumulator and for the host's
  `dot_general` alike. The sum over the product's own one-axis contraction index is re-indexed through
  `ValueIdx.contrEquiv1` to a sum over `Fin K`, and the two operand indices are computed once, for every
  `M`, `K`, `N`.
-/
import Idealize.ShloMosaic.Lib.ValueIdx
import Idealize.ShloMosaic.PureOps.Ideal.Laws

noncomputable section

namespace Cert.Lib.PlainDot

open Idealize.ShloMosaic Idealize.ShloMosaic.ValueIdx

variable {M K N : Nat}

/-- The contraction index of the plain product is its one coordinate, a number below `K`. -/
abbrev kEquiv (M K N : Nat) : (DotDims.plain M K N).contr.Idx ≃ Fin K :=
  contrEquiv1 (DotDims.plain M K N) K rfl rfl

/-- The left operand's row coordinate is the result's row. -/
theorem lhs_axis0 (j : (⟨2, ![M, N]⟩ : Shape).Idx) (c : (DotDims.plain M K N).contr.Idx) :
    ((DotDims.plain M K N).lhsIdx j c 0).val = (j 0).val := by
  unfold DotDims.lhsIdx
  rw [dif_neg (show ¬(0 : Fin (⟨2, ![M, K]⟩ : Shape).rank) ∈ (DotDims.plain M K N).lhsBatch from List.not_mem_nil),
    dif_pos (show (0 : Fin (⟨2, ![M, K]⟩ : Shape).rank) ∈ (DotDims.plain M K N).lhsNonContracting from List.mem_singleton.2 rfl)]
  rfl

/-- The left operand's column coordinate is the contraction position. -/
theorem lhs_axis1 (j : (⟨2, ![M, N]⟩ : Shape).Idx) (c : (DotDims.plain M K N).contr.Idx) :
    ((DotDims.plain M K N).lhsIdx j c 1).val = (c ⟨0, Nat.one_pos⟩).val :=
  (DotDims.plain M K N).lhsIdx_val_of_single rfl j c

/-- The right operand's row coordinate is the contraction position. -/
theorem rhs_axis0 (j : (⟨2, ![M, N]⟩ : Shape).Idx) (c : (DotDims.plain M K N).contr.Idx) :
    ((DotDims.plain M K N).rhsIdx j c 0).val = (c ⟨0, Nat.one_pos⟩).val :=
  (DotDims.plain M K N).rhsIdx_val_of_single rfl j c

/-- The right operand's column coordinate is the result's column. -/
theorem rhs_axis1 (j : (⟨2, ![M, N]⟩ : Shape).Idx) (c : (DotDims.plain M K N).contr.Idx) :
    ((DotDims.plain M K N).rhsIdx j c 1).val = (j 1).val := by
  unfold DotDims.rhsIdx
  rw [dif_neg (show ¬(1 : Fin (⟨2, ![K, N]⟩ : Shape).rank) ∈ (DotDims.plain M K N).rhsBatch from List.not_mem_nil),
    dif_pos (show (1 : Fin (⟨2, ![K, N]⟩ : Shape).rank) ∈ (DotDims.plain M K N).rhsNonContracting from List.mem_singleton.2 rfl)]
  rfl

/-- At result entry `(p, q)` and contraction position `k` the left operand is read at `(p, k)`. -/
theorem lhsIdx_eq (p : Fin M) (q : Fin N) (k : Fin K) :
    (DotDims.plain M K N).lhsIdx (ix2 p q) ((kEquiv M K N).symm k) = ix2 p k := by
  have hk := contrEquiv1_symm_val (DotDims.plain M K N) K rfl rfl k
  exact funext fun a => Fin.ext (by
    match a with
    | ⟨0, _⟩ => exact lhs_axis0 _ _
    | ⟨1, _⟩ => exact (lhs_axis1 _ _).trans hk)

/-- At result entry `(p, q)` and contraction position `k` the right operand is read at `(k, q)`. -/
theorem rhsIdx_eq (p : Fin M) (q : Fin N) (k : Fin K) :
    (DotDims.plain M K N).rhsIdx (ix2 p q) ((kEquiv M K N).symm k) = ix2 k q := by
  have hk := contrEquiv1_symm_val (DotDims.plain M K N) K rfl rfl k
  exact funext fun a => Fin.ext (by
    match a with
    | ⟨0, _⟩ => exact (rhs_axis0 _ _).trans hk
    | ⟨1, _⟩ => exact rhs_axis1 _ _)

/-- The sum over the product's contraction index, as a sum over `Fin K` of the operands' entries. -/
theorem sum_contr {φ₁ φ₂ : FTy} (lhs : FVec Ideal ⟨2, ![M, K]⟩ φ₁) (rhs : FVec Ideal ⟨2, ![K, N]⟩ φ₂) (p : Fin M) (q : Fin N) :
    (∑ c : (DotDims.plain M K N).contr.Idx,
        lhs ((DotDims.plain M K N).lhsIdx (ix2 p q) c) * rhs ((DotDims.plain M K N).rhsIdx (ix2 p q) c) : EReal)
      = ∑ k : Fin K, lhs (ix2 p k) * rhs (ix2 k q) := by
  rw [← Equiv.sum_comp (kEquiv M K N).symm]
  refine Finset.sum_congr rfl fun k _ => ?_
  rw [lhsIdx_eq, rhsIdx_eq]

/-- A `tpu.matmul` with the plain dimension numbers into the zero accumulator, at entry `(p, q)`. -/
theorem matmul_zero_apply {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul (DotDims.plain M K N) prec lhs rhs (constant ⟨2, ![M, N]⟩ .f32 0x00000000#32) (ix2 p q)
      = ∑ k : Fin K, lhs (ix2 p k) * rhs (ix2 k q) := by
  rw [Ideal.matmul_constant_zero_apply]
  exact sum_contr lhs rhs p q

/-- The host's `dot_general` with the plain dimension numbers, at entry `(p, q)`. -/
theorem dotGeneral_apply {φ₁ φ₂ : FTy} (prec : Option ContractPrecision) (sched : HostSchedule)
    (lhs : FVec Ideal ⟨2, ![M, K]⟩ φ₁) (rhs : FVec Ideal ⟨2, ![K, N]⟩ φ₂) (p : Fin M) (q : Fin N) :
    FloatOps.dotGeneral (DotDims.plain M K N) prec sched lhs rhs (ix2 p q)
      = ∑ k : Fin K, lhs (ix2 p k) * rhs (ix2 k q) := by
  rw [Ideal.dotGeneral_apply]
  exact sum_contr lhs rhs p q

end Cert.Lib.PlainDot

end
-- ==== Proof.RegionSage0.lean ====
/-
  The linear-and-statistics kernel of region 0, as whole arrays.

  It runs over 25 tiles of 2000 rows. A tile's first output block is the tile of `agg · Wl + bl + root · Wr`, the
  products read at an entry as sums over the 64 contracted positions; the tiles cover that array. The second output
  is one 2 × 128 block every point revisits: the first point zeroes it, and every point adds to row 0 (row 1) the
  sum over the tile's rows of the row's sum (sum of squares) weighted by the indicator of the row's graph; so after
  the last point it holds the tile-by-tile weighted sums.
-/
import proofs.«430900_j38714835206722_1_alg».proof.Proof.Gen.KernelIdeal.Frame
import proofs.«430900_j38714835206722_1_alg».proof.Proof.Shapes
import proofs.«430900_j38714835206722_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gnn.RegionSage0

open Idealize.ShloMosaic Idealize.ShloMosaic.TcCoe Idealize.ShloMosaic.ValueIdx Idealize.ShloMosaic.Pipeline
open Idealize.ShloMosaic.Tactic
open Cert.KernelIdeal Cert.KernelIdeal.Gen Cert.Gnn

variable (V : (c : Dev nD) → (b : Ref sig .tc) → Buf (Elt Ideal) ((c : Thread nD τ).loc b))

/-- The zero offsets of every store and load of the body, as a function. -/
theorem hz : (![0, 0] : Fin 2 → Nat) = fun _ => 0 := funext fun a => by fin_cases a <;> rfl

section Pieces

variable {F : FTy → Type} [FloatOps F]

/-- At the first point the body leaves, in the first output's buffer, the linear part of its input blocks. -/
theorem lin_first (c : Dev nD) (i : grid0.Coords) (a1 : Memref sig .tc .vmem S2000x64 .f32) (h1 : a1.IsWhole) (a2 : Memref sig .tc .vmem S2000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S2000x1 .i32) (h6 : a6.IsWhole) (a7 : Memref sig .tc .vmem S2000x64 .f32) (h7 : a7.IsWhole) (a8 : Memref sig .tc .vmem S2x128 .f32) (h8 : a8.IsWhole) (hc : cond0_0 i)
    (x0 : Vec F S2000x64 .f32) (x1 : Vec F S2000x64 .f32) (x2 : Vec F S64x64 .f32) (x3 : Vec F S1x64 .f32) (x4 : Vec F S64x64 .f32) (x5 : Vec F S2000x1 .i32) :
    out0_A_6 c i a1 h1 a2 h2 a3 h3 a4 h4 a5 h5 a6 h6 a7 h7 a8 h8 hc x0 x1 x2 x3 x4 x5 = k0_pay3 x0 x1 x2 x4 x3 := by
  unfold out0_A_6
  rw [View.read_writes_eq_canon _ _ _ (cover0_A_6 c i a1 h1 a2 h2 a3 h3 a4 h4 a5 h5 a6 h6 a7 h7 a8 h8 hc x0 x1 x2 x3 x4 x5)]
  unfold kernelRun0_A
  dsimp only
  sl_unfold_words
  rw [View.canon_unit_zero hz]
  simp only [View.readAt_eq_ld, h1.read_unread, h2.read_unread, h3.read_unread, h4.read_unread, h5.read_unread, h6.read_unread, h8.read_unread, View.ld_unit_zero (S := S2000x64) hz, View.ld_unit_zero (S := S64x64) hz, View.ld_unit_zero (S := S1x64) hz, View.ld_unit_zero (S := S2000x1) hz, View.ld_unit_zero (S := S2x128) hz]

/-- At every later point too. -/
theorem lin_later (c : Dev nD) (i : grid0.Coords) (a1 : Memref sig .tc .vmem S2000x64 .f32) (h1 : a1.IsWhole) (a2 : Memref sig .tc .vmem S2000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S2000x1 .i32) (h6 : a6.IsWhole) (a7 : Memref sig .tc .vmem S2000x64 .f32) (h7 : a7.IsWhole) (a8 : Memref sig .tc .vmem S2x128 .f32) (h8 : a8.IsWhole) (hc : ¬cond0_0 i)
    (x0 : Vec F S2000x64 .f32) (x1 : Vec F S2000x64 .f32) (x2 : Vec F S64x64 .f32) (x3 : Vec F S1x64 .f32) (x4 : Vec F S64x64 .f32) (x5 : Vec F S2000x1 .i32) (xo : Vec F S2x128 .f32) :
    out0_B_6 c i a1 h1 a2 h2 a3 h3 a4 h4 a5 h5 a6 h6 a7 h7 a8 h8 hc x0 x1 x2 x3 x4 x5 xo = k0_pay3 x0 x1 x2 x4 x3 := by
  unfold out0_B_6
  rw [View.read_writes_eq_canon _ _ _ (cover0_B_6 c i a1 h1 a2 h2 a3 h3 a4 h4 a5 h5 a6 h6 a7 h7 a8 h8 hc x0 x1 x2 x3 x4 x5 xo)]
  unfold kernelRun0_B
  dsimp only
  sl_unfold_words
  rw [View.canon_unit_zero hz]
  simp only [View.readAt_eq_ld, h1.read_unread, h2.read_unread, h3.read_unread, h4.read_unread, h5.read_unread, h6.read_unread, h8.read_unread, View.ld_unit_zero (S := S2000x64) hz, View.ld_unit_zero (S := S64x64) hz, View.ld_unit_zero (S := S1x64) hz, View.ld_unit_zero (S := S2000x1) hz, View.ld_unit_zero (S := S2x128) hz]

/-- At the first point the statistics block is zeroed, read back, and the tile's weighted sums are added to it. -/
theorem stats_first (c : Dev nD) (i : grid0.Coords) (a1 : Memref sig .tc .vmem S2000x64 .f32) (h1 : a1.IsWhole) (a2 : Memref sig .tc .vmem S2000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S2000x1 .i32) (h6 : a6.IsWhole) (a7 : Memref sig .tc .vmem S2000x64 .f32) (h7 : a7.IsWhole) (a8 : Memref sig .tc .vmem S2x128 .f32) (h8 : a8.IsWhole) (hc : cond0_0 i)
    (x0 : Vec F S2000x64 .f32) (x1 : Vec F S2000x64 .f32) (x2 : Vec F S64x64 .f32) (x3 : Vec F S1x64 .f32) (x4 : Vec F S64x64 .f32) (x5 : Vec F S2000x1 .i32) :
    out0_A_7 c i a1 h1 a2 h2 a3 h3 a4 h4 a5 h5 a6 h6 a7 h7 a8 h8 hc x0 x1 x2 x3 x4 x5
      = k0_pay1 (k0_pay4 x0 x1 x2 x4 x3) (k0_pay5 x5) (k0_pay6 x0 x1 x2 x4 x3 x5) (k0_pay2 (F := F)) := by
  unfold out0_A_7
  rw [View.read_writes_eq_canon _ _ _ (cover0_A_7 c i a1 h1 a2 h2 a3 h3 a4 h4 a5 h5 a6 h6 a7 h7 a8 h8 hc x0 x1 x2 x3 x4 x5)]
  unfold kernelRun0_A
  dsimp only
  sl_unfold_words
  rw [View.canon_cons_unit_zero (S := S2x128) hz, View.readCov_unit_zero (S := S2x128) _ hz]
  simp only [View.readAt_eq_ld, h1.read_unread, h2.read_unread, h3.read_unread, h4.read_unread, h5.read_unread, h6.read_unread, h8.read_unread, View.ld_unit_zero (S := S2000x64) hz, View.ld_unit_zero (S := S64x64) hz, View.ld_unit_zero (S := S1x64) hz, View.ld_unit_zero (S := S2000x1) hz, View.ld_unit_zero (S := S2x128) hz]

/-- At a later point the tile's weighted sums are added to what the point before left. -/
theorem stats_later (c : Dev nD) (i : grid0.Coords) (a1 : Memref sig .tc .vmem S2000x64 .f32) (h1 : a1.IsWhole) (a2 : Memref sig .tc .vmem S2000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S2000x1 .i32) (h6 : a6.IsWhole) (a7 : Memref sig .tc .vmem S2000x64 .f32) (h7 : a7.IsWhole) (a8 : Memref sig .tc .vmem S2x128 .f32) (h8 : a8.IsWhole) (hc : ¬cond0_0 i)
    (x0 : Vec F S2000x64 .f32) (x1 : Vec F S2000x64 .f32) (x2 : Vec F S64x64 .f32) (x3 : Vec F S1x64 .f32) (x4 : Vec F S64x64 .f32) (x5 : Vec F S2000x1 .i32) (xo : Vec F S2x128 .f32) :
    out0_B_7 c i a1 h1 a2 h2 a3 h3 a4 h4 a5 h5 a6 h6 a7 h7 a8 h8 hc x0 x1 x2 x3 x4 x5 xo
      = k0_pay1 (k0_pay4 x0 x1 x2 x4 x3) (k0_pay5 x5) (k0_pay6 x0 x1 x2 x4 x3 x5) xo := by
  unfold out0_B_7
  rw [View.read_writes_eq_canon _ _ _ (cover0_B_7 c i a1 h1 a2 h2 a3 h3 a4 h4 a5 h5 a6 h6 a7 h7 a8 h8 hc x0 x1 x2 x3 x4 x5 xo)]
  unfold kernelRun0_B
  dsimp only
  sl_unfold_words
  rw [View.canon_unit_zero hz]
  simp only [View.readAt_eq_ld, h1.read_unread, h2.read_unread, h3.read_unread, h4.read_unread, h5.read_unread, h6.read_unread, h8.read_unread, View.ld_unit_zero (S := S2000x64) hz, View.ld_unit_zero (S := S64x64) hz, View.ld_unit_zero (S := S1x64) hz, View.ld_unit_zero (S := S2000x1) hz, View.ld_unit_zero (S := S2x128) hz]

end Pieces

/-! ## The body's arithmetic at an entry -/

/-- A 1 × 64 row broadcast down 2000 rows reads its column. -/
theorem bcastRow_apply {α : Type} (v : S1x64.Idx → α) (h : S1x64.Broadcasts S2000x64) (p : Fin 2000) (q : Fin 64) :
    broadcastTo S2000x64 v h (ix2 p q) = v (ix2 (0 : Fin 1) q) :=
  broadcastTo_apply v h (ix2 p q) (ix2 (0 : Fin 1) q) (fun a => by
    match a with
    | ⟨0, _⟩ => rfl
    | ⟨1, _⟩ => rfl)

/-- A 2000 × 1 column broadcast across 128 lanes reads its row. -/
theorem bcastCol_apply {α : Type} (v : S2000x1.Idx → α) (h : S2000x1.Broadcasts S2000x128) (r : Fin 2000) (g : Fin 128) :
    broadcastTo S2000x128 v h (ix2 r g) = v (ix2 r (0 : Fin 1)) :=
  broadcastTo_apply v h (ix2 r g) (ix2 r (0 : Fin 1)) (fun a => by
    match a with
    | ⟨0, _⟩ => rfl
    | ⟨1, _⟩ => rfl)

/-- The sum along the 64 columns, kept as a 2000 × 1 column: the entry of a row is the sum of that row. -/
theorem rowReduce_apply (v : FVec Ideal S2000x64 .f32) (h : S2000x64.Reduces [1] S2000) (hφ : FKind.Formats .f32)
    (hacc : (0x00000000#32 : BitVec 32) = FKind.add.neutral .f32 hφ) (hc : S2000.ShapeCasts S2000x1) (r : Fin 2000) :
    shapeCast S2000x1 (multiReduction .add [1] S2000 v 0x00000000#32 h hφ hacc) hc (ix2 r (0 : Fin 1)) = ∑ j : Fin 64, v (ix2 r j) := by
  refine (shapeCast_apply _ hc (ix2 r (0 : Fin 1)) (ix1 r) ?_).trans ?_
  · rw [Shape.rowMajor_val_one, Shape.rowMajor_val_two]
    show r.val = r.val * 1 + 0
    omega
  · refine (Ideal.multiReduction_add_single v _ h hφ hacc (ix1 r)).trans ?_
    show ∑ k : Fin 64, v (h.lift (ix1 r) k) = _
    refine Finset.sum_congr rfl fun k _ => congrArg v (funext fun a => Fin.ext ?_)
    match a with
    | ⟨0, _⟩ => rfl
    | ⟨1, _⟩ => rfl

/-- The sum down the 2000 rows, kept as a 1 × 128 row: the entry of a column is the sum of that column. -/
theorem colReduce_apply (v : FVec Ideal S2000x128 .f32) (h : S2000x128.Reduces [0] S128) (hφ : FKind.Formats .f32)
    (hacc : (0x00000000#32 : BitVec 32) = FKind.add.neutral .f32 hφ) (hc : S128.ShapeCasts S1x128) (g : Fin 128) :
    shapeCast S1x128 (multiReduction .add [0] S128 v 0x00000000#32 h hφ hacc) hc (ix2 (0 : Fin 1) g) = ∑ r : Fin 2000, v (ix2 r g) := by
  refine (shapeCast_apply _ hc (ix2 (0 : Fin 1) g) (ix1 g) ?_).trans ?_
  · rw [Shape.rowMajor_val_one, Shape.rowMajor_val_two]
    show g.val = 0 * 128 + g.val
    omega
  · refine (Ideal.multiReduction_add_single v _ h hφ hacc (ix1 g)).trans ?_
    show ∑ k : Fin 2000, v (h.lift (ix1 g) k) = _
    refine Finset.sum_congr rfl fun k _ => congrArg v (funext fun a => Fin.ext ?_)
    match a with
    | ⟨0, _⟩ => rfl
    | ⟨1, _⟩ => rfl

/-- The linear part of a tile at an entry: the two products as sums over the 64 contracted positions. -/
theorem lin_apply (x0 x1 : Vec Ideal S2000x64 .f32) (x2 x4 : Vec Ideal S64x64 .f32) (x3 : Vec Ideal S1x64 .f32)
    (p : Fin 2000) (q : Fin 64) :
    k0_pay3 (F := Ideal) x0 x1 x2 x4 x3 (ix2 p q)
      = ((∑ k : Fin 64, x0 (ix2 p k) * x2 (ix2 k q)) + x3 (ix2 (0 : Fin 1) q)) + ∑ k : Fin 64, x1 (ix2 p k) * x4 (ix2 k q) := by
  unfold k0_pay3
  refine congrArg₂ (· + ·) (congrArg₂ (· + ·) ?_ ?_) ?_
  · refine (Cert.Lib.PlainDot.matmul_zero_apply (M := 2000) (K := 64) (N := 64) none _ _ p q).trans ?_
    refine Finset.sum_congr rfl fun k _ => ?_
    show shapeCast S2000x64 x0 _ (ix2 p k) * x2 (ix2 k q) = _
    rw [shapeCast_self]
  · refine (bcastRow_apply _ _ p q).trans ?_
    rw [shapeCast_self]
  · exact Cert.Lib.PlainDot.matmul_zero_apply (M := 2000) (K := 64) (N := 64) none _ _ p q

/-- The zero block. -/
theorem zero_apply (a : Fin 2) (g : Fin 128) : k0_pay2 (F := Ideal) (ix2 a g) = 0 := by
  unfold k0_pay2
  show Ideal.ofBits .f32 0x00000000#32 = 0
  exact Ideal.ofBits_zero_f32

/-- The column of row sums of squares of the linear part. -/
theorem sq_apply (x0 x1 : Vec Ideal S2000x64 .f32) (x2 x4 : Vec Ideal S64x64 .f32) (x3 : Vec Ideal S1x64 .f32) (r : Fin 2000) :
    k0_pay4 (F := Ideal) x0 x1 x2 x4 x3 (ix2 r (0 : Fin 1))
      = ∑ j : Fin 64, k0_pay3 (F := Ideal) x0 x1 x2 x4 x3 (ix2 r j) * k0_pay3 (F := Ideal) x0 x1 x2 x4 x3 (ix2 r j) := by
  unfold k0_pay4
  exact rowReduce_apply _ _ _ _ _ r

/-- Two graph numbers below 128 are equal exactly when their 32-bit words are. -/
theorem word_eq_iff (g b : Fin 128) : BitVec.ofNat 32 g.val = BitVec.ofNat 32 b.val ↔ g = b := by
  constructor
  · intro h
    have e := congrArg BitVec.toNat h
    simp only [BitVec.toNat_ofNat] at e
    have hg := g.isLt
    have hb := b.isLt
    have p : (2 : Nat) ^ 32 = 4294967296 := by norm_num
    rw [p] at e
    exact Fin.ext (by omega)
  · rintro rfl
    rfl

/-- The compare of two such words, widened and converted, is the indicator. -/
theorem ind_word (g b : Fin 128) :
    FloatOps.sitofp (F := Ideal) .f32 ((IntOp.cmpi .eq (BitVec.ofNat 32 g.val) (BitVec.ofNat 32 b.val)).setWidth 32) = ohv b g := by
  unfold ohv
  by_cases h : g = b
  · subst h
    rw [if_pos rfl]
    have e : IntOp.cmpi .eq (BitVec.ofNat 32 g.val) (BitVec.ofNat 32 g.val) = 1#1 := by simp [IntOp.cmpi]
    rw [e]
    show (((BitVec.setWidth 32 1#1).toInt : ℝ) : EReal) = 1
    rw [show (BitVec.setWidth 32 1#1).toInt = 1 from by decide]
    simp
  · rw [if_neg h]
    have hne : ¬BitVec.ofNat 32 g.val = BitVec.ofNat 32 b.val := fun e => h ((word_eq_iff g b).mp e)
    have hq : (BitVec.ofNat 32 g.val == BitVec.ofNat 32 b.val) = false := beq_eq_false_iff_ne.mpr hne
    have e : IntOp.cmpi .eq (BitVec.ofNat 32 g.val) (BitVec.ofNat 32 b.val) = 0#1 := by
      show BitVec.ofBool (BitVec.ofNat 32 g.val == BitVec.ofNat 32 b.val) = 0#1
      rw [hq]
      rfl
    rw [e]
    show (((BitVec.setWidth 32 0#1).toInt : ℝ) : EReal) = 0
    rw [show (BitVec.setWidth 32 0#1).toInt = 0 from by decide]
    simp

/-- The indicator block: at a row whose batch word is a graph number, lane by lane the indicator of that graph. -/
theorem ind_apply (x5 : Vec Ideal S2000x1 .i32) (r : Fin 2000) (g b : Fin 128)
    (hb : x5 (ix2 r (0 : Fin 1)) = BitVec.ofNat 32 b.val) :
    k0_pay5 (F := Ideal) x5 (ix2 r g) = ohv b g := by
  unfold k0_pay5
  show FloatOps.sitofp (F := Ideal) .f32 ((IntOp.cmpi .eq (iota .tc S2000x128 32 [1] _ (ix2 r g))
    (broadcastTo S2000x128 (shapeCast S2000x1 x5 _) _ (ix2 r g))).setWidth 32) = _
  rw [iota_single_apply, bcastCol_apply, shapeCast_self, hb]
  exact ind_word g b

/-- The row of indicator-weighted sums of the row sums. -/
theorem wsum_apply (x0 x1 : Vec Ideal S2000x64 .f32) (x2 x4 : Vec Ideal S64x64 .f32) (x3 : Vec Ideal S1x64 .f32)
    (x5 : Vec Ideal S2000x1 .i32) (g : Fin 128) :
    k0_pay6 (F := Ideal) x0 x1 x2 x4 x3 x5 (ix2 (0 : Fin 1) g)
      = ∑ r : Fin 2000, k0_pay5 (F := Ideal) x5 (ix2 r g) * ∑ j : Fin 64, k0_pay3 (F := Ideal) x0 x1 x2 x4 x3 (ix2 r j) := by
  unfold k0_pay6
  refine (colReduce_apply _ _ _ _ _ g).trans ?_
  refine Finset.sum_congr rfl fun r _ => ?_
  refine congrArg (k0_pay5 (F := Ideal) x5 (ix2 r g) * ·) ?_
  exact (bcastCol_apply _ _ r g).trans (rowReduce_apply _ _ _ _ _ r)

/-- The update's row 0: the old row 0 plus the first summand row. -/
theorem upd_row0 (v24 : FVec Ideal S2000x1 .f32) (v31 : FVec Ideal S2000x128 .f32) (v35 : FVec Ideal S1x128 .f32)
    (v40 : Vec Ideal S2x128 .f32) (g : Fin 128) :
    k0_pay1 (F := Ideal) v24 v31 v35 v40 (ix2 (0 : Fin 2) g) = v40 (ix2 (0 : Fin 2) g) + v35 (ix2 (0 : Fin 1) g) := by
  unfold k0_pay1
  refine congrArg₂ (· + ·) ?_ ?_
  · exact congrFun (shapeCast_self v40 _) _
  · exact concatenate_pair_apply_left (t := S2x128) (s₁ := S1x128) (s₂ := S1x128) (0 : Fin 2) v35 _ _ (ix2 (0 : Fin 2) g) rfl (ix2 (0 : Fin 1) g) (fun b => by
      match b with
      | ⟨0, _⟩ => rfl
      | ⟨1, _⟩ => rfl)

/-- The update's row 1: the old row 1 plus the weighted column sums of the second column. -/
theorem upd_row1 (v24 : FVec Ideal S2000x1 .f32) (v31 : FVec Ideal S2000x128 .f32) (v35 : FVec Ideal S1x128 .f32)
    (v40 : Vec Ideal S2x128 .f32) (g : Fin 128) :
    k0_pay1 (F := Ideal) v24 v31 v35 v40 (ix2 (1 : Fin 2) g)
      = v40 (ix2 (1 : Fin 2) g) + ∑ r : Fin 2000, v31 (ix2 r g) * v24 (ix2 r (0 : Fin 1)) := by
  unfold k0_pay1
  refine congrArg₂ (· + ·) ?_ ?_
  · exact congrFun (shapeCast_self v40 _) _
  · refine (concatenate_pair_apply_right (t := S2x128) (s₁ := S1x128) (s₂ := S1x128) (0 : Fin 2) v35 _ _ (ix2 (1 : Fin 2) g) rfl rfl (ix2 (0 : Fin 1) g) (fun b hb => ?_) ?_).trans ?_
    · match b with
      | ⟨0, _⟩ => exact absurd rfl hb
      | ⟨1, _⟩ => rfl
    · rfl
    · refine (colReduce_apply _ _ _ _ _ g).trans ?_
      refine Finset.sum_congr rfl fun r _ => ?_
      exact congrArg (v31 (ix2 r g) * ·) (bcastCol_apply v24 _ r g)

/-! ## The blocks of a tile -/

/-- The tile number of a grid point. -/
def tl (t : Fin cfg0.N) : Fin 25 := ⟨t.val, by have h := t.isLt; have e : cfg0.N = 25 := N_0; omega⟩

/-- The windows' block numbers at a point: the three row-tiled arrays and the first output move with the point,
    the weights, the bias and the statistics block stay at block zero. -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = 0 ∧ win0_7.index t (1 : Fin 2) = 0 :=
  (by decide +kernel : ∀ t : Fin grid0.N, _)

/-- The six input blocks of a point, at their literal types. -/
abbrev aggBlk (c : Dev nD) (t : Fin cfg0.N) : Vec Ideal S2000x64 .f32 := iblk0 V c 0 t
abbrev rootBlk (c : Dev nD) (t : Fin cfg0.N) : Vec Ideal S2000x64 .f32 := iblk0 V c 1 t
abbrev wlBlk (c : Dev nD) (t : Fin cfg0.N) : Vec Ideal S64x64 .f32 := iblk0 V c 2 t
abbrev blBlk (c : Dev nD) (t : Fin cfg0.N) : Vec Ideal S1x64 .f32 := iblk0 V c 3 t
abbrev wrBlk (c : Dev nD) (t : Fin cfg0.N) : Vec Ideal S64x64 .f32 := iblk0 V c 4 t
abbrev batchBlk (c : Dev nD) (t : Fin cfg0.N) : Vec Ideal S2000x1 .i32 := iblk0 V c 5 t

/-- Row p of the first window's block at a point is row p of that tile of the array. -/
theorem aggBlk_apply (c : Dev nD) (agg : Vec Ideal S50000x64 .f32) (e0 : V c (Pipeline.arrRef spec0 0) = agg)
    (t : Fin cfg0.N) (p : Fin 2000) (k : Fin 64) : aggBlk V c t (ix2 p k) = agg (ix2 (row (tl t) p) k) := by
  subst e0
  obtain ⟨i0, i1, -⟩ := idx_facts t
  show V c (Pipeline.arrRef spec0 0) (((cfg0.win 0).blk t).view.emb (ix2 p k)) = V c (Pipeline.arrRef spec0 0) (ix2 (row (tl t) p) k)
  refine congrArg (V c (Pipeline.arrRef spec0 0)) (funext fun a => Fin.ext ?_)
  match a with
  | ⟨0, _⟩ => show win0_0.index t (0 : Fin 2) * 2000 + 1 * p.val = 2000 * t.val + p.val; rw [i0]; omega
  | ⟨1, _⟩ => show win0_0.index t (1 : Fin 2) * 64 + 1 * k.val = k.val; rw [i1]; omega

theorem rootBlk_apply (c : Dev nD) (root : Vec Ideal S50000x64 .f32) (e1 : V c (Pipeline.arrRef spec0 1) = root)
    (t : Fin cfg0.N) (p : Fin 2000) (k : Fin 64) : rootBlk V c t (ix2 p k) = root (ix2 (row (tl t) p) k) := by
  subst e1
  obtain ⟨-, -, i0, i1, -⟩ := idx_facts t
  show V c (Pipeline.arrRef spec0 1) (((cfg0.win 1).blk t).view.emb (ix2 p k)) = V c (Pipeline.arrRef spec0 1) (ix2 (row (tl t) p) k)
  refine congrArg (V c (Pipeline.arrRef spec0 1)) (funext fun a => Fin.ext ?_)
  match a with
  | ⟨0, _⟩ => show win0_1.index t (0 : Fin 2) * 2000 + 1 * p.val = 2000 * t.val + p.val; rw [i0]; omega
  | ⟨1, _⟩ => show win0_1.index t (1 : Fin 2) * 64 + 1 * k.val = k.val; rw [i1]; omega

/-- The weight, bias and second weight windows hold their whole arrays at every point. -/
theorem wlBlk_apply (c : Dev nD) (Wl : Vec Ideal S64x64 .f32) (e2 : V c (Pipeline.arrRef spec0 2) = Wl)
    (t : Fin cfg0.N) (k q : Fin 64) : wlBlk V c t (ix2 k q) = Wl (ix2 k q) := by
  subst e2
  obtain ⟨-, -, -, -, i0, i1, -⟩ := idx_facts t
  show V c (Pipeline.arrRef spec0 2) (((cfg0.win 2).blk t).view.emb (ix2 k q)) = V c (Pipeline.arrRef spec0 2) (ix2 k q)
  refine congrArg (V c (Pipeline.arrRef spec0 2)) (funext fun a => Fin.ext ?_)
  match a with
  | ⟨0, _⟩ => show win0_2.index t (0 : Fin 2) * 64 + 1 * k.val = k.val; rw [i0]; omega
  | ⟨1, _⟩ => show win0_2.index t (1 : Fin 2) * 64 + 1 * q.val = q.val; rw [i1]; omega

theorem blBlk_apply (c : Dev nD) (bl : Vec Ideal S1x64 .f32) (e3 : V c (Pipeline.arrRef spec0 3) = bl)
    (t : Fin cfg0.N) (q : Fin 64) : blBlk V c t (ix2 (0 : Fin 1) q) = bl (ix2 (0 : Fin 1) q) := by
  subst e3
  obtain ⟨-, -, -, -, -, -, i0, i1, -⟩ := idx_facts t
  show V c (Pipeline.arrRef spec0 3) (((cfg0.win 3).blk t).view.emb (ix2 (0 : Fin 1) q)) = V c (Pipeline.arrRef spec0 3) (ix2 (0 : Fin 1) q)
  refine congrArg (V c (Pipeline.arrRef spec0 3)) (funext fun a => Fin.ext ?_)
  match a with
  | ⟨0, _⟩ => show win0_3.index t (0 : Fin 2) * 1 + 1 * 0 = 0; rw [i0]
  | ⟨1, _⟩ => show win0_3.index t (1 : Fin 2) * 64 + 1 * q.val = q.val; rw [i1]; omega

theorem wrBlk_apply (c : Dev nD) (Wr : Vec Ideal S64x64 .f32) (e4 : V c (Pipeline.arrRef spec0 4) = Wr)
    (t : Fin cfg0.N) (k q : Fin 64) : wrBlk V c t (ix2 k q) = Wr (ix2 k q) := by
  subst e4
  obtain ⟨-, -, -, -, -, -, -, -, i0, i1, -⟩ := idx_facts t
  show V c (Pipeline.arrRef spec0 4) (((cfg0.win 4).blk t).view.emb (ix2 k q)) = V c (Pipeline.arrRef spec0 4) (ix2 k q)
  refine congrArg (V c (Pipeline.arrRef spec0 4)) (funext fun a => Fin.ext ?_)
  match a with
  | ⟨0, _⟩ => show win0_4.index t (0 : Fin 2) * 64 + 1 * k.val = k.val; rw [i0]; omega
  | ⟨1, _⟩ => show win0_4.index t (1 : Fin 2) * 64 + 1 * q.val = q.val; rw [i1]; omega

/-- Row r of the batch window's block at a point is row r of that tile of the batch column. -/
theorem batchBlk_apply (c : Dev nD) (bcol : Vec Ideal S50000x1 .i32) (e5 : V c (Pipeline.arrRef spec0 5) = bcol)
    (t : Fin cfg0.N) (r : Fin 2000) : batchBlk V c t (ix2 r (0 : Fin 1)) = bcol (ix2 (row (tl t) r) (0 : Fin 1)) := by
  subst e5
  obtain ⟨-, -, -, -, -, -, -, -, -, -, i0, i1, -⟩ := idx_facts t
  show V c (Pipeline.arrRef spec0 5) (((cfg0.win 5).blk t).view.emb (ix2 r (0 : Fin 1))) = V c (Pipeline.arrRef spec0 5) (ix2 (row (tl t) r) (0 : Fin 1))
  refine congrArg (V c (Pipeline.arrRef spec0 5)) (funext fun a => Fin.ext ?_)
  match a with
  | ⟨0, _⟩ => show win0_5.index t (0 : Fin 2) * 2000 + 1 * r.val = 2000 * t.val + r.val; rw [i0]; omega
  | ⟨1, _⟩ => show win0_5.index t (1 : Fin 2) * 1 + 1 * 0 = 0; rw [i1]

/-- The linear part of a point's blocks is that tile of the whole arrays' linear part. -/
theorem lin_tile (c : Dev nD) (agg root : Vec Ideal S50000x64 .f32) (Wl Wr : Vec Ideal S64x64 .f32) (bl : Vec Ideal S1x64 .f32)
    (e0 : V c (Pipeline.arrRef spec0 0) = agg) (e1 : V c (Pipeline.arrRef spec0 1) = root)
    (e2 : V c (Pipeline.arrRef spec0 2) = Wl) (e3 : V c (Pipeline.arrRef spec0 3) = bl)
    (e4 : V c (Pipeline.arrRef spec0 4) = Wr)
    (t : Fin cfg0.N) (p : Fin 2000) (q : Fin 64) :
    k0_pay3 (F := Ideal) (aggBlk V c t) (rootBlk V c t) (wlBlk V c t) (wrBlk V c t) (blBlk V c t) (ix2 p q)
      = (sageLin (un2 agg) (un2 root) (un2 Wl) (un2 Wr) (unRow bl)) (row (tl t) p) q := by
  refine (lin_apply _ _ _ _ _ p q).trans ?_
  show _ = ((∑ k : Fin 64, agg (ix2 (row (tl t) p) k) * Wl (ix2 k q)) + bl (ix2 (0 : Fin 1) q))
    + ∑ k : Fin 64, root (ix2 (row (tl t) p) k) * Wr (ix2 k q)
  refine congrArg₂ (· + ·) (congrArg₂ (· + ·) (Finset.sum_congr rfl fun k _ => congrArg₂ (· * ·) ?_ ?_) ?_)
    (Finset.sum_congr rfl fun k _ => congrArg₂ (· * ·) ?_ ?_)
  · exact aggBlk_apply V c agg e0 t p k
  · exact wlBlk_apply V c Wl e2 t k q
  · exact blBlk_apply V c bl e3 t q
  · exact rootBlk_apply V c root e1 t p k
  · exact wrBlk_apply V c Wr e4 t k q

/-! ## The first output: blocks to the array -/

/-- After every point the first output's buffer holds the linear part of the point's blocks. -/
theorem outs_lin (c : Dev nD) (t : Fin cfg0.N) :
    (outsAt0 V c t.val t.isLt).1
      = k0_pay3 (F := Ideal) (aggBlk V c t) (rootBlk V c t) (wlBlk V c t) (wrBlk V c t) (blBlk V c t) := by
  by_cases h0 : t.val % 25 = 0
  · rw [outsAt0_A V c t h0]
    dsimp only
    exact lin_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t) (iblk0 V c 5 t)
  · rw [outsAt0_B V c t h0]
    dsimp only
    exact lin_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2

/-- What a point writes back through the first output window is its block of the whole linear part. -/
theorem lin_flushed (c : Dev nD) (agg root : Vec Ideal S50000x64 .f32) (Wl Wr : Vec Ideal S64x64 .f32) (bl : Vec Ideal S1x64 .f32)
    (e0 : V c (Pipeline.arrRef spec0 0) = agg) (e1 : V c (Pipeline.arrRef spec0 1) = root)
    (e2 : V c (Pipeline.arrRef spec0 2) = Wl) (e3 : V c (Pipeline.arrRef spec0 3) = bl)
    (e4 : V c (Pipeline.arrRef spec0 4) = Wr)
    (t : Fin cfg0.N) :
    (dat0 (F := Ideal) V c).flushed 6 t
      = ((cfg0.win 6).blk t).view.read (Elt Ideal) (mk2 (sageLin (un2 agg) (un2 root) (un2 Wl) (un2 Wr) (unRow bl))) := by
  show (cfg0.win 6).cut (grid0.coords t) ((dat0 V c).after 6 t) = _
  rw [after0_6, outs_lin V c t]
  obtain ⟨-, -, -, -, -, -, -, -, -, -, -, -, i0, i1, -⟩ := idx_facts t
  funext j
  obtain ⟨p, q, rfl⟩ : ∃ (p : Fin 2000) (q : Fin 64), j = ix2 p q := ⟨j 0, j 1, eq_ix2 j⟩
  refine (lin_tile V c agg root Wl Wr bl e0 e1 e2 e3 e4 t p q).trans ?_
  show (sageLin (un2 agg) (un2 root) (un2 Wl) (un2 Wr) (unRow bl)) (row (tl t) p) q
    = (sageLin (un2 agg) (un2 root) (un2 Wl) (un2 Wr) (unRow bl)) ((((cfg0.win 6).blk t).view.emb (ix2 p q)) 0) ((((cfg0.win 6).blk t).view.emb (ix2 p q)) 1)
  refine congrArg₂ (sageLin (un2 agg) (un2 root) (un2 Wl) (un2 Wr) (unRow bl)) (Fin.ext ?_) (Fin.ext ?_)
  · show 2000 * t.val + p.val = win0_6.index t (0 : Fin 2) * 2000 + 1 * p.val
    rw [i0]; omega
  · show q.val = win0_6.index t (1 : Fin 2) * 64 + 1 * q.val
    rw [i1]; omega

/-- An entry of the first output array lies in a point's block iff each coordinate is in the block's range. -/
theorem mem_blk6 (t : Fin cfg0.N) (i : S50000x64.Idx) :
    i ∈ ((cfg0.win 6).blk t).view.set ↔ ∀ a : Fin 2, win0_6.index t a * S2000x64.size a ≤ (i a).val
      ∧ (i a).val < win0_6.index t a * S2000x64.size a + S2000x64.size a := by
  show i ∈ ((View.whole main_v37_0).slice (win0_6.rect t)).set ↔ _
  rw [View.set_slice_whole, Rect.mem_set_unit]
  exact Iff.rfl

/-- Every entry of the first output array lies in the block of the point numbered by its row's tile. -/
theorem lin_cover (i : S50000x64.Idx) :
    ∃ t : Fin cfg0.N, (cfg0.win 6).flush t = true ∧ i ∈ ((cfg0.win 6).blk t).view.set := by
  have hi0 : (i 0).val < 50000 := (i 0).isLt
  have hi1 : (i 1).val < 64 := (i 1).isLt
  have hN : cfg0.N = 25 := N_0
  let t : Fin cfg0.N := ⟨(i 0).val / 2000, by rw [hN]; omega⟩
  have htv : t.val = (i 0).val / 2000 := rfl
  obtain ⟨-, -, -, -, -, -, -, -, -, -, -, -, i0, i1, -⟩ := idx_facts t
  refine ⟨t, flush0_6 t, ?_⟩
  rw [mem_blk6]
  intro a
  match a with
  | ⟨0, _⟩ =>
    show win0_6.index t (0 : Fin 2) * 2000 ≤ (i 0).val ∧ (i 0).val < win0_6.index t (0 : Fin 2) * 2000 + 2000
    rw [i0, htv]; omega
  | ⟨1, _⟩ =>
    show win0_6.index t (1 : Fin 2) * 64 ≤ (i 1).val ∧ (i 1).val < win0_6.index t (1 : Fin 2) * 64 + 64
    rw [i1]; omega

/-- Region 0: the first output array after the region is the layer's linear part. -/
theorem value_lin (c : Dev nD) (agg root : Vec Ideal S50000x64 .f32) (Wl Wr : Vec Ideal S64x64 .f32) (bl : Vec Ideal S1x64 .f32)
    (e0 : V c (Pipeline.arrRef spec0 0) = agg) (e1 : V c (Pipeline.arrRef spec0 1) = root)
    (e2 : V c (Pipeline.arrRef spec0 2) = Wl) (e3 : V c (Pipeline.arrRef spec0 3) = bl)
    (e4 : V c (Pipeline.arrRef spec0 4) = Wr) :
    (dat0 (F := Ideal) V c).arrAt 6 cfg0.N = mk2 (sageLin (un2 agg) (un2 root) (un2 Wl) (un2 Wr) (unRow bl)) := by
  exact
    (dat0 (F := Ideal) V c).arrAt_eq_of_cover 6 (mk2 (sageLin (un2 agg) (un2 root) (un2 Wl) (un2 Wr) (unRow bl)))
      (fun t _ => lin_flushed V c agg root Wl Wr bl e0 e1 e2 e3 e4 t) lin_cover

/-! ## The statistics block: what each point adds, and the sum over the points -/

/-- A tile's share of a per-graph weighted sum; zero past the last tile. -/
def tileSum (bI : Fin 50000 → Fin 128) (f : Fin 50000 → EReal) (g : Fin 128) (s : Nat) : EReal :=
  if h : s < 25 then ∑ r' : Fin 2000, ohv (bI (row ⟨s, h⟩ r')) g * f (row ⟨s, h⟩ r') else 0

/-- At a grid point it is the sum over that tile's rows. -/
theorem tileSum_tl (bI : Fin 50000 → Fin 128) (f : Fin 50000 → EReal) (g : Fin 128) (t : Fin cfg0.N) :
    tileSum bI f g t.val = ∑ r' : Fin 2000, ohv (bI (row (tl t) r')) g * f (row (tl t) r') := by
  have h : t.val < 25 := (tl t).isLt
  unfold tileSum
  rw [dif_pos h]
  rfl

/-- The shares of the 25 tiles add up to the whole per-graph weighted sum. -/
theorem tileSum_total (bI : Fin 50000 → Fin 128) (f : Fin 50000 → EReal) (g : Fin 128) :
    ∑ s ∈ Finset.range 25, tileSum bI f g s = statSum bI f g := by
  unfold statSum
  rw [Finset.sum_range]
  refine Finset.sum_congr rfl fun t _ => ?_
  unfold tileSum
  rw [dif_pos t.isLt]

/-- A point's indicator block at a row is the indicator of that row's graph. -/
theorem ind_tile (c : Dev nD) (bI : Fin 50000 → Fin 128) (bcol : Vec Ideal S50000x1 .i32)
    (e5 : V c (Pipeline.arrRef spec0 5) = bcol)
    (hb : ∀ r : Fin 50000, bcol (ix2 r (0 : Fin 1)) = BitVec.ofNat 32 (bI r).val)
    (t : Fin cfg0.N) (r : Fin 2000) (g : Fin 128) :
    k0_pay5 (F := Ideal) (batchBlk V c t) (ix2 r g) = ohv (bI (row (tl t) r)) g :=
  ind_apply _ r g (bI (row (tl t) r)) ((batchBlk_apply V c bcol e5 t r).trans (hb _))

/-- What a point adds to row 0: its tile's share of the weighted sums of the rows' sums. -/
theorem tile_row0 (c : Dev nD) (agg root : Vec Ideal S50000x64 .f32) (Wl Wr : Vec Ideal S64x64 .f32) (bl : Vec Ideal S1x64 .f32)
    (e0 : V c (Pipeline.arrRef spec0 0) = agg) (e1 : V c (Pipeline.arrRef spec0 1) = root)
    (e2 : V c (Pipeline.arrRef spec0 2) = Wl) (e3 : V c (Pipeline.arrRef spec0 3) = bl)
    (e4 : V c (Pipeline.arrRef spec0 4) = Wr)
    (bI : Fin 50000 → Fin 128) (bcol : Vec Ideal S50000x1 .i32) (e5 : V c (Pipeline.arrRef spec0 5) = bcol)
    (hb : ∀ r : Fin 50000, bcol (ix2 r (0 : Fin 1)) = BitVec.ofNat 32 (bI r).val)
    (t : Fin cfg0.N) (g : Fin 128) :
    k0_pay6 (F := Ideal) (aggBlk V c t) (rootBlk V c t) (wlBlk V c t) (wrBlk V c t) (blBlk V c t) (batchBlk V c t) (ix2 (0 : Fin 1) g)
      = tileSum bI (rowSum (sageLin (un2 agg) (un2 root) (un2 Wl) (un2 Wr) (unRow bl))) g t.val := by
  rw [tileSum_tl]
  refine (wsum_apply _ _ _ _ _ _ g).trans ?_
  refine Finset.sum_congr rfl fun r _ => congrArg₂ (· * ·) ?_ ?_
  · exact ind_tile V c bI bcol e5 hb t r g
  · show _ = ∑ j : Fin 64, (sageLin (un2 agg) (un2 root) (un2 Wl) (un2 Wr) (unRow bl)) (row (tl t) r) j
    exact Finset.sum_congr rfl fun j _ => lin_tile V c agg root Wl Wr bl e0 e1 e2 e3 e4 t r j

/-- What a point adds to row 1: its tile's share of the weighted sums of the rows' sums of squares. -/
theorem tile_row1 (c : Dev nD) (agg root : Vec Ideal S50000x64 .f32) (Wl Wr : Vec Ideal S64x64 .f32) (bl : Vec Ideal S1x64 .f32)
    (e0 : V c (Pipeline.arrRef spec0 0) = agg) (e1 : V c (Pipeline.arrRef spec0 1) = root)
    (e2 : V c (Pipeline.arrRef spec0 2) = Wl) (e3 : V c (Pipeline.arrRef spec0 3) = bl)
    (e4 : V c (Pipeline.arrRef spec0 4) = Wr)
    (bI : Fin 50000 → Fin 128) (bcol : Vec Ideal S50000x1 .i32) (e5 : V c (Pipeline.arrRef spec0 5) = bcol)
    (hb : ∀ r : Fin 50000, bcol (ix2 r (0 : Fin 1)) = BitVec.ofNat 32 (bI r).val)
    (t : Fin cfg0.N) (g : Fin 128) :
    ∑ r : Fin 2000, k0_pay5 (F := Ideal) (batchBlk V c t) (ix2 r g)
        * k0_pay4 (F := Ideal) (aggBlk V c t) (rootBlk V c t) (wlBlk V c t) (wrBlk V c t) (blBlk V c t) (ix2 r (0 : Fin 1))
      = tileSum bI (rowSq (sageLin (un2 agg) (un2 root) (un2 Wl) (un2 Wr) (unRow bl))) g t.val := by
  rw [tileSum_tl]
  refine Finset.sum_congr rfl fun r _ => congrArg₂ (· * ·) ?_ ?_
  · exact ind_tile V c bI bcol e5 hb t r g
  · refine (sq_apply _ _ _ _ _ r).trans ?_
    show _ = ∑ j : Fin 64, (sageLin (un2 agg) (un2 root) (un2 Wl) (un2 Wr) (unRow bl)) (row (tl t) r) j * (sageLin (un2 agg) (un2 root) (un2 Wl) (un2 Wr) (unRow bl)) (row (tl t) r) j
    exact Finset.sum_congr rfl fun j _ => congrArg₂ (· * ·)
      (lin_tile V c agg root Wl Wr bl e0 e1 e2 e3 e4 t r j) (lin_tile V c agg root Wl Wr bl e0 e1 e2 e3 e4 t r j)

/-- After the first point the statistics buffer holds the update of the zero block. -/
theorem outs_stats_first (c : Dev nD) (t : Fin cfg0.N) (h0 : t.val % 25 = 0) :
    (outsAt0 V c t.val t.isLt).2
      = k0_pay1 (F := Ideal) (k0_pay4 (F := Ideal) (aggBlk V c t) (rootBlk V c t) (wlBlk V c t) (wrBlk V c t) (blBlk V c t)) (k0_pay5 (F := Ideal) (batchBlk V c t))
        (k0_pay6 (F := Ideal) (aggBlk V c t) (rootBlk V c t) (wlBlk V c t) (wrBlk V c t) (blBlk V c t) (batchBlk V c t)) (k0_pay2 (F := Ideal)) := by
  rw [outsAt0_A V c t h0]
  dsimp only
  exact stats_first (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) ((hcond0_0 t).mpr h0) (iblk0 V c 0 t) (iblk0 V c 1 t) (iblk0 V c 2 t) (iblk0 V c 3 t) (iblk0 V c 4 t) (iblk0 V c 5 t)

/-- After a later point it holds the update of what the point before left. -/
theorem outs_stats_later (c : Dev nD) (t : Fin cfg0.N) (h0 : ¬t.val % 25 = 0) :
    (outsAt0 V c t.val t.isLt).2
      = k0_pay1 (F := Ideal) (k0_pay4 (F := Ideal) (aggBlk V c t) (rootBlk V c t) (wlBlk V c t) (wrBlk V c t) (blBlk V c t)) (k0_pay5 (F := Ideal) (batchBlk V c t))
        (k0_pay6 (F := Ideal) (aggBlk V c t) (rootBlk V c t) (wlBlk V c t) (wrBlk V c t) (blBlk V c t) (batchBlk V c t)) (outsAt0 V c (t.val - 1) (Nat.lt_of_le_of_lt (Nat.sub_le _ _) t.isLt)).2 := by
  rw [outsAt0_B V c t h0]
  dsimp only
  exact stats_later (F := Ideal) c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (fun h => h0 ((hcond0_0 t).mp h)) (iblk0 V c 0 t) (iblk0 V c 1 t) (iblk0 V c 2 t) (iblk0 V c 3 t) (iblk0 V c 4 t) (iblk0 V c 5 t) (outsAt0 V c (t.val - 1) (Nat.lt_of_le_of_lt (Nat.sub_le _ _) t.isLt)).2

/-- THE INVARIANT: after point n, row 0 (row 1) of the statistics buffer at a graph is the sum of the shares of
    tiles 0 … n of the weighted sums of the rows' sums (sums of squares). By induction on the point. -/
theorem stats_inv (c : Dev nD) (agg root : Vec Ideal S50000x64 .f32) (Wl Wr : Vec Ideal S64x64 .f32) (bl : Vec Ideal S1x64 .f32)
    (e0 : V c (Pipeline.arrRef spec0 0) = agg) (e1 : V c (Pipeline.arrRef spec0 1) = root)
    (e2 : V c (Pipeline.arrRef spec0 2) = Wl) (e3 : V c (Pipeline.arrRef spec0 3) = bl)
    (e4 : V c (Pipeline.arrRef spec0 4) = Wr)
    (bI : Fin 50000 → Fin 128) (bcol : Vec Ideal S50000x1 .i32) (e5 : V c (Pipeline.arrRef spec0 5) = bcol)
    (hb : ∀ r : Fin 50000, bcol (ix2 r (0 : Fin 1)) = BitVec.ofNat 32 (bI r).val)
    (g : Fin 128) : ∀ (n : Nat) (h : n < cfg0.N),
      (outsAt0 V c n h).2 (ix2 (0 : Fin 2) g)
          = ∑ s ∈ Finset.range (n + 1), tileSum bI (rowSum (sageLin (un2 agg) (un2 root) (un2 Wl) (un2 Wr) (unRow bl))) g s
        ∧ (outsAt0 V c n h).2 (ix2 (1 : Fin 2) g)
          = ∑ s ∈ Finset.range (n + 1), tileSum bI (rowSq (sageLin (un2 agg) (un2 root) (un2 Wl) (un2 Wr) (unRow bl))) g s
  | 0, h => by
    have e := outs_stats_first V c ⟨0, h⟩ rfl
    constructor
    · refine (congrFun e (ix2 (0 : Fin 2) g)).trans ?_
      refine (upd_row0 _ _ _ _ g).trans ?_
      rw [zero_apply, zero_add, Finset.sum_range_one]
      exact tile_row0 V c agg root Wl Wr bl e0 e1 e2 e3 e4 bI bcol e5 hb ⟨0, h⟩ g
    · refine (congrFun e (ix2 (1 : Fin 2) g)).trans ?_
      refine (upd_row1 _ _ _ _ g).trans ?_
      rw [zero_apply, zero_add, Finset.sum_range_one]
      exact tile_row1 V c agg root Wl Wr bl e0 e1 e2 e3 e4 bI bcol e5 hb ⟨0, h⟩ g
  | n + 1, h => by
    have hN : cfg0.N = 25 := N_0
    have hB : ¬(⟨n + 1, h⟩ : Fin cfg0.N).val % 25 = 0 := by dsimp only; omega
    have e := outs_stats_later V c ⟨n + 1, h⟩ hB
    obtain ⟨ih0, ih1⟩ := stats_inv c agg root Wl Wr bl e0 e1 e2 e3 e4 bI bcol e5 hb g n (Nat.lt_of_succ_lt h)
    constructor
    · refine (congrFun e (ix2 (0 : Fin 2) g)).trans ?_
      refine (upd_row0 _ _ _ _ g).trans ?_
      rw [Finset.sum_range_succ _ (n + 1)]
      exact congrArg₂ (· + ·) ih0 (tile_row0 V c agg root Wl Wr bl e0 e1 e2 e3 e4 bI bcol e5 hb ⟨n + 1, h⟩ g)
    · refine (congrFun e (ix2 (1 : Fin 2) g)).trans ?_
      refine (upd_row1 _ _ _ _ g).trans ?_
      rw [Finset.sum_range_succ _ (n + 1)]
      exact congrArg₂ (· + ·) ih1 (tile_row1 V c agg root Wl Wr bl e0 e1 e2 e3 e4 bI bcol e5 hb ⟨n + 1, h⟩ g)

/-! ## The statistics block: from the last point's buffer to the array -/

/-- The last point. -/
theorem lastLt : 24 < cfg0.N := by have e : cfg0.N = 25 := N_0; omega

/-- An entry of the statistics array lies in a point's block iff each coordinate is in the block's range. -/
theorem mem_blk7 (t : Fin cfg0.N) (i : S2x128.Idx) :
    i ∈ ((cfg0.win 7).blk t).view.set ↔ ∀ a : Fin 2, win0_7.index t a * S2x128.size a ≤ (i a).val
      ∧ (i a).val < win0_7.index t a * S2x128.size a + S2x128.size a := by
  show i ∈ ((View.whole main_v37_1).slice (win0_7.rect t)).set ↔ _
  rw [View.set_slice_whole, Rect.mem_set_unit]
  exact Iff.rfl

/-- The one write-back of the statistics window, at the last point, writes the buffer as that point left it: the
    window's block is the whole 2 × 128 array. -/
theorem stats_flushed (c : Dev nD) (t : Fin cfg0.N) (hf : (cfg0.win 7).flush t = true) :
    (dat0 (F := Ideal) V c).flushed 7 t
      = ((cfg0.win 7).blk t).view.read (Elt Ideal) (outsAt0 V c 24 lastLt).2 := by
  have hN : cfg0.N = 25 := N_0
  have h24 : t.val = 24 := by have := (flush0_7 t).mp hf; have := t.isLt; omega
  obtain rfl : t = ⟨24, lastLt⟩ := Fin.ext h24
  show (cfg0.win 7).cut (grid0.coords ⟨24, lastLt⟩) ((dat0 V c).after 7 ⟨24, lastLt⟩) = _
  rw [after0_7]
  obtain ⟨-, -, -, -, -, -, -, -, -, -, -, -, -, -, i0, i1⟩ := idx_facts ⟨24, lastLt⟩
  have hz' : (fun a => win0_7.index ⟨24, lastLt⟩ a * main_v37_1.ty.shape.size a) = fun _ => 0 := funext fun a => by
    match a with
    | ⟨0, _⟩ => show win0_7.index ⟨24, lastLt⟩ (0 : Fin 2) * 2 = 0; rw [i0]
    | ⟨1, _⟩ => show win0_7.index ⟨24, lastLt⟩ (1 : Fin 2) * 128 = 0; rw [i1]
  exact (Memref.read_access_unit_zero (Elt Ideal) main_v37_1 hz' (fun a => by rw [congrFun hz' a]; simp)
    (outsAt0 V c 24 lastLt).2).symm

/-- So the statistics array ends holding what the last point left in the buffer. -/
theorem stats_final (c : Dev nD) : (dat0 (F := Ideal) V c).arrAt 7 cfg0.N = (outsAt0 V c 24 lastLt).2 :=
  (dat0 (F := Ideal) V c).arrAt_eq_of_cover 7 (outsAt0 V c 24 lastLt).2 (stats_flushed V c) fun i => by
    have hi0 : (i 0).val < 2 := (i 0).isLt
    have hi1 : (i 1).val < 128 := (i 1).isLt
    obtain ⟨-, -, -, -, -, -, -, -, -, -, -, -, -, -, i0, i1⟩ := idx_facts ⟨24, lastLt⟩
    refine ⟨⟨24, lastLt⟩, (flush0_7 ⟨24, lastLt⟩).mpr rfl, ?_⟩
    rw [mem_blk7]
    intro a
    match a with
    | ⟨0, _⟩ =>
      show win0_7.index ⟨24, lastLt⟩ (0 : Fin 2) * 2 ≤ (i 0).val ∧ (i 0).val < win0_7.index ⟨24, lastLt⟩ (0 : Fin 2) * 2 + 2
      rw [i0]; omega
    | ⟨1, _⟩ =>
      show win0_7.index ⟨24, lastLt⟩ (1 : Fin 2) * 128 ≤ (i 1).val ∧ (i 1).val < win0_7.index ⟨24, lastLt⟩ (1 : Fin 2) * 128 + 128
      rw [i1]; omega

/-- Region 0: the statistics array after the region holds, in row 0, the per-graph weighted sums of the rows' sums
    and, in row 1, those of the rows' sums of squares, for graph numbers `bI` read off the batch column. -/
theorem value_stats (c : Dev nD) (bI : Fin 50000 → Fin 128) (agg root : Vec Ideal S50000x64 .f32) (Wl Wr : Vec Ideal S64x64 .f32)
    (bl : Vec Ideal S1x64 .f32) (bcol : Vec Ideal S50000x1 .i32)
    (e0 : V c (Pipeline.arrRef spec0 0) = agg) (e1 : V c (Pipeline.arrRef spec0 1) = root)
    (e2 : V c (Pipeline.arrRef spec0 2) = Wl) (e3 : V c (Pipeline.arrRef spec0 3) = bl)
    (e4 : V c (Pipeline.arrRef spec0 4) = Wr) (e5 : V c (Pipeline.arrRef spec0 5) = bcol)
    (hb : ∀ r : Fin 50000, bcol (ix2 r (0 : Fin 1)) = BitVec.ofNat 32 (bI r).val) (g : Fin 128) :
    ((dat0 (F := Ideal) V c).arrAt 7 cfg0.N : Vec Ideal S2x128 .f32) (ix2 (0 : Fin 2) g)
        = statSum bI (rowSum (sageLin (un2 agg) (un2 root) (un2 Wl) (un2 Wr) (unRow bl))) g
      ∧ ((dat0 (F := Ideal) V c).arrAt 7 cfg0.N : Vec Ideal S2x128 .f32) (ix2 (1 : Fin 2) g)
        = statSum bI (rowSq (sageLin (un2 agg) (un2 root) (un2 Wl) (un2 Wr) (unRow bl))) g := by
  obtain ⟨h0, h1⟩ := stats_inv V c agg root Wl Wr bl e0 e1 e2 e3 e4 bI bcol e5 hb g 24 lastLt
  exact ⟨(congrFun (stats_final V c) (ix2 (0 : Fin 2) g)).trans (h0.trans (tileSum_total bI _ g)),
    (congrFun (stats_final V c) (ix2 (1 : Fin 2) g)).trans (h1.trans (tileSum_total bI _ g))⟩

end Cert.Gnn.RegionSage0

end
-- ==== Proof.RegionLn1.lean ====
/-
  The normalise-and-rectify kernel of region 1, as a whole array.

  It runs over 25 tiles of 2000 rows. In a tile, every row's graph number is compared with the numbers 0 … 127; the
  resulting indicator row, times the 128 per-graph means (reciprocal deviations), summed over the 128 lanes, is the
  row's own graph's mean (reciprocal deviation); the entry minus that mean, times that reciprocal deviation, times the
  channel's scale, plus the channel's shift, goes through the leaky rectifier. The rule is the same for every row, and
  the tiles cover the array.
-/
import proofs.«430900_j38714835206722_1_alg».proof.Proof.Gen.KernelIdeal.Frame
import proofs.«430900_j38714835206722_1_alg».proof.Proof.Shapes
import proofs.«430900_j38714835206722_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gnn.RegionLn1

open Idealize.ShloMosaic Idealize.ShloMosaic.TcCoe Idealize.ShloMosaic.ValueIdx Idealize.ShloMosaic.Pipeline
open Cert.KernelIdeal Cert.KernelIdeal.Gen Cert.Gnn

variable (V : (c : Dev nD) → (b : Ref sig .tc) → Buf (Elt Ideal) ((c : Thread nD τ).loc b))

/-! ## Scalar facts -/

/-- The rectifier as the kernel spells it: choose `y` where `y ≥ 0` compares true, else `a * y`. -/
theorem select_oge_zero (a y : EReal) :
    Scalar.select (FloatOps.cmpf (F := Ideal) (φ := .f32) .oge y (Scalar.ofBits (F := Ideal) .f32 0x00000000#32)) y (a * y) = prelu a y := by
  have hz0 : Scalar.ofBits (F := Ideal) .f32 0x00000000#32 = (0 : EReal) := Ideal.ofBits_zero_f32
  rw [hz0]
  show Scalar.select (Ideal.cmp .oge y 0) y (a * y) = prelu a y
  unfold prelu Ideal.cmp Scalar.select
  by_cases h : (0 : EReal) ≤ y
  · simp [h]
  · simp [h]

/-- Two graph numbers below 128 have the same 32-bit word only if they are equal. -/
theorem word_eq_iff (g b : Fin 128) : BitVec.ofNat 32 g.val = BitVec.ofNat 32 b.val ↔ g = b := by
  constructor
  · intro h
    have h' := congrArg BitVec.toNat h
    simp only [BitVec.toNat_ofNat] at h'
    have hg := g.isLt
    have hb := b.isLt
    exact Fin.ext (by omega)
  · intro h; rw [h]

/-- The compare of two graph numbers' words, widened and converted, is the indicator. -/
theorem indicator_word (g b : Fin 128) :
    FloatOps.sitofp (F := Ideal) .f32 ((IntOp.cmpi .eq (BitVec.ofNat 32 g.val) (BitVec.ofNat 32 b.val)).setWidth 32) = ohv b g := by
  show (((((IntOp.cmpi .eq (BitVec.ofNat 32 g.val) (BitVec.ofNat 32 b.val)).setWidth 32).toInt : ℝ)) : EReal) = ohv b g
  unfold ohv IntOp.cmpi
  by_cases h : g = b
  · subst h; simp
  · have hne : (BitVec.ofNat 32 g.val == BitVec.ofNat 32 b.val) = false := by
      rw [beq_eq_false_iff_ne]
      exact fun e => h ((word_eq_iff g b).mp e)
    simp [h, hne]

/-! ## Layout operations read at an index -/

/-- A `[a, 1]` column broadcast to `[a, b]` reads, at `(p, c)`, the column's entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(p, 0)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_two, Shape.rowMajor_val_one]
    show p.val = p.val * 1 + 0
    omega)

/-- The index over row `p` with lane `g` inserted is `(p, g)`. -/
theorem lift_row_lane (h : S2000x128.Reduces [1] S2000) (p : Fin 2000) (g : Fin 128) :
    h.lift (ix1 p) g = ix2 p g := by
  funext a
  apply Fin.ext
  match a with
  | ⟨0, _⟩ => rfl
  | ⟨1, _⟩ => rfl

/-- A sum over the 128 lanes of a row, read at the row. -/
theorem lane_sum_apply (x : FVec Ideal S2000x128 .f32) (h : S2000x128.Reduces [1] S2000) (hφ : FKind.Formats .f32)
    (hacc : (0x00000000#32 : BitVec 32) = FKind.add.neutral .f32 hφ) (p : Fin 2000) :
    multiReduction (F := Ideal) .add [1] S2000 x 0x00000000#32 h hφ hacc (ix1 p) = ∑ g : Fin 128, x (ix2 p g) := by
  refine (Ideal.multiReduction_add_single x 0x00000000#32 h hφ hacc (ix1 p)).trans ?_
  exact Finset.sum_congr rfl fun g _ => congrArg x (lift_row_lane h p g)

/-- The row's indicator-weighted sum of a `1 × 128` array, spread again over the row's 64 channels. -/
theorem node_stat_apply (x8 : FVec Ideal S2000x128 .f32) (w : Vec Ideal S1x128 .f32)
    (hsc : S1x128.ShapeCasts S1x128) (hb : S1x128.Broadcasts S2000x128) (h : S2000x128.Reduces [1] S2000)
    (hφ : FKind.Formats .f32) (hacc : (0x00000000#32 : BitVec 32) = FKind.add.neutral .f32 hφ)
    (hsc2 : S2000.ShapeCasts S2000x1) (hb2 : S2000x1.Broadcasts S2000x64) (p : Fin 2000) (q : Fin 64) :
    broadcastTo S2000x64 (shapeCast S2000x1
        (multiReduction (F := Ideal) .add [1] S2000 (mulf x8 (broadcastTo S2000x128 (shapeCast S1x128 w hsc) hb))
          0x00000000#32 h hφ hacc) hsc2) hb2 (ix2 p q)
      = ∑ g : Fin 128, x8 (ix2 p g) * w (ix2 (0 : Fin 1) g) := by
  refine (broadcastTo_a1_ab_apply _ hb2 p q).trans ?_
  refine (shapeCast_a_a1_apply _ hsc2 p).trans ?_
  refine (lane_sum_apply _ h hφ hacc p).trans ?_
  refine Finset.sum_congr rfl fun g _ => ?_
  show x8 (ix2 p g) * broadcastTo S2000x128 (shapeCast S1x128 w hsc) hb (ix2 p g) = _
  rw [broadcastTo_1b_ab_apply, shapeCast_self]

/-- The indicator rows: the compare of the lane number with the row's graph number, widened and converted. -/
theorem onehot_apply (v3 : Vec Ideal S2000x1 .i32) (hi : S2000x128.Iotas .tc 32 [1]) (hsc : S2000x1.ShapeCasts S2000x1)
    (hb : S2000x1.Broadcasts S2000x128) (hlt : 1 < 32) (b : Fin 128) (p : Fin 2000) (g : Fin 128)
    (hv : v3 (ix2 p (0 : Fin 1)) = BitVec.ofNat 32 b.val) :
    (sitofp .f32 (extui 32 (cmpi .eq (iota .tc S2000x128 32 [1] hi) (broadcastTo S2000x128 (shapeCast S2000x1 v3 hsc) hb)) hlt)
        : FVec Ideal S2000x128 .f32) (ix2 p g) = ohv b g := by
  show FloatOps.sitofp (F := Ideal) .f32 ((IntOp.cmpi .eq (iota .tc S2000x128 32 [1] hi (ix2 p g))
      (broadcastTo S2000x128 (shapeCast S2000x1 v3 hsc) hb (ix2 p g))).setWidth 32) = ohv b g
  rw [iota_single_apply, broadcastTo_a1_ab_apply, shapeCast_self, hv]
  exact indicator_word g b

/-- A `[1, 1]` array broadcast to `[a, b]` reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-! ## The body's arithmetic at an entry -/

/-- At row `p`, channel `q` of a tile whose row `p` carries graph number `b`: the entry minus the graph's mean, times
    the graph's reciprocal deviation, times the channel's scale, plus the channel's shift, through the rectifier. -/
theorem pay_apply (v0 : Vec Ideal S2000x64 .f32) (v3 : Vec Ideal S2000x1 .i32) (v9 v15 : Vec Ideal S1x128 .f32)
    (v25 v29 : Vec Ideal S1x64 .f32) (v33 : Vec Ideal S1x1 .f32) (b : Fin 128) (p : Fin 2000) (q : Fin 64)
    (hv : v3 (ix2 p (0 : Fin 1)) = BitVec.ofNat 32 b.val) :
    k1_pay1 (F := Ideal) v0 v3 v9 v15 v25 v29 v33 (ix2 p q)
      = prelu (v33 (ix2 (0 : Fin 1) (0 : Fin 1)))
          ((((v0 (ix2 p q) - ∑ g : Fin 128, ohv b g * v9 (ix2 (0 : Fin 1) g))
                * ∑ g : Fin 128, ohv b g * v15 (ix2 (0 : Fin 1) g))
              * v25 (ix2 (0 : Fin 1) q)) + v29 (ix2 (0 : Fin 1) q)) := by
  unfold k1_pay1
  dsimp only
  simp only [select_apply, cmpf_apply, mulf_apply, addf_apply, subf_apply, broadcast_apply]
  rw [select_oge_zero]
  refine congrArg₂ prelu ?_ (congrArg₂ HAdd.hAdd (congrArg₂ HMul.hMul (congrArg₂ HMul.hMul (congrArg₂ HSub.hSub ?_ ?_) ?_) ?_) ?_)
  · rw [broadcastTo_11_ab_apply, shapeCast_self]
  · rw [shapeCast_self]
  · refine (node_stat_apply _ v9 _ _ _ _ _ _ _ p q).trans ?_
    exact Finset.sum_congr rfl fun g _ => congrArg (· * v9 (ix2 (0 : Fin 1) g)) (onehot_apply v3 _ _ _ _ b p g hv)
  · refine (node_stat_apply _ v15 _ _ _ _ _ _ _ p q).trans ?_
    exact Finset.sum_congr rfl fun g _ => congrArg (· * v15 (ix2 (0 : Fin 1) g)) (onehot_apply v3 _ _ _ _ b p g hv)
  · rw [broadcastTo_1b_ab_apply, shapeCast_self]
  · rw [broadcastTo_1b_ab_apply, shapeCast_self]

/-! ## The tiles -/

theorem hz : (![0, 0] : Fin 2 → Nat) = fun _ => 0 := funext fun a => by fin_cases a <;> rfl

/-- The block numbers, decided over the 25 points: the features', the batch column's and the output's tile at point `t`
    is tile `t`; the per-graph and per-channel arrays are one block at every point. -/
theorem idx_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = t.val ∧ win1_7.index t (1 : Fin 2) = 0 :=
  (by decide +kernel : ∀ t : Fin grid1.N, _)

/-- Row `p`, channel `q` of the features' tile `t` is row `2000 t + p`, channel `q` of the array. -/
theorem blk0_apply (c : Dev nD) (t : Fin cfg1.N) (hpre : Vec Ideal S50000x64 .f32) (e : V c (Pipeline.arrRef spec1 0) = hpre)
    (p : Fin 2000) (q : Fin 64) (r : Fin 50000) (hr : r.val = 2000 * t.val + p.val) :
    (iblk1 V c 0 t : Vec Ideal S2000x64 .f32) (ix2 p q) = hpre (ix2 r q) := by
  subst e
  obtain ⟨e0, e1, -⟩ := idx_facts t
  have h : ((cfg1.win 0).blk t).view.emb (ix2 p q) = ix2 r q := by
    funext a; apply Fin.ext
    match a with
    | ⟨0, _⟩ => show win1_0.index t (0 : Fin 2) * 2000 + 1 * p.val = r.val; omega
    | ⟨1, _⟩ => show win1_0.index t (1 : Fin 2) * 64 + 1 * q.val = q.val; omega
  unfold iblk1
  rw [View.read_apply, h]
  rfl

/-- Row `p` of the batch column's tile `t` is row `2000 t + p` of the column. -/
theorem blk3_apply (c : Dev nD) (t : Fin cfg1.N) (bcol : Vec Ideal S50000x1 .i32) (e : V c (Pipeline.arrRef spec1 3) = bcol)
    (p : Fin 2000) (r : Fin 50000) (hr : r.val = 2000 * t.val + p.val) :
    (iblk1 V c 3 t : Vec Ideal S2000x1 .i32) (ix2 p (0 : Fin 1)) = bcol (ix2 r (0 : Fin 1)) := by
  subst e
  obtain ⟨-, -, -, -, -, -, e0, e1, -⟩ := idx_facts t
  have h : ((cfg1.win 3).blk t).view.emb (ix2 p (0 : Fin 1)) = ix2 r (0 : Fin 1) := by
    funext a; apply Fin.ext
    match a with
    | ⟨0, _⟩ => show win1_3.index t (0 : Fin 2) * 2000 + 1 * p.val = r.val; omega
    | ⟨1, _⟩ => show win1_3.index t (1 : Fin 2) * 1 + 1 * 0 = 0; omega
  unfold iblk1
  rw [View.read_apply, h]
  rfl

/-- A window whose one block is its whole array holds the array at every point: the per-graph means. -/
theorem blk1_eq (c : Dev nD) (t : Fin cfg1.N) (x1 : Vec Ideal S1x128 .f32) (e : V c (Pipeline.arrRef spec1 1) = x1) :
    (iblk1 V c 1 t : Vec Ideal S1x128 .f32) = x1 := by
  subst e
  have hi : win1_1.index t (0 : Fin 2) = 0 ∧ win1_1.index t (1 : Fin 2) = 0 := by
    have h := idx_facts t
    omega
  funext x
  have h : ((cfg1.win 1).blk t).view.emb x = x := by
    funext a; apply Fin.ext
    match a with
    | ⟨0, _⟩ => show win1_1.index t (0 : Fin 2) * 1 + 1 * (x 0).val = (x 0).val; omega
    | ⟨1, _⟩ => show win1_1.index t (1 : Fin 2) * 128 + 1 * (x 1).val = (x 1).val; omega
  unfold iblk1
  rw [View.read_apply, h]
  rfl

/-- The per-graph reciprocal deviations likewise. -/
theorem blk2_eq (c : Dev nD) (t : Fin cfg1.N) (x2 : Vec Ideal S1x128 .f32) (e : V c (Pipeline.arrRef spec1 2) = x2) :
    (iblk1 V c 2 t : Vec Ideal S1x128 .f32) = x2 := by
  subst e
  have hi : win1_2.index t (0 : Fin 2) = 0 ∧ win1_2.index t (1 : Fin 2) = 0 := by
    have h := idx_facts t
    omega
  funext x
  have h : ((cfg1.win 2).blk t).view.emb x = x := by
    funext a; apply Fin.ext
    match a with
    | ⟨0, _⟩ => show win1_2.index t (0 : Fin 2) * 1 + 1 * (x 0).val = (x 0).val; omega
    | ⟨1, _⟩ => show win1_2.index t (1 : Fin 2) * 128 + 1 * (x 1).val = (x 1).val; omega
  unfold iblk1
  rw [View.read_apply, h]
  rfl

/-- The per-channel scales likewise. -/
theorem blk4_eq (c : Dev nD) (t : Fin cfg1.N) (x4 : Vec Ideal S1x64 .f32) (e : V c (Pipeline.arrRef spec1 4) = x4) :
    (iblk1 V c 4 t : Vec Ideal S1x64 .f32) = x4 := by
  subst e
  have hi : win1_4.index t (0 : Fin 2) = 0 ∧ win1_4.index t (1 : Fin 2) = 0 := by
    have h := idx_facts t
    omega
  funext x
  have h : ((cfg1.win 4).blk t).view.emb x = x := by
    funext a; apply Fin.ext
    match a with
    | ⟨0, _⟩ => show win1_4.index t (0 : Fin 2) * 1 + 1 * (x 0).val = (x 0).val; omega
    | ⟨1, _⟩ => show win1_4.index t (1 : Fin 2) * 64 + 1 * (x 1).val = (x 1).val; omega
  unfold iblk1
  rw [View.read_apply, h]
  rfl

/-- The per-channel shifts likewise. -/
theorem blk5_eq (c : Dev nD) (t : Fin cfg1.N) (x5 : Vec Ideal S1x64 .f32) (e : V c (Pipeline.arrRef spec1 5) = x5) :
    (iblk1 V c 5 t : Vec Ideal S1x64 .f32) = x5 := by
  subst e
  have hi : win1_5.index t (0 : Fin 2) = 0 ∧ win1_5.index t (1 : Fin 2) = 0 := by
    have h := idx_facts t
    omega
  funext x
  have h : ((cfg1.win 5).blk t).view.emb x = x := by
    funext a; apply Fin.ext
    match a with
    | ⟨0, _⟩ => show win1_5.index t (0 : Fin 2) * 1 + 1 * (x 0).val = (x 0).val; omega
    | ⟨1, _⟩ => show win1_5.index t (1 : Fin 2) * 64 + 1 * (x 1).val = (x 1).val; omega
  unfold iblk1
  rw [View.read_apply, h]
  rfl

/-- The rectifier's slope likewise. -/
theorem blk6_eq (c : Dev nD) (t : Fin cfg1.N) (x6 : Vec Ideal S1x1 .f32) (e : V c (Pipeline.arrRef spec1 6) = x6) :
    (iblk1 V c 6 t : Vec Ideal S1x1 .f32) = x6 := by
  subst e
  have hi : win1_6.index t (0 : Fin 2) = 0 ∧ win1_6.index t (1 : Fin 2) = 0 := by
    have h := idx_facts t
    omega
  funext x
  have h : ((cfg1.win 6).blk t).view.emb x = x := by
    funext a; apply Fin.ext
    match a with
    | ⟨0, _⟩ => show win1_6.index t (0 : Fin 2) * 1 + 1 * (x 0).val = (x 0).val; omega
    | ⟨1, _⟩ => show win1_6.index t (1 : Fin 2) * 1 + 1 * (x 1).val = (x 1).val; omega
  unfold iblk1
  rw [View.read_apply, h]
  rfl

/-- Row `p`, channel `q` of the output's tile `t` sits at row `2000 t + p`, channel `q` of the output array. -/
theorem emb7_apply (t : Fin cfg1.N) (p : Fin 2000) (q : Fin 64) (r : Fin 50000) (hr : r.val = 2000 * t.val + p.val) :
    ((cfg1.win 7).blk t).view.emb (ix2 p q) = ix2 r q := by
  obtain ⟨-, -, -, -, -, -, -, -, -, -, -, -, -, -, e0, e1⟩ := idx_facts t
  funext a; apply Fin.ext
  match a with
  | ⟨0, _⟩ => show win1_7.index t (0 : Fin 2) * 2000 + 1 * p.val = r.val; omega
  | ⟨1, _⟩ => show win1_7.index t (1 : Fin 2) * 64 + 1 * q.val = q.val; omega

/-! ## From the tiles to the array -/

/-- WHAT POINT `t` WRITES BACK is tile `t` of the normalised array: every row of the tile reads its own graph's mean
    and reciprocal deviation, because the row's word in the batch column is its graph number. -/
theorem flushed_eq (c : Dev nD) (bI : Fin 50000 → Fin 128) (hpre : Vec Ideal S50000x64 .f32) (mean invstd : Vec Ideal S1x128 .f32)
    (bcol : Vec Ideal S50000x1 .i32) (lnw lnb : Vec Ideal S1x64 .f32) (a : Vec Ideal S1x1 .f32)
    (e0 : V c (Pipeline.arrRef spec1 0) = hpre) (e1 : V c (Pipeline.arrRef spec1 1) = mean)
    (e2 : V c (Pipeline.arrRef spec1 2) = invstd) (e3 : V c (Pipeline.arrRef spec1 3) = bcol)
    (e4 : V c (Pipeline.arrRef spec1 4) = lnw) (e5 : V c (Pipeline.arrRef spec1 5) = lnb)
    (e6 : V c (Pipeline.arrRef spec1 6) = a)
    (hb : ∀ r : Fin 50000, bcol (ix2 r (0 : Fin 1)) = BitVec.ofNat 32 (bI r).val) (t : Fin cfg1.N) :
    (dat1 (F := Ideal) V c).flushed 7 t
      = ((cfg1.win 7).blk t).view.read (Elt Ideal)
          (mk2 (lnApplyK bI (un2 hpre) (unRow mean) (unRow invstd) (unRow lnw) (unRow lnb) (a (ix2 (0 : Fin 1) (0 : Fin 1))))) := by
  show (cfg1.win 7).cut (grid1.coords t) ((dat1 V c).after 7 t) = _
  rw [after1_7]
  unfold out1_7
  rw [View.canon_unit_zero hz]
  simp only [View.ld_unit_zero (S := S2000x64) hz, View.ld_unit_zero (S := S2000x1) hz, View.ld_unit_zero (S := S1x128) hz,
    View.ld_unit_zero (S := S1x64) hz, View.ld_unit_zero (S := S1x1) hz]
  rw [blk1_eq V c t mean e1, blk2_eq V c t invstd e2, blk4_eq V c t lnw e4, blk5_eq V c t lnb e5, blk6_eq V c t a e6]
  funext j
  obtain ⟨p, q, rfl⟩ : ∃ (p : Fin 2000) (q : Fin 64), j = ix2 p q := ⟨j 0, j 1, eq_ix2 j⟩
  have ht : t.val < 25 := lt_of_lt_of_eq t.isLt N_1
  have hp : p.val < 2000 := p.isLt
  have hr : 2000 * t.val + p.val < 50000 := by omega
  rw [View.read_apply, emb7_apply t p q ⟨2000 * t.val + p.val, hr⟩ rfl]
  show k1_pay1 (F := Ideal) (iblk1 V c 0 t) (iblk1 V c 3 t) mean invstd lnw lnb a (ix2 p q)
    = lnApplyK bI (un2 hpre) (unRow mean) (unRow invstd) (unRow lnw) (unRow lnb) (a (ix2 (0 : Fin 1) (0 : Fin 1)))
        ⟨2000 * t.val + p.val, hr⟩ q
  refine (pay_apply (iblk1 V c 0 t) (iblk1 V c 3 t) mean invstd lnw lnb a (bI ⟨2000 * t.val + p.val, hr⟩) p q ?_).trans ?_
  · rw [blk3_apply V c t bcol e3 p ⟨2000 * t.val + p.val, hr⟩ rfl]
    exact hb _
  · rw [blk0_apply V c t hpre e0 p q ⟨2000 * t.val + p.val, hr⟩ rfl]
    rfl

/-- An index of the output array is in point `t`'s tile iff each coordinate is in the tile's range on its axis. -/
theorem mem_blk7 (t : Fin cfg1.N) (i : S50000x64.Idx) :
    i ∈ ((cfg1.win 7).blk t).view.set ↔ ∀ a : Fin 2, win1_7.index t a * S2000x64.size a ≤ (i a).val
      ∧ (i a).val < win1_7.index t a * S2000x64.size a + S2000x64.size a := by
  show i ∈ ((View.whole main_v54).slice (win1_7.rect t)).set ↔ _
  rw [View.set_slice_whole, Rect.mem_set_unit]
  exact Iff.rfl

/-- The 25 tiles cover the output array: row `r` lies in tile `r / 2000`. -/
theorem cover7 (i : S50000x64.Idx) :
    ∃ t : Fin cfg1.N, (cfg1.win 7).flush t = true ∧ i ∈ ((cfg1.win 7).blk t).view.set := by
  have hi0 : (i 0).val < 50000 := (i 0).isLt
  have hi1 : (i 1).val < 64 := (i 1).isLt
  have hN : grid1.N = 25 := N_1
  have hlt : (i 0).val / 2000 < grid1.N := by omega
  obtain ⟨-, -, -, -, -, -, -, -, -, -, -, -, -, -, e0, e1⟩ := idx_facts ⟨(i 0).val / 2000, hlt⟩
  refine ⟨⟨(i 0).val / 2000, hlt⟩, flush1_7 _, ?_⟩
  rw [mem_blk7]
  intro a
  match a with
  | ⟨0, _⟩ =>
    show win1_7.index ⟨(i 0).val / 2000, hlt⟩ (0 : Fin 2) * 2000 ≤ (i 0).val
      ∧ (i 0).val < win1_7.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win1_7.index ⟨(i 0).val / 2000, hlt⟩ (1 : Fin 2) * 64 ≤ (i 1).val
      ∧ (i 1).val < win1_7.index ⟨(i 0).val / 2000, hlt⟩ (1 : Fin 2) * 64 + 64
    rw [e1]
    omega

/-- Region 1: the output array after the region is the normalisation of `hpre` from the per-graph means and
    reciprocal deviations, for graph numbers `bI` read off the batch column. -/
theorem value (c : Dev nD) (bI : Fin 50000 → Fin 128) (hpre : Vec Ideal S50000x64 .f32) (mean invstd : Vec Ideal S1x128 .f32)
    (bcol : Vec Ideal S50000x1 .i32) (lnw lnb : Vec Ideal S1x64 .f32) (a : Vec Ideal S1x1 .f32)
    (e0 : V c (Pipeline.arrRef spec1 0) = hpre) (e1 : V c (Pipeline.arrRef spec1 1) = mean)
    (e2 : V c (Pipeline.arrRef spec1 2) = invstd) (e3 : V c (Pipeline.arrRef spec1 3) = bcol)
    (e4 : V c (Pipeline.arrRef spec1 4) = lnw) (e5 : V c (Pipeline.arrRef spec1 5) = lnb)
    (e6 : V c (Pipeline.arrRef spec1 6) = a)
    (hb : ∀ r : Fin 50000, bcol (ix2 r (0 : Fin 1)) = BitVec.ofNat 32 (bI r).val) :
    (dat1 (F := Ideal) V c).arrAt 7 cfg1.N
      = mk2 (lnApplyK bI (un2 hpre) (unRow mean) (unRow invstd) (unRow lnw) (unRow lnb) (a (ix2 (0 : Fin 1) (0 : Fin 1)))) := by
  exact (dat1 (F := Ideal) V c).arrAt_eq_of_cover 7 _
    (fun t _ => flushed_eq V c bI hpre mean invstd bcol lnw lnb a e0 e1 e2 e3 e4 e5 e6 hb t) cover7

end Cert.Gnn.RegionLn1

end
-- ==== Proof.RegionSkip.lean ====
/-
  The two skip-connection kernels, as whole arrays.

  Each runs over 25 tiles of 2000 rows; a tile's output block is the tile of `h1 + x · W` (the first) or of
  `h1 + h2 + x · W` (the second), the product read at an entry as a sum over the 64 contracted positions; the tiles
  cover the array, so the array after the region is that function of the arrays the region finds.
-/
import proofs.«430900_j38714835206722_1_alg».proof.Proof.Gen.KernelIdeal.Frame
import proofs.«430900_j38714835206722_1_alg».proof.Proof.Shapes
import proofs.«430900_j38714835206722_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gnn.RegionSkip

open Idealize.ShloMosaic Idealize.ShloMosaic.TcCoe Idealize.ShloMosaic.ValueIdx Idealize.ShloMosaic.Pipeline
open Cert.KernelIdeal Cert.KernelIdeal.Gen Cert.Gnn

variable (V : (c : Dev nD) → (b : Ref sig .tc) → Buf (Elt Ideal) ((c : Thread nD τ).loc b))

/-! ## Region 2 -/

/-- The matrix product's dimension numbers are the plain ones: contract the left operand's columns with the right
    operand's rows. -/
theorem dot_plain : dot_S2000x64_S64x64_S2000x64_1_0_0_1_n_n = DotDims.plain 2000 64 64 := rfl

theorem hz : (![0, 0] : Fin 2 → Nat) = fun _ => 0 := funext fun a => by fin_cases a <;> rfl

/-- The first skip kernel's stored value at row `p`, column `q` of a tile: the entry of `h1` plus the product's. -/
theorem pay2_apply (x0 : Vec Ideal S2000x64 .f32) (w : Vec Ideal S64x64 .f32) (h : Vec Ideal S2000x64 .f32)
    (p : Fin 2000) (q : Fin 64) :
    k2_pay1 (F := Ideal) x0 w h (ix2 p q) = h (ix2 p q) + ∑ k : Fin 64, x0 (ix2 p k) * w (ix2 k q) := by
  unfold k2_pay1
  refine (addf_apply _ _ _).trans ?_
  refine congrArg₂ (· + ·) (congrFun (shapeCast_self h _) _) ?_
  exact Cert.Lib.PlainDot.matmul_zero_apply none (truncf .bf16 x0 bitsLt_bf16_f32) (truncf .bf16 w bitsLt_bf16_f32) p q

/-- The block index maps of region 2, decided over the 25 points: the row windows sit at tile `t`, the weight
    window at its one block. -/
theorem idx2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_2.index t (0 : Fin 2) = 0 ∧ win2_2.index t (1 : Fin 2) = 0
    ∧ win2_3.index t (0 : Fin 2) = t.val ∧ win2_3.index t (1 : Fin 2) = 0 :=
  (by decide +kernel : ∀ t : Fin grid2.N, _)

/-- The tile of a grid point of region 2. -/
def tile2 (t : Fin cfg2.N) : Fin 25 := ⟨t.val, t.isLt.trans_eq N_2⟩

/-- A tile of `h1 + x · W`: from the tile's rows of `h1` and `x` and the whole of `W`, the stored value at row `p`,
    column `q` is the entry of `h1 + x · W` at row `p` of the tile. -/
theorem point2 (h1 x : Vec Ideal S50000x64 .f32) (W : Vec Ideal S64x64 .f32) (T : Fin 25)
    (b0 b1 : Vec Ideal S2000x64 .f32) (bw : Vec Ideal S64x64 .f32)
    (hb0 : ∀ (p : Fin 2000) (q : Fin 64), b0 (ix2 p q) = h1 (ix2 (row T p) q))
    (hb1 : ∀ (p : Fin 2000) (k : Fin 64), b1 (ix2 p k) = x (ix2 (row T p) k))
    (hbw : ∀ (k q : Fin 64), bw (ix2 k q) = W (ix2 k q))
    (p : Fin 2000) (q : Fin 64) :
    k2_pay1 (F := Ideal) b1 bw b0 (ix2 p q) = mk2 (skip1 (un2 h1) (un2 x) (un2 W)) (ix2 (row T p) q) := by
  refine (pay2_apply b1 bw b0 p q).trans ?_
  show b0 (ix2 p q) + ∑ k : Fin 64, b1 (ix2 p k) * bw (ix2 k q)
    = h1 (ix2 (row T p) q) + ∑ k : Fin 64, x (ix2 (row T p) k) * W (ix2 k q)
  refine congrArg₂ (· + ·) (hb0 p q) (Finset.sum_congr rfl fun k _ => ?_)
  rw [hb1, hbw]

/-- The same at an index of the tile. -/
theorem point2_idx (h1 x : Vec Ideal S50000x64 .f32) (W : Vec Ideal S64x64 .f32) (T : Fin 25)
    (b0 b1 : Vec Ideal S2000x64 .f32) (bw : Vec Ideal S64x64 .f32)
    (hb0 : ∀ (p : Fin 2000) (q : Fin 64), b0 (ix2 p q) = h1 (ix2 (row T p) q))
    (hb1 : ∀ (p : Fin 2000) (k : Fin 64), b1 (ix2 p k) = x (ix2 (row T p) k))
    (hbw : ∀ (k q : Fin 64), bw (ix2 k q) = W (ix2 k q))
    (y : S2000x64.Idx) :
    k2_pay1 (F := Ideal) b1 bw b0 y = mk2 (skip1 (un2 h1) (un2 x) (un2 W)) (ix2 (row T (y 0)) (y 1)) := by
  obtain ⟨p, q, rfl⟩ : ∃ (p : Fin 2000) (q : Fin 64), y = ix2 p q := ⟨y 0, y 1, eq_ix2 y⟩
  exact point2 h1 x W T b0 b1 bw hb0 hb1 hbw p q

/-- A row window's block of region 2 at point `t` reads the array at the tile's rows. -/
theorem blk2_0_apply (a : Vec Ideal S50000x64 .f32) (t : Fin cfg2.N) (p : Fin 2000) (q : Fin 64) :
    View.read (Elt Ideal) ((cfg2.win 0).blk t).view a (ix2 p q) = a (ix2 (row (tile2 t) p) q) := by
  obtain ⟨i00, i01, i10, i11, i20, i21, i30, i31⟩ := idx2 t
  show a (((cfg2.win 0).blk t).view.emb (ix2 p q)) = a (ix2 (row (tile2 t) p) q)
  refine congrArg a (funext fun d => Fin.ext ?_)
  match d with
  | ⟨0, _⟩ => show win2_0.index t (0 : Fin 2) * 2000 + 1 * p.val = 2000 * t.val + p.val; rw [i00]; omega
  | ⟨1, _⟩ => show win2_0.index t (1 : Fin 2) * 64 + 1 * q.val = q.val; rw [i01]; omega

theorem blk2_1_apply (a : Vec Ideal S50000x64 .f32) (t : Fin cfg2.N) (p : Fin 2000) (q : Fin 64) :
    View.read (Elt Ideal) ((cfg2.win 1).blk t).view a (ix2 p q) = a (ix2 (row (tile2 t) p) q) := by
  obtain ⟨i00, i01, i10, i11, i20, i21, i30, i31⟩ := idx2 t
  show a (((cfg2.win 1).blk t).view.emb (ix2 p q)) = a (ix2 (row (tile2 t) p) q)
  refine congrArg a (funext fun d => Fin.ext ?_)
  match d with
  | ⟨0, _⟩ => show win2_1.index t (0 : Fin 2) * 2000 + 1 * p.val = 2000 * t.val + p.val; rw [i10]; omega
  | ⟨1, _⟩ => show win2_1.index t (1 : Fin 2) * 64 + 1 * q.val = q.val; rw [i11]; omega

/-- The weight window's one block is the whole weight matrix. -/
theorem blk2_2_apply (a : Vec Ideal S64x64 .f32) (t : Fin cfg2.N) (k q : Fin 64) :
    View.read (Elt Ideal) ((cfg2.win 2).blk t).view a (ix2 k q) = a (ix2 k q) := by
  obtain ⟨i00, i01, i10, i11, i20, i21, i30, i31⟩ := idx2 t
  show a (((cfg2.win 2).blk t).view.emb (ix2 k q)) = a (ix2 k q)
  refine congrArg a (funext fun d => Fin.ext ?_)
  match d with
  | ⟨0, _⟩ => show win2_2.index t (0 : Fin 2) * 64 + 1 * k.val = k.val; rw [i20]; omega
  | ⟨1, _⟩ => show win2_2.index t (1 : Fin 2) * 64 + 1 * q.val = q.val; rw [i21]; omega

/-- The output window's block at point `t` sits at the tile's rows. -/
theorem emb2_3 (t : Fin cfg2.N) (y : S2000x64.Idx) :
    ((cfg2.win 3).blk t).view.emb y = ix2 (row (tile2 t) (y 0)) (y 1) := by
  obtain ⟨i00, i01, i10, i11, i20, i21, i30, i31⟩ := idx2 t
  refine funext fun d => Fin.ext ?_
  match d with
  | ⟨0, _⟩ => show win2_3.index t (0 : Fin 2) * 2000 + 1 * (y 0).val = 2000 * t.val + (y 0).val; rw [i30]; omega
  | ⟨1, _⟩ => show win2_3.index t (1 : Fin 2) * 64 + 1 * (y 1).val = (y 1).val; rw [i31]; omega

/-- What point `t` of region 2 writes back is block `t` of `h1 + x · W`. -/
theorem flushed2_eq (c : Dev nD) (h1 x : Vec Ideal S50000x64 .f32) (W : Vec Ideal S64x64 .f32)
    (e0 : V c (Pipeline.arrRef spec2 0) = h1) (e1 : V c (Pipeline.arrRef spec2 1) = x) (e2 : V c (Pipeline.arrRef spec2 2) = W)
    (t : Fin cfg2.N) :
    (dat2 (F := Ideal) V c).flushed 3 t
      = ((cfg2.win 3).blk t).view.read (Elt Ideal) (mk2 (skip1 (un2 h1) (un2 x) (un2 W))) := by
  show (cfg2.win 3).cut (grid2.coords t) ((dat2 V c).after 3 t) = _
  rw [after2_3]
  unfold out2_3
  rw [View.canon_unit_zero hz]
  simp only [View.ld_unit_zero (S := S2000x64) hz, View.ld_unit_zero (S := S64x64) hz]
  unfold iblk2
  rw [e0, e1, e2]
  funext j
  show k2_pay1 (F := Ideal) (View.read (Elt Ideal) ((cfg2.win 1).blk t).view x)
      (View.read (Elt Ideal) ((cfg2.win 2).blk t).view W) (View.read (Elt Ideal) ((cfg2.win 0).blk t).view h1) j
    = mk2 (skip1 (un2 h1) (un2 x) (un2 W)) (((cfg2.win 3).blk t).view.emb j)
  refine (point2_idx h1 x W (tile2 t) (View.read (Elt Ideal) ((cfg2.win 0).blk t).view h1)
    (View.read (Elt Ideal) ((cfg2.win 1).blk t).view x) (View.read (Elt Ideal) ((cfg2.win 2).blk t).view W)
    (blk2_0_apply h1 t) (blk2_1_apply x t) (blk2_2_apply W t) j).trans ?_
  exact congrArg (mk2 (skip1 (un2 h1) (un2 x) (un2 W))) (emb2_3 t j).symm

/-- An index of the output array is in point `t`'s block iff each coordinate is in the block's range. -/
theorem mem_blk2 (t : Fin cfg2.N) (i : S50000x64.Idx) :
    i ∈ ((cfg2.win 3).blk t).view.set ↔ ∀ a : Fin 2, win2_3.index t a * S2000x64.size a ≤ (i a).val
      ∧ (i a).val < win2_3.index t a * S2000x64.size a + S2000x64.size a := by
  show i ∈ ((View.whole main_v55).slice (win2_3.rect t)).set ↔ _
  rw [View.set_slice_whole, Rect.mem_set_unit]
  exact Iff.rfl

/-- The 25 blocks cover the output array: row `r` is in the block of point `r / 2000`. -/
theorem cover2 (i : S50000x64.Idx) :
    ∃ t : Fin cfg2.N, (cfg2.win 3).flush t = true ∧ i ∈ ((cfg2.win 3).blk t).view.set := by
  have hi0 : (i 0).val < 50000 := (i 0).isLt
  have hi1 : (i 1).val < 64 := (i 1).isLt
  have hN : cfg2.N = 25 := N_2
  refine ⟨⟨(i 0).val / 2000, by rw [hN]; omega⟩, flush2_3 _, ?_⟩
  rw [mem_blk2]
  obtain ⟨i00, i01, i10, i11, i20, i21, i30, i31⟩ := idx2 ⟨(i 0).val / 2000, by rw [hN]; omega⟩
  intro a
  match a with
  | ⟨0, _⟩ =>
    show win2_3.index _ (0 : Fin 2) * 2000 ≤ (i 0).val ∧ (i 0).val < win2_3.index _ (0 : Fin 2) * 2000 + 2000
    rw [i30]; show (i 0).val / 2000 * 2000 ≤ (i 0).val ∧ (i 0).val < (i 0).val / 2000 * 2000 + 2000; omega
  | ⟨1, _⟩ =>
    show win2_3.index _ (1 : Fin 2) * 64 ≤ (i 1).val ∧ (i 1).val < win2_3.index _ (1 : Fin 2) * 64 + 64
    rw [i31]; omega

/-- Region 2: the output array after the region is `h1 + x · W`. -/
theorem value2 (c : Dev nD) (h1 x : Vec Ideal S50000x64 .f32) (W : Vec Ideal S64x64 .f32)
    (e0 : V c (Pipeline.arrRef spec2 0) = h1) (e1 : V c (Pipeline.arrRef spec2 1) = x) (e2 : V c (Pipeline.arrRef spec2 2) = W) :
    (dat2 (F := Ideal) V c).arrAt 3 cfg2.N = mk2 (skip1 (un2 h1) (un2 x) (un2 W)) := by
  exact (dat2 (F := Ideal) V c).arrAt_eq_of_cover 3 (mk2 (skip1 (un2 h1) (un2 x) (un2 W)))
    (fun t _ => flushed2_eq V c h1 x W e0 e1 e2 t) cover2

/-! ## Region 5 -/

/-- The second skip kernel's stored value at row `p`, column `q` of a tile: the entries of `h1` and `h2` added, plus
    the product's. -/
theorem pay5_apply (x0 : Vec Ideal S2000x64 .f32) (w : Vec Ideal S64x64 .f32) (h h' : Vec Ideal S2000x64 .f32)
    (p : Fin 2000) (q : Fin 64) :
    k5_pay1 (F := Ideal) x0 w h h' (ix2 p q)
      = (h (ix2 p q) + h' (ix2 p q)) + ∑ k : Fin 64, x0 (ix2 p k) * w (ix2 k q) := by
  unfold k5_pay1
  refine (addf_apply _ _ _).trans ?_
  refine congrArg₂ (· + ·) ((addf_apply _ _ _).trans
    (congrArg₂ (· + ·) (congrFun (shapeCast_self h _) _) (congrFun (shapeCast_self h' _) _))) ?_
  exact Cert.Lib.PlainDot.matmul_zero_apply none (truncf .bf16 x0 bitsLt_bf16_f32) (truncf .bf16 w bitsLt_bf16_f32) p q

/-- The block index maps of region 5, decided over the 25 points. -/
theorem idx5 : ∀ t : Fin cfg5.N,
    win5_0.index t (0 : Fin 2) = t.val ∧ win5_0.index t (1 : Fin 2) = 0
    ∧ win5_1.index t (0 : Fin 2) = t.val ∧ win5_1.index t (1 : Fin 2) = 0
    ∧ win5_2.index t (0 : Fin 2) = t.val ∧ win5_2.index t (1 : Fin 2) = 0
    ∧ win5_3.index t (0 : Fin 2) = 0 ∧ win5_3.index t (1 : Fin 2) = 0
    ∧ win5_4.index t (0 : Fin 2) = t.val ∧ win5_4.index t (1 : Fin 2) = 0 :=
  (by decide +kernel : ∀ t : Fin grid5.N, _)

/-- The tile of a grid point of region 5. -/
def tile5 (t : Fin cfg5.N) : Fin 25 := ⟨t.val, t.isLt.trans_eq N_5⟩

/-- A tile of `h1 + h2 + x · W`. -/
theorem point5 (h1 h2 x : Vec Ideal S50000x64 .f32) (W : Vec Ideal S64x64 .f32) (T : Fin 25)
    (b0 b1 b2 : Vec Ideal S2000x64 .f32) (bw : Vec Ideal S64x64 .f32)
    (hb0 : ∀ (p : Fin 2000) (q : Fin 64), b0 (ix2 p q) = h1 (ix2 (row T p) q))
    (hb1 : ∀ (p : Fin 2000) (q : Fin 64), b1 (ix2 p q) = h2 (ix2 (row T p) q))
    (hb2 : ∀ (p : Fin 2000) (k : Fin 64), b2 (ix2 p k) = x (ix2 (row T p) k))
    (hbw : ∀ (k q : Fin 64), bw (ix2 k q) = W (ix2 k q))
    (p : Fin 2000) (q : Fin 64) :
    k5_pay1 (F := Ideal) b2 bw b0 b1 (ix2 p q)
      = mk2 (skip2 (un2 h1) (un2 h2) (un2 x) (un2 W)) (ix2 (row T p) q) := by
  refine (pay5_apply b2 bw b0 b1 p q).trans ?_
  show (b0 (ix2 p q) + b1 (ix2 p q)) + ∑ k : Fin 64, b2 (ix2 p k) * bw (ix2 k q)
    = (h1 (ix2 (row T p) q) + h2 (ix2 (row T p) q)) + ∑ k : Fin 64, x (ix2 (row T p) k) * W (ix2 k q)
  refine congrArg₂ (· + ·) (congrArg₂ (· + ·) (hb0 p q) (hb1 p q)) (Finset.sum_congr rfl fun k _ => ?_)
  rw [hb2, hbw]

/-- The same at an index of the tile. -/
theorem point5_idx (h1 h2 x : Vec Ideal S50000x64 .f32) (W : Vec Ideal S64x64 .f32) (T : Fin 25)
    (b0 b1 b2 : Vec Ideal S2000x64 .f32) (bw : Vec Ideal S64x64 .f32)
    (hb0 : ∀ (p : Fin 2000) (q : Fin 64), b0 (ix2 p q) = h1 (ix2 (row T p) q))
    (hb1 : ∀ (p : Fin 2000) (q : Fin 64), b1 (ix2 p q) = h2 (ix2 (row T p) q))
    (hb2 : ∀ (p : Fin 2000) (k : Fin 64), b2 (ix2 p k) = x (ix2 (row T p) k))
    (hbw : ∀ (k q : Fin 64), bw (ix2 k q) = W (ix2 k q))
    (y : S2000x64.Idx) :
    k5_pay1 (F := Ideal) b2 bw b0 b1 y
      = mk2 (skip2 (un2 h1) (un2 h2) (un2 x) (un2 W)) (ix2 (row T (y 0)) (y 1)) := by
  obtain ⟨p, q, rfl⟩ : ∃ (p : Fin 2000) (q : Fin 64), y = ix2 p q := ⟨y 0, y 1, eq_ix2 y⟩
  exact point5 h1 h2 x W T b0 b1 b2 bw hb0 hb1 hb2 hbw p q

/-- A row window's block of region 5 at point `t` reads the array at the tile's rows. -/
theorem blk5_0_apply (a : Vec Ideal S50000x64 .f32) (t : Fin cfg5.N) (p : Fin 2000) (q : Fin 64) :
    View.read (Elt Ideal) ((cfg5.win 0).blk t).view a (ix2 p q) = a (ix2 (row (tile5 t) p) q) := by
  obtain ⟨i00, i01, i10, i11, i20, i21, i30, i31, i40, i41⟩ := idx5 t
  show a (((cfg5.win 0).blk t).view.emb (ix2 p q)) = a (ix2 (row (tile5 t) p) q)
  refine congrArg a (funext fun d => Fin.ext ?_)
  match d with
  | ⟨0, _⟩ => show win5_0.index t (0 : Fin 2) * 2000 + 1 * p.val = 2000 * t.val + p.val; rw [i00]; omega
  | ⟨1, _⟩ => show win5_0.index t (1 : Fin 2) * 64 + 1 * q.val = q.val; rw [i01]; omega

theorem blk5_1_apply (a : Vec Ideal S50000x64 .f32) (t : Fin cfg5.N) (p : Fin 2000) (q : Fin 64) :
    View.read (Elt Ideal) ((cfg5.win 1).blk t).view a (ix2 p q) = a (ix2 (row (tile5 t) p) q) := by
  obtain ⟨i00, i01, i10, i11, i20, i21, i30, i31, i40, i41⟩ := idx5 t
  show a (((cfg5.win 1).blk t).view.emb (ix2 p q)) = a (ix2 (row (tile5 t) p) q)
  refine congrArg a (funext fun d => Fin.ext ?_)
  match d with
  | ⟨0, _⟩ => show win5_1.index t (0 : Fin 2) * 2000 + 1 * p.val = 2000 * t.val + p.val; rw [i10]; omega
  | ⟨1, _⟩ => show win5_1.index t (1 : Fin 2) * 64 + 1 * q.val = q.val; rw [i11]; omega

theorem blk5_2_apply (a : Vec Ideal S50000x64 .f32) (t : Fin cfg5.N) (p : Fin 2000) (q : Fin 64) :
    View.read (Elt Ideal) ((cfg5.win 2).blk t).view a (ix2 p q) = a (ix2 (row (tile5 t) p) q) := by
  obtain ⟨i00, i01, i10, i11, i20, i21, i30, i31, i40, i41⟩ := idx5 t
  show a (((cfg5.win 2).blk t).view.emb (ix2 p q)) = a (ix2 (row (tile5 t) p) q)
  refine congrArg a (funext fun d => Fin.ext ?_)
  match d with
  | ⟨0, _⟩ => show win5_2.index t (0 : Fin 2) * 2000 + 1 * p.val = 2000 * t.val + p.val; rw [i20]; omega
  | ⟨1, _⟩ => show win5_2.index t (1 : Fin 2) * 64 + 1 * q.val = q.val; rw [i21]; omega

/-- The weight window's one block is the whole weight matrix. -/
theorem blk5_3_apply (a : Vec Ideal S64x64 .f32) (t : Fin cfg5.N) (k q : Fin 64) :
    View.read (Elt Ideal) ((cfg5.win 3).blk t).view a (ix2 k q) = a (ix2 k q) := by
  obtain ⟨i00, i01, i10, i11, i20, i21, i30, i31, i40, i41⟩ := idx5 t
  show a (((cfg5.win 3).blk t).view.emb (ix2 k q)) = a (ix2 k q)
  refine congrArg a (funext fun d => Fin.ext ?_)
  match d with
  | ⟨0, _⟩ => show win5_3.index t (0 : Fin 2) * 64 + 1 * k.val = k.val; rw [i30]; omega
  | ⟨1, _⟩ => show win5_3.index t (1 : Fin 2) * 64 + 1 * q.val = q.val; rw [i31]; omega

/-- The output window's block at point `t` sits at the tile's rows. -/
theorem emb5_4 (t : Fin cfg5.N) (y : S2000x64.Idx) :
    ((cfg5.win 4).blk t).view.emb y = ix2 (row (tile5 t) (y 0)) (y 1) := by
  obtain ⟨i00, i01, i10, i11, i20, i21, i30, i31, i40, i41⟩ := idx5 t
  refine funext fun d => Fin.ext ?_
  match d with
  | ⟨0, _⟩ => show win5_4.index t (0 : Fin 2) * 2000 + 1 * (y 0).val = 2000 * t.val + (y 0).val; rw [i40]; omega
  | ⟨1, _⟩ => show win5_4.index t (1 : Fin 2) * 64 + 1 * (y 1).val = (y 1).val; rw [i41]; omega

/-- What point `t` of region 5 writes back is block `t` of `h1 + h2 + x · W`. -/
theorem flushed5_eq (c : Dev nD) (h1 h2 x : Vec Ideal S50000x64 .f32) (W : Vec Ideal S64x64 .f32)
    (e0 : V c (Pipeline.arrRef spec5 0) = h1) (e1 : V c (Pipeline.arrRef spec5 1) = h2) (e2 : V c (Pipeline.arrRef spec5 2) = x)
    (e3 : V c (Pipeline.arrRef spec5 3) = W) (t : Fin cfg5.N) :
    (dat5 (F := Ideal) V c).flushed 4 t
      = ((cfg5.win 4).blk t).view.read (Elt Ideal) (mk2 (skip2 (un2 h1) (un2 h2) (un2 x) (un2 W))) := by
  show (cfg5.win 4).cut (grid5.coords t) ((dat5 V c).after 4 t) = _
  rw [after5_4]
  unfold out5_4
  rw [View.canon_unit_zero hz]
  simp only [View.ld_unit_zero (S := S2000x64) hz, View.ld_unit_zero (S := S64x64) hz]
  unfold iblk5
  rw [e0, e1, e2, e3]
  funext j
  show k5_pay1 (F := Ideal) (View.read (Elt Ideal) ((cfg5.win 2).blk t).view x)
      (View.read (Elt Ideal) ((cfg5.win 3).blk t).view W) (View.read (Elt Ideal) ((cfg5.win 0).blk t).view h1)
      (View.read (Elt Ideal) ((cfg5.win 1).blk t).view h2) j
    = mk2 (skip2 (un2 h1) (un2 h2) (un2 x) (un2 W)) (((cfg5.win 4).blk t).view.emb j)
  refine (point5_idx h1 h2 x W (tile5 t) (View.read (Elt Ideal) ((cfg5.win 0).blk t).view h1)
    (View.read (Elt Ideal) ((cfg5.win 1).blk t).view h2) (View.read (Elt Ideal) ((cfg5.win 2).blk t).view x)
    (View.read (Elt Ideal) ((cfg5.win 3).blk t).view W)
    (blk5_0_apply h1 t) (blk5_1_apply h2 t) (blk5_2_apply x t) (blk5_3_apply W t) j).trans ?_
  exact congrArg (mk2 (skip2 (un2 h1) (un2 h2) (un2 x) (un2 W))) (emb5_4 t j).symm

/-- An index of the output array is in point `t`'s block iff each coordinate is in the block's range. -/
theorem mem_blk5 (t : Fin cfg5.N) (i : S50000x64.Idx) :
    i ∈ ((cfg5.win 4).blk t).view.set ↔ ∀ a : Fin 2, win5_4.index t a * S2000x64.size a ≤ (i a).val
      ∧ (i a).val < win5_4.index t a * S2000x64.size a + S2000x64.size a := by
  show i ∈ ((View.whole main_v88).slice (win5_4.rect t)).set ↔ _
  rw [View.set_slice_whole, Rect.mem_set_unit]
  exact Iff.rfl

/-- The 25 blocks cover the output array: row `r` is in the block of point `r / 2000`. -/
theorem cover5 (i : S50000x64.Idx) :
    ∃ t : Fin cfg5.N, (cfg5.win 4).flush t = true ∧ i ∈ ((cfg5.win 4).blk t).view.set := by
  have hi0 : (i 0).val < 50000 := (i 0).isLt
  have hi1 : (i 1).val < 64 := (i 1).isLt
  have hN : cfg5.N = 25 := N_5
  refine ⟨⟨(i 0).val / 2000, by rw [hN]; omega⟩, flush5_4 _, ?_⟩
  rw [mem_blk5]
  obtain ⟨i00, i01, i10, i11, i20, i21, i30, i31, i40, i41⟩ := idx5 ⟨(i 0).val / 2000, by rw [hN]; omega⟩
  intro a
  match a with
  | ⟨0, _⟩ =>
    show win5_4.index _ (0 : Fin 2) * 2000 ≤ (i 0).val ∧ (i 0).val < win5_4.index _ (0 : Fin 2) * 2000 + 2000
    rw [i40]; show (i 0).val / 2000 * 2000 ≤ (i 0).val ∧ (i 0).val < (i 0).val / 2000 * 2000 + 2000; omega
  | ⟨1, _⟩ =>
    show win5_4.index _ (1 : Fin 2) * 64 ≤ (i 1).val ∧ (i 1).val < win5_4.index _ (1 : Fin 2) * 64 + 64
    rw [i41]; omega

/-- Region 5: the output array after the region is `h1 + h2 + x · W`. -/
theorem value5 (c : Dev nD) (h1 h2 x : Vec Ideal S50000x64 .f32) (W : Vec Ideal S64x64 .f32)
    (e0 : V c (Pipeline.arrRef spec5 0) = h1) (e1 : V c (Pipeline.arrRef spec5 1) = h2) (e2 : V c (Pipeline.arrRef spec5 2) = x)
    (e3 : V c (Pipeline.arrRef spec5 3) = W) :
    (dat5 (F := Ideal) V c).arrAt 4 cfg5.N = mk2 (skip2 (un2 h1) (un2 h2) (un2 x) (un2 W)) := by
  exact (dat5 (F := Ideal) V c).arrAt_eq_of_cover 4 (mk2 (skip2 (un2 h1) (un2 h2) (un2 x) (un2 W)))
    (fun t _ => flushed5_eq V c h1 h2 x W e0 e1 e2 e3 t) cover5

end Cert.Gnn.RegionSkip

end
-- ==== Proof.KChain1.lean ====
/-
  The first stretch of the kernel program's run: the first host stretch, the first layer's two kernels and the first
  skip kernel. The first host stretch computes the edge endpoints, the batch column, the reciprocal degrees and
  counts, and the first neighbour average; the statistics kernel's block is turned into means and reciprocal
  deviations by the second host stretch; the boundary after the skip kernel holds the first layer's output and the
  second layer's input.

  Every boundary is read the same way. After a host stretch, a buffer it writes is the stretch's operations applied to
  the buffers it reads, and any other buffer is as before. After a kernel, an output array is what the kernel's rule
  gives on the arrays it was handed, and any other buffer — an input array included — is as before. The shared buffers
  and the arguments are therefore carried unchanged from the first host stretch to the last boundary, and the layer's
  output is assembled from the linear part, its per-graph statistics, and the normalisation.
-/
import proofs.«430900_j38714835206722_1_alg».proof.Proof.KChainDefs
import proofs.«430900_j38714835206722_1_alg».proof.Proof.RegionSage0
import proofs.«430900_j38714835206722_1_alg».proof.Proof.RegionLn1
import proofs.«430900_j38714835206722_1_alg».proof.Proof.RegionSkip
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.Gnn.KChain

open Idealize.ShloMosaic Idealize.ShloMosaic.TcCoe Idealize.ShloMosaic.ValueIdx Idealize.ShloMosaic.Pipeline
open Cert.KernelIdeal Cert.KernelIdeal.Gen Cert.Gnn

variable (m : (ℓ : Loc nD τ sig) → Buf (Elt Ideal) ℓ) (ρ : Dev nD → PrngReg) (c : Dev nD)

/-! ## The first host stretch -/

/-- The buffers the first host stretch writes. -/
abbrev written0 : List (Ref sig .tc) :=
  [main_v0, main_v1, main_v2, main_v3, main_v4, main_cst, main_v5, main_cst_0, main_v6, main_v7, main_v8, main_cst_1,
   main_v9, main_v10, main_cst_2, main_v11, main_v12, main_cst_3, main_v13, main_cst_4, main_v14, main_v15, main_v16,
   main_cst_5, main_v17, main_v18, main_cst_6, main_v19, main_v20, main_cst_7, main_v21, main_v22, main_c, main_v23,
   main_v24, main_c_8, main_v25, main_v26, main_v27, main_v28, main_v29, main_cst_9, main_v30, main_v31, main_v32,
   main_v33, main_v34, main_v35, main_v36]

theorem hostOps0_writes : (hostOps0 (F := Ideal)).Forall fun op =>
    op.writes ⊆ ((written0.map (Proc.devRef (τ := τ) .tc)).toFinset : Finset (DevRef τ sig)) := by
  simp only [hostOps0, List.Forall, StableHlo.nullary_writes, StableHlo.unary_writes, StableHlo.binary_writes,
    StableHlo.ternary_writes, StableHlo.reshape_writes, Finset.singleton_subset_iff, List.mem_toFinset]
  repeat' apply And.intro
  all_goals exact List.mem_map_of_mem (by decide)

/-- A buffer the first host stretch does not write holds after it what was launched. -/
theorem W1_keep (r : Ref sig .tc) (hr : r ∉ written0) :
    W1 (F := Ideal) m ρ c (Proc.devRef .tc r) = m ((c.tc : Thread nD τ).loc r) :=
  StableHlo.after_of_writes_sub hostOps0 (W0 m ρ c) hostOps0_writes hr

theorem W1_v1 : (W1 (F := Ideal) m ρ c (Proc.devRef .tc main_v1) : IVec S800000 32) = srcT (eiOf m c) := by
  show StableHlo.after hostOps0 (W0 m ρ c) (Proc.devRef .tc main_v1) = _
  after_results_simp
  rfl

theorem W1_v3 : (W1 (F := Ideal) m ρ c (Proc.devRef .tc main_v3) : IVec S800000 32) = dstT (eiOf m c) := by
  show StableHlo.after hostOps0 (W0 m ρ c) (Proc.devRef .tc main_v3) = _
  after_results_simp
  rfl

theorem W1_v4 : (W1 (F := Ideal) m ρ c (Proc.devRef .tc main_v4) : IVec S50000x1 32)
    = shapeCast _ (btOf m c) Facts₀.shapeCasts_S50000_S50000x1 := by
  show StableHlo.after hostOps0 (W0 m ρ c) (Proc.devRef .tc main_v4) = _
  after_results_simp
  rfl

theorem W1_v12 : (W1 (F := Ideal) m ρ c (Proc.devRef .tc main_v12) : FVec Ideal S50000 .f32)
    = Host.divf (broadcastInDim S50000 ![] Facts₀.bcast_S_S50000 (constant S_ .f32 0x3F800000#32)) (degArr (eiOf m c)) := by
  show StableHlo.after hostOps0 (W0 m ρ c) (Proc.devRef .tc main_v12) = _
  after_results_simp
  rfl

theorem W1_v22 : (W1 (F := Ideal) m ρ c (Proc.devRef .tc main_v22) : FVec Ideal S128 .f32)
    = Host.divf (broadcastInDim S128 ![] Facts₀.bcast_S_S128 (constant S_ .f32 0x3F800000#32)) (normArr (btOf m c)) := by
  show StableHlo.after hostOps0 (W0 m ρ c) (Proc.devRef .tc main_v22) = _
  after_results_simp
  rfl

/-- The first neighbour average as the first host stretch forms it: the neighbour sum of the features times the
    reciprocal degrees broadcast along the rows. -/
abbrev avg1 : FVec Ideal S50000x64 .f32 :=
  mulf (aggArr (eiOf m c) (m ((c.tc : Thread nD τ).loc main_arg0)))
    (broadcastInDim S50000x64 ![0, 1] Facts₀.bcast_S50000x1_S50000x64_0_1
      (broadcastInDim S50000x1 ![0] Facts₀.bcast_S50000_S50000x1_0
        (Host.divf (broadcastInDim S50000 ![] Facts₀.bcast_S_S50000 (constant S_ .f32 0x3F800000#32)) (degArr (eiOf m c)))))

theorem W1_v35 : (W1 (F := Ideal) m ρ c (Proc.devRef .tc main_v35) : FVec Ideal S50000x64 .f32) = avg1 m c := by
  show StableHlo.after hostOps0 (W0 m ρ c) (Proc.devRef .tc main_v35) = _
  after_results_simp
  rfl

theorem W1_v36 : (W1 (F := Ideal) m ρ c (Proc.devRef .tc main_v36) : FVec Ideal S1x64 .f32)
    = shapeCast _ (m ((c.tc : Thread nD τ).loc main_arg2)) Facts₀.shapeCasts_S64_S1x64 := by
  show StableHlo.after hostOps0 (W0 m ρ c) (Proc.devRef .tc main_v36) = _
  after_results_simp
  rfl

/-! ## What a boundary keeps -/

/-- A boundary that agrees with an earlier one at the shared buffers and at the arguments keeps them. -/
theorem Live.carry {W W' : Valuation τ sig (Elt Ideal)} (h : Live m c W)
    (h1 : W' (Proc.devRef .tc main_v1) = W (Proc.devRef .tc main_v1))
    (h3 : W' (Proc.devRef .tc main_v3) = W (Proc.devRef .tc main_v3))
    (h4 : W' (Proc.devRef .tc main_v4) = W (Proc.devRef .tc main_v4))
    (h12 : W' (Proc.devRef .tc main_v12) = W (Proc.devRef .tc main_v12))
    (h22 : W' (Proc.devRef .tc main_v22) = W (Proc.devRef .tc main_v22))
    (ha : ∀ b ∈ argRefs, W' (Proc.devRef .tc b) = W (Proc.devRef .tc b)) : Live m c W' :=
  ⟨h1.trans h.v1, h3.trans h.v3, h4.trans h.v4, h12.trans h.v12, h22.trans h.v22,
    fun b hb => (ha b hb).trans (h.arg b hb)⟩

theorem args_not_written0 : ∀ b ∈ argRefs, b ∉ written0 := by decide

/-- After the first host stretch. -/
theorem live1 : Live m c (W1 (F := Ideal) m ρ c) where
  v1 := W1_v1 m ρ c
  v3 := W1_v3 m ρ c
  v4 := W1_v4 m ρ c
  v12 := W1_v12 m ρ c
  v22 := W1_v22 m ρ c
  arg := fun b hb => W1_keep m ρ c b (args_not_written0 b hb)

/-! ## The first layer's linear-and-statistics kernel -/

/-- A buffer that is none of the kernel's output arrays holds at its exit what it held at its entry: an input array is
    left as entered, any other buffer is not touched. -/
theorem W2_same (b : Ref sig .tc) (hb : ∀ w : Fin cfg0.W, Pipeline.arrRef spec0 w = b → (cfg0.win w).isOut = false) :
    W2 (F := Ideal) m ρ c (Proc.devRef .tc b) = W1 (F := Ideal) m ρ c (Proc.devRef .tc b) := by
  by_cases h : ∃ w : Fin cfg0.W, Pipeline.arrRef spec0 w = b
  · obtain ⟨w, rfl⟩ := h
    exact (W2_arr m ρ c w).trans (((dat0 (V1 m ρ) c).arrAt_in w (hb w rfl) _).trans (A_eq0 (V1 m ρ) c w))
  · exact W2_of_ne m ρ c b fun w e => h ⟨w, e⟩

theorem args_in0 : ∀ b ∈ argRefs, ∀ w : Fin cfg0.W, Pipeline.arrRef spec0 w = b → (cfg0.win w).isOut = false := by decide

theorem live2 : Live m c (W2 (F := Ideal) m ρ c) :=
  Live.carry m c (live1 m ρ c) (W2_same m ρ c main_v1 (by decide)) (W2_same m ρ c main_v3 (by decide))
    (W2_same m ρ c main_v4 (by decide)) (W2_same m ρ c main_v12 (by decide)) (W2_same m ρ c main_v22 (by decide))
    fun b hb => W2_same m ρ c b (args_in0 b hb)

/-! ### Reading the host stretches' arrays at an index -/

/-- The float one broadcast and divided by a vector reads, at an index, the reciprocal of the vector's entry. -/
theorem recip_apply {n : Nat} (h : S_.BroadcastsInDim ⟨1, ![n]⟩ ![]) (d : FVec Ideal ⟨1, ![n]⟩ .f32) (i : Fin n) :
    Host.divf (broadcastInDim ⟨1, ![n]⟩ ![] h (constant S_ .f32 0x3F800000#32)) d (ix1 i) = Ideal.div oneC (d (ix1 i)) := by
  unfold oneC
  rfl

/-- A vector broadcast to a column and then along the rows reads, at `(r, k)`, the vector at `r`. -/
theorem rowBcast_apply (d : FVec Ideal S50000 .f32) (r : Fin 50000) (k : Fin 64) :
    broadcastInDim S50000x64 ![0, 1] Facts₀.bcast_S50000x1_S50000x64_0_1
        (broadcastInDim S50000x1 ![0] Facts₀.bcast_S50000_S50000x1_0 d) (ix2 r k) = d (ix1 r) := by
  rw [broadcastInDim_apply ![0, 1] Facts₀.bcast_S50000x1_S50000x64_0_1 _ (ix2 r k) (ix2 r (0 : Fin 1))
      (fun a => match a with | ⟨0, _⟩ => rfl | ⟨1, _⟩ => rfl),
    broadcastInDim_apply ![0] Facts₀.bcast_S50000_S50000x1_0 _ (ix2 r (0 : Fin 1)) (ix1 r)
      (fun a => match a with | ⟨0, _⟩ => rfl)]

/-- An array times reciprocals broadcast along its rows is, entry by entry, the array's entry times the reciprocal of
    its row's divisor. -/
theorem un2_scaled (S : FVec Ideal S50000x64 .f32) (D : FVec Ideal S50000 .f32) :
    un2 (mulf S
        (broadcastInDim S50000x64 ![0, 1] Facts₀.bcast_S50000x1_S50000x64_0_1
          (broadcastInDim S50000x1 ![0] Facts₀.bcast_S50000_S50000x1_0
            (Host.divf (broadcastInDim S50000 ![] Facts₀.bcast_S_S50000 (constant S_ .f32 0x3F800000#32)) D))))
      = aggK oneC (un2 S) (un1 D) := by
  funext r k
  show S (ix2 r k)
      * broadcastInDim S50000x64 ![0, 1] Facts₀.bcast_S50000x1_S50000x64_0_1
          (broadcastInDim S50000x1 ![0] Facts₀.bcast_S50000_S50000x1_0
            (Host.divf (broadcastInDim S50000 ![] Facts₀.bcast_S_S50000 (constant S_ .f32 0x3F800000#32)) D)) (ix2 r k)
    = S (ix2 r k) * Ideal.div oneC (D (ix1 r))
  rw [rowBcast_apply, recip_apply]

/-- The neighbour average the first host stretch forms is the neighbour sum times the reciprocal of the clamped
    degree, row by row. -/
theorem un2_avg (ei : IVec S2x800000 32) (x : FVec Ideal S50000x64 .f32) :
    un2 (mulf (aggArr ei x)
        (broadcastInDim S50000x64 ![0, 1] Facts₀.bcast_S50000x1_S50000x64_0_1
          (broadcastInDim S50000x1 ![0] Facts₀.bcast_S50000_S50000x1_0
            (Host.divf (broadcastInDim S50000 ![] Facts₀.bcast_S_S50000 (constant S_ .f32 0x3F800000#32)) (degArr ei)))))
      = aggK oneC (AggF ei (un2 x)) (degmF ei) :=
  (un2_scaled (aggArr ei x) (degArr ei)).trans
    (congrArg (fun f : FVec Ideal S50000x64 .f32 => aggK oneC (un2 (aggArr ei f)) (degmF ei)) (mk2_un2 x).symm)

/-- A vector reshaped to one row, read as that row. -/
theorem unRow_cast {a : Nat} (v : FVec Ideal ⟨1, ![a]⟩ .f32) (h : (⟨1, ![a]⟩ : Shape).ShapeCasts ⟨2, ![1, a]⟩) :
    unRow (shapeCast ⟨2, ![1, a]⟩ v h) = un1 v := by
  funext j
  exact shapeCast_a_1a_apply v h 0 j

/-- The batch numbers reshaped to a column, read at a row. -/
theorem batchCol_apply (bt : IVec S50000 32) (r : Fin 50000) :
    shapeCast S50000x1 bt Facts₀.shapeCasts_S50000_S50000x1 (ix2 r (0 : Fin 1)) = bt (ix1 r) :=
  shapeCast_apply bt _ _ _ (by
    rw [Shape.rowMajor_val_one, Shape.rowMajor_val_two]
    show r.val = r.val * 1 + 0
    omega)

/-- The first layer's linear part, on the launched arguments. -/
abbrev lin1 : Mat 50000 64 :=
  sageLin (aggK oneC (AggF (eiOf m c) (PK m c).x) (degmF (eiOf m c))) (PK m c).x (PK m c).Wl0 (PK m c).Wr0 (PK m c).bl0

/-- The linear part, with its first and last operands read as the quantities they hold. -/
theorem lin_assemble (agg root : FVec Ideal S50000x64 .f32) (Wl Wr : FVec Ideal S64x64 .f32) (bl : FVec Ideal S1x64 .f32)
    (A : Mat 50000 64) (b : Fin 64 → EReal) (h0 : un2 agg = A) (h4 : unRow bl = b) :
    sageLin (un2 agg) (un2 root) (un2 Wl) (un2 Wr) (unRow bl) = sageLin A (un2 root) (un2 Wl) (un2 Wr) b := by
  rw [h0, h4]

/-- What the first kernel computes from the buffers it is handed is the first layer's linear part. -/
theorem lin_eq :
    sageLin (un2 (avg1 m c)) (un2 (m ((c.tc : Thread nD τ).loc main_arg0))) (un2 (m ((c.tc : Thread nD τ).loc main_arg1)))
        (un2 (m ((c.tc : Thread nD τ).loc main_arg3)))
        (unRow (shapeCast S1x64 (m ((c.tc : Thread nD τ).loc main_arg2)) Facts₀.shapeCasts_S64_S1x64))
      = lin1 m c :=
  lin_assemble (avg1 m c) (m ((c.tc : Thread nD τ).loc main_arg0)) (m ((c.tc : Thread nD τ).loc main_arg1))
    (m ((c.tc : Thread nD τ).loc main_arg3)) (shapeCast S1x64 (m ((c.tc : Thread nD τ).loc main_arg2)) Facts₀.shapeCasts_S64_S1x64)
    _ _ (un2_avg (eiOf m c) (m ((c.tc : Thread nD τ).loc main_arg0)))
    (unRow_cast (m ((c.tc : Thread nD τ).loc main_arg2)) Facts₀.shapeCasts_S64_S1x64)

/-- At the first kernel's exit its first output array is the first layer's linear part. -/
theorem W2_lin : (W2 (F := Ideal) m ρ c (Proc.devRef .tc main_v37_0) : FVec Ideal S50000x64 .f32) = mk2 (lin1 m c) :=
  (W2_arr m ρ c 6).trans
    ((RegionSage0.value_lin (V1 m ρ) c (avg1 m c) (m ((c.tc : Thread nD τ).loc main_arg0))
        (m ((c.tc : Thread nD τ).loc main_arg1)) (m ((c.tc : Thread nD τ).loc main_arg3))
        (shapeCast S1x64 (m ((c.tc : Thread nD τ).loc main_arg2)) Facts₀.shapeCasts_S64_S1x64)
        (W1_v35 m ρ c) (W1_keep m ρ c main_arg0 (by decide)) (W1_keep m ρ c main_arg1 (by decide)) (W1_v36 m ρ c)
        (W1_keep m ρ c main_arg3 (by decide))).trans
      (congrArg mk2 (lin_eq m c)))

/-- A statistics block stated for one matrix holds the same for an equal one. -/
theorem stats_congr (bI : Fin 50000 → Fin 128) (out : FVec Ideal S2x128 .f32) (H H' : Mat 50000 64) (hH : H = H') (g : Fin 128)
    (e : out (ix2 (0 : Fin 2) g) = statSum bI (rowSum H) g ∧ out (ix2 (1 : Fin 2) g) = statSum bI (rowSq H) g) :
    out (ix2 (0 : Fin 2) g) = statSum bI (rowSum H') g ∧ out (ix2 (1 : Fin 2) g) = statSum bI (rowSq H') g :=
  hH ▸ e

/-- At the first kernel's exit its statistics block holds the per-graph weighted sums of the linear part's row sums
    and row sums of squares. -/
theorem W2_stats (bI : Fin 50000 → Fin 128) (hb : ∀ r : Fin 50000, btOf m c (ix1 r) = BitVec.ofNat 32 (bI r).val) (g : Fin 128) :
    (W2 (F := Ideal) m ρ c (Proc.devRef .tc main_v37_1) : FVec Ideal S2x128 .f32) (ix2 (0 : Fin 2) g)
        = statSum bI (rowSum (lin1 m c)) g
      ∧ (W2 (F := Ideal) m ρ c (Proc.devRef .tc main_v37_1) : FVec Ideal S2x128 .f32) (ix2 (1 : Fin 2) g)
        = statSum bI (rowSq (lin1 m c)) g := by
  have e := stats_congr bI _ _ _ (lin_eq m c) g
    (RegionSage0.value_stats (V1 m ρ) c bI (avg1 m c) (m ((c.tc : Thread nD τ).loc main_arg0))
      (m ((c.tc : Thread nD τ).loc main_arg1)) (m ((c.tc : Thread nD τ).loc main_arg3))
      (shapeCast S1x64 (m ((c.tc : Thread nD τ).loc main_arg2)) Facts₀.shapeCasts_S64_S1x64)
      (shapeCast S50000x1 (btOf m c) Facts₀.shapeCasts_S50000_S50000x1)
      (W1_v35 m ρ c) (W1_keep m ρ c main_arg0 (by decide)) (W1_keep m ρ c main_arg1 (by decide)) (W1_v36 m ρ c)
      (W1_keep m ρ c main_arg3 (by decide)) (W1_v4 m ρ c) (fun r => (batchCol_apply (btOf m c) r).trans (hb r)) g)
  have hw : (W2 (F := Ideal) m ρ c (Proc.devRef .tc main_v37_1) : FVec Ideal S2x128 .f32)
      = (dat0 (F := Ideal) (V1 m ρ) c).arrAt 7 cfg0.N := W2_arr m ρ c 7
  exact ⟨(congrFun hw _).trans e.1, (congrFun hw _).trans e.2⟩

/-! ## The second host stretch -/

/-- The buffers the second host stretch writes. -/
abbrev written1 : List (Ref sig .tc) :=
  [main_v38, main_v39, main_v40, main_v41, main_v42, main_v43, main_v44, main_v45, main_cst_10, main_v46, main_v47,
   main_v48, main_v49, main_v50, main_v51, main_v52, main_v53]

theorem hostOps1_writes : (hostOps1 (F := Ideal)).Forall fun op =>
    op.writes ⊆ ((written1.map (Proc.devRef (τ := τ) .tc)).toFinset : Finset (DevRef τ sig)) := by
  simp only [hostOps1, List.Forall, StableHlo.nullary_writes, StableHlo.unary_writes, StableHlo.binary_writes,
    StableHlo.reshape_writes, Finset.singleton_subset_iff, List.mem_toFinset]
  repeat' apply And.intro
  all_goals exact List.mem_map_of_mem (by decide)

/-- A buffer the second host stretch does not write holds after it what the first kernel left. -/
theorem W3_keep (r : Ref sig .tc) (hr : r ∉ written1) :
    W3 (F := Ideal) m ρ c (Proc.devRef .tc r) = W2 (F := Ideal) m ρ c (Proc.devRef .tc r) :=
  StableHlo.after_of_writes_sub hostOps1 (W2 m ρ c) hostOps1_writes hr

theorem args_not_written1 : ∀ b ∈ argRefs, b ∉ written1 := by decide

theorem live3 : Live m c (W3 (F := Ideal) m ρ c) :=
  Live.carry m c (live2 m ρ c) (W3_keep m ρ c main_v1 (by decide)) (W3_keep m ρ c main_v3 (by decide))
    (W3_keep m ρ c main_v4 (by decide)) (W3_keep m ρ c main_v12 (by decide)) (W3_keep m ρ c main_v22 (by decide))
    fun b hb => W3_keep m ρ c b (args_not_written1 b hb)

/-- The per-graph means the second host stretch forms from a statistics block `s` and reciprocal counts `q`: row 0
    of the block times the reciprocal counts. -/
def meanArr (s : FVec Ideal S2x128 .f32) (q : FVec Ideal S128 .f32) : FVec Ideal S128 .f32 :=
  mulf (shapeCast S128 (extractStridedSlice S1x128 ![0, 0] s Facts₀.slices_S2x128_S1x128_0_0) Facts₀.shapeCasts_S1x128_S128) q

/-- The per-graph reciprocal deviations it forms: row 1 times the reciprocal counts, minus the squared mean, plus the
    small constant, under the reciprocal root. -/
def invstdArr (s : FVec Ideal S2x128 .f32) (q : FVec Ideal S128 .f32) : FVec Ideal S128 .f32 :=
  Host.rsqrt (addf
    (subf (mulf (shapeCast S128 (extractStridedSlice S1x128 ![1, 0] s Facts₀.slices_S2x128_S1x128_1_0) Facts₀.shapeCasts_S1x128_S128) q)
      (mulf (meanArr s q) (meanArr s q)))
    (broadcastInDim S128 ![] Facts₀.bcast_S_S128 (constant S_ .f32 0x3727C5AC#32)))

theorem meanArr_apply (s : FVec Ideal S2x128 .f32) (q : FVec Ideal S128 .f32) (g : Fin 128) :
    meanArr s q (ix1 g) = s (ix2 (0 : Fin 2) g) * q (ix1 g) := by
  show shapeCast S128 _ _ (ix1 g) * q (ix1 g) = _
  rw [shapeCast_1a_a_apply, extractStridedSlice_apply _ _ _ (ix2 (0 : Fin 1) g) (ix2 (0 : Fin 2) g)
    (fun a => match a with | ⟨0, _⟩ => rfl | ⟨1, _⟩ => (Nat.zero_add _).symm)]

theorem invstdArr_apply (s : FVec Ideal S2x128 .f32) (q : FVec Ideal S128 .f32) (g : Fin 128) :
    invstdArr s q (ix1 g)
      = Ideal.rsqrt (((s (ix2 (1 : Fin 2) g) * q (ix1 g)) - meanArr s q (ix1 g) * meanArr s q (ix1 g)) + epsC) := by
  show Ideal.rsqrt (((shapeCast S128 _ _ (ix1 g) * q (ix1 g)) - meanArr s q (ix1 g) * meanArr s q (ix1 g)) + _) = _
  rw [shapeCast_1a_a_apply, extractStridedSlice_apply _ _ _ (ix2 (0 : Fin 1) g) (ix2 (1 : Fin 2) g)
    (fun a => match a with | ⟨0, _⟩ => rfl | ⟨1, _⟩ => (Nat.zero_add _).symm)]
  rfl

/-- The reciprocal counts: the float one over the per-graph counts. -/
abbrev recipNorm (bt : IVec S50000 32) : FVec Ideal S128 .f32 :=
  Host.divf (broadcastInDim S128 ![] Facts₀.bcast_S_S128 (constant S_ .f32 0x3F800000#32)) (normArr bt)

/-- From a statistics block whose row 0 holds the per-graph weighted sums of `h`'s row sums, the mean row is the
    tiled per-graph mean of `h`. -/
theorem meanRow_eq (s : FVec Ideal S2x128 .f32) (bt : IVec S50000 32) (bI : Fin 50000 → Fin 128) (h : Mat 50000 64)
    (h0 : ∀ g : Fin 128, s (ix2 (0 : Fin 2) g) = statSum bI (rowSum h) g) :
    unRow (shapeCast S1x128 (meanArr s (recipNorm bt)) Facts₀.shapeCasts_S128_S1x128) = meanK oneC (normF bt) bI h := by
  funext g
  show shapeCast S1x128 _ _ (ix2 (0 : Fin 1) g) = statSum bI (rowSum h) g * Ideal.div oneC (normArr bt (ix1 g))
  rw [shapeCast_a_1a_apply, meanArr_apply, h0,
    show recipNorm bt (ix1 g) = Ideal.div oneC (normArr bt (ix1 g)) from recip_apply _ _ _]

/-- From a statistics block whose row 1 also holds the weighted sums of `h`'s row sums of squares, the
    reciprocal-deviation row is the tiled per-graph reciprocal deviation of `h`. -/
theorem invstdRow_eq (s : FVec Ideal S2x128 .f32) (bt : IVec S50000 32) (bI : Fin 50000 → Fin 128) (h : Mat 50000 64)
    (h0 : ∀ g : Fin 128, s (ix2 (0 : Fin 2) g) = statSum bI (rowSum h) g)
    (h1 : ∀ g : Fin 128, s (ix2 (1 : Fin 2) g) = statSum bI (rowSq h) g) :
    unRow (shapeCast S1x128 (invstdArr s (recipNorm bt)) Facts₀.shapeCasts_S128_S1x128)
      = invstdK oneC epsC (normF bt) bI h := by
  funext g
  show shapeCast S1x128 _ _ (ix2 (0 : Fin 1) g)
    = Ideal.rsqrt (((statSum bI (rowSq h) g * Ideal.div oneC (normArr bt (ix1 g)))
        - (statSum bI (rowSum h) g * Ideal.div oneC (normArr bt (ix1 g))) * (statSum bI (rowSum h) g * Ideal.div oneC (normArr bt (ix1 g)))) + epsC)
  rw [shapeCast_a_1a_apply, invstdArr_apply, meanArr_apply, h0, h1,
    show recipNorm bt (ix1 g) = Ideal.div oneC (normArr bt (ix1 g)) from recip_apply _ _ _]

theorem W3_v49 : (W3 (F := Ideal) m ρ c (Proc.devRef .tc main_v49) : FVec Ideal S1x128 .f32)
    = shapeCast S1x128 (meanArr (W2 (F := Ideal) m ρ c (Proc.devRef .tc main_v37_1)) (recipNorm (btOf m c)))
        Facts₀.shapeCasts_S128_S1x128 := by
  have h : (W3 (F := Ideal) m ρ c (Proc.devRef .tc main_v49) : FVec Ideal S1x128 .f32)
      = shapeCast S1x128 (meanArr (W2 (F := Ideal) m ρ c (Proc.devRef .tc main_v37_1)) (W2 (F := Ideal) m ρ c (Proc.devRef .tc main_v22)))
          Facts₀.shapeCasts_S128_S1x128 := by
    show StableHlo.after hostOps1 (W2 m ρ c) (Proc.devRef .tc main_v49) = _
    after_results_simp
    rfl
  exact h.trans (congrArg (fun q : FVec Ideal S128 .f32 =>
    shapeCast S1x128 (meanArr (W2 (F := Ideal) m ρ c (Proc.devRef .tc main_v37_1)) q) Facts₀.shapeCasts_S128_S1x128)
    (live2 m ρ c).v22)

theorem W3_v50 : (W3 (F := Ideal) m ρ c (Proc.devRef .tc main_v50) : FVec Ideal S1x128 .f32)
    = shapeCast S1x128 (invstdArr (W2 (F := Ideal) m ρ c (Proc.devRef .tc main_v37_1)) (recipNorm (btOf m c)))
        Facts₀.shapeCasts_S128_S1x128 := by
  have h : (W3 (F := Ideal) m ρ c (Proc.devRef .tc main_v50) : FVec Ideal S1x128 .f32)
      = shapeCast S1x128 (invstdArr (W2 (F := Ideal) m ρ c (Proc.devRef .tc main_v37_1)) (W2 (F := Ideal) m ρ c (Proc.devRef .tc main_v22)))
          Facts₀.shapeCasts_S128_S1x128 := by
    show StableHlo.after hostOps1 (W2 m ρ c) (Proc.devRef .tc main_v50) = _
    after_results_simp
    rfl
  exact h.trans (congrArg (fun q : FVec Ideal S128 .f32 =>
    shapeCast S1x128 (invstdArr (W2 (F := Ideal) m ρ c (Proc.devRef .tc main_v37_1)) q) Facts₀.shapeCasts_S128_S1x128)
    (live2 m ρ c).v22)

theorem W3_v51 : (W3 (F := Ideal) m ρ c (Proc.devRef .tc main_v51) : FVec Ideal S1x64 .f32)
    = shapeCast S1x64 (m ((c.tc : Thread nD τ).loc main_arg12)) Facts₀.shapeCasts_S64_S1x64 := by
  have h : (W3 (F := Ideal) m ρ c (Proc.devRef .tc main_v51) : FVec Ideal S1x64 .f32)
      = shapeCast S1x64 (W2 (F := Ideal) m ρ c (Proc.devRef .tc main_arg12)) Facts₀.shapeCasts_S64_S1x64 := by
    show StableHlo.after hostOps1 (W2 m ρ c) (Proc.devRef .tc main_v51) = _
    after_results_simp
    rfl
  exact h.trans (congrArg (fun v : FVec Ideal S64 .f32 => shapeCast S1x64 v Facts₀.shapeCasts_S64_S1x64)
    ((live2 m ρ c).arg main_arg12 (by decide)))

theorem W3_v52 : (W3 (F := Ideal) m ρ c (Proc.devRef .tc main_v52) : FVec Ideal S1x64 .f32)
    = shapeCast S1x64 (m ((c.tc : Thread nD τ).loc main_arg13)) Facts₀.shapeCasts_S64_S1x64 := by
  have h : (W3 (F := Ideal) m ρ c (Proc.devRef .tc main_v52) : FVec Ideal S1x64 .f32)
      = shapeCast S1x64 (W2 (F := Ideal) m ρ c (Proc.devRef .tc main_arg13)) Facts₀.shapeCasts_S64_S1x64 := by
    show StableHlo.after hostOps1 (W2 m ρ c) (Proc.devRef .tc main_v52) = _
    after_results_simp
    rfl
  exact h.trans (congrArg (fun v : FVec Ideal S64 .f32 => shapeCast S1x64 v Facts₀.shapeCasts_S64_S1x64)
    ((live2 m ρ c).arg main_arg13 (by decide)))

theorem W3_v53 : (W3 (F := Ideal) m ρ c (Proc.devRef .tc main_v53) : FVec Ideal S1x1 .f32)
    = shapeCast S1x1 (m ((c.tc : Thread nD τ).loc main_arg18)) Facts₀.shapeCasts_S1_S1x1 := by
  have h : (W3 (F := Ideal) m ρ c (Proc.devRef .tc main_v53) : FVec Ideal S1x1 .f32)
      = shapeCast S1x1 (W2 (F := Ideal) m ρ c (Proc.devRef .tc main_arg18)) Facts₀.shapeCasts_S1_S1x1 := by
    show StableHlo.after hostOps1 (W2 m ρ c) (Proc.devRef .tc main_v53) = _
    after_results_simp
    rfl
  exact h.trans (congrArg (fun v : FVec Ideal S1 .f32 => shapeCast S1x1 v Facts₀.shapeCasts_S1_S1x1)
    ((live2 m ρ c).arg main_arg18 (by decide)))

/-- The mean row the second host stretch hands to the normalisation kernel is the tiled per-graph mean of the linear
    part. -/
theorem unRow_mean (bI : Fin 50000 → Fin 128) (hb : ∀ r : Fin 50000, btOf m c (ix1 r) = BitVec.ofNat 32 (bI r).val) :
    unRow (W3 (F := Ideal) m ρ c (Proc.devRef .tc main_v49) : FVec Ideal S1x128 .f32)
      = meanK oneC (normF (btOf m c)) bI (lin1 m c) :=
  (congrArg unRow (W3_v49 m ρ c)).trans
    (meanRow_eq _ (btOf m c) bI (lin1 m c) fun g => (W2_stats m ρ c bI hb g).1)

/-- The reciprocal-deviation row it hands over is the tiled per-graph reciprocal deviation of the linear part. -/
theorem unRow_invstd (bI : Fin 50000 → Fin 128) (hb : ∀ r : Fin 50000, btOf m c (ix1 r) = BitVec.ofNat 32 (bI r).val) :
    unRow (W3 (F := Ideal) m ρ c (Proc.devRef .tc main_v50) : FVec Ideal S1x128 .f32)
      = invstdK oneC epsC (normF (btOf m c)) bI (lin1 m c) :=
  (congrArg unRow (W3_v50 m ρ c)).trans
    (invstdRow_eq _ (btOf m c) bI (lin1 m c) (fun g => (W2_stats m ρ c bI hb g).1) (fun g => (W2_stats m ρ c bI hb g).2))

/-! ## The first layer's normalisation kernel -/

theorem W4_same (b : Ref sig .tc) (hb : ∀ w : Fin cfg1.W, Pipeline.arrRef spec1 w = b → (cfg1.win w).isOut = false) :
    W4 (F := Ideal) m ρ c (Proc.devRef .tc b) = W3 (F := Ideal) m ρ c (Proc.devRef .tc b) := by
  by_cases h : ∃ w : Fin cfg1.W, Pipeline.arrRef spec1 w = b
  · obtain ⟨w, rfl⟩ := h
    exact (W4_arr m ρ c w).trans (((dat1 (V3 m ρ) c).arrAt_in w (hb w rfl) _).trans (A_eq1 (V3 m ρ) c w))
  · exact W4_of_ne m ρ c b fun w e => h ⟨w, e⟩

theorem args_in1 : ∀ b ∈ argRefs, ∀ w : Fin cfg1.W, Pipeline.arrRef spec1 w = b → (cfg1.win w).isOut = false := by decide

theorem live4 : Live m c (W4 (F := Ideal) m ρ c) :=
  Live.carry m c (live3 m ρ c) (W4_same m ρ c main_v1 (by decide)) (W4_same m ρ c main_v3 (by decide))
    (W4_same m ρ c main_v4 (by decide)) (W4_same m ρ c main_v12 (by decide)) (W4_same m ρ c main_v22 (by decide))
    fun b hb => W4_same m ρ c b (args_in1 b hb)

/-- The first layer the tiled way is the normalisation of its linear part from that part's tiled statistics. -/
theorem layer1_eq (bI : Fin 50000 → Fin 128) :
    layerOf m c bI (PK m c).x (PK m c).Wl0 (PK m c).bl0 (PK m c).Wr0 (PK m c).lnw0 (PK m c).lnb0 (PK m c).a0
      = lnApplyK bI (lin1 m c) (meanK oneC (normF (btOf m c)) bI (lin1 m c))
          (invstdK oneC epsC (normF (btOf m c)) bI (lin1 m c))
          (un1 (m ((c.tc : Thread nD τ).loc main_arg12))) (un1 (m ((c.tc : Thread nD τ).loc main_arg13)))
          (m ((c.tc : Thread nD τ).loc main_arg18) (ix1 (0 : Fin 1))) := by
  unfold layerOf layerK
  rfl

/-- The normalisation kernel's output, with each of its operands read as the quantity it holds. -/
theorem ln_assemble (out hpre : FVec Ideal S50000x64 .f32) (bI : Fin 50000 → Fin 128) (mean invstd : FVec Ideal S1x128 .f32)
    (lnw lnb : FVec Ideal S1x64 .f32) (a : FVec Ideal S1x1 .f32) (H : Mat 50000 64) (μ σ : Fin 128 → EReal)
    (w b : Fin 64 → EReal) (α : EReal)
    (e : out = mk2 (lnApplyK bI (un2 hpre) (unRow mean) (unRow invstd) (unRow lnw) (unRow lnb) (a (ix2 (0 : Fin 1) (0 : Fin 1)))))
    (h0 : un2 hpre = H) (h1 : unRow mean = μ) (h2 : unRow invstd = σ) (h3 : unRow lnw = w) (h4 : unRow lnb = b)
    (h5 : a (ix2 (0 : Fin 1) (0 : Fin 1)) = α) :
    out = mk2 (lnApplyK bI H μ σ w b α) := by
  rw [e, h0, h1, h2, h3, h4, h5]

/-- At the normalisation kernel's exit its output array is the first layer's output. -/
theorem W4_v54 (bI : Fin 50000 → Fin 128) (hb : ∀ r : Fin 50000, btOf m c (ix1 r) = BitVec.ofNat 32 (bI r).val) :
    (W4 (F := Ideal) m ρ c (Proc.devRef .tc main_v54) : FVec Ideal S50000x64 .f32)
      = mk2 (layerOf m c bI (PK m c).x (PK m c).Wl0 (PK m c).bl0 (PK m c).Wr0 (PK m c).lnw0 (PK m c).lnb0 (PK m c).a0) := by
  refine Eq.trans ?_ (congrArg mk2 (layer1_eq m c bI).symm)
  exact ln_assemble _ _ bI _ _ _ _ _ _ _ _ _ _ _
    ((W4_arr m ρ c 7).trans (RegionLn1.value (V3 m ρ) c bI _ _ _ _ _ _ _
      ((W3_keep m ρ c main_v37_0 (by decide)).trans (W2_lin m ρ c)) (W3_v49 m ρ c) (W3_v50 m ρ c)
      ((W3_keep m ρ c main_v4 (by decide)).trans (live2 m ρ c).v4) (W3_v51 m ρ c) (W3_v52 m ρ c) (W3_v53 m ρ c)
      (fun r => (batchCol_apply (btOf m c) r).trans (hb r))))
    (un2_mk2 _) ((congrArg unRow (W3_v49 m ρ c).symm).trans (unRow_mean m ρ c bI hb))
    ((congrArg unRow (W3_v50 m ρ c).symm).trans (unRow_invstd m ρ c bI hb))
    (unRow_cast _ _) (unRow_cast _ _) (shapeCast_a_1a_apply _ _ 0 0)

/-! ## The first skip kernel -/

theorem W5_same (b : Ref sig .tc) (hb : ∀ w : Fin cfg2.W, Pipeline.arrRef spec2 w = b → (cfg2.win w).isOut = false) :
    W5 (F := Ideal) m ρ c (Proc.devRef .tc b) = W4 (F := Ideal) m ρ c (Proc.devRef .tc b) := by
  by_cases h : ∃ w : Fin cfg2.W, Pipeline.arrRef spec2 w = b
  · obtain ⟨w, rfl⟩ := h
    exact (W5_arr m ρ c w).trans (((dat2 (V4 m ρ) c).arrAt_in w (hb w rfl) _).trans (A_eq2 (V4 m ρ) c w))
  · exact W5_of_ne m ρ c b fun w e => h ⟨w, e⟩

theorem args_in2 : ∀ b ∈ argRefs, ∀ w : Fin cfg2.W, Pipeline.arrRef spec2 w = b → (cfg2.win w).isOut = false := by decide

theorem live5 : Live m c (W5 (F := Ideal) m ρ c) :=
  Live.carry m c (live4 m ρ c) (W5_same m ρ c main_v1 (by decide)) (W5_same m ρ c main_v3 (by decide))
    (W5_same m ρ c main_v4 (by decide)) (W5_same m ρ c main_v12 (by decide)) (W5_same m ρ c main_v22 (by decide))
    fun b hb => W5_same m ρ c b (args_in2 b hb)

/-- The skip kernel reads the first layer's output and leaves it as entered. -/
theorem W5_v54 (bI : Fin 50000 → Fin 128) (hb : ∀ r : Fin 50000, btOf m c (ix1 r) = BitVec.ofNat 32 (bI r).val) :
    (W5 (F := Ideal) m ρ c (Proc.devRef .tc main_v54) : FVec Ideal S50000x64 .f32)
      = mk2 (layerOf m c bI (PK m c).x (PK m c).Wl0 (PK m c).bl0 (PK m c).Wr0 (PK m c).lnw0 (PK m c).lnb0 (PK m c).a0) :=
  (W5_same m ρ c main_v54 (by decide)).trans (W4_v54 m ρ c bI hb)

/-- At the skip kernel's exit its output array is the first layer's output plus the features times the skip weights. -/
theorem W5_v55 (bI : Fin 50000 → Fin 128) (hb : ∀ r : Fin 50000, btOf m c (ix1 r) = BitVec.ofNat 32 (bI r).val) :
    (W5 (F := Ideal) m ρ c (Proc.devRef .tc main_v55) : FVec Ideal S50000x64 .f32)
      = mk2 (skip1 (layerOf m c bI (PK m c).x (PK m c).Wl0 (PK m c).bl0 (PK m c).Wr0 (PK m c).lnw0 (PK m c).lnb0 (PK m c).a0)
          (PK m c).x (PK m c).s0) := by
  have e := RegionSkip.value2 (V4 m ρ) c _ _ _ (W4_v54 m ρ c bI hb) ((live4 m ρ c).arg main_arg0 (by decide))
    ((live4 m ρ c).arg main_arg10 (by decide))
  rw [un2_mk2] at e
  exact (W5_arr m ρ c 3).trans e

/-- After the first skip kernel: the shared buffers and arguments as the first host stretch left them, the first layer's
    output, and the second layer's input. -/
theorem stage1 (bI : Fin 50000 → Fin 128) (hb : ∀ r : Fin 50000, btOf m c (ix1 r) = BitVec.ofNat 32 (bI r).val) :
    Live m c (W5 (F := Ideal) m ρ c)
    ∧ (W5 (F := Ideal) m ρ c (Proc.devRef .tc main_v54) : FVec Ideal S50000x64 .f32)
        = mk2 (layerOf m c bI (PK m c).x (PK m c).Wl0 (PK m c).bl0 (PK m c).Wr0 (PK m c).lnw0 (PK m c).lnb0 (PK m c).a0)
    ∧ (W5 (F := Ideal) m ρ c (Proc.devRef .tc main_v55) : FVec Ideal S50000x64 .f32)
        = mk2 (skip1 (layerOf m c bI (PK m c).x (PK m c).Wl0 (PK m c).bl0 (PK m c).Wr0 (PK m c).lnw0 (PK m c).lnb0 (PK m c).a0)
            (PK m c).x (PK m c).s0) :=
  ⟨live5 m ρ c, W5_v54 m ρ c bI hb, W5_v55 m ρ c bI hb⟩

end Cert.Gnn.KChain

end
-- ==== Proof.RegionSage3.lean ====
/-
  The linear-and-statistics kernel of region 3, as whole arrays.

  It runs over 25 tiles of 2000 rows. A tile's first output block is the tile of `agg · Wl + bl + root · Wr`, the
  products read at an entry as sums over the 64 contracted positions; the tiles cover that array. The second output
  is one 2 × 128 block every point revisits: the first point zeroes it, and every point adds to row 0 (row 1) the
  sum over the tile's rows of the row's sum (sum of squares) weighted by the indicator of the row's graph; so after
  the last point it holds the tile-by-tile weighted sums.
-/
import proofs.«430900_j38714835206722_1_alg».proof.Proof.Gen.KernelIdeal.Frame
import proofs.«430900_j38714835206722_1_alg».proof.Proof.Shapes
import proofs.«430900_j38714835206722_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gnn.RegionSage3

open Idealize.ShloMosaic Idealize.ShloMosaic.TcCoe Idealize.ShloMosaic.ValueIdx Idealize.ShloMosaic.Pipeline
open Cert.KernelIdeal Cert.KernelIdeal.Gen Cert.Gnn

variable (V : (c : Dev nD) → (b : Ref sig .tc) → Buf (Elt Ideal) ((c : Thread nD τ).loc b))

/-! ## The body's arithmetic at an entry -/

/-- The product of a 2000 × 64 block with a 64 × 64 matrix, from the zero accumulator, at an entry. -/
theorem matmul_block_apply (l : FVec Ideal S2000x64 .bf16) (r : FVec Ideal S64x64 .bf16) (p : Fin 2000) (q : Fin 64) :
    matmul dot_S2000x64_S64x64_S2000x64_1_0_0_1_n_n none l r (constant S2000x64 .f32 0x00000000#32) (ix2 p q)
      = ∑ k : Fin 64, l (ix2 p k) * r (ix2 k q) :=
  Cert.Lib.PlainDot.matmul_zero_apply (M := 2000) (K := 64) (N := 64) none l r p q

/-- The bias row broadcast over the block's rows, at an entry. -/
theorem bias_block_apply (b : Vec Ideal S1x64 .f32) (p : Fin 2000) (q : Fin 64) :
    broadcastTo S2000x64 (shapeCast S1x64 b shapeCasts_S1x64_S1x64) broadcasts_S1x64_S2000x64 (ix2 p q) = b (ix2 (0 : Fin 1) q) := by
  rw [shapeCast_self]
  exact broadcastTo_1b_ab_apply b broadcasts_S1x64_S2000x64 p q

/-- The block of the linear part at an entry: the two products, read as sums over the contracted positions, and
    the bias. -/
theorem lin_block_apply (xa xr : Vec Ideal S2000x64 .f32) (wl wr : Vec Ideal S64x64 .f32) (b : Vec Ideal S1x64 .f32)
    (p : Fin 2000) (q : Fin 64) :
    k3_pay3 (F := Ideal) xa xr wl wr b (ix2 p q)
      = ((∑ k : Fin 64, xa (ix2 p k) * wl (ix2 k q)) + b (ix2 (0 : Fin 1) q)) + ∑ k : Fin 64, xr (ix2 p k) * wr (ix2 k q) := by
  unfold k3_pay3
  refine (addf_apply _ _ _).trans ?_
  refine (congrArg₂ (· + ·) ((addf_apply _ _ _).trans (congrArg₂ (· + ·) (matmul_block_apply _ _ p q) (bias_block_apply b p q)))
    (matmul_block_apply _ _ p q)).trans ?_
  simp only [truncf_apply, shapeCast_self]

/-- A row's sum over its 64 entries. -/
theorem rowsum_block_apply (h : FVec Ideal S2000x64 .f32) (p : Fin 2000) :
    multiReduction .add [1] S2000 h 0x00000000#32 reduces_S2000x64_S2000 (.inl rfl) rfl (ix1 p)
      = ∑ j : Fin 64, h (ix2 p j) := by
  refine (Ideal.multiReduction_add_single h 0x00000000#32 reduces_S2000x64_S2000 (.inl rfl) rfl (ix1 p)).trans ?_
  show ∑ j : Fin 64, h (reduces_S2000x64_S2000.lift (ix1 p) j) = _
  refine Finset.sum_congr rfl fun j _ => congrArg h (funext fun a => ?_)
  match a with
  | ⟨0, _⟩ => rfl
  | ⟨1, _⟩ => rfl

/-- A column's sum over the block's 2000 rows. -/
theorem colsum_block_apply (h : FVec Ideal S2000x128 .f32) (g : Fin 128) :
    multiReduction .add [0] S128 h 0x00000000#32 reduces_S2000x128_S128 (.inl rfl) rfl (ix1 g)
      = ∑ r : Fin 2000, h (ix2 r g) := by
  refine (Ideal.multiReduction_add_single h 0x00000000#32 reduces_S2000x128_S128 (.inl rfl) rfl (ix1 g)).trans ?_
  show ∑ r : Fin 2000, h (reduces_S2000x128_S128.lift (ix1 g) r) = _
  refine Finset.sum_congr rfl fun r _ => congrArg h (funext fun a => ?_)
  match a with
  | ⟨0, _⟩ => rfl
  | ⟨1, _⟩ => rfl

/-- A vector of 2000 entries laid out as a column. -/
theorem col_cast_apply {α : Type} (v : S2000.Idx → α) (p : Fin 2000) (u : Fin 1) :
    shapeCast S2000x1 v shapeCasts_S2000_S2000x1 (ix2 p u) = v (ix1 p) :=
  shapeCast_apply v shapeCasts_S2000_S2000x1 _ _ (by
    have hu : u.val = 0 := by omega
    rw [Shape.rowMajor_val_two, Shape.rowMajor_val_one]
    show p.val = p.val * 1 + u.val
    omega)

/-- A column broadcast over 128 lanes. -/
theorem col_bcast_apply {α : Type} (v : S2000x1.Idx → α) (p : Fin 2000) (g : Fin 128) :
    broadcastTo S2000x128 v broadcasts_S2000x1_S2000x128 (ix2 p g) = v (ix2 p (0 : Fin 1)) := by
  refine broadcastTo_apply v broadcasts_S2000x1_S2000x128 (ix2 p g) (ix2 p (0 : Fin 1)) fun ax => ?_
  match ax with
  | ⟨0, _⟩ => rfl
  | ⟨1, _⟩ => rfl

/-- A vector of 128 entries laid out as a row. -/
theorem row_cast_apply {α : Type} (v : S128.Idx → α) (u : Fin 1) (g : Fin 128) :
    shapeCast S1x128 v shapeCasts_S128_S1x128 (ix2 u g) = v (ix1 g) :=
  shapeCast_a_1a_apply v shapeCasts_S128_S1x128 u g

/-- Two graph numbers below 128 have the same 32-bit word only when equal. -/
theorem word_eq_iff (g b : Fin 128) : BitVec.ofNat 32 g.val = BitVec.ofNat 32 b.val ↔ g = b := by
  constructor
  · intro e
    have := congrArg BitVec.toNat e
    simp only [BitVec.toNat_ofNat] at this
    have hg := g.isLt
    have hb := b.isLt
    exact Fin.ext (by omega)
  · rintro rfl; rfl

/-- The indicator block at an entry: 1 where the lane's number is the row's graph number, 0 elsewhere. -/
theorem ind_block_apply (bc : Vec Ideal S2000x1 .i32) (p : Fin 2000) (g b : Fin 128)
    (hb : bc (ix2 p (0 : Fin 1)) = BitVec.ofNat 32 b.val) :
    k3_pay5 (F := Ideal) bc (ix2 p g) = ohv b g := by
  unfold k3_pay5
  show (((IntOp.cmpi .eq (iota .tc S2000x128 32 [1] iota_S2000x128_d1_w32 (ix2 p g))
    (broadcastTo S2000x128 (shapeCast S2000x1 bc shapeCasts_S2000x1_S2000x1) broadcasts_S2000x1_S2000x128 (ix2 p g))).setWidth 32).toInt : ℝ) = ohv b g
  rw [iota_single_apply, shapeCast_self, col_bcast_apply, hb]
  show ((((BitVec.ofBool (BitVec.ofNat 32 g.val == BitVec.ofNat 32 b.val)).setWidth 32).toInt : ℝ) : EReal) = ohv b g
  unfold ohv
  by_cases h : g = b
  · subst h; simp
  · have hne : ¬ BitVec.ofNat 32 g.val = BitVec.ofNat 32 b.val := fun e => h ((word_eq_iff g b).1 e)
    rw [if_neg h, show (BitVec.ofNat 32 g.val == BitVec.ofNat 32 b.val) = false from by simpa using hne]
    simp

/-- The block of the rows' sums of squares, a column, at an entry. -/
theorem rowsq_block_apply (xa xr : Vec Ideal S2000x64 .f32) (wl wr : Vec Ideal S64x64 .f32) (b : Vec Ideal S1x64 .f32)
    (p : Fin 2000) (u : Fin 1) :
    k3_pay4 (F := Ideal) xa xr wl wr b (ix2 p u)
      = ∑ j : Fin 64, k3_pay3 (F := Ideal) xa xr wl wr b (ix2 p j) * k3_pay3 (F := Ideal) xa xr wl wr b (ix2 p j) := by
  unfold k3_pay4
  refine (col_cast_apply _ p u).trans ?_
  exact rowsum_block_apply _ p

/-- The lane sums of the rows' sums weighted by the indicator block, at a lane. -/
theorem wsum_block_apply (xa xr : Vec Ideal S2000x64 .f32) (wl wr : Vec Ideal S64x64 .f32) (b : Vec Ideal S1x64 .f32)
    (bc : Vec Ideal S2000x1 .i32) (g : Fin 128) :
    k3_pay6 (F := Ideal) xa xr wl wr b bc (ix1 g)
      = ∑ r : Fin 2000, k3_pay5 (F := Ideal) bc (ix2 r g) * ∑ j : Fin 64, k3_pay3 (F := Ideal) xa xr wl wr b (ix2 r j) := by
  unfold k3_pay6
  refine (colsum_block_apply _ g).trans ?_
  refine Finset.sum_congr rfl fun r _ => ?_
  refine (mulf_apply _ _ _).trans ?_
  refine congrArg (k3_pay5 (F := Ideal) bc (ix2 r g) * ·) ?_
  refine (col_bcast_apply _ r g).trans ?_
  refine (col_cast_apply _ r 0).trans ?_
  exact rowsum_block_apply _ r

/-- The updated statistics block, row 0: the old entry plus the weighted lane sum handed in. -/
theorem upd_row0_apply (v25 : FVec Ideal S2000x1 .f32) (v32 : FVec Ideal S2000x128 .f32) (v35 : FVec Ideal S128 .f32)
    (v41 : Vec Ideal S2x128 .f32) (g : Fin 128) :
    k3_pay1 (F := Ideal) v25 v32 v35 v41 (ix2 (0 : Fin 2) g) = v41 (ix2 (0 : Fin 2) g) + v35 (ix1 g) := by
  unfold k3_pay1
  refine (addf_apply _ _ _).trans ?_
  refine congrArg₂ (· + ·) (congrFun (shapeCast_self v41 _) _) ?_
  refine (concatenate_pair_apply_left (0 : Fin S2x128.rank) _ _ concatenates_S1x128_S1x128_S2x128_d0
    (ix2 (0 : Fin 2) g) rfl (ix2 (0 : Fin 1) g) (fun b => ?_)).trans ?_
  · match b with
    | ⟨0, _⟩ => rfl
    | ⟨1, _⟩ => rfl
  exact row_cast_apply v35 0 g

/-- The updated statistics block, row 1: the old entry plus the lane sum of the column handed in weighted by the
    indicator block. -/
theorem upd_row1_apply (v25 : FVec Ideal S2000x1 .f32) (v32 : FVec Ideal S2000x128 .f32) (v35 : FVec Ideal S128 .f32)
    (v41 : Vec Ideal S2x128 .f32) (g : Fin 128) :
    k3_pay1 (F := Ideal) v25 v32 v35 v41 (ix2 (1 : Fin 2) g)
      = v41 (ix2 (1 : Fin 2) g) + ∑ r : Fin 2000, v32 (ix2 r g) * v25 (ix2 r (0 : Fin 1)) := by
  unfold k3_pay1
  refine (addf_apply _ _ _).trans ?_
  refine congrArg₂ (· + ·) (congrFun (shapeCast_self v41 _) _) ?_
  refine (concatenate_pair_apply_right (0 : Fin S2x128.rank) _ _ concatenates_S1x128_S1x128_S2x128_d0
    (ix2 (1 : Fin 2) g) rfl rfl (ix2 (0 : Fin 1) g) (fun b hb => ?_) rfl).trans ?_
  · match b with
    | ⟨0, _⟩ => exact absurd rfl hb
    | ⟨1, _⟩ => rfl
  refine (row_cast_apply _ 0 g).trans ?_
  refine (colsum_block_apply _ g).trans ?_
  refine Finset.sum_congr rfl fun r _ => ?_
  exact congrArg (v32 (ix2 r g) * ·) (col_bcast_apply v25 r g)

/-- The block the first point stores first is zero everywhere. -/
theorem zero_block_apply (i : S2x128.Idx) : k3_pay2 (F := Ideal) i = 0 := by
  unfold k3_pay2
  exact Ideal.ofBits_zero_f32

/-! ## What a point's stores leave in the two output blocks -/

section Pieces
variable {F : FTy → Type} [FloatOps F]

/-- The offsets of an access to a whole block are zero on both axes. -/
theorem hz2 : (![0, 0] : Fin 2 → Nat) = fun _ => 0 := funext fun a => by fin_cases a <;> rfl

/-- The first point leaves in the first output's block the linear part of its input blocks. -/
theorem lin_first (c : Dev nD) (i : grid3.Coords) (a1 : Memref sig .tc .vmem S2000x64 .f32) (h1 : a1.IsWhole) (a2 : Memref sig .tc .vmem S2000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S2000x1 .i32) (h6 : a6.IsWhole) (a7 : Memref sig .tc .vmem S2000x64 .f32) (h7 : a7.IsWhole) (a8 : Memref sig .tc .vmem S2x128 .f32) (h8 : a8.IsWhole) (hc : cond3_0 i) (x0 : Vec F S2000x64 .f32) (x1 : Vec F S2000x64 .f32) (x2 : Vec F S64x64 .f32) (x3 : Vec F S1x64 .f32) (x4 : Vec F S64x64 .f32) (x5 : Vec F S2000x1 .i32) :
    out3_A_6 c i a1 h1 a2 h2 a3 h3 a4 h4 a5 h5 a6 h6 a7 h7 a8 h8 hc x0 x1 x2 x3 x4 x5 = k3_pay3 x0 x1 x2 x4 x3 := by
  unfold out3_A_6
  rw [View.read_writes_eq_canon _ _ _ (cover3_A_6 c i a1 h1 a2 h2 a3 h3 a4 h4 a5 h5 a6 h6 a7 h7 a8 h8 hc x0 x1 x2 x3 x4 x5)]
  unfold kernelRun3_A
  dsimp only
  sl_unfold_words
  rw [View.canon_unit_zero hz2]
  simp only [View.readAt_eq_ld, h1.read_unread, h2.read_unread, h3.read_unread, h4.read_unread, h5.read_unread, h6.read_unread,
    View.ld_unit_zero (S := S2000x64) hz2, View.ld_unit_zero (S := S64x64) hz2, View.ld_unit_zero (S := S1x64) hz2,
    View.ld_unit_zero (S := S2000x1) hz2]

/-- So does every later point. -/
theorem lin_later (c : Dev nD) (i : grid3.Coords) (a1 : Memref sig .tc .vmem S2000x64 .f32) (h1 : a1.IsWhole) (a2 : Memref sig .tc .vmem S2000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S2000x1 .i32) (h6 : a6.IsWhole) (a7 : Memref sig .tc .vmem S2000x64 .f32) (h7 : a7.IsWhole) (a8 : Memref sig .tc .vmem S2x128 .f32) (h8 : a8.IsWhole) (hc : ¬cond3_0 i) (x0 : Vec F S2000x64 .f32) (x1 : Vec F S2000x64 .f32) (x2 : Vec F S64x64 .f32) (x3 : Vec F S1x64 .f32) (x4 : Vec F S64x64 .f32) (x5 : Vec F S2000x1 .i32) (xo : Vec F S2x128 .f32) :
    out3_B_6 c i a1 h1 a2 h2 a3 h3 a4 h4 a5 h5 a6 h6 a7 h7 a8 h8 hc x0 x1 x2 x3 x4 x5 xo = k3_pay3 x0 x1 x2 x4 x3 := by
  unfold out3_B_6
  rw [View.read_writes_eq_canon _ _ _ (cover3_B_6 c i a1 h1 a2 h2 a3 h3 a4 h4 a5 h5 a6 h6 a7 h7 a8 h8 hc x0 x1 x2 x3 x4 x5 xo)]
  unfold kernelRun3_B
  dsimp only
  sl_unfold_words
  rw [View.canon_unit_zero hz2]
  simp only [View.readAt_eq_ld, h1.read_unread, h2.read_unread, h3.read_unread, h4.read_unread, h5.read_unread, h6.read_unread,
    View.ld_unit_zero (S := S2000x64) hz2, View.ld_unit_zero (S := S64x64) hz2, View.ld_unit_zero (S := S1x64) hz2,
    View.ld_unit_zero (S := S2000x1) hz2]

/-- The first point zeroes the statistics block, reads the zeros back and leaves the update of the zero block. -/
theorem stats_first (c : Dev nD) (i : grid3.Coords) (a1 : Memref sig .tc .vmem S2000x64 .f32) (h1 : a1.IsWhole) (a2 : Memref sig .tc .vmem S2000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S2000x1 .i32) (h6 : a6.IsWhole) (a7 : Memref sig .tc .vmem S2000x64 .f32) (h7 : a7.IsWhole) (a8 : Memref sig .tc .vmem S2x128 .f32) (h8 : a8.IsWhole) (hc : cond3_0 i) (x0 : Vec F S2000x64 .f32) (x1 : Vec F S2000x64 .f32) (x2 : Vec F S64x64 .f32) (x3 : Vec F S1x64 .f32) (x4 : Vec F S64x64 .f32) (x5 : Vec F S2000x1 .i32) :
    out3_A_7 c i a1 h1 a2 h2 a3 h3 a4 h4 a5 h5 a6 h6 a7 h7 a8 h8 hc x0 x1 x2 x3 x4 x5
      = k3_pay1 (k3_pay4 x0 x1 x2 x4 x3) (k3_pay5 x5) (k3_pay6 x0 x1 x2 x4 x3 x5) k3_pay2 := by
  unfold out3_A_7
  rw [View.read_writes_eq_canon _ _ _ (cover3_A_7 c i a1 h1 a2 h2 a3 h3 a4 h4 a5 h5 a6 h6 a7 h7 a8 h8 hc x0 x1 x2 x3 x4 x5)]
  unfold kernelRun3_A
  dsimp only
  sl_unfold_words
  rw [View.canon_cons_unit_zero (S := S2x128) hz2, View.readCov_unit_zero (S := S2x128) _ hz2]
  simp only [View.readAt_eq_ld, h1.read_unread, h2.read_unread, h3.read_unread, h4.read_unread, h5.read_unread, h6.read_unread,
    View.ld_unit_zero (S := S2000x64) hz2, View.ld_unit_zero (S := S64x64) hz2, View.ld_unit_zero (S := S1x64) hz2,
    View.ld_unit_zero (S := S2000x1) hz2]

/-- A later point leaves the update of the block the point before left. -/
theorem stats_later (c : Dev nD) (i : grid3.Coords) (a1 : Memref sig .tc .vmem S2000x64 .f32) (h1 : a1.IsWhole) (a2 : Memref sig .tc .vmem S2000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S2000x1 .i32) (h6 : a6.IsWhole) (a7 : Memref sig .tc .vmem S2000x64 .f32) (h7 : a7.IsWhole) (a8 : Memref sig .tc .vmem S2x128 .f32) (h8 : a8.IsWhole) (hc : ¬cond3_0 i) (x0 : Vec F S2000x64 .f32) (x1 : Vec F S2000x64 .f32) (x2 : Vec F S64x64 .f32) (x3 : Vec F S1x64 .f32) (x4 : Vec F S64x64 .f32) (x5 : Vec F S2000x1 .i32) (xo : Vec F S2x128 .f32) :
    out3_B_7 c i a1 h1 a2 h2 a3 h3 a4 h4 a5 h5 a6 h6 a7 h7 a8 h8 hc x0 x1 x2 x3 x4 x5 xo
      = k3_pay1 (k3_pay4 x0 x1 x2 x4 x3) (k3_pay5 x5) (k3_pay6 x0 x1 x2 x4 x3 x5) xo := by
  unfold out3_B_7
  rw [View.read_writes_eq_canon _ _ _ (cover3_B_7 c i a1 h1 a2 h2 a3 h3 a4 h4 a5 h5 a6 h6 a7 h7 a8 h8 hc x0 x1 x2 x3 x4 x5 xo)]
  unfold kernelRun3_B
  dsimp only
  sl_unfold_words
  rw [View.canon_unit_zero hz2]
  simp only [View.readAt_eq_ld, h1.read_unread, h2.read_unread, h3.read_unread, h4.read_unread, h5.read_unread, h6.read_unread,
    View.ld_unit_zero (S := S2000x64) hz2, View.ld_unit_zero (S := S64x64) hz2, View.ld_unit_zero (S := S1x64) hz2,
    View.ld_unit_zero (S := S2000x1) hz2, h8.read_unread, View.ld_unit_zero (S := S2x128) hz2]

end Pieces

/-! ## The windows' blocks as tiles of the arrays -/

section Blocks

/-- A grid point as a tile number. -/
def tile (t : Fin cfg3.N) : Fin 25 := ⟨t.val, lt_of_lt_of_eq t.isLt (show cfg3.N = 25 from N_3)⟩

/-- The windows' block indices, decided over the grid: the row-tiled windows sit at block row `t`, the whole-array
    windows and the statistics block at block (0, 0). -/
theorem idx_facts : ∀ t : Fin cfg3.N,
    win3_0.index t (0 : Fin 2) = t.val ∧ win3_0.index t (1 : Fin 2) = 0
    ∧ win3_1.index t (0 : Fin 2) = t.val ∧ win3_1.index t (1 : Fin 2) = 0
    ∧ win3_2.index t (0 : Fin 2) = 0 ∧ win3_2.index t (1 : Fin 2) = 0
    ∧ win3_3.index t (0 : Fin 2) = 0 ∧ win3_3.index t (1 : Fin 2) = 0
    ∧ win3_4.index t (0 : Fin 2) = 0 ∧ win3_4.index t (1 : Fin 2) = 0
    ∧ win3_5.index t (0 : Fin 2) = t.val ∧ win3_5.index t (1 : Fin 2) = 0
    ∧ win3_6.index t (0 : Fin 2) = t.val ∧ win3_6.index t (1 : Fin 2) = 0
    ∧ win3_7.index t (0 : Fin 2) = 0 ∧ win3_7.index t (1 : Fin 2) = 0 :=
  (by decide +kernel : ∀ t : Fin grid3.N, _)

/-- Window 0's block at a point: rows `2000 t …` of its array. -/
theorem blk0_apply (c : Dev nD) (X : Vec Ideal S50000x64 .f32) (e : V c (Pipeline.arrRef spec3 0) = X)
    (t : Fin cfg3.N) (p : Fin 2000) (k : Fin 64) :
    (iblk3 (F := Ideal) V c 0 t : Vec Ideal S2000x64 .f32) (ix2 p k) = X (ix2 (row (tile t) p) k) := by
  unfold iblk3
  rw [e]
  show X (((cfg3.win 0).blk t).view.emb (ix2 p k)) = _
  refine congrArg X (funext fun a => Fin.ext ?_)
  have f := idx_facts t
  match a with
  | ⟨0, _⟩ => show win3_0.index t (0 : Fin 2) * 2000 + 1 * p.val = 2000 * t.val + p.val; omega
  | ⟨1, _⟩ => show win3_0.index t (1 : Fin 2) * 64 + 1 * k.val = k.val; omega

/-- Window 1's block at a point: rows `2000 t …` of its array. -/
theorem blk1_apply (c : Dev nD) (X : Vec Ideal S50000x64 .f32) (e : V c (Pipeline.arrRef spec3 1) = X)
    (t : Fin cfg3.N) (p : Fin 2000) (k : Fin 64) :
    (iblk3 (F := Ideal) V c 1 t : Vec Ideal S2000x64 .f32) (ix2 p k) = X (ix2 (row (tile t) p) k) := by
  unfold iblk3
  rw [e]
  show X (((cfg3.win 1).blk t).view.emb (ix2 p k)) = _
  refine congrArg X (funext fun a => Fin.ext ?_)
  have f := idx_facts t
  match a with
  | ⟨0, _⟩ => show win3_1.index t (0 : Fin 2) * 2000 + 1 * p.val = 2000 * t.val + p.val; omega
  | ⟨1, _⟩ => show win3_1.index t (1 : Fin 2) * 64 + 1 * k.val = k.val; omega

/-- Window 2's block at every point: its whole array. -/
theorem blk2_apply (c : Dev nD) (X : Vec Ideal S64x64 .f32) (e : V c (Pipeline.arrRef spec3 2) = X)
    (t : Fin cfg3.N) (k : Fin 64) (q : Fin 64) :
    (iblk3 (F := Ideal) V c 2 t : Vec Ideal S64x64 .f32) (ix2 k q) = X (ix2 k q) := by
  unfold iblk3
  rw [e]
  show X (((cfg3.win 2).blk t).view.emb (ix2 k q)) = _
  refine congrArg X (funext fun a => Fin.ext ?_)
  have f := idx_facts t
  match a with
  | ⟨0, _⟩ => show win3_2.index t (0 : Fin 2) * 64 + 1 * k.val = k.val; omega
  | ⟨1, _⟩ => show win3_2.index t (1 : Fin 2) * 64 + 1 * q.val = q.val; omega

/-- Window 3's block at every point: its whole array, one row. -/
theorem blk3_apply (c : Dev nD) (X : Vec Ideal S1x64 .f32) (e : V c (Pipeline.arrRef spec3 3) = X)
    (t : Fin cfg3.N) (u : Fin 1) (q : Fin 64) :
    (iblk3 (F := Ideal) V c 3 t : Vec Ideal S1x64 .f32) (ix2 u q) = X (ix2 u q) := by
  unfold iblk3
  rw [e]
  show X (((cfg3.win 3).blk t).view.emb (ix2 u q)) = _
  refine congrArg X (funext fun a => Fin.ext ?_)
  have f := idx_facts t
  match a with
  | ⟨0, _⟩ => show win3_3.index t (0 : Fin 2) * 1 + 1 * u.val = u.val; omega
  | ⟨1, _⟩ => show win3_3.index t (1 : Fin 2) * 64 + 1 * q.val = q.val; omega

/-- Window 4's block at every point: its whole array. -/
theorem blk4_apply (c : Dev nD) (X : Vec Ideal S64x64 .f32) (e : V c (Pipeline.arrRef spec3 4) = X)
    (t : Fin cfg3.N) (k : Fin 64) (q : Fin 64) :
    (iblk3 (F := Ideal) V c 4 t : Vec Ideal S64x64 .f32) (ix2 k q) = X (ix2 k q) := by
  unfold iblk3
  rw [e]
  show X (((cfg3.win 4).blk t).view.emb (ix2 k q)) = _
  refine congrArg X (funext fun a => Fin.ext ?_)
  have f := idx_facts t
  match a with
  | ⟨0, _⟩ => show win3_4.index t (0 : Fin 2) * 64 + 1 * k.val = k.val; omega
  | ⟨1, _⟩ => show win3_4.index t (1 : Fin 2) * 64 + 1 * q.val = q.val; omega

/-- Window 5's block at a point: rows `2000 t …` of the batch column. -/
theorem blk5_apply (c : Dev nD) (X : Vec Ideal S50000x1 .i32) (e : V c (Pipeline.arrRef spec3 5) = X)
    (t : Fin cfg3.N) (p : Fin 2000) (u : Fin 1) :
    (iblk3 (F := Ideal) V c 5 t : Vec Ideal S2000x1 .i32) (ix2 p u) = X (ix2 (row (tile t) p) u) := by
  unfold iblk3
  rw [e]
  show X (((cfg3.win 5).blk t).view.emb (ix2 p u)) = _
  refine congrArg X (funext fun a => Fin.ext ?_)
  have f := idx_facts t
  match a with
  | ⟨0, _⟩ => show win3_5.index t (0 : Fin 2) * 2000 + 1 * p.val = 2000 * t.val + p.val; omega
  | ⟨1, _⟩ => show win3_5.index t (1 : Fin 2) * 1 + 1 * u.val = u.val; omega

end Blocks

/-! ## The first output: the linear part, tile by tile -/

section Lin

/-- After every point the first output's block holds the linear part of the point's input blocks. -/
theorem lin_after (c : Dev nD) (t : Fin cfg3.N) :
    (outsAt3 (F := Ideal) V c t.val t.isLt).1 = k3_pay3 (iblk3 V c 0 t) (iblk3 V c 1 t) (iblk3 V c 2 t) (iblk3 V c 4 t) (iblk3 V c 3 t) := by
  by_cases h0 : t.val % 25 = 0
  · rw [outsAt3_A V c t h0]
    dsimp only
    exact lin_first (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) (iblk3 V c 0 t) (iblk3 V c 1 t) (iblk3 V c 2 t) (iblk3 V c 3 t) (iblk3 V c 4 t) (iblk3 V c 5 t)
  · rw [outsAt3_B V c t h0]
    dsimp only
    exact lin_later (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) (iblk3 V c 0 t) (iblk3 V c 1 t) (iblk3 V c 2 t) (iblk3 V c 3 t) (iblk3 V c 4 t) (iblk3 V c 5 t)
      (outsAt3 V c (t.val - 1) (Nat.lt_of_le_of_lt (Nat.sub_le _ _) t.isLt)).2

/-- The linear part of the blocks at tile `t`, at row `p` of the tile, is the linear part of the arrays at row
    `2000 t + p`. -/
theorem lin_tile_apply (c : Dev nD) (agg root : Vec Ideal S50000x64 .f32) (Wl Wr : Vec Ideal S64x64 .f32) (bl : Vec Ideal S1x64 .f32)
    (e0 : V c (Pipeline.arrRef spec3 0) = agg) (e1 : V c (Pipeline.arrRef spec3 1) = root)
    (e2 : V c (Pipeline.arrRef spec3 2) = Wl) (e3 : V c (Pipeline.arrRef spec3 3) = bl)
    (e4 : V c (Pipeline.arrRef spec3 4) = Wr) (t : Fin cfg3.N) (p : Fin 2000) (q : Fin 64) :
    k3_pay3 (F := Ideal) (iblk3 V c 0 t) (iblk3 V c 1 t) (iblk3 V c 2 t) (iblk3 V c 4 t) (iblk3 V c 3 t) (ix2 p q) = sageLin (un2 agg) (un2 root) (un2 Wl) (un2 Wr) (unRow bl) (row (tile t) p) q := by
  refine (lin_block_apply _ _ _ _ _ p q).trans ?_
  show _ = ((∑ k : Fin 64, agg (ix2 (row (tile t) p) k) * Wl (ix2 k q)) + bl (ix2 0 q))
    + ∑ k : Fin 64, root (ix2 (row (tile t) p) k) * Wr (ix2 k q)
  refine congrArg₂ (· + ·) (congrArg₂ (· + ·) (Finset.sum_congr rfl fun k _ => ?_) (blk3_apply V c bl e3 t 0 q))
    (Finset.sum_congr rfl fun k _ => ?_)
  · exact congrArg₂ (· * ·) (blk0_apply V c agg e0 t p k) (blk2_apply V c Wl e2 t k q)
  · exact congrArg₂ (· * ·) (blk1_apply V c root e1 t p k) (blk4_apply V c Wr e4 t k q)

/-- What point `t` writes back to the first output's array is block `t` of the linear part of the arrays. -/
theorem lin_flushed (c : Dev nD) (agg root : Vec Ideal S50000x64 .f32) (Wl Wr : Vec Ideal S64x64 .f32) (bl : Vec Ideal S1x64 .f32)
    (e0 : V c (Pipeline.arrRef spec3 0) = agg) (e1 : V c (Pipeline.arrRef spec3 1) = root)
    (e2 : V c (Pipeline.arrRef spec3 2) = Wl) (e3 : V c (Pipeline.arrRef spec3 3) = bl)
    (e4 : V c (Pipeline.arrRef spec3 4) = Wr) (t : Fin cfg3.N) :
    (dat3 (F := Ideal) V c).flushed 6 t = ((cfg3.win 6).blk t).view.read (Elt Ideal) (mk2 (sageLin (un2 agg) (un2 root) (un2 Wl) (un2 Wr) (unRow bl))) := by
  show (cfg3.win 6).cut (grid3.coords t) ((dat3 V c).after 6 t) = _
  rw [after3_6, lin_after V c t]
  refine ext2 (a := 2000) (b := 64) fun p q => ?_
  refine (lin_tile_apply V c agg root Wl Wr bl e0 e1 e2 e3 e4 t p q).trans ?_
  show _ = mk2 (sageLin (un2 agg) (un2 root) (un2 Wl) (un2 Wr) (unRow bl)) (((cfg3.win 6).blk t).view.emb (ix2 p q))
  have f := idx_facts t
  refine (mk2_apply _ _ _).symm.trans (congrArg (mk2 (sageLin (un2 agg) (un2 root) (un2 Wl) (un2 Wr) (unRow bl))) (funext fun a => Fin.ext ?_))
  match a with
  | ⟨0, _⟩ => show 2000 * t.val + p.val = win3_6.index t (0 : Fin 2) * 2000 + 1 * p.val; omega
  | ⟨1, _⟩ => show q.val = win3_6.index t (1 : Fin 2) * 64 + 1 * q.val; omega

/-- An index of the first output's array is in point `t`'s block iff its coordinates are in the block's ranges. -/
theorem lin_mem_blk (t : Fin cfg3.N) (i : S50000x64.Idx) :
    i ∈ ((cfg3.win 6).blk t).view.set ↔ ∀ a : Fin 2, win3_6.index t a * S2000x64.size a ≤ (i a).val
      ∧ (i a).val < win3_6.index t a * S2000x64.size a + S2000x64.size a := by
  rw [show ((cfg3.win 6).blk t).view.set = (win3_6.rect t).set from View.set_slice_whole _ _, Rect.mem_set_unit]
  exact Iff.rfl

/-- Every row of the first output's array lies in the block of the tile it belongs to. -/
theorem lin_cover (i : S50000x64.Idx) :
    ∃ t : Fin cfg3.N, (cfg3.win 6).flush t = true ∧ i ∈ ((cfg3.win 6).blk t).view.set := by
  have hi0 : (i 0).val < 50000 := (i 0).isLt
  have hi1 : (i 1).val < 64 := (i 1).isLt
  have hN : cfg3.N = 25 := N_3
  let t : Fin cfg3.N := ⟨(i 0).val / 2000, by rw [hN]; omega⟩
  have f := idx_facts t
  have ht : t.val = (i 0).val / 2000 := rfl
  refine ⟨t, flush3_6 t, ?_⟩
  rw [lin_mem_blk]
  intro a
  match a with
  | ⟨0, _⟩ =>
    show win3_6.index t (0 : Fin 2) * 2000 ≤ (i 0).val ∧ (i 0).val < win3_6.index t (0 : Fin 2) * 2000 + 2000
    omega
  | ⟨1, _⟩ =>
    show win3_6.index t (1 : Fin 2) * 64 ≤ (i 1).val ∧ (i 1).val < win3_6.index t (1 : Fin 2) * 64 + 64
    omega

/-- Region 3: the first output array after the region is the layer's linear part. -/
theorem value_lin (c : Dev nD) (agg root : Vec Ideal S50000x64 .f32) (Wl Wr : Vec Ideal S64x64 .f32) (bl : Vec Ideal S1x64 .f32)
    (e0 : V c (Pipeline.arrRef spec3 0) = agg) (e1 : V c (Pipeline.arrRef spec3 1) = root)
    (e2 : V c (Pipeline.arrRef spec3 2) = Wl) (e3 : V c (Pipeline.arrRef spec3 3) = bl)
    (e4 : V c (Pipeline.arrRef spec3 4) = Wr) :
    (dat3 (F := Ideal) V c).arrAt 6 cfg3.N = mk2 (sageLin (un2 agg) (un2 root) (un2 Wl) (un2 Wr) (unRow bl)) := by
  exact (dat3 (F := Ideal) V c).arrAt_eq_of_cover 6 (mk2 (sageLin (un2 agg) (un2 root) (un2 Wl) (un2 Wr) (unRow bl)))
    (fun t _ => lin_flushed V c agg root Wl Wr bl e0 e1 e2 e3 e4 t) lin_cover

end Lin

/-! ## The second output: the statistics block, carried from point to point -/

/-- Tile `s`'s share of a per-row quantity summed per graph with indicator weights. -/
def tileSum (bI : Fin 50000 → Fin 128) (f : Fin 50000 → EReal) (g : Fin 128) (s : Fin 25) : EReal :=
  ∑ r' : Fin 2000, ohv (bI (row s r')) g * f (row s r')

/-- The tiles up to number 0 are the first one. -/
theorem tiles_le_zero : Finset.univ.filter (fun s : Fin 25 => s.val ≤ 0) = {(⟨0, by omega⟩ : Fin 25)} := by
  ext s
  simp only [Finset.mem_filter, Finset.mem_univ, true_and, Finset.mem_singleton, Fin.ext_iff]
  omega

/-- The tiles up to number `n + 1` are that one and the tiles up to `n`. -/
theorem tiles_le_succ (n : ℕ) (h : n + 1 < 25) :
    Finset.univ.filter (fun s : Fin 25 => s.val ≤ n + 1)
      = insert (⟨n + 1, h⟩ : Fin 25) (Finset.univ.filter (fun s : Fin 25 => s.val ≤ n)) := by
  ext s
  simp only [Finset.mem_filter, Finset.mem_univ, true_and, Finset.mem_insert, Fin.ext_iff]
  omega

/-- Tile `n + 1` is not among the tiles up to `n`. -/
theorem tile_succ_not_le (n : ℕ) (h : n + 1 < 25) :
    (⟨n + 1, h⟩ : Fin 25) ∉ Finset.univ.filter (fun s : Fin 25 => s.val ≤ n) := by
  simp only [Finset.mem_filter, Finset.mem_univ, true_and]
  omega

/-- The tiles up to number 24 are all of them. -/
theorem tiles_le_last : Finset.univ.filter (fun s : Fin 25 => s.val ≤ 24) = Finset.univ := by
  ext s
  simp only [Finset.mem_filter, Finset.mem_univ, true_and, iff_true]
  omega

section Stats

/-- After the first point the statistics block is the update of the zero block. -/
theorem stats_after_first (c : Dev nD) (t : Fin cfg3.N) (h0 : t.val % 25 = 0) :
    (outsAt3 (F := Ideal) V c t.val t.isLt).2
      = k3_pay1 (k3_pay4 (iblk3 V c 0 t) (iblk3 V c 1 t) (iblk3 V c 2 t) (iblk3 V c 4 t) (iblk3 V c 3 t)) (k3_pay5 (iblk3 V c 5 t))
        (k3_pay6 (iblk3 V c 0 t) (iblk3 V c 1 t) (iblk3 V c 2 t) (iblk3 V c 4 t) (iblk3 V c 3 t) (iblk3 V c 5 t)) (k3_pay2 (F := Ideal)) := by
  rw [outsAt3_A V c t h0]
  dsimp only
  exact stats_first (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) ((hcond3_0 t).mpr h0) (iblk3 V c 0 t) (iblk3 V c 1 t) (iblk3 V c 2 t) (iblk3 V c 3 t) (iblk3 V c 4 t) (iblk3 V c 5 t)

/-- After a later point it is the update of what the point before left. -/
theorem stats_after_later (c : Dev nD) (t : Fin cfg3.N) (h0 : ¬t.val % 25 = 0) :
    (outsAt3 (F := Ideal) V c t.val t.isLt).2
      = k3_pay1 (k3_pay4 (iblk3 V c 0 t) (iblk3 V c 1 t) (iblk3 V c 2 t) (iblk3 V c 4 t) (iblk3 V c 3 t)) (k3_pay5 (iblk3 V c 5 t))
        (k3_pay6 (iblk3 V c 0 t) (iblk3 V c 1 t) (iblk3 V c 2 t) (iblk3 V c 4 t) (iblk3 V c 3 t) (iblk3 V c 5 t)) (outsAt3 V c (t.val - 1) (Nat.lt_of_le_of_lt (Nat.sub_le _ _) t.isLt)).2 := by
  rw [outsAt3_B V c t h0]
  dsimp only
  exact stats_later (F := Ideal) c (grid3.coords t) (ms3_0 t) (hs3_0 t) (ms3_1 t) (hs3_1 t) (ms3_2 t) (hs3_2 t) (ms3_3 t) (hs3_3 t) (ms3_4 t) (hs3_4 t) (ms3_5 t) (hs3_5 t) (ms3_6 t) (hs3_6 t) (ms3_7 t) (hs3_7 t) (fun h => h0 ((hcond3_0 t).mp h)) (iblk3 V c 0 t) (iblk3 V c 1 t) (iblk3 V c 2 t) (iblk3 V c 3 t) (iblk3 V c 4 t) (iblk3 V c 5 t)
    (outsAt3 V c (t.val - 1) (Nat.lt_of_le_of_lt (Nat.sub_le _ _) t.isLt)).2

/-- The indicator block at tile `t`: row `p`'s graph against lane `g`. -/
theorem ind_tile_apply (c : Dev nD) (bI : Fin 50000 → Fin 128) (bcol : Vec Ideal S50000x1 .i32)
    (e5 : V c (Pipeline.arrRef spec3 5) = bcol)
    (hb : ∀ r : Fin 50000, bcol (ix2 r (0 : Fin 1)) = BitVec.ofNat 32 (bI r).val)
    (t : Fin cfg3.N) (p : Fin 2000) (g : Fin 128) :
    k3_pay5 (F := Ideal) (iblk3 V c 5 t) (ix2 p g) = ohv (bI (row (tile t) p)) g :=
  ind_block_apply (iblk3 V c 5 t) p g (bI (row (tile t) p)) ((blk5_apply V c bcol e5 t p 0).trans (hb _))

/-- The weighted lane sums of the rows' sums at tile `t` are the tile's share of the rows' sums. -/
theorem wsum_tile_apply (c : Dev nD) (bI : Fin 50000 → Fin 128) (agg root : Vec Ideal S50000x64 .f32) (Wl Wr : Vec Ideal S64x64 .f32)
    (bl : Vec Ideal S1x64 .f32) (bcol : Vec Ideal S50000x1 .i32)
    (e0 : V c (Pipeline.arrRef spec3 0) = agg) (e1 : V c (Pipeline.arrRef spec3 1) = root)
    (e2 : V c (Pipeline.arrRef spec3 2) = Wl) (e3 : V c (Pipeline.arrRef spec3 3) = bl)
    (e4 : V c (Pipeline.arrRef spec3 4) = Wr) (e5 : V c (Pipeline.arrRef spec3 5) = bcol)
    (hb : ∀ r : Fin 50000, bcol (ix2 r (0 : Fin 1)) = BitVec.ofNat 32 (bI r).val) (t : Fin cfg3.N) (g : Fin 128) :
    k3_pay6 (F := Ideal) (iblk3 V c 0 t) (iblk3 V c 1 t) (iblk3 V c 2 t) (iblk3 V c 4 t) (iblk3 V c 3 t) (iblk3 V c 5 t) (ix1 g)
      = tileSum bI (rowSum (sageLin (un2 agg) (un2 root) (un2 Wl) (un2 Wr) (unRow bl))) g (tile t) := by
  refine (wsum_block_apply _ _ _ _ _ _ g).trans ?_
  refine Finset.sum_congr rfl fun r _ => congrArg₂ (· * ·) (ind_tile_apply V c bI bcol e5 hb t r g) ?_
  show _ = ∑ j : Fin 64, sageLin (un2 agg) (un2 root) (un2 Wl) (un2 Wr) (unRow bl) (row (tile t) r) j
  exact Finset.sum_congr rfl fun j _ => lin_tile_apply V c agg root Wl Wr bl e0 e1 e2 e3 e4 t r j

/-- The weighted lane sums of the rows' sums of squares at tile `t` are the tile's share of them. -/
theorem wsq_tile_apply (c : Dev nD) (bI : Fin 50000 → Fin 128) (agg root : Vec Ideal S50000x64 .f32) (Wl Wr : Vec Ideal S64x64 .f32)
    (bl : Vec Ideal S1x64 .f32) (bcol : Vec Ideal S50000x1 .i32)
    (e0 : V c (Pipeline.arrRef spec3 0) = agg) (e1 : V c (Pipeline.arrRef spec3 1) = root)
    (e2 : V c (Pipeline.arrRef spec3 2) = Wl) (e3 : V c (Pipeline.arrRef spec3 3) = bl)
    (e4 : V c (Pipeline.arrRef spec3 4) = Wr) (e5 : V c (Pipeline.arrRef spec3 5) = bcol)
    (hb : ∀ r : Fin 50000, bcol (ix2 r (0 : Fin 1)) = BitVec.ofNat 32 (bI r).val) (t : Fin cfg3.N) (g : Fin 128) :
    (∑ r : Fin 2000, k3_pay5 (F := Ideal) (iblk3 V c 5 t) (ix2 r g)
        * k3_pay4 (F := Ideal) (iblk3 V c 0 t) (iblk3 V c 1 t) (iblk3 V c 2 t) (iblk3 V c 4 t) (iblk3 V c 3 t) (ix2 r (0 : Fin 1)))
      = tileSum bI (rowSq (sageLin (un2 agg) (un2 root) (un2 Wl) (un2 Wr) (unRow bl))) g (tile t) := by
  refine Finset.sum_congr rfl fun r _ => congrArg₂ (· * ·) (ind_tile_apply V c bI bcol e5 hb t r g) ?_
  refine (rowsq_block_apply _ _ _ _ _ r 0).trans ?_
  show _ = ∑ j : Fin 64, sageLin (un2 agg) (un2 root) (un2 Wl) (un2 Wr) (unRow bl) (row (tile t) r) j * sageLin (un2 agg) (un2 root) (un2 Wl) (un2 Wr) (unRow bl) (row (tile t) r) j
  exact Finset.sum_congr rfl fun j _ => congrArg₂ (· * ·) (lin_tile_apply V c agg root Wl Wr bl e0 e1 e2 e3 e4 t r j)
    (lin_tile_apply V c agg root Wl Wr bl e0 e1 e2 e3 e4 t r j)

/-- THE INVARIANT. After point `n` the statistics block holds, in row 0 (row 1) at lane `g`, the shares of the
    tiles up to `n` of the rows' sums (sums of squares). -/
theorem stats_inv (c : Dev nD) (bI : Fin 50000 → Fin 128) (agg root : Vec Ideal S50000x64 .f32) (Wl Wr : Vec Ideal S64x64 .f32)
    (bl : Vec Ideal S1x64 .f32) (bcol : Vec Ideal S50000x1 .i32)
    (e0 : V c (Pipeline.arrRef spec3 0) = agg) (e1 : V c (Pipeline.arrRef spec3 1) = root)
    (e2 : V c (Pipeline.arrRef spec3 2) = Wl) (e3 : V c (Pipeline.arrRef spec3 3) = bl)
    (e4 : V c (Pipeline.arrRef spec3 4) = Wr) (e5 : V c (Pipeline.arrRef spec3 5) = bcol)
    (hb : ∀ r : Fin 50000, bcol (ix2 r (0 : Fin 1)) = BitVec.ofNat 32 (bI r).val) (g : Fin 128) : ∀ (n : ℕ) (h : n < cfg3.N),
    ((outsAt3 (F := Ideal) V c n h).2 : Vec Ideal S2x128 .f32) (ix2 (0 : Fin 2) g)
        = ∑ s ∈ Finset.univ.filter (fun s : Fin 25 => s.val ≤ n), tileSum bI (rowSum (sageLin (un2 agg) (un2 root) (un2 Wl) (un2 Wr) (unRow bl))) g s
      ∧ ((outsAt3 (F := Ideal) V c n h).2 : Vec Ideal S2x128 .f32) (ix2 (1 : Fin 2) g)
        = ∑ s ∈ Finset.univ.filter (fun s : Fin 25 => s.val ≤ n), tileSum bI (rowSq (sageLin (un2 agg) (un2 root) (un2 Wl) (un2 Wr) (unRow bl))) g s
  | 0, h => by
    have e := stats_after_first V c ⟨0, h⟩ (Nat.zero_mod 25)
    constructor
    · refine (congrFun e (ix2 (0 : Fin 2) g)).trans ?_
      refine (upd_row0_apply _ _ _ _ g).trans ?_
      refine (congrArg₂ (· + ·) (zero_block_apply _) (wsum_tile_apply V c bI agg root Wl Wr bl bcol e0 e1 e2 e3 e4 e5 hb ⟨0, h⟩ g)).trans ?_
      rw [zero_add, tiles_le_zero, Finset.sum_singleton]
      rfl
    · refine (congrFun e (ix2 (1 : Fin 2) g)).trans ?_
      refine (upd_row1_apply _ _ _ _ g).trans ?_
      refine (congrArg₂ (· + ·) (zero_block_apply _) (wsq_tile_apply V c bI agg root Wl Wr bl bcol e0 e1 e2 e3 e4 e5 hb ⟨0, h⟩ g)).trans ?_
      rw [zero_add, tiles_le_zero, Finset.sum_singleton]
      rfl
  | n + 1, h => by
    have hN : cfg3.N = 25 := N_3
    have h25 : n + 1 < 25 := lt_of_lt_of_eq h hN
    have hB : ¬(⟨n + 1, h⟩ : Fin cfg3.N).val % 25 = 0 := by dsimp only; omega
    have e := stats_after_later V c ⟨n + 1, h⟩ hB
    have ih := stats_inv c bI agg root Wl Wr bl bcol e0 e1 e2 e3 e4 e5 hb g n (Nat.lt_of_succ_lt h)
    constructor
    · refine (congrFun e (ix2 (0 : Fin 2) g)).trans ?_
      refine (upd_row0_apply _ _ _ _ g).trans ?_
      refine (congrArg₂ (· + ·) ih.1 (wsum_tile_apply V c bI agg root Wl Wr bl bcol e0 e1 e2 e3 e4 e5 hb ⟨n + 1, h⟩ g)).trans ?_
      rw [tiles_le_succ n h25, Finset.sum_insert (tile_succ_not_le n h25), add_comm]
      rfl
    · refine (congrFun e (ix2 (1 : Fin 2) g)).trans ?_
      refine (upd_row1_apply _ _ _ _ g).trans ?_
      refine (congrArg₂ (· + ·) ih.2 (wsq_tile_apply V c bI agg root Wl Wr bl bcol e0 e1 e2 e3 e4 e5 hb ⟨n + 1, h⟩ g)).trans ?_
      rw [tiles_le_succ n h25, Finset.sum_insert (tile_succ_not_le n h25), add_comm]
      rfl

/-- An index of the statistics array is in a point's block iff its coordinates are in the block's ranges. -/
theorem stats_mem_blk (t : Fin cfg3.N) (i : S2x128.Idx) :
    i ∈ ((cfg3.win 7).blk t).view.set ↔ ∀ a : Fin 2, win3_7.index t a * S2x128.size a ≤ (i a).val
      ∧ (i a).val < win3_7.index t a * S2x128.size a + S2x128.size a := by
  rw [show ((cfg3.win 7).blk t).view.set = (win3_7.rect t).set from View.set_slice_whole _ _, Rect.mem_set_unit]
  exact Iff.rfl

/-- The one write-back of the statistics block, at the last point, writes what that point left: the block is
    the whole array. -/
theorem stats_flushed (c : Dev nD) (h24 : 24 < cfg3.N) (t : Fin cfg3.N) (hf : (cfg3.win 7).flush t = true) :
    (dat3 (F := Ideal) V c).flushed 7 t
      = ((cfg3.win 7).blk t).view.read (Elt Ideal) ((outsAt3 (F := Ideal) V c 24 h24).2 : Vec Ideal S2x128 .f32) := by
  have hN : cfg3.N = 25 := N_3
  have h3 : t.val = 24 := by have := (flush3_7 t).mp hf; have := t.isLt; omega
  obtain rfl : t = ⟨24, h24⟩ := Fin.ext h3
  show (cfg3.win 7).cut (grid3.coords ⟨24, h24⟩) ((dat3 V c).after 7 ⟨24, h24⟩) = _
  rw [after3_7]
  have f := idx_facts ⟨24, h24⟩
  refine ext2 (a := 2) (b := 128) fun u g => ?_
  show _ = ((outsAt3 (F := Ideal) V c 24 h24).2 : Vec Ideal S2x128 .f32) (((cfg3.win 7).blk ⟨24, h24⟩).view.emb (ix2 u g))
  refine congrArg ((outsAt3 (F := Ideal) V c 24 h24).2 : Vec Ideal S2x128 .f32) (funext fun a => Fin.ext ?_)
  match a with
  | ⟨0, _⟩ => show u.val = win3_7.index ⟨24, h24⟩ (0 : Fin 2) * 2 + 1 * u.val; omega
  | ⟨1, _⟩ => show g.val = win3_7.index ⟨24, h24⟩ (1 : Fin 2) * 128 + 1 * g.val; omega

/-- So the statistics array ends holding what the last point left. -/
theorem stats_final (c : Dev nD) (h24 : 24 < cfg3.N) :
    (dat3 (F := Ideal) V c).arrAt 7 cfg3.N = ((outsAt3 (F := Ideal) V c 24 h24).2 : Vec Ideal S2x128 .f32) :=
  (dat3 (F := Ideal) V c).arrAt_eq_of_cover 7 ((outsAt3 (F := Ideal) V c 24 h24).2 : Vec Ideal S2x128 .f32)
    (stats_flushed V c h24) fun i => by
      have hi0 : (i 0).val < 2 := (i 0).isLt
      have hi1 : (i 1).val < 128 := (i 1).isLt
      have f := idx_facts ⟨24, h24⟩
      refine ⟨⟨24, h24⟩, (flush3_7 ⟨24, h24⟩).mpr rfl, ?_⟩
      rw [stats_mem_blk]
      intro a
      match a with
      | ⟨0, _⟩ =>
        show win3_7.index ⟨24, h24⟩ (0 : Fin 2) * 2 ≤ (i 0).val ∧ (i 0).val < win3_7.index ⟨24, h24⟩ (0 : Fin 2) * 2 + 2
        omega
      | ⟨1, _⟩ =>
        show win3_7.index ⟨24, h24⟩ (1 : Fin 2) * 128 ≤ (i 1).val ∧ (i 1).val < win3_7.index ⟨24, h24⟩ (1 : Fin 2) * 128 + 128
        omega

/-- Region 3: the statistics array after the region holds, in row 0, the per-graph weighted sums of the rows' sums
    and, in row 1, those of the rows' sums of squares, for graph numbers `bI` read off the batch column. -/
theorem value_stats (c : Dev nD) (bI : Fin 50000 → Fin 128) (agg root : Vec Ideal S50000x64 .f32) (Wl Wr : Vec Ideal S64x64 .f32)
    (bl : Vec Ideal S1x64 .f32) (bcol : Vec Ideal S50000x1 .i32)
    (e0 : V c (Pipeline.arrRef spec3 0) = agg) (e1 : V c (Pipeline.arrRef spec3 1) = root)
    (e2 : V c (Pipeline.arrRef spec3 2) = Wl) (e3 : V c (Pipeline.arrRef spec3 3) = bl)
    (e4 : V c (Pipeline.arrRef spec3 4) = Wr) (e5 : V c (Pipeline.arrRef spec3 5) = bcol)
    (hb : ∀ r : Fin 50000, bcol (ix2 r (0 : Fin 1)) = BitVec.ofNat 32 (bI r).val) (g : Fin 128) :
    ((dat3 (F := Ideal) V c).arrAt 7 cfg3.N : Vec Ideal S2x128 .f32) (ix2 (0 : Fin 2) g)
        = statSum bI (rowSum (sageLin (un2 agg) (un2 root) (un2 Wl) (un2 Wr) (unRow bl))) g
      ∧ ((dat3 (F := Ideal) V c).arrAt 7 cfg3.N : Vec Ideal S2x128 .f32) (ix2 (1 : Fin 2) g)
        = statSum bI (rowSq (sageLin (un2 agg) (un2 root) (un2 Wl) (un2 Wr) (unRow bl))) g := by
  have hN : cfg3.N = 25 := N_3
  have h24 : 24 < cfg3.N := by rw [hN]; omega
  have hfin := stats_final V c h24
  have inv := stats_inv V c bI agg root Wl Wr bl bcol e0 e1 e2 e3 e4 e5 hb g 24 h24
  rw [tiles_le_last] at inv
  exact ⟨(congrFun hfin (ix2 (0 : Fin 2) g)).trans inv.1, (congrFun hfin (ix2 (1 : Fin 2) g)).trans inv.2⟩

end Stats

end Cert.Gnn.RegionSage3

end
-- ==== Proof.RegionLn4.lean ====
/-
  The normalise-and-rectify kernel of region 4, as a whole array.

  It runs over 25 tiles of 2000 rows. In a tile, every row's graph number is compared with the numbers 0 … 127; the
  resulting indicator row, times the 128 per-graph means (reciprocal deviations), summed over the 128 lanes, is the
  row's own graph's mean (reciprocal deviation); the entry minus that mean, times that reciprocal deviation, times the
  channel's scale, plus the channel's shift, goes through the leaky rectifier. The rule is the same for every row, and
  the tiles cover the array.
-/
import proofs.«430900_j38714835206722_1_alg».proof.Proof.Gen.KernelIdeal.Frame
import proofs.«430900_j38714835206722_1_alg».proof.Proof.Shapes
import proofs.«430900_j38714835206722_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gnn.RegionLn4

open Idealize.ShloMosaic Idealize.ShloMosaic.TcCoe Idealize.ShloMosaic.ValueIdx Idealize.ShloMosaic.Pipeline
open Cert.KernelIdeal Cert.KernelIdeal.Gen Cert.Gnn

variable (V : (c : Dev nD) → (b : Ref sig .tc) → Buf (Elt Ideal) ((c : Thread nD τ).loc b))

/-! ## Scalar facts -/

/-- The rectifier as the kernel spells it: choose `y` where `y ≥ 0` compares true, else `a * y`. -/
theorem select_oge_zero (a y : EReal) :
    Scalar.select (FloatOps.cmpf (F := Ideal) (φ := .f32) .oge y (Scalar.ofBits (F := Ideal) .f32 0x00000000#32)) y (a * y) = prelu a y := by
  have hz0 : Scalar.ofBits (F := Ideal) .f32 0x00000000#32 = (0 : EReal) := Ideal.ofBits_zero_f32
  rw [hz0]
  show Scalar.select (Ideal.cmp .oge y 0) y (a * y) = prelu a y
  unfold prelu Ideal.cmp Scalar.select
  by_cases h : (0 : EReal) ≤ y
  · simp [h]
  · simp [h]

/-- Two graph numbers below 128 have the same 32-bit word only if they are equal. -/
theorem word_eq_iff (g b : Fin 128) : BitVec.ofNat 32 g.val = BitVec.ofNat 32 b.val ↔ g = b := by
  constructor
  · intro h
    have h' := congrArg BitVec.toNat h
    simp only [BitVec.toNat_ofNat] at h'
    have hg := g.isLt
    have hb := b.isLt
    exact Fin.ext (by omega)
  · intro h; rw [h]

/-- The compare of two graph numbers' words, widened and converted, is the indicator. -/
theorem indicator_word (g b : Fin 128) :
    FloatOps.sitofp (F := Ideal) .f32 ((IntOp.cmpi .eq (BitVec.ofNat 32 g.val) (BitVec.ofNat 32 b.val)).setWidth 32) = ohv b g := by
  show (((((IntOp.cmpi .eq (BitVec.ofNat 32 g.val) (BitVec.ofNat 32 b.val)).setWidth 32).toInt : ℝ)) : EReal) = ohv b g
  unfold ohv IntOp.cmpi
  by_cases h : g = b
  · subst h; simp
  · have hne : (BitVec.ofNat 32 g.val == BitVec.ofNat 32 b.val) = false := by
      rw [beq_eq_false_iff_ne]
      exact fun e => h ((word_eq_iff g b).mp e)
    simp [h, hne]

/-! ## Layout operations read at an index -/

/-- A `[a, 1]` column broadcast to `[a, b]` reads, at `(p, c)`, the column's entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(p, 0)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_two, Shape.rowMajor_val_one]
    show p.val = p.val * 1 + 0
    omega)

/-- The index over row `p` with lane `g` inserted is `(p, g)`. -/
theorem lift_row_lane (h : S2000x128.Reduces [1] S2000) (p : Fin 2000) (g : Fin 128) :
    h.lift (ix1 p) g = ix2 p g := by
  funext a
  apply Fin.ext
  match a with
  | ⟨0, _⟩ => rfl
  | ⟨1, _⟩ => rfl

/-- A sum over the 128 lanes of a row, read at the row. -/
theorem lane_sum_apply (x : FVec Ideal S2000x128 .f32) (h : S2000x128.Reduces [1] S2000) (hφ : FKind.Formats .f32)
    (hacc : (0x00000000#32 : BitVec 32) = FKind.add.neutral .f32 hφ) (p : Fin 2000) :
    multiReduction (F := Ideal) .add [1] S2000 x 0x00000000#32 h hφ hacc (ix1 p) = ∑ g : Fin 128, x (ix2 p g) := by
  refine (Ideal.multiReduction_add_single x 0x00000000#32 h hφ hacc (ix1 p)).trans ?_
  exact Finset.sum_congr rfl fun g _ => congrArg x (lift_row_lane h p g)

/-- The row's indicator-weighted sum of a `1 × 128` array, spread again over the row's 64 channels. -/
theorem node_stat_apply (x8 : FVec Ideal S2000x128 .f32) (w : Vec Ideal S1x128 .f32)
    (hsc : S1x128.ShapeCasts S1x128) (hb : S1x128.Broadcasts S2000x128) (h : S2000x128.Reduces [1] S2000)
    (hφ : FKind.Formats .f32) (hacc : (0x00000000#32 : BitVec 32) = FKind.add.neutral .f32 hφ)
    (hsc2 : S2000.ShapeCasts S2000x1) (hb2 : S2000x1.Broadcasts S2000x64) (p : Fin 2000) (q : Fin 64) :
    broadcastTo S2000x64 (shapeCast S2000x1
        (multiReduction (F := Ideal) .add [1] S2000 (mulf x8 (broadcastTo S2000x128 (shapeCast S1x128 w hsc) hb))
          0x00000000#32 h hφ hacc) hsc2) hb2 (ix2 p q)
      = ∑ g : Fin 128, x8 (ix2 p g) * w (ix2 (0 : Fin 1) g) := by
  refine (broadcastTo_a1_ab_apply _ hb2 p q).trans ?_
  refine (shapeCast_a_a1_apply _ hsc2 p).trans ?_
  refine (lane_sum_apply _ h hφ hacc p).trans ?_
  refine Finset.sum_congr rfl fun g _ => ?_
  show x8 (ix2 p g) * broadcastTo S2000x128 (shapeCast S1x128 w hsc) hb (ix2 p g) = _
  rw [broadcastTo_1b_ab_apply, shapeCast_self]

/-- The indicator rows: the compare of the lane number with the row's graph number, widened and converted. -/
theorem onehot_apply (v3 : Vec Ideal S2000x1 .i32) (hi : S2000x128.Iotas .tc 32 [1]) (hsc : S2000x1.ShapeCasts S2000x1)
    (hb : S2000x1.Broadcasts S2000x128) (hlt : 1 < 32) (b : Fin 128) (p : Fin 2000) (g : Fin 128)
    (hv : v3 (ix2 p (0 : Fin 1)) = BitVec.ofNat 32 b.val) :
    (sitofp .f32 (extui 32 (cmpi .eq (iota .tc S2000x128 32 [1] hi) (broadcastTo S2000x128 (shapeCast S2000x1 v3 hsc) hb)) hlt)
        : FVec Ideal S2000x128 .f32) (ix2 p g) = ohv b g := by
  show FloatOps.sitofp (F := Ideal) .f32 ((IntOp.cmpi .eq (iota .tc S2000x128 32 [1] hi (ix2 p g))
      (broadcastTo S2000x128 (shapeCast S2000x1 v3 hsc) hb (ix2 p g))).setWidth 32) = ohv b g
  rw [iota_single_apply, broadcastTo_a1_ab_apply, shapeCast_self, hv]
  exact indicator_word g b

/-- A `[1, 1]` array broadcast to `[a, b]` reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-! ## The body's arithmetic at an entry -/

/-- At row `p`, channel `q` of a tile whose row `p` carries graph number `b`: the entry minus the graph's mean, times
    the graph's reciprocal deviation, times the channel's scale, plus the channel's shift, through the rectifier. -/
theorem pay_apply (v0 : Vec Ideal S2000x64 .f32) (v3 : Vec Ideal S2000x1 .i32) (v9 v15 : Vec Ideal S1x128 .f32)
    (v25 v29 : Vec Ideal S1x64 .f32) (v33 : Vec Ideal S1x1 .f32) (b : Fin 128) (p : Fin 2000) (q : Fin 64)
    (hv : v3 (ix2 p (0 : Fin 1)) = BitVec.ofNat 32 b.val) :
    k4_pay1 (F := Ideal) v0 v3 v9 v15 v25 v29 v33 (ix2 p q)
      = prelu (v33 (ix2 (0 : Fin 1) (0 : Fin 1)))
          ((((v0 (ix2 p q) - ∑ g : Fin 128, ohv b g * v9 (ix2 (0 : Fin 1) g))
                * ∑ g : Fin 128, ohv b g * v15 (ix2 (0 : Fin 1) g))
              * v25 (ix2 (0 : Fin 1) q)) + v29 (ix2 (0 : Fin 1) q)) := by
  unfold k4_pay1
  dsimp only
  simp only [select_apply, cmpf_apply, mulf_apply, addf_apply, subf_apply, broadcast_apply]
  rw [select_oge_zero]
  refine congrArg₂ prelu ?_ (congrArg₂ HAdd.hAdd (congrArg₂ HMul.hMul (congrArg₂ HMul.hMul (congrArg₂ HSub.hSub ?_ ?_) ?_) ?_) ?_)
  · rw [broadcastTo_11_ab_apply, shapeCast_self]
  · rw [shapeCast_self]
  · refine (node_stat_apply _ v9 _ _ _ _ _ _ _ p q).trans ?_
    exact Finset.sum_congr rfl fun g _ => congrArg (· * v9 (ix2 (0 : Fin 1) g)) (onehot_apply v3 _ _ _ _ b p g hv)
  · refine (node_stat_apply _ v15 _ _ _ _ _ _ _ p q).trans ?_
    exact Finset.sum_congr rfl fun g _ => congrArg (· * v15 (ix2 (0 : Fin 1) g)) (onehot_apply v3 _ _ _ _ b p g hv)
  · rw [broadcastTo_1b_ab_apply, shapeCast_self]
  · rw [broadcastTo_1b_ab_apply, shapeCast_self]

/-! ## The tiles -/

theorem hz : (![0, 0] : Fin 2 → Nat) = fun _ => 0 := funext fun a => by fin_cases a <;> rfl

/-- The block numbers, decided over the 25 points: the features', the batch column's and the output's tile at point `t`
    is tile `t`; the per-graph and per-channel arrays are one block at every point. -/
theorem idx_facts : ∀ t : Fin cfg4.N,
    win4_0.index t (0 : Fin 2) = t.val ∧ win4_0.index t (1 : Fin 2) = 0
    ∧ win4_1.index t (0 : Fin 2) = 0 ∧ win4_1.index t (1 : Fin 2) = 0
    ∧ win4_2.index t (0 : Fin 2) = 0 ∧ win4_2.index t (1 : Fin 2) = 0
    ∧ win4_3.index t (0 : Fin 2) = t.val ∧ win4_3.index t (1 : Fin 2) = 0
    ∧ win4_4.index t (0 : Fin 2) = 0 ∧ win4_4.index t (1 : Fin 2) = 0
    ∧ win4_5.index t (0 : Fin 2) = 0 ∧ win4_5.index t (1 : Fin 2) = 0
    ∧ win4_6.index t (0 : Fin 2) = 0 ∧ win4_6.index t (1 : Fin 2) = 0
    ∧ win4_7.index t (0 : Fin 2) = t.val ∧ win4_7.index t (1 : Fin 2) = 0 :=
  (by decide +kernel : ∀ t : Fin grid4.N, _)

/-- Row `p`, channel `q` of the features' tile `t` is row `2000 t + p`, channel `q` of the array. -/
theorem blk0_apply (c : Dev nD) (t : Fin cfg4.N) (hpre : Vec Ideal S50000x64 .f32) (e : V c (Pipeline.arrRef spec4 0) = hpre)
    (p : Fin 2000) (q : Fin 64) (r : Fin 50000) (hr : r.val = 2000 * t.val + p.val) :
    (iblk4 V c 0 t : Vec Ideal S2000x64 .f32) (ix2 p q) = hpre (ix2 r q) := by
  subst e
  obtain ⟨e0, e1, -⟩ := idx_facts t
  have h : ((cfg4.win 0).blk t).view.emb (ix2 p q) = ix2 r q := by
    funext a; apply Fin.ext
    match a with
    | ⟨0, _⟩ => show win4_0.index t (0 : Fin 2) * 2000 + 1 * p.val = r.val; omega
    | ⟨1, _⟩ => show win4_0.index t (1 : Fin 2) * 64 + 1 * q.val = q.val; omega
  unfold iblk4
  rw [View.read_apply, h]
  rfl

/-- Row `p` of the batch column's tile `t` is row `2000 t + p` of the column. -/
theorem blk3_apply (c : Dev nD) (t : Fin cfg4.N) (bcol : Vec Ideal S50000x1 .i32) (e : V c (Pipeline.arrRef spec4 3) = bcol)
    (p : Fin 2000) (r : Fin 50000) (hr : r.val = 2000 * t.val + p.val) :
    (iblk4 V c 3 t : Vec Ideal S2000x1 .i32) (ix2 p (0 : Fin 1)) = bcol (ix2 r (0 : Fin 1)) := by
  subst e
  obtain ⟨-, -, -, -, -, -, e0, e1, -⟩ := idx_facts t
  have h : ((cfg4.win 3).blk t).view.emb (ix2 p (0 : Fin 1)) = ix2 r (0 : Fin 1) := by
    funext a; apply Fin.ext
    match a with
    | ⟨0, _⟩ => show win4_3.index t (0 : Fin 2) * 2000 + 1 * p.val = r.val; omega
    | ⟨1, _⟩ => show win4_3.index t (1 : Fin 2) * 1 + 1 * 0 = 0; omega
  unfold iblk4
  rw [View.read_apply, h]
  rfl

/-- A window whose one block is its whole array holds the array at every point: the per-graph means. -/
theorem blk1_eq (c : Dev nD) (t : Fin cfg4.N) (x1 : Vec Ideal S1x128 .f32) (e : V c (Pipeline.arrRef spec4 1) = x1) :
    (iblk4 V c 1 t : Vec Ideal S1x128 .f32) = x1 := by
  subst e
  have hi : win4_1.index t (0 : Fin 2) = 0 ∧ win4_1.index t (1 : Fin 2) = 0 := by
    have h := idx_facts t
    omega
  funext x
  have h : ((cfg4.win 1).blk t).view.emb x = x := by
    funext a; apply Fin.ext
    match a with
    | ⟨0, _⟩ => show win4_1.index t (0 : Fin 2) * 1 + 1 * (x 0).val = (x 0).val; omega
    | ⟨1, _⟩ => show win4_1.index t (1 : Fin 2) * 128 + 1 * (x 1).val = (x 1).val; omega
  unfold iblk4
  rw [View.read_apply, h]
  rfl

/-- The per-graph reciprocal deviations likewise. -/
theorem blk2_eq (c : Dev nD) (t : Fin cfg4.N) (x2 : Vec Ideal S1x128 .f32) (e : V c (Pipeline.arrRef spec4 2) = x2) :
    (iblk4 V c 2 t : Vec Ideal S1x128 .f32) = x2 := by
  subst e
  have hi : win4_2.index t (0 : Fin 2) = 0 ∧ win4_2.index t (1 : Fin 2) = 0 := by
    have h := idx_facts t
    omega
  funext x
  have h : ((cfg4.win 2).blk t).view.emb x = x := by
    funext a; apply Fin.ext
    match a with
    | ⟨0, _⟩ => show win4_2.index t (0 : Fin 2) * 1 + 1 * (x 0).val = (x 0).val; omega
    | ⟨1, _⟩ => show win4_2.index t (1 : Fin 2) * 128 + 1 * (x 1).val = (x 1).val; omega
  unfold iblk4
  rw [View.read_apply, h]
  rfl

/-- The per-channel scales likewise. -/
theorem blk4_eq (c : Dev nD) (t : Fin cfg4.N) (x4 : Vec Ideal S1x64 .f32) (e : V c (Pipeline.arrRef spec4 4) = x4) :
    (iblk4 V c 4 t : Vec Ideal S1x64 .f32) = x4 := by
  subst e
  have hi : win4_4.index t (0 : Fin 2) = 0 ∧ win4_4.index t (1 : Fin 2) = 0 := by
    have h := idx_facts t
    omega
  funext x
  have h : ((cfg4.win 4).blk t).view.emb x = x := by
    funext a; apply Fin.ext
    match a with
    | ⟨0, _⟩ => show win4_4.index t (0 : Fin 2) * 1 + 1 * (x 0).val = (x 0).val; omega
    | ⟨1, _⟩ => show win4_4.index t (1 : Fin 2) * 64 + 1 * (x 1).val = (x 1).val; omega
  unfold iblk4
  rw [View.read_apply, h]
  rfl

/-- The per-channel shifts likewise. -/
theorem blk5_eq (c : Dev nD) (t : Fin cfg4.N) (x5 : Vec Ideal S1x64 .f32) (e : V c (Pipeline.arrRef spec4 5) = x5) :
    (iblk4 V c 5 t : Vec Ideal S1x64 .f32) = x5 := by
  subst e
  have hi : win4_5.index t (0 : Fin 2) = 0 ∧ win4_5.index t (1 : Fin 2) = 0 := by
    have h := idx_facts t
    omega
  funext x
  have h : ((cfg4.win 5).blk t).view.emb x = x := by
    funext a; apply Fin.ext
    match a with
    | ⟨0, _⟩ => show win4_5.index t (0 : Fin 2) * 1 + 1 * (x 0).val = (x 0).val; omega
    | ⟨1, _⟩ => show win4_5.index t (1 : Fin 2) * 64 + 1 * (x 1).val = (x 1).val; omega
  unfold iblk4
  rw [View.read_apply, h]
  rfl

/-- The rectifier's slope likewise. -/
theorem blk6_eq (c : Dev nD) (t : Fin cfg4.N) (x6 : Vec Ideal S1x1 .f32) (e : V c (Pipeline.arrRef spec4 6) = x6) :
    (iblk4 V c 6 t : Vec Ideal S1x1 .f32) = x6 := by
  subst e
  have hi : win4_6.index t (0 : Fin 2) = 0 ∧ win4_6.index t (1 : Fin 2) = 0 := by
    have h := idx_facts t
    omega
  funext x
  have h : ((cfg4.win 6).blk t).view.emb x = x := by
    funext a; apply Fin.ext
    match a with
    | ⟨0, _⟩ => show win4_6.index t (0 : Fin 2) * 1 + 1 * (x 0).val = (x 0).val; omega
    | ⟨1, _⟩ => show win4_6.index t (1 : Fin 2) * 1 + 1 * (x 1).val = (x 1).val; omega
  unfold iblk4
  rw [View.read_apply, h]
  rfl

/-- Row `p`, channel `q` of the output's tile `t` sits at row `2000 t + p`, channel `q` of the output array. -/
theorem emb7_apply (t : Fin cfg4.N) (p : Fin 2000) (q : Fin 64) (r : Fin 50000) (hr : r.val = 2000 * t.val + p.val) :
    ((cfg4.win 7).blk t).view.emb (ix2 p q) = ix2 r q := by
  obtain ⟨-, -, -, -, -, -, -, -, -, -, -, -, -, -, e0, e1⟩ := idx_facts t
  funext a; apply Fin.ext
  match a with
  | ⟨0, _⟩ => show win4_7.index t (0 : Fin 2) * 2000 + 1 * p.val = r.val; omega
  | ⟨1, _⟩ => show win4_7.index t (1 : Fin 2) * 64 + 1 * q.val = q.val; omega

/-! ## From the tiles to the array -/

/-- WHAT POINT `t` WRITES BACK is tile `t` of the normalised array: every row of the tile reads its own graph's mean
    and reciprocal deviation, because the row's word in the batch column is its graph number. -/
theorem flushed_eq (c : Dev nD) (bI : Fin 50000 → Fin 128) (hpre : Vec Ideal S50000x64 .f32) (mean invstd : Vec Ideal S1x128 .f32)
    (bcol : Vec Ideal S50000x1 .i32) (lnw lnb : Vec Ideal S1x64 .f32) (a : Vec Ideal S1x1 .f32)
    (e0 : V c (Pipeline.arrRef spec4 0) = hpre) (e1 : V c (Pipeline.arrRef spec4 1) = mean)
    (e2 : V c (Pipeline.arrRef spec4 2) = invstd) (e3 : V c (Pipeline.arrRef spec4 3) = bcol)
    (e4 : V c (Pipeline.arrRef spec4 4) = lnw) (e5 : V c (Pipeline.arrRef spec4 5) = lnb)
    (e6 : V c (Pipeline.arrRef spec4 6) = a)
    (hb : ∀ r : Fin 50000, bcol (ix2 r (0 : Fin 1)) = BitVec.ofNat 32 (bI r).val) (t : Fin cfg4.N) :
    (dat4 (F := Ideal) V c).flushed 7 t
      = ((cfg4.win 7).blk t).view.read (Elt Ideal)
          (mk2 (lnApplyK bI (un2 hpre) (unRow mean) (unRow invstd) (unRow lnw) (unRow lnb) (a (ix2 (0 : Fin 1) (0 : Fin 1))))) := by
  show (cfg4.win 7).cut (grid4.coords t) ((dat4 V c).after 7 t) = _
  rw [after4_7]
  unfold out4_7
  rw [View.canon_unit_zero hz]
  simp only [View.ld_unit_zero (S := S2000x64) hz, View.ld_unit_zero (S := S2000x1) hz, View.ld_unit_zero (S := S1x128) hz,
    View.ld_unit_zero (S := S1x64) hz, View.ld_unit_zero (S := S1x1) hz]
  rw [blk1_eq V c t mean e1, blk2_eq V c t invstd e2, blk4_eq V c t lnw e4, blk5_eq V c t lnb e5, blk6_eq V c t a e6]
  funext j
  obtain ⟨p, q, rfl⟩ : ∃ (p : Fin 2000) (q : Fin 64), j = ix2 p q := ⟨j 0, j 1, eq_ix2 j⟩
  have ht : t.val < 25 := lt_of_lt_of_eq t.isLt N_4
  have hp : p.val < 2000 := p.isLt
  have hr : 2000 * t.val + p.val < 50000 := by omega
  rw [View.read_apply, emb7_apply t p q ⟨2000 * t.val + p.val, hr⟩ rfl]
  show k4_pay1 (F := Ideal) (iblk4 V c 0 t) (iblk4 V c 3 t) mean invstd lnw lnb a (ix2 p q)
    = lnApplyK bI (un2 hpre) (unRow mean) (unRow invstd) (unRow lnw) (unRow lnb) (a (ix2 (0 : Fin 1) (0 : Fin 1)))
        ⟨2000 * t.val + p.val, hr⟩ q
  refine (pay_apply (iblk4 V c 0 t) (iblk4 V c 3 t) mean invstd lnw lnb a (bI ⟨2000 * t.val + p.val, hr⟩) p q ?_).trans ?_
  · rw [blk3_apply V c t bcol e3 p ⟨2000 * t.val + p.val, hr⟩ rfl]
    exact hb _
  · rw [blk0_apply V c t hpre e0 p q ⟨2000 * t.val + p.val, hr⟩ rfl]
    rfl

/-- An index of the output array is in point `t`'s tile iff each coordinate is in the tile's range on its axis. -/
theorem mem_blk7 (t : Fin cfg4.N) (i : S50000x64.Idx) :
    i ∈ ((cfg4.win 7).blk t).view.set ↔ ∀ a : Fin 2, win4_7.index t a * S2000x64.size a ≤ (i a).val
      ∧ (i a).val < win4_7.index t a * S2000x64.size a + S2000x64.size a := by
  show i ∈ ((View.whole main_v87).slice (win4_7.rect t)).set ↔ _
  rw [View.set_slice_whole, Rect.mem_set_unit]
  exact Iff.rfl

/-- The 25 tiles cover the output array: row `r` lies in tile `r / 2000`. -/
theorem cover7 (i : S50000x64.Idx) :
    ∃ t : Fin cfg4.N, (cfg4.win 7).flush t = true ∧ i ∈ ((cfg4.win 7).blk t).view.set := by
  have hi0 : (i 0).val < 50000 := (i 0).isLt
  have hi1 : (i 1).val < 64 := (i 1).isLt
  have hN : grid4.N = 25 := N_4
  have hlt : (i 0).val / 2000 < grid4.N := by omega
  obtain ⟨-, -, -, -, -, -, -, -, -, -, -, -, -, -, e0, e1⟩ := idx_facts ⟨(i 0).val / 2000, hlt⟩
  refine ⟨⟨(i 0).val / 2000, hlt⟩, flush4_7 _, ?_⟩
  rw [mem_blk7]
  intro a
  match a with
  | ⟨0, _⟩ =>
    show win4_7.index ⟨(i 0).val / 2000, hlt⟩ (0 : Fin 2) * 2000 ≤ (i 0).val
      ∧ (i 0).val < win4_7.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win4_7.index ⟨(i 0).val / 2000, hlt⟩ (1 : Fin 2) * 64 ≤ (i 1).val
      ∧ (i 1).val < win4_7.index ⟨(i 0).val / 2000, hlt⟩ (1 : Fin 2) * 64 + 64
    rw [e1]
    omega

/-- Region 4: the output array after the region is the normalisation of `hpre` from the per-graph means and
    reciprocal deviations, for graph numbers `bI` read off the batch column. -/
theorem value (c : Dev nD) (bI : Fin 50000 → Fin 128) (hpre : Vec Ideal S50000x64 .f32) (mean invstd : Vec Ideal S1x128 .f32)
    (bcol : Vec Ideal S50000x1 .i32) (lnw lnb : Vec Ideal S1x64 .f32) (a : Vec Ideal S1x1 .f32)
    (e0 : V c (Pipeline.arrRef spec4 0) = hpre) (e1 : V c (Pipeline.arrRef spec4 1) = mean)
    (e2 : V c (Pipeline.arrRef spec4 2) = invstd) (e3 : V c (Pipeline.arrRef spec4 3) = bcol)
    (e4 : V c (Pipeline.arrRef spec4 4) = lnw) (e5 : V c (Pipeline.arrRef spec4 5) = lnb)
    (e6 : V c (Pipeline.arrRef spec4 6) = a)
    (hb : ∀ r : Fin 50000, bcol (ix2 r (0 : Fin 1)) = BitVec.ofNat 32 (bI r).val) :
    (dat4 (F := Ideal) V c).arrAt 7 cfg4.N
      = mk2 (lnApplyK bI (un2 hpre) (unRow mean) (unRow invstd) (unRow lnw) (unRow lnb) (a (ix2 (0 : Fin 1) (0 : Fin 1)))) := by
  exact (dat4 (F := Ideal) V c).arrAt_eq_of_cover 7 _
    (fun t _ => flushed_eq V c bI hpre mean invstd bcol lnw lnb a e0 e1 e2 e3 e4 e5 e6 hb t) cover7

end Cert.Gnn.RegionLn4

end
-- ==== Proof.KChain2.lean ====
/-
  The second stretch of the kernel program's run: the second layer's host stretches and kernels and the second skip
  kernel, from a boundary that holds the first layer's output `h1` and the second layer's input `in2`.
-/
import proofs.«430900_j38714835206722_1_alg».proof.Proof.KChainDefs
import proofs.«430900_j38714835206722_1_alg».proof.Proof.RegionSage3
import proofs.«430900_j38714835206722_1_alg».proof.Proof.RegionLn4
import proofs.«430900_j38714835206722_1_alg».proof.Proof.RegionSkip
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.Gnn.KChain

open Idealize.ShloMosaic Idealize.ShloMosaic.TcCoe Idealize.ShloMosaic.ValueIdx Idealize.ShloMosaic.Pipeline
open Cert.KernelIdeal Cert.KernelIdeal.Gen Cert.Gnn

variable (m : (ℓ : Loc nD τ sig) → Buf (Elt Ideal) ℓ) (ρ : Dev nD → PrngReg) (c : Dev nD)

/-! ## What the two host stretches write, and what they leave -/

/-- The buffers the host stretch before the second layer's statistics kernel writes. -/
abbrev hostOps3_W : List (Ref sig .tc) :=
  [main_c_11, main_v56, main_v57, main_c_12, main_v58, main_v59, main_v60, main_v61, main_v62, main_cst_13, main_v63,
    main_v64, main_v65, main_v66, main_v67, main_v68, main_v69]

theorem hostOps3_writes : (hostOps3 : List (HloOp τ sig (Elt Ideal))).Forall fun op =>
    op.writes ⊆ (hostOps3_W.map (Proc.devRef (τ := τ) .tc)).toFinset := by
  simp only [hostOps3, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- The buffers the host stretch after the second layer's statistics kernel writes. -/
abbrev hostOps4_W : List (Ref sig .tc) :=
  [main_v71, main_v72, main_v73, main_v74, main_v75, main_v76, main_v77, main_v78, main_cst_14, main_v79, main_v80,
    main_v81, main_v82, main_v83, main_v84, main_v85, main_v86]

theorem hostOps4_writes : (hostOps4 : List (HloOp τ sig (Elt Ideal))).Forall fun op =>
    op.writes ⊆ (hostOps4_W.map (Proc.devRef (τ := τ) .tc)).toFinset := by
  simp only [hostOps4, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- A buffer the first host stretch does not write holds after it what it held before. -/
theorem W6_of (r : Ref sig .tc) (h : r ∉ hostOps3_W) :
    W6 (F := Ideal) m ρ c (Proc.devRef .tc r) = W5 (F := Ideal) m ρ c (Proc.devRef .tc r) :=
  StableHlo.after_of_writes_sub hostOps3 _ hostOps3_writes h

/-- A buffer the second host stretch does not write holds after it what it held before. -/
theorem W8_of (r : Ref sig .tc) (h : r ∉ hostOps4_W) :
    W8 (F := Ideal) m ρ c (Proc.devRef .tc r) = W7 (F := Ideal) m ρ c (Proc.devRef .tc r) :=
  StableHlo.after_of_writes_sub hostOps4 _ hostOps4_writes h

/-! ## What the three kernels leave: an array a kernel only reads, and a buffer it does not touch -/

/-- The statistics kernel only reads its first six arrays. -/
theorem W7_in0 : W7 (F := Ideal) m ρ c (Proc.devRef .tc main_v68) = W6 (F := Ideal) m ρ c (Proc.devRef .tc main_v68) :=
  (W7_arr m ρ c 0).trans (((dat3 (V6 m ρ) c).arrAt_in 0 rfl _).trans (A_eq3 (V6 m ρ) c 0))
theorem W7_in1 : W7 (F := Ideal) m ρ c (Proc.devRef .tc main_v55) = W6 (F := Ideal) m ρ c (Proc.devRef .tc main_v55) :=
  (W7_arr m ρ c 1).trans (((dat3 (V6 m ρ) c).arrAt_in 1 rfl _).trans (A_eq3 (V6 m ρ) c 1))
theorem W7_in2 : W7 (F := Ideal) m ρ c (Proc.devRef .tc main_arg4) = W6 (F := Ideal) m ρ c (Proc.devRef .tc main_arg4) :=
  (W7_arr m ρ c 2).trans (((dat3 (V6 m ρ) c).arrAt_in 2 rfl _).trans (A_eq3 (V6 m ρ) c 2))
theorem W7_in3 : W7 (F := Ideal) m ρ c (Proc.devRef .tc main_v69) = W6 (F := Ideal) m ρ c (Proc.devRef .tc main_v69) :=
  (W7_arr m ρ c 3).trans (((dat3 (V6 m ρ) c).arrAt_in 3 rfl _).trans (A_eq3 (V6 m ρ) c 3))
theorem W7_in4 : W7 (F := Ideal) m ρ c (Proc.devRef .tc main_arg6) = W6 (F := Ideal) m ρ c (Proc.devRef .tc main_arg6) :=
  (W7_arr m ρ c 4).trans (((dat3 (V6 m ρ) c).arrAt_in 4 rfl _).trans (A_eq3 (V6 m ρ) c 4))
theorem W7_in5 : W7 (F := Ideal) m ρ c (Proc.devRef .tc main_v4) = W6 (F := Ideal) m ρ c (Proc.devRef .tc main_v4) :=
  (W7_arr m ρ c 5).trans (((dat3 (V6 m ρ) c).arrAt_in 5 rfl _).trans (A_eq3 (V6 m ρ) c 5))

/-- The normalising kernel only reads the batch column. -/
theorem W9_in3 : W9 (F := Ideal) m ρ c (Proc.devRef .tc main_v4) = W8 (F := Ideal) m ρ c (Proc.devRef .tc main_v4) :=
  (W9_arr m ρ c 3).trans (((dat4 (V8 m ρ) c).arrAt_in 3 rfl _).trans (A_eq4 (V8 m ρ) c 3))

/-- The second skip kernel only reads its first four arrays. -/
theorem W10_in0 : W10 (F := Ideal) m ρ c (Proc.devRef .tc main_v54) = W9 (F := Ideal) m ρ c (Proc.devRef .tc main_v54) :=
  (W10_arr m ρ c 0).trans (((dat5 (V9 m ρ) c).arrAt_in 0 rfl _).trans (A_eq5 (V9 m ρ) c 0))
theorem W10_in2 : W10 (F := Ideal) m ρ c (Proc.devRef .tc main_arg0) = W9 (F := Ideal) m ρ c (Proc.devRef .tc main_arg0) :=
  (W10_arr m ρ c 2).trans (((dat5 (V9 m ρ) c).arrAt_in 2 rfl _).trans (A_eq5 (V9 m ρ) c 2))
theorem W10_in3 : W10 (F := Ideal) m ρ c (Proc.devRef .tc main_arg11) = W9 (F := Ideal) m ρ c (Proc.devRef .tc main_arg11) :=
  (W10_arr m ρ c 3).trans (((dat5 (V9 m ρ) c).arrAt_in 3 rfl _).trans (A_eq5 (V9 m ρ) c 3))

/-! ## The shared buffers and the arguments across each boundary of the stretch -/

theorem argRefs_not_hostOps3_W : ∀ b ∈ argRefs, b ∉ hostOps3_W := by decide
theorem argRefs_not_hostOps4_W : ∀ b ∈ argRefs, b ∉ hostOps4_W := by decide

/-- The statistics kernel writes no argument. -/
theorem W7_arg (b : Ref sig .tc) (hb : b ∈ argRefs) :
    W7 (F := Ideal) m ρ c (Proc.devRef .tc b) = W6 (F := Ideal) m ρ c (Proc.devRef .tc b) := by
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl
  all_goals first
    | exact W7_of_ne m ρ c _ (by decide)
    | exact W7_in2 m ρ c
    | exact W7_in4 m ρ c

/-- The normalising kernel writes no argument. -/
theorem W9_arg (b : Ref sig .tc) (hb : b ∈ argRefs) :
    W9 (F := Ideal) m ρ c (Proc.devRef .tc b) = W8 (F := Ideal) m ρ c (Proc.devRef .tc b) := by
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl
  all_goals exact W9_of_ne m ρ c _ (by decide)

/-- The second skip kernel writes no argument. -/
theorem W10_arg (b : Ref sig .tc) (hb : b ∈ argRefs) :
    W10 (F := Ideal) m ρ c (Proc.devRef .tc b) = W9 (F := Ideal) m ρ c (Proc.devRef .tc b) := by
  simp only [argRefs, List.mem_cons, List.not_mem_nil, or_false] at hb
  rcases hb with rfl | rfl | rfl | rfl | rfl | rfl | rfl | rfl | rfl | rfl | rfl | rfl | rfl | rfl | rfl | rfl | rfl | rfl | rfl | rfl | rfl | rfl | rfl
  all_goals first
    | exact W10_of_ne m ρ c _ (by decide)
    | exact W10_in2 m ρ c
    | exact W10_in3 m ρ c

theorem live6 (hL : Live m c (W5 (F := Ideal) m ρ c)) : Live m c (W6 (F := Ideal) m ρ c) where
  v1 := (W6_of m ρ c main_v1 (by decide)).trans hL.v1
  v3 := (W6_of m ρ c main_v3 (by decide)).trans hL.v3
  v4 := (W6_of m ρ c main_v4 (by decide)).trans hL.v4
  v12 := (W6_of m ρ c main_v12 (by decide)).trans hL.v12
  v22 := (W6_of m ρ c main_v22 (by decide)).trans hL.v22
  arg := fun b hb => (W6_of m ρ c b (argRefs_not_hostOps3_W b hb)).trans (hL.arg b hb)

theorem live7 (hL : Live m c (W6 (F := Ideal) m ρ c)) : Live m c (W7 (F := Ideal) m ρ c) where
  v1 := (W7_of_ne m ρ c main_v1 (by decide)).trans hL.v1
  v3 := (W7_of_ne m ρ c main_v3 (by decide)).trans hL.v3
  v4 := (W7_in5 m ρ c).trans hL.v4
  v12 := (W7_of_ne m ρ c main_v12 (by decide)).trans hL.v12
  v22 := (W7_of_ne m ρ c main_v22 (by decide)).trans hL.v22
  arg := fun b hb => (W7_arg m ρ c b hb).trans (hL.arg b hb)

theorem live8 (hL : Live m c (W7 (F := Ideal) m ρ c)) : Live m c (W8 (F := Ideal) m ρ c) where
  v1 := (W8_of m ρ c main_v1 (by decide)).trans hL.v1
  v3 := (W8_of m ρ c main_v3 (by decide)).trans hL.v3
  v4 := (W8_of m ρ c main_v4 (by decide)).trans hL.v4
  v12 := (W8_of m ρ c main_v12 (by decide)).trans hL.v12
  v22 := (W8_of m ρ c main_v22 (by decide)).trans hL.v22
  arg := fun b hb => (W8_of m ρ c b (argRefs_not_hostOps4_W b hb)).trans (hL.arg b hb)

theorem live9 (hL : Live m c (W8 (F := Ideal) m ρ c)) : Live m c (W9 (F := Ideal) m ρ c) where
  v1 := (W9_of_ne m ρ c main_v1 (by decide)).trans hL.v1
  v3 := (W9_of_ne m ρ c main_v3 (by decide)).trans hL.v3
  v4 := (W9_in3 m ρ c).trans hL.v4
  v12 := (W9_of_ne m ρ c main_v12 (by decide)).trans hL.v12
  v22 := (W9_of_ne m ρ c main_v22 (by decide)).trans hL.v22
  arg := fun b hb => (W9_arg m ρ c b hb).trans (hL.arg b hb)

theorem live10 (hL : Live m c (W9 (F := Ideal) m ρ c)) : Live m c (W10 (F := Ideal) m ρ c) where
  v1 := (W10_of_ne m ρ c main_v1 (by decide)).trans hL.v1
  v3 := (W10_of_ne m ρ c main_v3 (by decide)).trans hL.v3
  v4 := (W10_of_ne m ρ c main_v4 (by decide)).trans hL.v4
  v12 := (W10_of_ne m ρ c main_v12 (by decide)).trans hL.v12
  v22 := (W10_of_ne m ρ c main_v22 (by decide)).trans hL.v22
  arg := fun b hb => (W10_arg m ρ c b hb).trans (hL.arg b hb)

/-- A per-node vector spread over the 64 channels, read at a node and a channel. -/
theorem bcast_node_apply (v : FVec Ideal S50000 .f32) (r : Fin 50000) (k : Fin 64) :
    broadcastInDim S50000x64 ![0, 1] Facts₀.bcast_S50000x1_S50000x64_0_1
      (broadcastInDim S50000x1 ![0] Facts₀.bcast_S50000_S50000x1_0 v) (ix2 r k) = v (ix1 r) := by
  rw [broadcastInDim_apply _ _ _ (ix2 r k) (ix2 r (0 : Fin 1)) (by intro a; fin_cases a <;> rfl),
    broadcastInDim_apply _ _ _ (ix2 r (0 : Fin 1)) (ix1 r) (by intro a; fin_cases a <;> rfl)]

/-- The reciprocal clamped degree of a node, as the first host stretch of the run leaves it. -/
theorem recip_deg_apply (ei : IVec S2x800000 32) (r : Fin 50000) :
    Host.divf (broadcastInDim S50000 ![] Facts₀.bcast_S_S50000 (constant (F := Ideal) S_ .f32 0x3F800000#32)) (degArr ei) (ix1 r)
      = Ideal.div oneC (degmF ei r) := by
  rw [hostDivf_apply]; exact congrArg₂ Ideal.div rfl rfl

/-- The reciprocal entry count of a graph, as the first host stretch of the run leaves it. -/
theorem recip_norm_apply (bt : IVec S50000 32) (g : Fin 128) :
    Host.divf (broadcastInDim S128 ![] Facts₀.bcast_S_S128 (constant (F := Ideal) S_ .f32 0x3F800000#32)) (normArr bt) (ix1 g)
      = Ideal.div oneC (normF bt g) := by
  rw [hostDivf_apply]; exact congrArg₂ Ideal.div rfl rfl

/-! ## The host stretch before the second layer's statistics kernel -/

/-- The neighbour sum of the second layer's input times the reciprocal clamped degrees, as the stretch leaves it. -/
theorem W6_v68 (in2 : Mat 50000 64) (hL : Live m c (W5 (F := Ideal) m ρ c))
    (h55 : (W5 (F := Ideal) m ρ c (Proc.devRef .tc main_v55) : FVec Ideal S50000x64 .f32) = mk2 in2) :
    (W6 (F := Ideal) m ρ c (Proc.devRef .tc main_v68) : FVec Ideal S50000x64 .f32)
      = mk2 (aggK oneC (AggF (eiOf m c) in2) (degmF (eiOf m c))) := by
  have e : (W6 (F := Ideal) m ρ c (Proc.devRef .tc main_v68) : FVec Ideal S50000x64 .f32)
      = mulf (aggArr (eiOf m c) (mk2 in2))
          (broadcastInDim S50000x64 ![0, 1] Facts₀.bcast_S50000x1_S50000x64_0_1
            (broadcastInDim S50000x1 ![0] Facts₀.bcast_S50000_S50000x1_0
              (Host.divf (broadcastInDim S50000 ![] Facts₀.bcast_S_S50000 (constant S_ .f32 0x3F800000#32)) (degArr (eiOf m c))))) := by
    show StableHlo.after hostOps3 (W5 (F := Ideal) m ρ c) (Proc.devRef .tc main_v68) = _
    after_results_simp
    rw [hL.v1, hL.v3, hL.v12, h55]
    rfl
  rw [e]
  apply ext2; intro r k
  rw [mulf_apply, mk2_apply, bcast_node_apply, recip_deg_apply]
  rfl

/-- The second layer's bias as a one-row array, as the stretch leaves it. -/
theorem W6_v69 (hL : Live m c (W5 (F := Ideal) m ρ c)) :
    unRow (W6 (F := Ideal) m ρ c (Proc.devRef .tc main_v69) : FVec Ideal S1x64 .f32) = (PK m c).bl1 := by
  have e : (W6 (F := Ideal) m ρ c (Proc.devRef .tc main_v69) : FVec Ideal S1x64 .f32)
      = shapeCast S1x64 (m ((c.tc : Thread nD τ).loc main_arg5) : FVec Ideal S64 .f32) Facts₀.shapeCasts_S64_S1x64 := by
    show StableHlo.after hostOps3 (W5 (F := Ideal) m ρ c) (Proc.devRef .tc main_v69) = _
    after_results_simp
    rw [hL.arg main_arg5 (by decide)]
    rfl
  funext j
  unfold unRow
  rw [e, shapeCast_a_1a_apply]
  rfl

/-! ## The second layer's statistics kernel -/

/-- The linear part of a layer over the launched integer arguments: the scaled neighbour average, the input and
    the layer's weights. -/
abbrev linOf (xin : Mat 50000 64) (Wl : Mat 64 64) (bl : Fin 64 → EReal) (Wr : Mat 64 64) : Mat 50000 64 :=
  sageLin (aggK oneC (AggF (eiOf m c) xin) (degmF (eiOf m c))) xin Wl Wr bl

/-- The batch column read at a node is the node's graph number. -/
theorem bcol_apply (bI : Fin 50000 → Fin 128) (hb : ∀ r : Fin 50000, btOf m c (ix1 r) = BitVec.ofNat 32 (bI r).val)
    (bcol : IVec S50000x1 32) (hv : bcol = shapeCast _ (btOf m c) Facts₀.shapeCasts_S50000_S50000x1) (r : Fin 50000) :
    bcol (ix2 r (0 : Fin 1)) = BitVec.ofNat 32 (bI r).val := by
  rw [hv, shapeCast_apply (btOf m c) Facts₀.shapeCasts_S50000_S50000x1 (ix2 r (0 : Fin 1)) (ix1 r) (by
    rw [Shape.rowMajor_val_two, Shape.rowMajor_val_one]
    show r.val = r.val * 1 + 0
    omega)]
  exact hb r

/-- The batch column is still the launched batch array when the statistics kernel starts. -/
theorem W6_v4 (hL : Live m c (W5 (F := Ideal) m ρ c)) :
    (W6 (F := Ideal) m ρ c (Proc.devRef .tc main_v4) : IVec S50000x1 32)
      = shapeCast _ (btOf m c) Facts₀.shapeCasts_S50000_S50000x1 :=
  (W6_of m ρ c main_v4 (by decide)).trans hL.v4

section Region3
variable (in2 : Mat 50000 64) (hL : Live m c (W5 (F := Ideal) m ρ c))
  (h55 : (W5 (F := Ideal) m ρ c (Proc.devRef .tc main_v55) : FVec Ideal S50000x64 .f32) = mk2 in2)
include hL h55

/-- After the statistics kernel its first output is the second layer's linear part. -/
theorem W7_v70_0 :
    (W7 (F := Ideal) m ρ c (Proc.devRef .tc main_v70_0) : FVec Ideal S50000x64 .f32)
      = mk2 (linOf m c in2 (PK m c).Wl1 (PK m c).bl1 (PK m c).Wr1) := by
  refine (W7_arr m ρ c 6).trans ?_
  rw [RegionSage3.value_lin (V6 m ρ) c _ _ _ _ _ (W6_v68 m ρ c in2 hL h55)
    ((W6_of m ρ c main_v55 (by decide)).trans h55)
    ((W6_of m ρ c main_arg4 (by decide)).trans (hL.arg main_arg4 (by decide))) rfl
    ((W6_of m ρ c main_arg6 (by decide)).trans (hL.arg main_arg6 (by decide))), W6_v69 m ρ c hL]
  rfl

/-- After the statistics kernel its second output holds the per-graph sums of the linear part's row sums and row
    sums of squares. -/
theorem W7_v70_1 (bI : Fin 50000 → Fin 128) (hb : ∀ r : Fin 50000, btOf m c (ix1 r) = BitVec.ofNat 32 (bI r).val) (g : Fin 128) :
    (W7 (F := Ideal) m ρ c (Proc.devRef .tc main_v70_1) : FVec Ideal S2x128 .f32) (ix2 (0 : Fin 2) g)
        = statSum bI (rowSum (linOf m c in2 (PK m c).Wl1 (PK m c).bl1 (PK m c).Wr1)) g
      ∧ (W7 (F := Ideal) m ρ c (Proc.devRef .tc main_v70_1) : FVec Ideal S2x128 .f32) (ix2 (1 : Fin 2) g)
        = statSum bI (rowSq (linOf m c in2 (PK m c).Wl1 (PK m c).bl1 (PK m c).Wr1)) g := by
  have h := RegionSage3.value_stats (V6 m ρ) c bI _ _ _ _ _ _ (W6_v68 m ρ c in2 hL h55)
    ((W6_of m ρ c main_v55 (by decide)).trans h55)
    ((W6_of m ρ c main_arg4 (by decide)).trans (hL.arg main_arg4 (by decide))) rfl
    ((W6_of m ρ c main_arg6 (by decide)).trans (hL.arg main_arg6 (by decide))) rfl
    (bcol_apply m c bI hb _ (W6_v4 m ρ c hL)) g
  rw [W6_v69 m ρ c hL] at h
  rw [W7_arr m ρ c 7]
  exact h

end Region3

/-! ## The host stretch after the second layer's statistics kernel -/

/-- Row 0 of the 2 × 128 statistics block, sliced off and flattened, read at a graph. -/
theorem stat_row0_apply (x : FVec Ideal S2x128 .f32) (g : Fin 128) :
    shapeCast S128 (extractStridedSlice S1x128 ![0, 0] x Facts₀.slices_S2x128_S1x128_0_0) Facts₀.shapeCasts_S1x128_S128 (ix1 g)
      = x (ix2 (0 : Fin 2) g) := by
  rw [shapeCast_1a_a_apply, extractStridedSlice_apply _ x _ (ix2 (0 : Fin 1) g) (ix2 (0 : Fin 2) g) (by
    intro a; fin_cases a
    · rfl
    · show g.val = 0 + g.val
      omega)]

/-- Row 1 of the 2 × 128 statistics block, sliced off and flattened, read at a graph. -/
theorem stat_row1_apply (x : FVec Ideal S2x128 .f32) (g : Fin 128) :
    shapeCast S128 (extractStridedSlice S1x128 ![1, 0] x Facts₀.slices_S2x128_S1x128_1_0) Facts₀.shapeCasts_S1x128_S128 (ix1 g)
      = x (ix2 (1 : Fin 2) g) := by
  rw [shapeCast_1a_a_apply, extractStridedSlice_apply _ x _ (ix2 (0 : Fin 1) g) (ix2 (1 : Fin 2) g) (by
    intro a; fin_cases a
    · rfl
    · show g.val = 0 + g.val
      omega)]

/-- The host's reciprocal root at an index. -/
theorem hostRsqrt_apply {s : Shape} (x : FVec Ideal s .f32) (i : s.Idx) : Host.rsqrt x i = Ideal.rsqrt (x i) := rfl

/-- The small constant spread over the 128 graphs, read at a graph. -/
theorem eps_apply (g : Fin 128) :
    broadcastInDim S128 ![] Facts₀.bcast_S_S128 (constant (F := Ideal) S_ .f32 0x3727C5AC#32) (ix1 g) = epsC := rfl

section Host4
variable (in2 : Mat 50000 64) (hL : Live m c (W5 (F := Ideal) m ρ c))
  (h55 : (W5 (F := Ideal) m ρ c (Proc.devRef .tc main_v55) : FVec Ideal S50000x64 .f32) = mk2 in2)
  (bI : Fin 50000 → Fin 128) (hb : ∀ r : Fin 50000, btOf m c (ix1 r) = BitVec.ofNat 32 (bI r).val)
include hL h55 hb

/-- The per-graph means as the stretch leaves them, as a one-row array. -/
theorem W8_v82 :
    unRow (W8 (F := Ideal) m ρ c (Proc.devRef .tc main_v82) : FVec Ideal S1x128 .f32)
      = meanK oneC (normF (btOf m c)) bI (linOf m c in2 (PK m c).Wl1 (PK m c).bl1 (PK m c).Wr1) := by
  have e : (W8 (F := Ideal) m ρ c (Proc.devRef .tc main_v82) : FVec Ideal S1x128 .f32)
      = shapeCast S1x128
          (mulf (F := Ideal) (φ := .f32)
            (shapeCast S128 (extractStridedSlice S1x128 ![0, 0]
              (W7 (F := Ideal) m ρ c (Proc.devRef .tc main_v70_1) : FVec Ideal S2x128 .f32) Facts₀.slices_S2x128_S1x128_0_0)
              Facts₀.shapeCasts_S1x128_S128)
            (W7 (F := Ideal) m ρ c (Proc.devRef .tc main_v22) : FVec Ideal S128 .f32))
          Facts₀.shapeCasts_S128_S1x128 := by
    show StableHlo.after hostOps4 (W7 (F := Ideal) m ρ c) (Proc.devRef .tc main_v82) = _
    after_results_simp
    rfl
  funext g
  unfold unRow
  rw [e, shapeCast_a_1a_apply, mulf_apply, stat_row0_apply, (W7_v70_1 m ρ c in2 hL h55 bI hb g).1,
    (live7 m ρ c (live6 m ρ c hL)).v22, recip_norm_apply]
  rfl

/-- The per-graph reciprocal deviations as the stretch leaves them, as a one-row array. -/
theorem W8_v83 :
    unRow (W8 (F := Ideal) m ρ c (Proc.devRef .tc main_v83) : FVec Ideal S1x128 .f32)
      = invstdK oneC epsC (normF (btOf m c)) bI (linOf m c in2 (PK m c).Wl1 (PK m c).bl1 (PK m c).Wr1) := by
  have e : (W8 (F := Ideal) m ρ c (Proc.devRef .tc main_v83) : FVec Ideal S1x128 .f32)
      = shapeCast S1x128
          (Host.rsqrt (F := Ideal) (φ := .f32) (addf
            (subf
              (mulf
                (shapeCast S128 (extractStridedSlice S1x128 ![1, 0]
                  (W7 (F := Ideal) m ρ c (Proc.devRef .tc main_v70_1) : FVec Ideal S2x128 .f32) Facts₀.slices_S2x128_S1x128_1_0)
                  Facts₀.shapeCasts_S1x128_S128)
                (W7 (F := Ideal) m ρ c (Proc.devRef .tc main_v22) : FVec Ideal S128 .f32))
              (mulf
                (mulf
                  (shapeCast S128 (extractStridedSlice S1x128 ![0, 0]
                    (W7 (F := Ideal) m ρ c (Proc.devRef .tc main_v70_1) : FVec Ideal S2x128 .f32) Facts₀.slices_S2x128_S1x128_0_0)
                    Facts₀.shapeCasts_S1x128_S128)
                  (W7 (F := Ideal) m ρ c (Proc.devRef .tc main_v22) : FVec Ideal S128 .f32))
                (mulf
                  (shapeCast S128 (extractStridedSlice S1x128 ![0, 0]
                    (W7 (F := Ideal) m ρ c (Proc.devRef .tc main_v70_1) : FVec Ideal S2x128 .f32) Facts₀.slices_S2x128_S1x128_0_0)
                    Facts₀.shapeCasts_S1x128_S128)
                  (W7 (F := Ideal) m ρ c (Proc.devRef .tc main_v22) : FVec Ideal S128 .f32))))
            (broadcastInDim S128 ![] Facts₀.bcast_S_S128 (constant S_ .f32 0x3727C5AC#32))))
          Facts₀.shapeCasts_S128_S1x128 := by
    show StableHlo.after hostOps4 (W7 (F := Ideal) m ρ c) (Proc.devRef .tc main_v83) = _
    after_results_simp
    rfl
  funext g
  unfold unRow
  rw [e, shapeCast_a_1a_apply, hostRsqrt_apply, addf_apply, subf_apply, mulf_apply, mulf_apply, mulf_apply,
    stat_row0_apply, stat_row1_apply, (W7_v70_1 m ρ c in2 hL h55 bI hb g).1, (W7_v70_1 m ρ c in2 hL h55 bI hb g).2,
    (live7 m ρ c (live6 m ρ c hL)).v22, recip_norm_apply, eps_apply]
  rfl

omit h55 hb in
/-- The second layer's normalisation scale as a one-row array. -/
theorem W8_v84 :
    unRow (W8 (F := Ideal) m ρ c (Proc.devRef .tc main_v84) : FVec Ideal S1x64 .f32) = (PK m c).lnw1 := by
  have e : (W8 (F := Ideal) m ρ c (Proc.devRef .tc main_v84) : FVec Ideal S1x64 .f32)
      = shapeCast S1x64 (m ((c.tc : Thread nD τ).loc main_arg14) : FVec Ideal S64 .f32) Facts₀.shapeCasts_S64_S1x64 := by
    show StableHlo.after hostOps4 (W7 (F := Ideal) m ρ c) (Proc.devRef .tc main_v84) = _
    after_results_simp
    rw [(live7 m ρ c (live6 m ρ c hL)).arg main_arg14 (by decide)]
    rfl
  funext j
  unfold unRow
  rw [e, shapeCast_a_1a_apply]
  rfl

omit h55 hb in
/-- The second layer's normalisation shift as a one-row array. -/
theorem W8_v85 :
    unRow (W8 (F := Ideal) m ρ c (Proc.devRef .tc main_v85) : FVec Ideal S1x64 .f32) = (PK m c).lnb1 := by
  have e : (W8 (F := Ideal) m ρ c (Proc.devRef .tc main_v85) : FVec Ideal S1x64 .f32)
      = shapeCast S1x64 (m ((c.tc : Thread nD τ).loc main_arg15) : FVec Ideal S64 .f32) Facts₀.shapeCasts_S64_S1x64 := by
    show StableHlo.after hostOps4 (W7 (F := Ideal) m ρ c) (Proc.devRef .tc main_v85) = _
    after_results_simp
    rw [(live7 m ρ c (live6 m ρ c hL)).arg main_arg15 (by decide)]
    rfl
  funext j
  unfold unRow
  rw [e, shapeCast_a_1a_apply]
  rfl

omit h55 hb in
/-- The second layer's rectifier slope as a one-entry array. -/
theorem W8_v86 :
    (W8 (F := Ideal) m ρ c (Proc.devRef .tc main_v86) : FVec Ideal S1x1 .f32) (ix2 (0 : Fin 1) (0 : Fin 1)) = (PK m c).a1 := by
  have e : (W8 (F := Ideal) m ρ c (Proc.devRef .tc main_v86) : FVec Ideal S1x1 .f32)
      = shapeCast S1x1 (m ((c.tc : Thread nD τ).loc main_arg19) : FVec Ideal S1 .f32) Facts₀.shapeCasts_S1_S1x1 := by
    show StableHlo.after hostOps4 (W7 (F := Ideal) m ρ c) (Proc.devRef .tc main_v86) = _
    after_results_simp
    rw [(live7 m ρ c (live6 m ρ c hL)).arg main_arg19 (by decide)]
    rfl
  rw [e, shapeCast_a_1a_apply]
  rfl

end Host4

/-! ## The normalising kernel and the second skip kernel -/

section Tail
variable (h1 in2 : Mat 50000 64) (hL : Live m c (W5 (F := Ideal) m ρ c))
  (h54 : (W5 (F := Ideal) m ρ c (Proc.devRef .tc main_v54) : FVec Ideal S50000x64 .f32) = mk2 h1)
  (h55 : (W5 (F := Ideal) m ρ c (Proc.devRef .tc main_v55) : FVec Ideal S50000x64 .f32) = mk2 in2)
  (bI : Fin 50000 → Fin 128) (hb : ∀ r : Fin 50000, btOf m c (ix1 r) = BitVec.ofNat 32 (bI r).val)
include hL h55 hb

/-- After the normalising kernel its output is the second layer's output. -/
theorem W9_v87 :
    (W9 (F := Ideal) m ρ c (Proc.devRef .tc main_v87) : FVec Ideal S50000x64 .f32)
      = mk2 (layerOf m c bI in2 (PK m c).Wl1 (PK m c).bl1 (PK m c).Wr1 (PK m c).lnw1 (PK m c).lnb1 (PK m c).a1) := by
  refine (W9_arr m ρ c 7).trans ?_
  rw [RegionLn4.value (V8 m ρ) c bI _
    (W8 (F := Ideal) m ρ c (Proc.devRef .tc main_v82)) (W8 (F := Ideal) m ρ c (Proc.devRef .tc main_v83))
    (W8 (F := Ideal) m ρ c (Proc.devRef .tc main_v4)) (W8 (F := Ideal) m ρ c (Proc.devRef .tc main_v84))
    (W8 (F := Ideal) m ρ c (Proc.devRef .tc main_v85)) (W8 (F := Ideal) m ρ c (Proc.devRef .tc main_v86))
    ((W8_of m ρ c main_v70_0 (by decide)).trans (W7_v70_0 m ρ c in2 hL h55)) rfl rfl rfl rfl rfl rfl
    (bcol_apply m c bI hb _ (live8 m ρ c (live7 m ρ c (live6 m ρ c hL))).v4),
    W8_v82 m ρ c in2 hL h55 bI hb, W8_v83 m ρ c in2 hL h55 bI hb, W8_v84 m ρ c hL, W8_v85 m ρ c hL, W8_v86 m ρ c hL]
  rfl

include h54 in
/-- After the second skip kernel its output is the third layer's input. -/
theorem W10_v88 :
    (W10 (F := Ideal) m ρ c (Proc.devRef .tc main_v88) : FVec Ideal S50000x64 .f32)
      = mk2 (skip2 h1 (layerOf m c bI in2 (PK m c).Wl1 (PK m c).bl1 (PK m c).Wr1 (PK m c).lnw1 (PK m c).lnb1 (PK m c).a1)
          (PK m c).x (PK m c).s1) := by
  refine (W10_arr m ρ c 4).trans ?_
  rw [RegionSkip.value5 (V9 m ρ) c _ _ _ _
    ((W9_of_ne m ρ c main_v54 (by decide)).trans ((W8_of m ρ c main_v54 (by decide)).trans
      ((W7_of_ne m ρ c main_v54 (by decide)).trans ((W6_of m ρ c main_v54 (by decide)).trans h54))))
    (W9_v87 m ρ c in2 hL h55 bI hb)
    ((live9 m ρ c (live8 m ρ c (live7 m ρ c (live6 m ρ c hL)))).arg main_arg0 (by decide))
    ((live9 m ρ c (live8 m ρ c (live7 m ρ c (live6 m ρ c hL)))).arg main_arg11 (by decide))]
  rfl

end Tail

/-- After the second skip kernel: the shared buffers and arguments unchanged, and the third layer's input. -/
theorem stage2 (bI : Fin 50000 → Fin 128) (hb : ∀ r : Fin 50000, btOf m c (ix1 r) = BitVec.ofNat 32 (bI r).val)
    (h1 in2 : Mat 50000 64) (hL : Live m c (W5 (F := Ideal) m ρ c))
    (h54 : (W5 (F := Ideal) m ρ c (Proc.devRef .tc main_v54) : FVec Ideal S50000x64 .f32) = mk2 h1)
    (h55 : (W5 (F := Ideal) m ρ c (Proc.devRef .tc main_v55) : FVec Ideal S50000x64 .f32) = mk2 in2) :
    Live m c (W10 (F := Ideal) m ρ c)
    ∧ (W10 (F := Ideal) m ρ c (Proc.devRef .tc main_v88) : FVec Ideal S50000x64 .f32)
        = mk2 (skip2 h1 (layerOf m c bI in2 (PK m c).Wl1 (PK m c).bl1 (PK m c).Wr1 (PK m c).lnw1 (PK m c).lnb1 (PK m c).a1)
            (PK m c).x (PK m c).s1) :=
  ⟨live10 m ρ c (live9 m ρ c (live8 m ρ c (live7 m ρ c (live6 m ρ c hL)))), W10_v88 m ρ c h1 in2 hL h54 h55 bI hb⟩

end Cert.Gnn.KChain

end
-- ==== Proof.RegionSage6.lean ====
/-
  The linear-and-statistics kernel of region 6, as whole arrays.

  It runs over 25 tiles of 2000 rows. A tile's first output block is the tile of `agg · Wl + bl + root · Wr`, the
  products read at an entry as sums over the 64 contracted positions; the tiles cover that array. The second output
  is one 2 × 128 block every point revisits: the first point zeroes it, and every point adds to row 0 (row 1) the
  sum over the tile's rows of the row's sum (sum of squares) weighted by the indicator of the row's graph; so after
  the last point it holds the tile-by-tile weighted sums.
-/
import proofs.«430900_j38714835206722_1_alg».proof.Proof.Gen.KernelIdeal.Frame
import proofs.«430900_j38714835206722_1_alg».proof.Proof.Shapes
import proofs.«430900_j38714835206722_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gnn.RegionSage6

open Idealize.ShloMosaic Idealize.ShloMosaic.TcCoe Idealize.ShloMosaic.ValueIdx Idealize.ShloMosaic.Pipeline
open Cert.KernelIdeal Cert.KernelIdeal.Gen Cert.Gnn

variable (V : (c : Dev nD) → (b : Ref sig .tc) → Buf (Elt Ideal) ((c : Thread nD τ).loc b))

/-! ## The body's arithmetic at an entry -/

/-- The product of a 2000 × 64 block with a 64 × 64 matrix, from the zero accumulator, at an entry. -/
theorem matmul_block_apply (l : FVec Ideal S2000x64 .bf16) (r : FVec Ideal S64x64 .bf16) (p : Fin 2000) (q : Fin 64) :
    matmul dot_S2000x64_S64x64_S2000x64_1_0_0_1_n_n none l r (constant S2000x64 .f32 0x00000000#32) (ix2 p q)
      = ∑ k : Fin 64, l (ix2 p k) * r (ix2 k q) :=
  Cert.Lib.PlainDot.matmul_zero_apply (M := 2000) (K := 64) (N := 64) none l r p q

/-- The bias row broadcast over the block's rows, at an entry. -/
theorem bias_block_apply (b : Vec Ideal S1x64 .f32) (p : Fin 2000) (q : Fin 64) :
    broadcastTo S2000x64 (shapeCast S1x64 b shapeCasts_S1x64_S1x64) broadcasts_S1x64_S2000x64 (ix2 p q) = b (ix2 (0 : Fin 1) q) := by
  rw [shapeCast_self]
  exact broadcastTo_1b_ab_apply b broadcasts_S1x64_S2000x64 p q

/-- The block of the linear part at an entry: the two products, read as sums over the contracted positions, and
    the bias. -/
theorem lin_block_apply (xa xr : Vec Ideal S2000x64 .f32) (wl wr : Vec Ideal S64x64 .f32) (b : Vec Ideal S1x64 .f32)
    (p : Fin 2000) (q : Fin 64) :
    k6_pay3 (F := Ideal) xa xr wl wr b (ix2 p q)
      = ((∑ k : Fin 64, xa (ix2 p k) * wl (ix2 k q)) + b (ix2 (0 : Fin 1) q)) + ∑ k : Fin 64, xr (ix2 p k) * wr (ix2 k q) := by
  unfold k6_pay3
  refine (addf_apply _ _ _).trans ?_
  refine (congrArg₂ (· + ·) ((addf_apply _ _ _).trans (congrArg₂ (· + ·) (matmul_block_apply _ _ p q) (bias_block_apply b p q)))
    (matmul_block_apply _ _ p q)).trans ?_
  simp only [truncf_apply, shapeCast_self]

/-- A row's sum over its 64 entries. -/
theorem rowsum_block_apply (h : FVec Ideal S2000x64 .f32) (p : Fin 2000) :
    multiReduction .add [1] S2000 h 0x00000000#32 reduces_S2000x64_S2000 (.inl rfl) rfl (ix1 p)
      = ∑ j : Fin 64, h (ix2 p j) := by
  refine (Ideal.multiReduction_add_single h 0x00000000#32 reduces_S2000x64_S2000 (.inl rfl) rfl (ix1 p)).trans ?_
  show ∑ j : Fin 64, h (reduces_S2000x64_S2000.lift (ix1 p) j) = _
  refine Finset.sum_congr rfl fun j _ => congrArg h (funext fun a => ?_)
  match a with
  | ⟨0, _⟩ => rfl
  | ⟨1, _⟩ => rfl

/-- A column's sum over the block's 2000 rows. -/
theorem colsum_block_apply (h : FVec Ideal S2000x128 .f32) (g : Fin 128) :
    multiReduction .add [0] S128 h 0x00000000#32 reduces_S2000x128_S128 (.inl rfl) rfl (ix1 g)
      = ∑ r : Fin 2000, h (ix2 r g) := by
  refine (Ideal.multiReduction_add_single h 0x00000000#32 reduces_S2000x128_S128 (.inl rfl) rfl (ix1 g)).trans ?_
  show ∑ r : Fin 2000, h (reduces_S2000x128_S128.lift (ix1 g) r) = _
  refine Finset.sum_congr rfl fun r _ => congrArg h (funext fun a => ?_)
  match a with
  | ⟨0, _⟩ => rfl
  | ⟨1, _⟩ => rfl

/-- A vector of 2000 entries laid out as a column. -/
theorem col_cast_apply {α : Type} (v : S2000.Idx → α) (p : Fin 2000) (u : Fin 1) :
    shapeCast S2000x1 v shapeCasts_S2000_S2000x1 (ix2 p u) = v (ix1 p) :=
  shapeCast_apply v shapeCasts_S2000_S2000x1 _ _ (by
    have hu : u.val = 0 := by omega
    rw [Shape.rowMajor_val_two, Shape.rowMajor_val_one]
    show p.val = p.val * 1 + u.val
    omega)

/-- A column broadcast over 128 lanes. -/
theorem col_bcast_apply {α : Type} (v : S2000x1.Idx → α) (p : Fin 2000) (g : Fin 128) :
    broadcastTo S2000x128 v broadcasts_S2000x1_S2000x128 (ix2 p g) = v (ix2 p (0 : Fin 1)) := by
  refine broadcastTo_apply v broadcasts_S2000x1_S2000x128 (ix2 p g) (ix2 p (0 : Fin 1)) fun ax => ?_
  match ax with
  | ⟨0, _⟩ => rfl
  | ⟨1, _⟩ => rfl

/-- A vector of 128 entries laid out as a row. -/
theorem row_cast_apply {α : Type} (v : S128.Idx → α) (u : Fin 1) (g : Fin 128) :
    shapeCast S1x128 v shapeCasts_S128_S1x128 (ix2 u g) = v (ix1 g) :=
  shapeCast_a_1a_apply v shapeCasts_S128_S1x128 u g

/-- Two graph numbers below 128 have the same 32-bit word only when equal. -/
theorem word_eq_iff (g b : Fin 128) : BitVec.ofNat 32 g.val = BitVec.ofNat 32 b.val ↔ g = b := by
  constructor
  · intro e
    have := congrArg BitVec.toNat e
    simp only [BitVec.toNat_ofNat] at this
    have hg := g.isLt
    have hb := b.isLt
    exact Fin.ext (by omega)
  · rintro rfl; rfl

/-- The indicator block at an entry: 1 where the lane's number is the row's graph number, 0 elsewhere. -/
theorem ind_block_apply (bc : Vec Ideal S2000x1 .i32) (p : Fin 2000) (g b : Fin 128)
    (hb : bc (ix2 p (0 : Fin 1)) = BitVec.ofNat 32 b.val) :
    k6_pay5 (F := Ideal) bc (ix2 p g) = ohv b g := by
  unfold k6_pay5
  show (((IntOp.cmpi .eq (iota .tc S2000x128 32 [1] iota_S2000x128_d1_w32 (ix2 p g))
    (broadcastTo S2000x128 (shapeCast S2000x1 bc shapeCasts_S2000x1_S2000x1) broadcasts_S2000x1_S2000x128 (ix2 p g))).setWidth 32).toInt : ℝ) = ohv b g
  rw [iota_single_apply, shapeCast_self, col_bcast_apply, hb]
  show ((((BitVec.ofBool (BitVec.ofNat 32 g.val == BitVec.ofNat 32 b.val)).setWidth 32).toInt : ℝ) : EReal) = ohv b g
  unfold ohv
  by_cases h : g = b
  · subst h; simp
  · have hne : ¬ BitVec.ofNat 32 g.val = BitVec.ofNat 32 b.val := fun e => h ((word_eq_iff g b).1 e)
    rw [if_neg h, show (BitVec.ofNat 32 g.val == BitVec.ofNat 32 b.val) = false from by simpa using hne]
    simp

/-- The block of the rows' sums of squares, a column, at an entry. -/
theorem rowsq_block_apply (xa xr : Vec Ideal S2000x64 .f32) (wl wr : Vec Ideal S64x64 .f32) (b : Vec Ideal S1x64 .f32)
    (p : Fin 2000) (u : Fin 1) :
    k6_pay4 (F := Ideal) xa xr wl wr b (ix2 p u)
      = ∑ j : Fin 64, k6_pay3 (F := Ideal) xa xr wl wr b (ix2 p j) * k6_pay3 (F := Ideal) xa xr wl wr b (ix2 p j) := by
  unfold k6_pay4
  refine (col_cast_apply _ p u).trans ?_
  exact rowsum_block_apply _ p

/-- The lane sums of the rows' sums weighted by the indicator block, at a lane. -/
theorem wsum_block_apply (xa xr : Vec Ideal S2000x64 .f32) (wl wr : Vec Ideal S64x64 .f32) (b : Vec Ideal S1x64 .f32)
    (bc : Vec Ideal S2000x1 .i32) (g : Fin 128) :
    k6_pay6 (F := Ideal) xa xr wl wr b bc (ix1 g)
      = ∑ r : Fin 2000, k6_pay5 (F := Ideal) bc (ix2 r g) * ∑ j : Fin 64, k6_pay3 (F := Ideal) xa xr wl wr b (ix2 r j) := by
  unfold k6_pay6
  refine (colsum_block_apply _ g).trans ?_
  refine Finset.sum_congr rfl fun r _ => ?_
  refine (mulf_apply _ _ _).trans ?_
  refine congrArg (k6_pay5 (F := Ideal) bc (ix2 r g) * ·) ?_
  refine (col_bcast_apply _ r g).trans ?_
  refine (col_cast_apply _ r 0).trans ?_
  exact rowsum_block_apply _ r

/-- The updated statistics block, row 0: the old entry plus the weighted lane sum handed in. -/
theorem upd_row0_apply (v25 : FVec Ideal S2000x1 .f32) (v32 : FVec Ideal S2000x128 .f32) (v35 : FVec Ideal S128 .f32)
    (v41 : Vec Ideal S2x128 .f32) (g : Fin 128) :
    k6_pay1 (F := Ideal) v25 v32 v35 v41 (ix2 (0 : Fin 2) g) = v41 (ix2 (0 : Fin 2) g) + v35 (ix1 g) := by
  unfold k6_pay1
  refine (addf_apply _ _ _).trans ?_
  refine congrArg₂ (· + ·) (congrFun (shapeCast_self v41 _) _) ?_
  refine (concatenate_pair_apply_left (0 : Fin S2x128.rank) _ _ concatenates_S1x128_S1x128_S2x128_d0
    (ix2 (0 : Fin 2) g) rfl (ix2 (0 : Fin 1) g) (fun b => ?_)).trans ?_
  · match b with
    | ⟨0, _⟩ => rfl
    | ⟨1, _⟩ => rfl
  exact row_cast_apply v35 0 g

/-- The updated statistics block, row 1: the old entry plus the lane sum of the column handed in weighted by the
    indicator block. -/
theorem upd_row1_apply (v25 : FVec Ideal S2000x1 .f32) (v32 : FVec Ideal S2000x128 .f32) (v35 : FVec Ideal S128 .f32)
    (v41 : Vec Ideal S2x128 .f32) (g : Fin 128) :
    k6_pay1 (F := Ideal) v25 v32 v35 v41 (ix2 (1 : Fin 2) g)
      = v41 (ix2 (1 : Fin 2) g) + ∑ r : Fin 2000, v32 (ix2 r g) * v25 (ix2 r (0 : Fin 1)) := by
  unfold k6_pay1
  refine (addf_apply _ _ _).trans ?_
  refine congrArg₂ (· + ·) (congrFun (shapeCast_self v41 _) _) ?_
  refine (concatenate_pair_apply_right (0 : Fin S2x128.rank) _ _ concatenates_S1x128_S1x128_S2x128_d0
    (ix2 (1 : Fin 2) g) rfl rfl (ix2 (0 : Fin 1) g) (fun b hb => ?_) rfl).trans ?_
  · match b with
    | ⟨0, _⟩ => exact absurd rfl hb
    | ⟨1, _⟩ => rfl
  refine (row_cast_apply _ 0 g).trans ?_
  refine (colsum_block_apply _ g).trans ?_
  refine Finset.sum_congr rfl fun r _ => ?_
  exact congrArg (v32 (ix2 r g) * ·) (col_bcast_apply v25 r g)

/-- The block the first point stores first is zero everywhere. -/
theorem zero_block_apply (i : S2x128.Idx) : k6_pay2 (F := Ideal) i = 0 := by
  unfold k6_pay2
  exact Ideal.ofBits_zero_f32

/-! ## What a point's stores leave in the two output blocks -/

section Pieces
variable {F : FTy → Type} [FloatOps F]

/-- The offsets of an access to a whole block are zero on both axes. -/
theorem hz2 : (![0, 0] : Fin 2 → Nat) = fun _ => 0 := funext fun a => by fin_cases a <;> rfl

/-- The first point leaves in the first output's block the linear part of its input blocks. -/
theorem lin_first (c : Dev nD) (i : grid6.Coords) (a1 : Memref sig .tc .vmem S2000x64 .f32) (h1 : a1.IsWhole) (a2 : Memref sig .tc .vmem S2000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S2000x1 .i32) (h6 : a6.IsWhole) (a7 : Memref sig .tc .vmem S2000x64 .f32) (h7 : a7.IsWhole) (a8 : Memref sig .tc .vmem S2x128 .f32) (h8 : a8.IsWhole) (hc : cond6_0 i) (x0 : Vec F S2000x64 .f32) (x1 : Vec F S2000x64 .f32) (x2 : Vec F S64x64 .f32) (x3 : Vec F S1x64 .f32) (x4 : Vec F S64x64 .f32) (x5 : Vec F S2000x1 .i32) :
    out6_A_6 c i a1 h1 a2 h2 a3 h3 a4 h4 a5 h5 a6 h6 a7 h7 a8 h8 hc x0 x1 x2 x3 x4 x5 = k6_pay3 x0 x1 x2 x4 x3 := by
  unfold out6_A_6
  rw [View.read_writes_eq_canon _ _ _ (cover6_A_6 c i a1 h1 a2 h2 a3 h3 a4 h4 a5 h5 a6 h6 a7 h7 a8 h8 hc x0 x1 x2 x3 x4 x5)]
  unfold kernelRun6_A
  dsimp only
  sl_unfold_words
  rw [View.canon_unit_zero hz2]
  simp only [View.readAt_eq_ld, h1.read_unread, h2.read_unread, h3.read_unread, h4.read_unread, h5.read_unread, h6.read_unread,
    View.ld_unit_zero (S := S2000x64) hz2, View.ld_unit_zero (S := S64x64) hz2, View.ld_unit_zero (S := S1x64) hz2,
    View.ld_unit_zero (S := S2000x1) hz2]

/-- So does every later point. -/
theorem lin_later (c : Dev nD) (i : grid6.Coords) (a1 : Memref sig .tc .vmem S2000x64 .f32) (h1 : a1.IsWhole) (a2 : Memref sig .tc .vmem S2000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S2000x1 .i32) (h6 : a6.IsWhole) (a7 : Memref sig .tc .vmem S2000x64 .f32) (h7 : a7.IsWhole) (a8 : Memref sig .tc .vmem S2x128 .f32) (h8 : a8.IsWhole) (hc : ¬cond6_0 i) (x0 : Vec F S2000x64 .f32) (x1 : Vec F S2000x64 .f32) (x2 : Vec F S64x64 .f32) (x3 : Vec F S1x64 .f32) (x4 : Vec F S64x64 .f32) (x5 : Vec F S2000x1 .i32) (xo : Vec F S2x128 .f32) :
    out6_B_6 c i a1 h1 a2 h2 a3 h3 a4 h4 a5 h5 a6 h6 a7 h7 a8 h8 hc x0 x1 x2 x3 x4 x5 xo = k6_pay3 x0 x1 x2 x4 x3 := by
  unfold out6_B_6
  rw [View.read_writes_eq_canon _ _ _ (cover6_B_6 c i a1 h1 a2 h2 a3 h3 a4 h4 a5 h5 a6 h6 a7 h7 a8 h8 hc x0 x1 x2 x3 x4 x5 xo)]
  unfold kernelRun6_B
  dsimp only
  sl_unfold_words
  rw [View.canon_unit_zero hz2]
  simp only [View.readAt_eq_ld, h1.read_unread, h2.read_unread, h3.read_unread, h4.read_unread, h5.read_unread, h6.read_unread,
    View.ld_unit_zero (S := S2000x64) hz2, View.ld_unit_zero (S := S64x64) hz2, View.ld_unit_zero (S := S1x64) hz2,
    View.ld_unit_zero (S := S2000x1) hz2]

/-- The first point zeroes the statistics block, reads the zeros back and leaves the update of the zero block. -/
theorem stats_first (c : Dev nD) (i : grid6.Coords) (a1 : Memref sig .tc .vmem S2000x64 .f32) (h1 : a1.IsWhole) (a2 : Memref sig .tc .vmem S2000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S2000x1 .i32) (h6 : a6.IsWhole) (a7 : Memref sig .tc .vmem S2000x64 .f32) (h7 : a7.IsWhole) (a8 : Memref sig .tc .vmem S2x128 .f32) (h8 : a8.IsWhole) (hc : cond6_0 i) (x0 : Vec F S2000x64 .f32) (x1 : Vec F S2000x64 .f32) (x2 : Vec F S64x64 .f32) (x3 : Vec F S1x64 .f32) (x4 : Vec F S64x64 .f32) (x5 : Vec F S2000x1 .i32) :
    out6_A_7 c i a1 h1 a2 h2 a3 h3 a4 h4 a5 h5 a6 h6 a7 h7 a8 h8 hc x0 x1 x2 x3 x4 x5
      = k6_pay1 (k6_pay4 x0 x1 x2 x4 x3) (k6_pay5 x5) (k6_pay6 x0 x1 x2 x4 x3 x5) k6_pay2 := by
  unfold out6_A_7
  rw [View.read_writes_eq_canon _ _ _ (cover6_A_7 c i a1 h1 a2 h2 a3 h3 a4 h4 a5 h5 a6 h6 a7 h7 a8 h8 hc x0 x1 x2 x3 x4 x5)]
  unfold kernelRun6_A
  dsimp only
  sl_unfold_words
  rw [View.canon_cons_unit_zero (S := S2x128) hz2, View.readCov_unit_zero (S := S2x128) _ hz2]
  simp only [View.readAt_eq_ld, h1.read_unread, h2.read_unread, h3.read_unread, h4.read_unread, h5.read_unread, h6.read_unread,
    View.ld_unit_zero (S := S2000x64) hz2, View.ld_unit_zero (S := S64x64) hz2, View.ld_unit_zero (S := S1x64) hz2,
    View.ld_unit_zero (S := S2000x1) hz2]

/-- A later point leaves the update of the block the point before left. -/
theorem stats_later (c : Dev nD) (i : grid6.Coords) (a1 : Memref sig .tc .vmem S2000x64 .f32) (h1 : a1.IsWhole) (a2 : Memref sig .tc .vmem S2000x64 .f32) (h2 : a2.IsWhole) (a3 : Memref sig .tc .vmem S64x64 .f32) (h3 : a3.IsWhole) (a4 : Memref sig .tc .vmem S1x64 .f32) (h4 : a4.IsWhole) (a5 : Memref sig .tc .vmem S64x64 .f32) (h5 : a5.IsWhole) (a6 : Memref sig .tc .vmem S2000x1 .i32) (h6 : a6.IsWhole) (a7 : Memref sig .tc .vmem S2000x64 .f32) (h7 : a7.IsWhole) (a8 : Memref sig .tc .vmem S2x128 .f32) (h8 : a8.IsWhole) (hc : ¬cond6_0 i) (x0 : Vec F S2000x64 .f32) (x1 : Vec F S2000x64 .f32) (x2 : Vec F S64x64 .f32) (x3 : Vec F S1x64 .f32) (x4 : Vec F S64x64 .f32) (x5 : Vec F S2000x1 .i32) (xo : Vec F S2x128 .f32) :
    out6_B_7 c i a1 h1 a2 h2 a3 h3 a4 h4 a5 h5 a6 h6 a7 h7 a8 h8 hc x0 x1 x2 x3 x4 x5 xo
      = k6_pay1 (k6_pay4 x0 x1 x2 x4 x3) (k6_pay5 x5) (k6_pay6 x0 x1 x2 x4 x3 x5) xo := by
  unfold out6_B_7
  rw [View.read_writes_eq_canon _ _ _ (cover6_B_7 c i a1 h1 a2 h2 a3 h3 a4 h4 a5 h5 a6 h6 a7 h7 a8 h8 hc x0 x1 x2 x3 x4 x5 xo)]
  unfold kernelRun6_B
  dsimp only
  sl_unfold_words
  rw [View.canon_unit_zero hz2]
  simp only [View.readAt_eq_ld, h1.read_unread, h2.read_unread, h3.read_unread, h4.read_unread, h5.read_unread, h6.read_unread,
    View.ld_unit_zero (S := S2000x64) hz2, View.ld_unit_zero (S := S64x64) hz2, View.ld_unit_zero (S := S1x64) hz2,
    View.ld_unit_zero (S := S2000x1) hz2, h8.read_unread, View.ld_unit_zero (S := S2x128) hz2]

end Pieces

/-! ## The windows' blocks as tiles of the arrays -/

section Blocks

/-- A grid point as a tile number. -/
def tile (t : Fin cfg6.N) : Fin 25 := ⟨t.val, lt_of_lt_of_eq t.isLt (show cfg6.N = 25 from N_6)⟩

/-- The windows' block indices, decided over the grid: the row-tiled windows sit at block row `t`, the whole-array
    windows and the statistics block at block (0, 0). -/
theorem idx_facts : ∀ t : Fin cfg6.N,
    win6_0.index t (0 : Fin 2) = t.val ∧ win6_0.index t (1 : Fin 2) = 0
    ∧ win6_1.index t (0 : Fin 2) = t.val ∧ win6_1.index t (1 : Fin 2) = 0
    ∧ win6_2.index t (0 : Fin 2) = 0 ∧ win6_2.index t (1 : Fin 2) = 0
    ∧ win6_3.index t (0 : Fin 2) = 0 ∧ win6_3.index t (1 : Fin 2) = 0
    ∧ win6_4.index t (0 : Fin 2) = 0 ∧ win6_4.index t (1 : Fin 2) = 0
    ∧ win6_5.index t (0 : Fin 2) = t.val ∧ win6_5.index t (1 : Fin 2) = 0
    ∧ win6_6.index t (0 : Fin 2) = t.val ∧ win6_6.index t (1 : Fin 2) = 0
    ∧ win6_7.index t (0 : Fin 2) = 0 ∧ win6_7.index t (1 : Fin 2) = 0 :=
  (by decide +kernel : ∀ t : Fin grid6.N, _)

/-- Window 0's block at a point: rows `2000 t …` of its array. -/
theorem blk0_apply (c : Dev nD) (X : Vec Ideal S50000x64 .f32) (e : V c (Pipeline.arrRef spec6 0) = X)
    (t : Fin cfg6.N) (p : Fin 2000) (k : Fin 64) :
    (iblk6 (F := Ideal) V c 0 t : Vec Ideal S2000x64 .f32) (ix2 p k) = X (ix2 (row (tile t) p) k) := by
  unfold iblk6
  rw [e]
  show X (((cfg6.win 0).blk t).view.emb (ix2 p k)) = _
  refine congrArg X (funext fun a => Fin.ext ?_)
  have f := idx_facts t
  match a with
  | ⟨0, _⟩ => show win6_0.index t (0 : Fin 2) * 2000 + 1 * p.val = 2000 * t.val + p.val; omega
  | ⟨1, _⟩ => show win6_0.index t (1 : Fin 2) * 64 + 1 * k.val = k.val; omega

/-- Window 1's block at a point: rows `2000 t …` of its array. -/
theorem blk1_apply (c : Dev nD) (X : Vec Ideal S50000x64 .f32) (e : V c (Pipeline.arrRef spec6 1) = X)
    (t : Fin cfg6.N) (p : Fin 2000) (k : Fin 64) :
    (iblk6 (F := Ideal) V c 1 t : Vec Ideal S2000x64 .f32) (ix2 p k) = X (ix2 (row (tile t) p) k) := by
  unfold iblk6
  rw [e]
  show X (((cfg6.win 1).blk t).view.emb (ix2 p k)) = _
  refine congrArg X (funext fun a => Fin.ext ?_)
  have f := idx_facts t
  match a with
  | ⟨0, _⟩ => show win6_1.index t (0 : Fin 2) * 2000 + 1 * p.val = 2000 * t.val + p.val; omega
  | ⟨1, _⟩ => show win6_1.index t (1 : Fin 2) * 64 + 1 * k.val = k.val; omega

/-- Window 2's block at every point: its whole array. -/
theorem blk2_apply (c : Dev nD) (X : Vec Ideal S64x64 .f32) (e : V c (Pipeline.arrRef spec6 2) = X)
    (t : Fin cfg6.N) (k : Fin 64) (q : Fin 64) :
    (iblk6 (F := Ideal) V c 2 t : Vec Ideal S64x64 .f32) (ix2 k q) = X (ix2 k q) := by
  unfold iblk6
  rw [e]
  show X (((cfg6.win 2).blk t).view.emb (ix2 k q)) = _
  refine congrArg X (funext fun a => Fin.ext ?_)
  have f := idx_facts t
  match a with
  | ⟨0, _⟩ => show win6_2.index t (0 : Fin 2) * 64 + 1 * k.val = k.val; omega
  | ⟨1, _⟩ => show win6_2.index t (1 : Fin 2) * 64 + 1 * q.val = q.val; omega

/-- Window 3's block at every point: its whole array, one row. -/
theorem blk3_apply (c : Dev nD) (X : Vec Ideal S1x64 .f32) (e : V c (Pipeline.arrRef spec6 3) = X)
    (t : Fin cfg6.N) (u : Fin 1) (q : Fin 64) :
    (iblk6 (F := Ideal) V c 3 t : Vec Ideal S1x64 .f32) (ix2 u q) = X (ix2 u q) := by
  unfold iblk6
  rw [e]
  show X (((cfg6.win 3).blk t).view.emb (ix2 u q)) = _
  refine congrArg X (funext fun a => Fin.ext ?_)
  have f := idx_facts t
  match a with
  | ⟨0, _⟩ => show win6_3.index t (0 : Fin 2) * 1 + 1 * u.val = u.val; omega
  | ⟨1, _⟩ => show win6_3.index t (1 : Fin 2) * 64 + 1 * q.val = q.val; omega

/-- Window 4's block at every point: its whole array. -/
theorem blk4_apply (c : Dev nD) (X : Vec Ideal S64x64 .f32) (e : V c (Pipeline.arrRef spec6 4) = X)
    (t : Fin cfg6.N) (k : Fin 64) (q : Fin 64) :
    (iblk6 (F := Ideal) V c 4 t : Vec Ideal S64x64 .f32) (ix2 k q) = X (ix2 k q) := by
  unfold iblk6
  rw [e]
  show X (((cfg6.win 4).blk t).view.emb (ix2 k q)) = _
  refine congrArg X (funext fun a => Fin.ext ?_)
  have f := idx_facts t
  match a with
  | ⟨0, _⟩ => show win6_4.index t (0 : Fin 2) * 64 + 1 * k.val = k.val; omega
  | ⟨1, _⟩ => show win6_4.index t (1 : Fin 2) * 64 + 1 * q.val = q.val; omega

/-- Window 5's block at a point: rows `2000 t …` of the batch column. -/
theorem blk5_apply (c : Dev nD) (X : Vec Ideal S50000x1 .i32) (e : V c (Pipeline.arrRef spec6 5) = X)
    (t : Fin cfg6.N) (p : Fin 2000) (u : Fin 1) :
    (iblk6 (F := Ideal) V c 5 t : Vec Ideal S2000x1 .i32) (ix2 p u) = X (ix2 (row (tile t) p) u) := by
  unfold iblk6
  rw [e]
  show X (((cfg6.win 5).blk t).view.emb (ix2 p u)) = _
  refine congrArg X (funext fun a => Fin.ext ?_)
  have f := idx_facts t
  match a with
  | ⟨0, _⟩ => show win6_5.index t (0 : Fin 2) * 2000 + 1 * p.val = 2000 * t.val + p.val; omega
  | ⟨1, _⟩ => show win6_5.index t (1 : Fin 2) * 1 + 1 * u.val = u.val; omega

end Blocks

/-! ## The first output: the linear part, tile by tile -/

section Lin

/-- After every point the first output's block holds the linear part of the point's input blocks. -/
theorem lin_after (c : Dev nD) (t : Fin cfg6.N) :
    (outsAt6 (F := Ideal) V c t.val t.isLt).1 = k6_pay3 (iblk6 V c 0 t) (iblk6 V c 1 t) (iblk6 V c 2 t) (iblk6 V c 4 t) (iblk6 V c 3 t) := by
  by_cases h0 : t.val % 25 = 0
  · rw [outsAt6_A V c t h0]
    dsimp only
    exact lin_first (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) ((hcond6_0 t).mpr h0) (iblk6 V c 0 t) (iblk6 V c 1 t) (iblk6 V c 2 t) (iblk6 V c 3 t) (iblk6 V c 4 t) (iblk6 V c 5 t)
  · rw [outsAt6_B V c t h0]
    dsimp only
    exact lin_later (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (fun h => h0 ((hcond6_0 t).mp h)) (iblk6 V c 0 t) (iblk6 V c 1 t) (iblk6 V c 2 t) (iblk6 V c 3 t) (iblk6 V c 4 t) (iblk6 V c 5 t)
      (outsAt6 V c (t.val - 1) (Nat.lt_of_le_of_lt (Nat.sub_le _ _) t.isLt)).2

/-- The linear part of the blocks at tile `t`, at row `p` of the tile, is the linear part of the arrays at row
    `2000 t + p`. -/
theorem lin_tile_apply (c : Dev nD) (agg root : Vec Ideal S50000x64 .f32) (Wl Wr : Vec Ideal S64x64 .f32) (bl : Vec Ideal S1x64 .f32)
    (e0 : V c (Pipeline.arrRef spec6 0) = agg) (e1 : V c (Pipeline.arrRef spec6 1) = root)
    (e2 : V c (Pipeline.arrRef spec6 2) = Wl) (e3 : V c (Pipeline.arrRef spec6 3) = bl)
    (e4 : V c (Pipeline.arrRef spec6 4) = Wr) (t : Fin cfg6.N) (p : Fin 2000) (q : Fin 64) :
    k6_pay3 (F := Ideal) (iblk6 V c 0 t) (iblk6 V c 1 t) (iblk6 V c 2 t) (iblk6 V c 4 t) (iblk6 V c 3 t) (ix2 p q) = sageLin (un2 agg) (un2 root) (un2 Wl) (un2 Wr) (unRow bl) (row (tile t) p) q := by
  refine (lin_block_apply _ _ _ _ _ p q).trans ?_
  show _ = ((∑ k : Fin 64, agg (ix2 (row (tile t) p) k) * Wl (ix2 k q)) + bl (ix2 0 q))
    + ∑ k : Fin 64, root (ix2 (row (tile t) p) k) * Wr (ix2 k q)
  refine congrArg₂ (· + ·) (congrArg₂ (· + ·) (Finset.sum_congr rfl fun k _ => ?_) (blk3_apply V c bl e3 t 0 q))
    (Finset.sum_congr rfl fun k _ => ?_)
  · exact congrArg₂ (· * ·) (blk0_apply V c agg e0 t p k) (blk2_apply V c Wl e2 t k q)
  · exact congrArg₂ (· * ·) (blk1_apply V c root e1 t p k) (blk4_apply V c Wr e4 t k q)

/-- What point `t` writes back to the first output's array is block `t` of the linear part of the arrays. -/
theorem lin_flushed (c : Dev nD) (agg root : Vec Ideal S50000x64 .f32) (Wl Wr : Vec Ideal S64x64 .f32) (bl : Vec Ideal S1x64 .f32)
    (e0 : V c (Pipeline.arrRef spec6 0) = agg) (e1 : V c (Pipeline.arrRef spec6 1) = root)
    (e2 : V c (Pipeline.arrRef spec6 2) = Wl) (e3 : V c (Pipeline.arrRef spec6 3) = bl)
    (e4 : V c (Pipeline.arrRef spec6 4) = Wr) (t : Fin cfg6.N) :
    (dat6 (F := Ideal) V c).flushed 6 t = ((cfg6.win 6).blk t).view.read (Elt Ideal) (mk2 (sageLin (un2 agg) (un2 root) (un2 Wl) (un2 Wr) (unRow bl))) := by
  show (cfg6.win 6).cut (grid6.coords t) ((dat6 V c).after 6 t) = _
  rw [after6_6, lin_after V c t]
  refine ext2 (a := 2000) (b := 64) fun p q => ?_
  refine (lin_tile_apply V c agg root Wl Wr bl e0 e1 e2 e3 e4 t p q).trans ?_
  show _ = mk2 (sageLin (un2 agg) (un2 root) (un2 Wl) (un2 Wr) (unRow bl)) (((cfg6.win 6).blk t).view.emb (ix2 p q))
  have f := idx_facts t
  refine (mk2_apply _ _ _).symm.trans (congrArg (mk2 (sageLin (un2 agg) (un2 root) (un2 Wl) (un2 Wr) (unRow bl))) (funext fun a => Fin.ext ?_))
  match a with
  | ⟨0, _⟩ => show 2000 * t.val + p.val = win6_6.index t (0 : Fin 2) * 2000 + 1 * p.val; omega
  | ⟨1, _⟩ => show q.val = win6_6.index t (1 : Fin 2) * 64 + 1 * q.val; omega

/-- An index of the first output's array is in point `t`'s block iff its coordinates are in the block's ranges. -/
theorem lin_mem_blk (t : Fin cfg6.N) (i : S50000x64.Idx) :
    i ∈ ((cfg6.win 6).blk t).view.set ↔ ∀ a : Fin 2, win6_6.index t a * S2000x64.size a ≤ (i a).val
      ∧ (i a).val < win6_6.index t a * S2000x64.size a + S2000x64.size a := by
  rw [show ((cfg6.win 6).blk t).view.set = (win6_6.rect t).set from View.set_slice_whole _ _, Rect.mem_set_unit]
  exact Iff.rfl

/-- Every row of the first output's array lies in the block of the tile it belongs to. -/
theorem lin_cover (i : S50000x64.Idx) :
    ∃ t : Fin cfg6.N, (cfg6.win 6).flush t = true ∧ i ∈ ((cfg6.win 6).blk t).view.set := by
  have hi0 : (i 0).val < 50000 := (i 0).isLt
  have hi1 : (i 1).val < 64 := (i 1).isLt
  have hN : cfg6.N = 25 := N_6
  let t : Fin cfg6.N := ⟨(i 0).val / 2000, by rw [hN]; omega⟩
  have f := idx_facts t
  have ht : t.val = (i 0).val / 2000 := rfl
  refine ⟨t, flush6_6 t, ?_⟩
  rw [lin_mem_blk]
  intro a
  match a with
  | ⟨0, _⟩ =>
    show win6_6.index t (0 : Fin 2) * 2000 ≤ (i 0).val ∧ (i 0).val < win6_6.index t (0 : Fin 2) * 2000 + 2000
    omega
  | ⟨1, _⟩ =>
    show win6_6.index t (1 : Fin 2) * 64 ≤ (i 1).val ∧ (i 1).val < win6_6.index t (1 : Fin 2) * 64 + 64
    omega

/-- Region 6: the first output array after the region is the layer's linear part. -/
theorem value_lin (c : Dev nD) (agg root : Vec Ideal S50000x64 .f32) (Wl Wr : Vec Ideal S64x64 .f32) (bl : Vec Ideal S1x64 .f32)
    (e0 : V c (Pipeline.arrRef spec6 0) = agg) (e1 : V c (Pipeline.arrRef spec6 1) = root)
    (e2 : V c (Pipeline.arrRef spec6 2) = Wl) (e3 : V c (Pipeline.arrRef spec6 3) = bl)
    (e4 : V c (Pipeline.arrRef spec6 4) = Wr) :
    (dat6 (F := Ideal) V c).arrAt 6 cfg6.N = mk2 (sageLin (un2 agg) (un2 root) (un2 Wl) (un2 Wr) (unRow bl)) := by
  exact (dat6 (F := Ideal) V c).arrAt_eq_of_cover 6 (mk2 (sageLin (un2 agg) (un2 root) (un2 Wl) (un2 Wr) (unRow bl)))
    (fun t _ => lin_flushed V c agg root Wl Wr bl e0 e1 e2 e3 e4 t) lin_cover

end Lin

/-! ## The second output: the statistics block, carried from point to point -/

/-- Tile `s`'s share of a per-row quantity summed per graph with indicator weights. -/
def tileSum (bI : Fin 50000 → Fin 128) (f : Fin 50000 → EReal) (g : Fin 128) (s : Fin 25) : EReal :=
  ∑ r' : Fin 2000, ohv (bI (row s r')) g * f (row s r')

/-- The tiles up to number 0 are the first one. -/
theorem tiles_le_zero : Finset.univ.filter (fun s : Fin 25 => s.val ≤ 0) = {(⟨0, by omega⟩ : Fin 25)} := by
  ext s
  simp only [Finset.mem_filter, Finset.mem_univ, true_and, Finset.mem_singleton, Fin.ext_iff]
  omega

/-- The tiles up to number `n + 1` are that one and the tiles up to `n`. -/
theorem tiles_le_succ (n : ℕ) (h : n + 1 < 25) :
    Finset.univ.filter (fun s : Fin 25 => s.val ≤ n + 1)
      = insert (⟨n + 1, h⟩ : Fin 25) (Finset.univ.filter (fun s : Fin 25 => s.val ≤ n)) := by
  ext s
  simp only [Finset.mem_filter, Finset.mem_univ, true_and, Finset.mem_insert, Fin.ext_iff]
  omega

/-- Tile `n + 1` is not among the tiles up to `n`. -/
theorem tile_succ_not_le (n : ℕ) (h : n + 1 < 25) :
    (⟨n + 1, h⟩ : Fin 25) ∉ Finset.univ.filter (fun s : Fin 25 => s.val ≤ n) := by
  simp only [Finset.mem_filter, Finset.mem_univ, true_and]
  omega

/-- The tiles up to number 24 are all of them. -/
theorem tiles_le_last : Finset.univ.filter (fun s : Fin 25 => s.val ≤ 24) = Finset.univ := by
  ext s
  simp only [Finset.mem_filter, Finset.mem_univ, true_and, iff_true]
  omega

section Stats

/-- After the first point the statistics block is the update of the zero block. -/
theorem stats_after_first (c : Dev nD) (t : Fin cfg6.N) (h0 : t.val % 25 = 0) :
    (outsAt6 (F := Ideal) V c t.val t.isLt).2
      = k6_pay1 (k6_pay4 (iblk6 V c 0 t) (iblk6 V c 1 t) (iblk6 V c 2 t) (iblk6 V c 4 t) (iblk6 V c 3 t)) (k6_pay5 (iblk6 V c 5 t))
        (k6_pay6 (iblk6 V c 0 t) (iblk6 V c 1 t) (iblk6 V c 2 t) (iblk6 V c 4 t) (iblk6 V c 3 t) (iblk6 V c 5 t)) (k6_pay2 (F := Ideal)) := by
  rw [outsAt6_A V c t h0]
  dsimp only
  exact stats_first (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) ((hcond6_0 t).mpr h0) (iblk6 V c 0 t) (iblk6 V c 1 t) (iblk6 V c 2 t) (iblk6 V c 3 t) (iblk6 V c 4 t) (iblk6 V c 5 t)

/-- After a later point it is the update of what the point before left. -/
theorem stats_after_later (c : Dev nD) (t : Fin cfg6.N) (h0 : ¬t.val % 25 = 0) :
    (outsAt6 (F := Ideal) V c t.val t.isLt).2
      = k6_pay1 (k6_pay4 (iblk6 V c 0 t) (iblk6 V c 1 t) (iblk6 V c 2 t) (iblk6 V c 4 t) (iblk6 V c 3 t)) (k6_pay5 (iblk6 V c 5 t))
        (k6_pay6 (iblk6 V c 0 t) (iblk6 V c 1 t) (iblk6 V c 2 t) (iblk6 V c 4 t) (iblk6 V c 3 t) (iblk6 V c 5 t)) (outsAt6 V c (t.val - 1) (Nat.lt_of_le_of_lt (Nat.sub_le _ _) t.isLt)).2 := by
  rw [outsAt6_B V c t h0]
  dsimp only
  exact stats_later (F := Ideal) c (grid6.coords t) (ms6_0 t) (hs6_0 t) (ms6_1 t) (hs6_1 t) (ms6_2 t) (hs6_2 t) (ms6_3 t) (hs6_3 t) (ms6_4 t) (hs6_4 t) (ms6_5 t) (hs6_5 t) (ms6_6 t) (hs6_6 t) (ms6_7 t) (hs6_7 t) (fun h => h0 ((hcond6_0 t).mp h)) (iblk6 V c 0 t) (iblk6 V c 1 t) (iblk6 V c 2 t) (iblk6 V c 3 t) (iblk6 V c 4 t) (iblk6 V c 5 t)
    (outsAt6 V c (t.val - 1) (Nat.lt_of_le_of_lt (Nat.sub_le _ _) t.isLt)).2

/-- The indicator block at tile `t`: row `p`'s graph against lane `g`. -/
theorem ind_tile_apply (c : Dev nD) (bI : Fin 50000 → Fin 128) (bcol : Vec Ideal S50000x1 .i32)
    (e5 : V c (Pipeline.arrRef spec6 5) = bcol)
    (hb : ∀ r : Fin 50000, bcol (ix2 r (0 : Fin 1)) = BitVec.ofNat 32 (bI r).val)
    (t : Fin cfg6.N) (p : Fin 2000) (g : Fin 128) :
    k6_pay5 (F := Ideal) (iblk6 V c 5 t) (ix2 p g) = ohv (bI (row (tile t) p)) g :=
  ind_block_apply (iblk6 V c 5 t) p g (bI (row (tile t) p)) ((blk5_apply V c bcol e5 t p 0).trans (hb _))

/-- The weighted lane sums of the rows' sums at tile `t` are the tile's share of the rows' sums. -/
theorem wsum_tile_apply (c : Dev nD) (bI : Fin 50000 → Fin 128) (agg root : Vec Ideal S50000x64 .f32) (Wl Wr : Vec Ideal S64x64 .f32)
    (bl : Vec Ideal S1x64 .f32) (bcol : Vec Ideal S50000x1 .i32)
    (e0 : V c (Pipeline.arrRef spec6 0) = agg) (e1 : V c (Pipeline.arrRef spec6 1) = root)
    (e2 : V c (Pipeline.arrRef spec6 2) = Wl) (e3 : V c (Pipeline.arrRef spec6 3) = bl)
    (e4 : V c (Pipeline.arrRef spec6 4) = Wr) (e5 : V c (Pipeline.arrRef spec6 5) = bcol)
    (hb : ∀ r : Fin 50000, bcol (ix2 r (0 : Fin 1)) = BitVec.ofNat 32 (bI r).val) (t : Fin cfg6.N) (g : Fin 128) :
    k6_pay6 (F := Ideal) (iblk6 V c 0 t) (iblk6 V c 1 t) (iblk6 V c 2 t) (iblk6 V c 4 t) (iblk6 V c 3 t) (iblk6 V c 5 t) (ix1 g)
      = tileSum bI (rowSum (sageLin (un2 agg) (un2 root) (un2 Wl) (un2 Wr) (unRow bl))) g (tile t) := by
  refine (wsum_block_apply _ _ _ _ _ _ g).trans ?_
  refine Finset.sum_congr rfl fun r _ => congrArg₂ (· * ·) (ind_tile_apply V c bI bcol e5 hb t r g) ?_
  show _ = ∑ j : Fin 64, sageLin (un2 agg) (un2 root) (un2 Wl) (un2 Wr) (unRow bl) (row (tile t) r) j
  exact Finset.sum_congr rfl fun j _ => lin_tile_apply V c agg root Wl Wr bl e0 e1 e2 e3 e4 t r j

/-- The weighted lane sums of the rows' sums of squares at tile `t` are the tile's share of them. -/
theorem wsq_tile_apply (c : Dev nD) (bI : Fin 50000 → Fin 128) (agg root : Vec Ideal S50000x64 .f32) (Wl Wr : Vec Ideal S64x64 .f32)
    (bl : Vec Ideal S1x64 .f32) (bcol : Vec Ideal S50000x1 .i32)
    (e0 : V c (Pipeline.arrRef spec6 0) = agg) (e1 : V c (Pipeline.arrRef spec6 1) = root)
    (e2 : V c (Pipeline.arrRef spec6 2) = Wl) (e3 : V c (Pipeline.arrRef spec6 3) = bl)
    (e4 : V c (Pipeline.arrRef spec6 4) = Wr) (e5 : V c (Pipeline.arrRef spec6 5) = bcol)
    (hb : ∀ r : Fin 50000, bcol (ix2 r (0 : Fin 1)) = BitVec.ofNat 32 (bI r).val) (t : Fin cfg6.N) (g : Fin 128) :
    (∑ r : Fin 2000, k6_pay5 (F := Ideal) (iblk6 V c 5 t) (ix2 r g)
        * k6_pay4 (F := Ideal) (iblk6 V c 0 t) (iblk6 V c 1 t) (iblk6 V c 2 t) (iblk6 V c 4 t) (iblk6 V c 3 t) (ix2 r (0 : Fin 1)))
      = tileSum bI (rowSq (sageLin (un2 agg) (un2 root) (un2 Wl) (un2 Wr) (unRow bl))) g (tile t) := by
  refine Finset.sum_congr rfl fun r _ => congrArg₂ (· * ·) (ind_tile_apply V c bI bcol e5 hb t r g) ?_
  refine (rowsq_block_apply _ _ _ _ _ r 0).trans ?_
  show _ = ∑ j : Fin 64, sageLin (un2 agg) (un2 root) (un2 Wl) (un2 Wr) (unRow bl) (row (tile t) r) j * sageLin (un2 agg) (un2 root) (un2 Wl) (un2 Wr) (unRow bl) (row (tile t) r) j
  exact Finset.sum_congr rfl fun j _ => congrArg₂ (· * ·) (lin_tile_apply V c agg root Wl Wr bl e0 e1 e2 e3 e4 t r j)
    (lin_tile_apply V c agg root Wl Wr bl e0 e1 e2 e3 e4 t r j)

/-- THE INVARIANT. After point `n` the statistics block holds, in row 0 (row 1) at lane `g`, the shares of the
    tiles up to `n` of the rows' sums (sums of squares). -/
theorem stats_inv (c : Dev nD) (bI : Fin 50000 → Fin 128) (agg root : Vec Ideal S50000x64 .f32) (Wl Wr : Vec Ideal S64x64 .f32)
    (bl : Vec Ideal S1x64 .f32) (bcol : Vec Ideal S50000x1 .i32)
    (e0 : V c (Pipeline.arrRef spec6 0) = agg) (e1 : V c (Pipeline.arrRef spec6 1) = root)
    (e2 : V c (Pipeline.arrRef spec6 2) = Wl) (e3 : V c (Pipeline.arrRef spec6 3) = bl)
    (e4 : V c (Pipeline.arrRef spec6 4) = Wr) (e5 : V c (Pipeline.arrRef spec6 5) = bcol)
    (hb : ∀ r : Fin 50000, bcol (ix2 r (0 : Fin 1)) = BitVec.ofNat 32 (bI r).val) (g : Fin 128) : ∀ (n : ℕ) (h : n < cfg6.N),
    ((outsAt6 (F := Ideal) V c n h).2 : Vec Ideal S2x128 .f32) (ix2 (0 : Fin 2) g)
        = ∑ s ∈ Finset.univ.filter (fun s : Fin 25 => s.val ≤ n), tileSum bI (rowSum (sageLin (un2 agg) (un2 root) (un2 Wl) (un2 Wr) (unRow bl))) g s
      ∧ ((outsAt6 (F := Ideal) V c n h).2 : Vec Ideal S2x128 .f32) (ix2 (1 : Fin 2) g)
        = ∑ s ∈ Finset.univ.filter (fun s : Fin 25 => s.val ≤ n), tileSum bI (rowSq (sageLin (un2 agg) (un2 root) (un2 Wl) (un2 Wr) (unRow bl))) g s
  | 0, h => by
    have e := stats_after_first V c ⟨0, h⟩ (Nat.zero_mod 25)
    constructor
    · refine (congrFun e (ix2 (0 : Fin 2) g)).trans ?_
      refine (upd_row0_apply _ _ _ _ g).trans ?_
      refine (congrArg₂ (· + ·) (zero_block_apply _) (wsum_tile_apply V c bI agg root Wl Wr bl bcol e0 e1 e2 e3 e4 e5 hb ⟨0, h⟩ g)).trans ?_
      rw [zero_add, tiles_le_zero, Finset.sum_singleton]
      rfl
    · refine (congrFun e (ix2 (1 : Fin 2) g)).trans ?_
      refine (upd_row1_apply _ _ _ _ g).trans ?_
      refine (congrArg₂ (· + ·) (zero_block_apply _) (wsq_tile_apply V c bI agg root Wl Wr bl bcol e0 e1 e2 e3 e4 e5 hb ⟨0, h⟩ g)).trans ?_
      rw [zero_add, tiles_le_zero, Finset.sum_singleton]
      rfl
  | n + 1, h => by
    have hN : cfg6.N = 25 := N_6
    have h25 : n + 1 < 25 := lt_of_lt_of_eq h hN
    have hB : ¬(⟨n + 1, h⟩ : Fin cfg6.N).val % 25 = 0 := by dsimp only; omega
    have e := stats_after_later V c ⟨n + 1, h⟩ hB
    have ih := stats_inv c bI agg root Wl Wr bl bcol e0 e1 e2 e3 e4 e5 hb g n (Nat.lt_of_succ_lt h)
    constructor
    · refine (congrFun e (ix2 (0 : Fin 2) g)).trans ?_
      refine (upd_row0_apply _ _ _ _ g).trans ?_
      refine (congrArg₂ (· + ·) ih.1 (wsum_tile_apply V c bI agg root Wl Wr bl bcol e0 e1 e2 e3 e4 e5 hb ⟨n + 1, h⟩ g)).trans ?_
      rw [tiles_le_succ n h25, Finset.sum_insert (tile_succ_not_le n h25), add_comm]
      rfl
    · refine (congrFun e (ix2 (1 : Fin 2) g)).trans ?_
      refine (upd_row1_apply _ _ _ _ g).trans ?_
      refine (congrArg₂ (· + ·) ih.2 (wsq_tile_apply V c bI agg root Wl Wr bl bcol e0 e1 e2 e3 e4 e5 hb ⟨n + 1, h⟩ g)).trans ?_
      rw [tiles_le_succ n h25, Finset.sum_insert (tile_succ_not_le n h25), add_comm]
      rfl

/-- An index of the statistics array is in a point's block iff its coordinates are in the block's ranges. -/
theorem stats_mem_blk (t : Fin cfg6.N) (i : S2x128.Idx) :
    i ∈ ((cfg6.win 7).blk t).view.set ↔ ∀ a : Fin 2, win6_7.index t a * S2x128.size a ≤ (i a).val
      ∧ (i a).val < win6_7.index t a * S2x128.size a + S2x128.size a := by
  rw [show ((cfg6.win 7).blk t).view.set = (win6_7.rect t).set from View.set_slice_whole _ _, Rect.mem_set_unit]
  exact Iff.rfl

/-- The one write-back of the statistics block, at the last point, writes what that point left: the block is
    the whole array. -/
theorem stats_flushed (c : Dev nD) (h24 : 24 < cfg6.N) (t : Fin cfg6.N) (hf : (cfg6.win 7).flush t = true) :
    (dat6 (F := Ideal) V c).flushed 7 t
      = ((cfg6.win 7).blk t).view.read (Elt Ideal) ((outsAt6 (F := Ideal) V c 24 h24).2 : Vec Ideal S2x128 .f32) := by
  have hN : cfg6.N = 25 := N_6
  have h3 : t.val = 24 := by have := (flush6_7 t).mp hf; have := t.isLt; omega
  obtain rfl : t = ⟨24, h24⟩ := Fin.ext h3
  show (cfg6.win 7).cut (grid6.coords ⟨24, h24⟩) ((dat6 V c).after 7 ⟨24, h24⟩) = _
  rw [after6_7]
  have f := idx_facts ⟨24, h24⟩
  refine ext2 (a := 2) (b := 128) fun u g => ?_
  show _ = ((outsAt6 (F := Ideal) V c 24 h24).2 : Vec Ideal S2x128 .f32) (((cfg6.win 7).blk ⟨24, h24⟩).view.emb (ix2 u g))
  refine congrArg ((outsAt6 (F := Ideal) V c 24 h24).2 : Vec Ideal S2x128 .f32) (funext fun a => Fin.ext ?_)
  match a with
  | ⟨0, _⟩ => show u.val = win6_7.index ⟨24, h24⟩ (0 : Fin 2) * 2 + 1 * u.val; omega
  | ⟨1, _⟩ => show g.val = win6_7.index ⟨24, h24⟩ (1 : Fin 2) * 128 + 1 * g.val; omega

/-- So the statistics array ends holding what the last point left. -/
theorem stats_final (c : Dev nD) (h24 : 24 < cfg6.N) :
    (dat6 (F := Ideal) V c).arrAt 7 cfg6.N = ((outsAt6 (F := Ideal) V c 24 h24).2 : Vec Ideal S2x128 .f32) :=
  (dat6 (F := Ideal) V c).arrAt_eq_of_cover 7 ((outsAt6 (F := Ideal) V c 24 h24).2 : Vec Ideal S2x128 .f32)
    (stats_flushed V c h24) fun i => by
      have hi0 : (i 0).val < 2 := (i 0).isLt
      have hi1 : (i 1).val < 128 := (i 1).isLt
      have f := idx_facts ⟨24, h24⟩
      refine ⟨⟨24, h24⟩, (flush6_7 ⟨24, h24⟩).mpr rfl, ?_⟩
      rw [stats_mem_blk]
      intro a
      match a with
      | ⟨0, _⟩ =>
        show win6_7.index ⟨24, h24⟩ (0 : Fin 2) * 2 ≤ (i 0).val ∧ (i 0).val < win6_7.index ⟨24, h24⟩ (0 : Fin 2) * 2 + 2
        omega
      | ⟨1, _⟩ =>
        show win6_7.index ⟨24, h24⟩ (1 : Fin 2) * 128 ≤ (i 1).val ∧ (i 1).val < win6_7.index ⟨24, h24⟩ (1 : Fin 2) * 128 + 128
        omega

/-- Region 6: the statistics array after the region holds, in row 0, the per-graph weighted sums of the rows' sums
    and, in row 1, those of the rows' sums of squares, for graph numbers `bI` read off the batch column. -/
theorem value_stats (c : Dev nD) (bI : Fin 50000 → Fin 128) (agg root : Vec Ideal S50000x64 .f32) (Wl Wr : Vec Ideal S64x64 .f32)
    (bl : Vec Ideal S1x64 .f32) (bcol : Vec Ideal S50000x1 .i32)
    (e0 : V c (Pipeline.arrRef spec6 0) = agg) (e1 : V c (Pipeline.arrRef spec6 1) = root)
    (e2 : V c (Pipeline.arrRef spec6 2) = Wl) (e3 : V c (Pipeline.arrRef spec6 3) = bl)
    (e4 : V c (Pipeline.arrRef spec6 4) = Wr) (e5 : V c (Pipeline.arrRef spec6 5) = bcol)
    (hb : ∀ r : Fin 50000, bcol (ix2 r (0 : Fin 1)) = BitVec.ofNat 32 (bI r).val) (g : Fin 128) :
    ((dat6 (F := Ideal) V c).arrAt 7 cfg6.N : Vec Ideal S2x128 .f32) (ix2 (0 : Fin 2) g)
        = statSum bI (rowSum (sageLin (un2 agg) (un2 root) (un2 Wl) (un2 Wr) (unRow bl))) g
      ∧ ((dat6 (F := Ideal) V c).arrAt 7 cfg6.N : Vec Ideal S2x128 .f32) (ix2 (1 : Fin 2) g)
        = statSum bI (rowSq (sageLin (un2 agg) (un2 root) (un2 Wl) (un2 Wr) (unRow bl))) g := by
  have hN : cfg6.N = 25 := N_6
  have h24 : 24 < cfg6.N := by rw [hN]; omega
  have hfin := stats_final V c h24
  have inv := stats_inv V c bI agg root Wl Wr bl bcol e0 e1 e2 e3 e4 e5 hb g 24 h24
  rw [tiles_le_last] at inv
  exact ⟨(congrFun hfin (ix2 (0 : Fin 2) g)).trans inv.1, (congrFun hfin (ix2 (1 : Fin 2) g)).trans inv.2⟩

end Stats

end Cert.Gnn.RegionSage6

end
-- ==== Proof.RegionLn7.lean ====
/-
  The normalise-and-rectify kernel of region 7, as a whole array.

  It runs over 25 tiles of 2000 rows. In a tile, every row's graph number is compared with the numbers 0 … 127; the
  resulting indicator row, times the 128 per-graph means (reciprocal deviations), summed over the 128 lanes, is the
  row's own graph's mean (reciprocal deviation); the entry minus that mean, times that reciprocal deviation, times the
  channel's scale, plus the channel's shift, goes through the leaky rectifier. The rule is the same for every row, and
  the tiles cover the array.
-/
import proofs.«430900_j38714835206722_1_alg».proof.Proof.Gen.KernelIdeal.Frame
import proofs.«430900_j38714835206722_1_alg».proof.Proof.Shapes
import proofs.«430900_j38714835206722_1_alg».proof.Proof.LibPlainDot
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gnn.RegionLn7

open Idealize.ShloMosaic Idealize.ShloMosaic.TcCoe Idealize.ShloMosaic.ValueIdx Idealize.ShloMosaic.Pipeline
open Cert.KernelIdeal Cert.KernelIdeal.Gen Cert.Gnn

variable (V : (c : Dev nD) → (b : Ref sig .tc) → Buf (Elt Ideal) ((c : Thread nD τ).loc b))

/-! ## Scalar facts -/

/-- The rectifier as the kernel spells it: choose `y` where `y ≥ 0` compares true, else `a * y`. -/
theorem select_oge_zero (a y : EReal) :
    Scalar.select (FloatOps.cmpf (F := Ideal) (φ := .f32) .oge y (Scalar.ofBits (F := Ideal) .f32 0x00000000#32)) y (a * y) = prelu a y := by
  have hz0 : Scalar.ofBits (F := Ideal) .f32 0x00000000#32 = (0 : EReal) := Ideal.ofBits_zero_f32
  rw [hz0]
  show Scalar.select (Ideal.cmp .oge y 0) y (a * y) = prelu a y
  unfold prelu Ideal.cmp Scalar.select
  by_cases h : (0 : EReal) ≤ y
  · simp [h]
  · simp [h]

/-- Two graph numbers below 128 have the same 32-bit word only if they are equal. -/
theorem word_eq_iff (g b : Fin 128) : BitVec.ofNat 32 g.val = BitVec.ofNat 32 b.val ↔ g = b := by
  constructor
  · intro h
    have h' := congrArg BitVec.toNat h
    simp only [BitVec.toNat_ofNat] at h'
    have hg := g.isLt
    have hb := b.isLt
    exact Fin.ext (by omega)
  · intro h; rw [h]

/-- The compare of two graph numbers' words, widened and converted, is the indicator. -/
theorem indicator_word (g b : Fin 128) :
    FloatOps.sitofp (F := Ideal) .f32 ((IntOp.cmpi .eq (BitVec.ofNat 32 g.val) (BitVec.ofNat 32 b.val)).setWidth 32) = ohv b g := by
  show (((((IntOp.cmpi .eq (BitVec.ofNat 32 g.val) (BitVec.ofNat 32 b.val)).setWidth 32).toInt : ℝ)) : EReal) = ohv b g
  unfold ohv IntOp.cmpi
  by_cases h : g = b
  · subst h; simp
  · have hne : (BitVec.ofNat 32 g.val == BitVec.ofNat 32 b.val) = false := by
      rw [beq_eq_false_iff_ne]
      exact fun e => h ((word_eq_iff g b).mp e)
    simp [h, hne]

/-! ## Layout operations read at an index -/

/-- A `[a, 1]` column broadcast to `[a, b]` reads, at `(p, c)`, the column's entry at `p`. -/
theorem broadcastTo_a1_ab_apply {α : Type} {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- An `[a]` array cast to the column `[a, 1]` reads, at `(p, 0)`, the operand at `p`. -/
theorem shapeCast_a_a1_apply {α : Type} {a : ℕ} (x : (⟨1, ![a]⟩ : Shape).Idx → α)
    (h : (⟨1, ![a]⟩ : Shape).ShapeCasts ⟨2, ![a, 1]⟩) (p : Fin a) :
    shapeCast ⟨2, ![a, 1]⟩ x h (ix2 p (0 : Fin 1)) = x (ix1 p) :=
  shapeCast_apply x h _ _ (by
    rw [Shape.rowMajor_val_two, Shape.rowMajor_val_one]
    show p.val = p.val * 1 + 0
    omega)

/-- The index over row `p` with lane `g` inserted is `(p, g)`. -/
theorem lift_row_lane (h : S2000x128.Reduces [1] S2000) (p : Fin 2000) (g : Fin 128) :
    h.lift (ix1 p) g = ix2 p g := by
  funext a
  apply Fin.ext
  match a with
  | ⟨0, _⟩ => rfl
  | ⟨1, _⟩ => rfl

/-- A sum over the 128 lanes of a row, read at the row. -/
theorem lane_sum_apply (x : FVec Ideal S2000x128 .f32) (h : S2000x128.Reduces [1] S2000) (hφ : FKind.Formats .f32)
    (hacc : (0x00000000#32 : BitVec 32) = FKind.add.neutral .f32 hφ) (p : Fin 2000) :
    multiReduction (F := Ideal) .add [1] S2000 x 0x00000000#32 h hφ hacc (ix1 p) = ∑ g : Fin 128, x (ix2 p g) := by
  refine (Ideal.multiReduction_add_single x 0x00000000#32 h hφ hacc (ix1 p)).trans ?_
  exact Finset.sum_congr rfl fun g _ => congrArg x (lift_row_lane h p g)

/-- The row's indicator-weighted sum of a `1 × 128` array, spread again over the row's 64 channels. -/
theorem node_stat_apply (x8 : FVec Ideal S2000x128 .f32) (w : Vec Ideal S1x128 .f32)
    (hsc : S1x128.ShapeCasts S1x128) (hb : S1x128.Broadcasts S2000x128) (h : S2000x128.Reduces [1] S2000)
    (hφ : FKind.Formats .f32) (hacc : (0x00000000#32 : BitVec 32) = FKind.add.neutral .f32 hφ)
    (hsc2 : S2000.ShapeCasts S2000x1) (hb2 : S2000x1.Broadcasts S2000x64) (p : Fin 2000) (q : Fin 64) :
    broadcastTo S2000x64 (shapeCast S2000x1
        (multiReduction (F := Ideal) .add [1] S2000 (mulf x8 (broadcastTo S2000x128 (shapeCast S1x128 w hsc) hb))
          0x00000000#32 h hφ hacc) hsc2) hb2 (ix2 p q)
      = ∑ g : Fin 128, x8 (ix2 p g) * w (ix2 (0 : Fin 1) g) := by
  refine (broadcastTo_a1_ab_apply _ hb2 p q).trans ?_
  refine (shapeCast_a_a1_apply _ hsc2 p).trans ?_
  refine (lane_sum_apply _ h hφ hacc p).trans ?_
  refine Finset.sum_congr rfl fun g _ => ?_
  show x8 (ix2 p g) * broadcastTo S2000x128 (shapeCast S1x128 w hsc) hb (ix2 p g) = _
  rw [broadcastTo_1b_ab_apply, shapeCast_self]

/-- The indicator rows: the compare of the lane number with the row's graph number, widened and converted. -/
theorem onehot_apply (v3 : Vec Ideal S2000x1 .i32) (hi : S2000x128.Iotas .tc 32 [1]) (hsc : S2000x1.ShapeCasts S2000x1)
    (hb : S2000x1.Broadcasts S2000x128) (hlt : 1 < 32) (b : Fin 128) (p : Fin 2000) (g : Fin 128)
    (hv : v3 (ix2 p (0 : Fin 1)) = BitVec.ofNat 32 b.val) :
    (sitofp .f32 (extui 32 (cmpi .eq (iota .tc S2000x128 32 [1] hi) (broadcastTo S2000x128 (shapeCast S2000x1 v3 hsc) hb)) hlt)
        : FVec Ideal S2000x128 .f32) (ix2 p g) = ohv b g := by
  show FloatOps.sitofp (F := Ideal) .f32 ((IntOp.cmpi .eq (iota .tc S2000x128 32 [1] hi (ix2 p g))
      (broadcastTo S2000x128 (shapeCast S2000x1 v3 hsc) hb (ix2 p g))).setWidth 32) = ohv b g
  rw [iota_single_apply, broadcastTo_a1_ab_apply, shapeCast_self, hv]
  exact indicator_word g b

/-- A `[1, 1]` array broadcast to `[a, b]` reads its one entry everywhere. -/
theorem broadcastTo_11_ab_apply {α : Type} {a b : ℕ} (v : (⟨2, ![1, 1]⟩ : Shape).Idx → α)
    (h : (⟨2, ![1, 1]⟩ : Shape).Broadcasts ⟨2, ![a, b]⟩) (p : Fin a) (c : Fin b) :
    broadcastTo ⟨2, ![a, b]⟩ v h (ix2 p c) = v (ix2 (0 : Fin 1) (0 : Fin 1)) := by
  refine broadcastTo_apply v h (ix2 p c) (ix2 (0 : Fin 1) (0 : Fin 1)) fun ax => ?_
  match ax with
  | ⟨0, _⟩ => rfl
  | ⟨1, _⟩ => rfl

/-! ## The body's arithmetic at an entry -/

/-- At row `p`, channel `q` of a tile whose row `p` carries graph number `b`: the entry minus the graph's mean, times
    the graph's reciprocal deviation, times the channel's scale, plus the channel's shift, through the rectifier. -/
theorem pay_apply (v0 : Vec Ideal S2000x64 .f32) (v3 : Vec Ideal S2000x1 .i32) (v9 v15 : Vec Ideal S1x128 .f32)
    (v25 v29 : Vec Ideal S1x64 .f32) (v33 : Vec Ideal S1x1 .f32) (b : Fin 128) (p : Fin 2000) (q : Fin 64)
    (hv : v3 (ix2 p (0 : Fin 1)) = BitVec.ofNat 32 b.val) :
    k7_pay1 (F := Ideal) v0 v3 v9 v15 v25 v29 v33 (ix2 p q)
      = prelu (v33 (ix2 (0 : Fin 1) (0 : Fin 1)))
          ((((v0 (ix2 p q) - ∑ g : Fin 128, ohv b g * v9 (ix2 (0 : Fin 1) g))
                * ∑ g : Fin 128, ohv b g * v15 (ix2 (0 : Fin 1) g))
              * v25 (ix2 (0 : Fin 1) q)) + v29 (ix2 (0 : Fin 1) q)) := by
  unfold k7_pay1
  dsimp only
  simp only [select_apply, cmpf_apply, mulf_apply, addf_apply, subf_apply, broadcast_apply]
  rw [select_oge_zero]
  refine congrArg₂ prelu ?_ (congrArg₂ HAdd.hAdd (congrArg₂ HMul.hMul (congrArg₂ HMul.hMul (congrArg₂ HSub.hSub ?_ ?_) ?_) ?_) ?_)
  · rw [broadcastTo_11_ab_apply, shapeCast_self]
  · rw [shapeCast_self]
  · refine (node_stat_apply _ v9 _ _ _ _ _ _ _ p q).trans ?_
    exact Finset.sum_congr rfl fun g _ => congrArg (· * v9 (ix2 (0 : Fin 1) g)) (onehot_apply v3 _ _ _ _ b p g hv)
  · refine (node_stat_apply _ v15 _ _ _ _ _ _ _ p q).trans ?_
    exact Finset.sum_congr rfl fun g _ => congrArg (· * v15 (ix2 (0 : Fin 1) g)) (onehot_apply v3 _ _ _ _ b p g hv)
  · rw [broadcastTo_1b_ab_apply, shapeCast_self]
  · rw [broadcastTo_1b_ab_apply, shapeCast_self]

/-! ## The tiles -/

theorem hz : (![0, 0] : Fin 2 → Nat) = fun _ => 0 := funext fun a => by fin_cases a <;> rfl

/-- The block numbers, decided over the 25 points: the features', the batch column's and the output's tile at point `t`
    is tile `t`; the per-graph and per-channel arrays are one block at every point. -/
theorem idx_facts : ∀ t : Fin cfg7.N,
    win7_0.index t (0 : Fin 2) = t.val ∧ win7_0.index t (1 : Fin 2) = 0
    ∧ win7_1.index t (0 : Fin 2) = 0 ∧ win7_1.index t (1 : Fin 2) = 0
    ∧ win7_2.index t (0 : Fin 2) = 0 ∧ win7_2.index t (1 : Fin 2) = 0
    ∧ win7_3.index t (0 : Fin 2) = t.val ∧ win7_3.index t (1 : Fin 2) = 0
    ∧ win7_4.index t (0 : Fin 2) = 0 ∧ win7_4.index t (1 : Fin 2) = 0
    ∧ win7_5.index t (0 : Fin 2) = 0 ∧ win7_5.index t (1 : Fin 2) = 0
    ∧ win7_6.index t (0 : Fin 2) = 0 ∧ win7_6.index t (1 : Fin 2) = 0
    ∧ win7_7.index t (0 : Fin 2) = t.val ∧ win7_7.index t (1 : Fin 2) = 0 :=
  (by decide +kernel : ∀ t : Fin grid7.N, _)

/-- Row `p`, channel `q` of the features' tile `t` is row `2000 t + p`, channel `q` of the array. -/
theorem blk0_apply (c : Dev nD) (t : Fin cfg7.N) (hpre : Vec Ideal S50000x64 .f32) (e : V c (Pipeline.arrRef spec7 0) = hpre)
    (p : Fin 2000) (q : Fin 64) (r : Fin 50000) (hr : r.val = 2000 * t.val + p.val) :
    (iblk7 V c 0 t : Vec Ideal S2000x64 .f32) (ix2 p q) = hpre (ix2 r q) := by
  subst e
  obtain ⟨e0, e1, -⟩ := idx_facts t
  have h : ((cfg7.win 0).blk t).view.emb (ix2 p q) = ix2 r q := by
    funext a; apply Fin.ext
    match a with
    | ⟨0, _⟩ => show win7_0.index t (0 : Fin 2) * 2000 + 1 * p.val = r.val; omega
    | ⟨1, _⟩ => show win7_0.index t (1 : Fin 2) * 64 + 1 * q.val = q.val; omega
  unfold iblk7
  rw [View.read_apply, h]
  rfl

/-- Row `p` of the batch column's tile `t` is row `2000 t + p` of the column. -/
theorem blk3_apply (c : Dev nD) (t : Fin cfg7.N) (bcol : Vec Ideal S50000x1 .i32) (e : V c (Pipeline.arrRef spec7 3) = bcol)
    (p : Fin 2000) (r : Fin 50000) (hr : r.val = 2000 * t.val + p.val) :
    (iblk7 V c 3 t : Vec Ideal S2000x1 .i32) (ix2 p (0 : Fin 1)) = bcol (ix2 r (0 : Fin 1)) := by
  subst e
  obtain ⟨-, -, -, -, -, -, e0, e1, -⟩ := idx_facts t
  have h : ((cfg7.win 3).blk t).view.emb (ix2 p (0 : Fin 1)) = ix2 r (0 : Fin 1) := by
    funext a; apply Fin.ext
    match a with
    | ⟨0, _⟩ => show win7_3.index t (0 : Fin 2) * 2000 + 1 * p.val = r.val; omega
    | ⟨1, _⟩ => show win7_3.index t (1 : Fin 2) * 1 + 1 * 0 = 0; omega
  unfold iblk7
  rw [View.read_apply, h]
  rfl

/-- A window whose one block is its whole array holds the array at every point: the per-graph means. -/
theorem blk1_eq (c : Dev nD) (t : Fin cfg7.N) (x1 : Vec Ideal S1x128 .f32) (e : V c (Pipeline.arrRef spec7 1) = x1) :
    (iblk7 V c 1 t : Vec Ideal S1x128 .f32) = x1 := by
  subst e
  have hi : win7_1.index t (0 : Fin 2) = 0 ∧ win7_1.index t (1 : Fin 2) = 0 := by
    have h := idx_facts t
    omega
  funext x
  have h : ((cfg7.win 1).blk t).view.emb x = x := by
    funext a; apply Fin.ext
    match a with
    | ⟨0, _⟩ => show win7_1.index t (0 : Fin 2) * 1 + 1 * (x 0).val = (x 0).val; omega
    | ⟨1, _⟩ => show win7_1.index t (1 : Fin 2) * 128 + 1 * (x 1).val = (x 1).val; omega
  unfold iblk7
  rw [View.read_apply, h]
  rfl

/-- The per-graph reciprocal deviations likewise. -/
theorem blk2_eq (c : Dev nD) (t : Fin cfg7.N) (x2 : Vec Ideal S1x128 .f32) (e : V c (Pipeline.arrRef spec7 2) = x2) :
    (iblk7 V c 2 t : Vec Ideal S1x128 .f32) = x2 := by
  subst e
  have hi : win7_2.index t (0 : Fin 2) = 0 ∧ win7_2.index t (1 : Fin 2) = 0 := by
    have h := idx_facts t
    omega
  funext x
  have h : ((cfg7.win 2).blk t).view.emb x = x := by
    funext a; apply Fin.ext
    match a with
    | ⟨0, _⟩ => show win7_2.index t (0 : Fin 2) * 1 + 1 * (x 0).val = (x 0).val; omega
    | ⟨1, _⟩ => show win7_2.index t (1 : Fin 2) * 128 + 1 * (x 1).val = (x 1).val; omega
  unfold iblk7
  rw [View.read_apply, h]
  rfl

/-- The per-channel scales likewise. -/
theorem blk4_eq (c : Dev nD) (t : Fin cfg7.N) (x4 : Vec Ideal S1x64 .f32) (e : V c (Pipeline.arrRef spec7 4) = x4) :
    (iblk7 V c 4 t : Vec Ideal S1x64 .f32) = x4 := by
  subst e
  have hi : win7_4.index t (0 : Fin 2) = 0 ∧ win7_4.index t (1 : Fin 2) = 0 := by
    have h := idx_facts t
    omega
  funext x
  have h : ((cfg7.win 4).blk t).view.emb x = x := by
    funext a; apply Fin.ext
    match a with
    | ⟨0, _⟩ => show win7_4.index t (0 : Fin 2) * 1 + 1 * (x 0).val = (x 0).val; omega
    | ⟨1, _⟩ => show win7_4.index t (1 : Fin 2) * 64 + 1 * (x 1).val = (x 1).val; omega
  unfold iblk7
  rw [View.read_apply, h]
  rfl

/-- The per-channel shifts likewise. -/
theorem blk5_eq (c : Dev nD) (t : Fin cfg7.N) (x5 : Vec Ideal S1x64 .f32) (e : V c (Pipeline.arrRef spec7 5) = x5) :
    (iblk7 V c 5 t : Vec Ideal S1x64 .f32) = x5 := by
  subst e
  have hi : win7_5.index t (0 : Fin 2) = 0 ∧ win7_5.index t (1 : Fin 2) = 0 := by
    have h := idx_facts t
    omega
  funext x
  have h : ((cfg7.win 5).blk t).view.emb x = x := by
    funext a; apply Fin.ext
    match a with
    | ⟨0, _⟩ => show win7_5.index t (0 : Fin 2) * 1 + 1 * (x 0).val = (x 0).val; omega
    | ⟨1, _⟩ => show win7_5.index t (1 : Fin 2) * 64 + 1 * (x 1).val = (x 1).val; omega
  unfold iblk7
  rw [View.read_apply, h]
  rfl

/-- The rectifier's slope likewise. -/
theorem blk6_eq (c : Dev nD) (t : Fin cfg7.N) (x6 : Vec Ideal S1x1 .f32) (e : V c (Pipeline.arrRef spec7 6) = x6) :
    (iblk7 V c 6 t : Vec Ideal S1x1 .f32) = x6 := by
  subst e
  have hi : win7_6.index t (0 : Fin 2) = 0 ∧ win7_6.index t (1 : Fin 2) = 0 := by
    have h := idx_facts t
    omega
  funext x
  have h : ((cfg7.win 6).blk t).view.emb x = x := by
    funext a; apply Fin.ext
    match a with
    | ⟨0, _⟩ => show win7_6.index t (0 : Fin 2) * 1 + 1 * (x 0).val = (x 0).val; omega
    | ⟨1, _⟩ => show win7_6.index t (1 : Fin 2) * 1 + 1 * (x 1).val = (x 1).val; omega
  unfold iblk7
  rw [View.read_apply, h]
  rfl

/-- Row `p`, channel `q` of the output's tile `t` sits at row `2000 t + p`, channel `q` of the output array. -/
theorem emb7_apply (t : Fin cfg7.N) (p : Fin 2000) (q : Fin 64) (r : Fin 50000) (hr : r.val = 2000 * t.val + p.val) :
    ((cfg7.win 7).blk t).view.emb (ix2 p q) = ix2 r q := by
  obtain ⟨-, -, -, -, -, -, -, -, -, -, -, -, -, -, e0, e1⟩ := idx_facts t
  funext a; apply Fin.ext
  match a with
  | ⟨0, _⟩ => show win7_7.index t (0 : Fin 2) * 2000 + 1 * p.val = r.val; omega
  | ⟨1, _⟩ => show win7_7.index t (1 : Fin 2) * 64 + 1 * q.val = q.val; omega

/-! ## From the tiles to the array -/

/-- WHAT POINT `t` WRITES BACK is tile `t` of the normalised array: every row of the tile reads its own graph's mean
    and reciprocal deviation, because the row's word in the batch column is its graph number. -/
theorem flushed_eq (c : Dev nD) (bI : Fin 50000 → Fin 128) (hpre : Vec Ideal S50000x64 .f32) (mean invstd : Vec Ideal S1x128 .f32)
    (bcol : Vec Ideal S50000x1 .i32) (lnw lnb : Vec Ideal S1x64 .f32) (a : Vec Ideal S1x1 .f32)
    (e0 : V c (Pipeline.arrRef spec7 0) = hpre) (e1 : V c (Pipeline.arrRef spec7 1) = mean)
    (e2 : V c (Pipeline.arrRef spec7 2) = invstd) (e3 : V c (Pipeline.arrRef spec7 3) = bcol)
    (e4 : V c (Pipeline.arrRef spec7 4) = lnw) (e5 : V c (Pipeline.arrRef spec7 5) = lnb)
    (e6 : V c (Pipeline.arrRef spec7 6) = a)
    (hb : ∀ r : Fin 50000, bcol (ix2 r (0 : Fin 1)) = BitVec.ofNat 32 (bI r).val) (t : Fin cfg7.N) :
    (dat7 (F := Ideal) V c).flushed 7 t
      = ((cfg7.win 7).blk t).view.read (Elt Ideal)
          (mk2 (lnApplyK bI (un2 hpre) (unRow mean) (unRow invstd) (unRow lnw) (unRow lnb) (a (ix2 (0 : Fin 1) (0 : Fin 1))))) := by
  show (cfg7.win 7).cut (grid7.coords t) ((dat7 V c).after 7 t) = _
  rw [after7_7]
  unfold out7_7
  rw [View.canon_unit_zero hz]
  simp only [View.ld_unit_zero (S := S2000x64) hz, View.ld_unit_zero (S := S2000x1) hz, View.ld_unit_zero (S := S1x128) hz,
    View.ld_unit_zero (S := S1x64) hz, View.ld_unit_zero (S := S1x1) hz]
  rw [blk1_eq V c t mean e1, blk2_eq V c t invstd e2, blk4_eq V c t lnw e4, blk5_eq V c t lnb e5, blk6_eq V c t a e6]
  funext j
  obtain ⟨p, q, rfl⟩ : ∃ (p : Fin 2000) (q : Fin 64), j = ix2 p q := ⟨j 0, j 1, eq_ix2 j⟩
  have ht : t.val < 25 := lt_of_lt_of_eq t.isLt N_7
  have hp : p.val < 2000 := p.isLt
  have hr : 2000 * t.val + p.val < 50000 := by omega
  rw [View.read_apply, emb7_apply t p q ⟨2000 * t.val + p.val, hr⟩ rfl]
  show k7_pay1 (F := Ideal) (iblk7 V c 0 t) (iblk7 V c 3 t) mean invstd lnw lnb a (ix2 p q)
    = lnApplyK bI (un2 hpre) (unRow mean) (unRow invstd) (unRow lnw) (unRow lnb) (a (ix2 (0 : Fin 1) (0 : Fin 1)))
        ⟨2000 * t.val + p.val, hr⟩ q
  refine (pay_apply (iblk7 V c 0 t) (iblk7 V c 3 t) mean invstd lnw lnb a (bI ⟨2000 * t.val + p.val, hr⟩) p q ?_).trans ?_
  · rw [blk3_apply V c t bcol e3 p ⟨2000 * t.val + p.val, hr⟩ rfl]
    exact hb _
  · rw [blk0_apply V c t hpre e0 p q ⟨2000 * t.val + p.val, hr⟩ rfl]
    rfl

/-- An index of the output array is in point `t`'s tile iff each coordinate is in the tile's range on its axis. -/
theorem mem_blk7 (t : Fin cfg7.N) (i : S50000x64.Idx) :
    i ∈ ((cfg7.win 7).blk t).view.set ↔ ∀ a : Fin 2, win7_7.index t a * S2000x64.size a ≤ (i a).val
      ∧ (i a).val < win7_7.index t a * S2000x64.size a + S2000x64.size a := by
  show i ∈ ((View.whole main_v120).slice (win7_7.rect t)).set ↔ _
  rw [View.set_slice_whole, Rect.mem_set_unit]
  exact Iff.rfl

/-- The 25 tiles cover the output array: row `r` lies in tile `r / 2000`. -/
theorem cover7 (i : S50000x64.Idx) :
    ∃ t : Fin cfg7.N, (cfg7.win 7).flush t = true ∧ i ∈ ((cfg7.win 7).blk t).view.set := by
  have hi0 : (i 0).val < 50000 := (i 0).isLt
  have hi1 : (i 1).val < 64 := (i 1).isLt
  have hN : grid7.N = 25 := N_7
  have hlt : (i 0).val / 2000 < grid7.N := by omega
  obtain ⟨-, -, -, -, -, -, -, -, -, -, -, -, -, -, e0, e1⟩ := idx_facts ⟨(i 0).val / 2000, hlt⟩
  refine ⟨⟨(i 0).val / 2000, hlt⟩, flush7_7 _, ?_⟩
  rw [mem_blk7]
  intro a
  match a with
  | ⟨0, _⟩ =>
    show win7_7.index ⟨(i 0).val / 2000, hlt⟩ (0 : Fin 2) * 2000 ≤ (i 0).val
      ∧ (i 0).val < win7_7.index ⟨(i 0).val / 2000, hlt⟩ (0 : Fin 2) * 2000 + 2000
    rw [e0]
    show (i 0).val / 2000 * 2000 ≤ (i 0).val ∧ (i 0).val < (i 0).val / 2000 * 2000 + 2000
    omega
  | ⟨1, _⟩ =>
    show win7_7.index ⟨(i 0).val / 2000, hlt⟩ (1 : Fin 2) * 64 ≤ (i 1).val
      ∧ (i 1).val < win7_7.index ⟨(i 0).val / 2000, hlt⟩ (1 : Fin 2) * 64 + 64
    rw [e1]
    omega

/-- Region 7: the output array after the region is the normalisation of `hpre` from the per-graph means and
    reciprocal deviations, for graph numbers `bI` read off the batch column. -/
theorem value (c : Dev nD) (bI : Fin 50000 → Fin 128) (hpre : Vec Ideal S50000x64 .f32) (mean invstd : Vec Ideal S1x128 .f32)
    (bcol : Vec Ideal S50000x1 .i32) (lnw lnb : Vec Ideal S1x64 .f32) (a : Vec Ideal S1x1 .f32)
    (e0 : V c (Pipeline.arrRef spec7 0) = hpre) (e1 : V c (Pipeline.arrRef spec7 1) = mean)
    (e2 : V c (Pipeline.arrRef spec7 2) = invstd) (e3 : V c (Pipeline.arrRef spec7 3) = bcol)
    (e4 : V c (Pipeline.arrRef spec7 4) = lnw) (e5 : V c (Pipeline.arrRef spec7 5) = lnb)
    (e6 : V c (Pipeline.arrRef spec7 6) = a)
    (hb : ∀ r : Fin 50000, bcol (ix2 r (0 : Fin 1)) = BitVec.ofNat 32 (bI r).val) :
    (dat7 (F := Ideal) V c).arrAt 7 cfg7.N
      = mk2 (lnApplyK bI (un2 hpre) (unRow mean) (unRow invstd) (unRow lnw) (unRow lnb) (a (ix2 (0 : Fin 1) (0 : Fin 1)))) := by
  exact (dat7 (F := Ideal) V c).arrAt_eq_of_cover 7 _
    (fun t _ => flushed_eq V c bI hpre mean invstd bcol lnw lnb a e0 e1 e2 e3 e4 e5 e6 hb t) cover7

end Cert.Gnn.RegionLn7

end
-- ==== Proof.KChain3.lean ====
/-
  The last stretch of the kernel program's run: the third layer's host stretches and kernels, from a boundary that
  holds the third layer's input `in3`.
-/
import proofs.«430900_j38714835206722_1_alg».proof.Proof.KChainDefs
import proofs.«430900_j38714835206722_1_alg».proof.Proof.RegionSage6
import proofs.«430900_j38714835206722_1_alg».proof.Proof.RegionLn7
import Idealize.ShloMosaic.Lib.StableHlo.Run
import Idealize.ShloMosaic.Lib.Pipeline.Value
import Idealize.ShloMosaic.Lib.ValueIdx
import Idealize.ShloMosaic.Lib.ValueLayout
import Idealize.ShloMosaic.Lib.IdealHost

set_option maxRecDepth 16384

noncomputable section

namespace Cert.Gnn.KChain

open Idealize.ShloMosaic Idealize.ShloMosaic.TcCoe Idealize.ShloMosaic.ValueIdx Idealize.ShloMosaic.Pipeline
open Cert.KernelIdeal Cert.KernelIdeal.Gen Cert.Gnn

variable (m : (ℓ : Loc nD τ sig) → Buf (Elt Ideal) ℓ) (ρ : Dev nD → PrngReg) (c : Dev nD)

/-! ## What the two host stretches write, and what they leave -/

/-- The buffers the host stretch before the third layer's statistics kernel writes. -/
abbrev hostOps6_W_s3 : List (Ref sig .tc) :=
  [main_c_15, main_v89, main_v90, main_c_16, main_v91, main_v92, main_v93, main_v94, main_v95, main_cst_17, main_v96,
    main_v97, main_v98, main_v99, main_v100, main_v101, main_v102]

theorem hostOps6_writes_s3 : (hostOps6 : List (HloOp τ sig (Elt Ideal))).Forall fun op =>
    op.writes ⊆ (hostOps6_W_s3.map (Proc.devRef (τ := τ) .tc)).toFinset := by
  simp only [hostOps6, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- The buffers the host stretch after the third layer's statistics kernel writes. -/
abbrev hostOps7_W_s3 : List (Ref sig .tc) :=
  [main_v104, main_v105, main_v106, main_v107, main_v108, main_v109, main_v110, main_v111, main_cst_18, main_v112, main_v113,
    main_v114, main_v115, main_v116, main_v117, main_v118, main_v119]

theorem hostOps7_writes_s3 : (hostOps7 : List (HloOp τ sig (Elt Ideal))).Forall fun op =>
    op.writes ⊆ (hostOps7_W_s3.map (Proc.devRef (τ := τ) .tc)).toFinset := by
  simp only [hostOps7, List.Forall, StableHlo.nullary_writes, StableHlo.unary_writes, StableHlo.binary_writes, StableHlo.ternary_writes, StableHlo.quaternary_writes, StableHlo.reshape_writes, Finset.singleton_subset_iff, List.mem_toFinset]
  repeat' apply And.intro
  all_goals exact List.mem_map_of_mem (by decide)

/-- A buffer the first host stretch does not write holds after it what it held before. -/
theorem W11_of_s3 (r : Ref sig .tc) (h : r ∉ hostOps6_W_s3) :
    W11 (F := Ideal) m ρ c (Proc.devRef .tc r) = W10 (F := Ideal) m ρ c (Proc.devRef .tc r) :=
  StableHlo.after_of_writes_sub hostOps6 _ hostOps6_writes_s3 h

/-- A buffer the second host stretch does not write holds after it what it held before. -/
theorem W13_of_s3 (r : Ref sig .tc) (h : r ∉ hostOps7_W_s3) :
    W13 (F := Ideal) m ρ c (Proc.devRef .tc r) = W12 (F := Ideal) m ρ c (Proc.devRef .tc r) :=
  StableHlo.after_of_writes_sub hostOps7 _ hostOps7_writes_s3 h

/-- The statistics kernel only reads the batch column. -/
theorem W12_in5_s3 : W12 (F := Ideal) m ρ c (Proc.devRef .tc main_v4) = W11 (F := Ideal) m ρ c (Proc.devRef .tc main_v4) :=
  (W12_arr m ρ c 5).trans (((dat6 (V11 m ρ) c).arrAt_in 5 rfl _).trans (A_eq6 (V11 m ρ) c 5))

/-! ## Host terms read at an index -/

/-- A per-node vector spread over the 64 channels, read at a node and a channel. -/
theorem bcast_node_apply_s3 (v : FVec Ideal S50000 .f32) (r : Fin 50000) (k : Fin 64) :
    broadcastInDim S50000x64 ![0, 1] Facts₀.bcast_S50000x1_S50000x64_0_1
      (broadcastInDim S50000x1 ![0] Facts₀.bcast_S50000_S50000x1_0 v) (ix2 r k) = v (ix1 r) := by
  rw [broadcastInDim_apply _ _ _ (ix2 r k) (ix2 r (0 : Fin 1)) (by intro a; fin_cases a <;> rfl),
    broadcastInDim_apply _ _ _ (ix2 r (0 : Fin 1)) (ix1 r) (by intro a; fin_cases a <;> rfl)]

/-- The reciprocal clamped degree of a node, as the first host stretch of the run leaves it. -/
theorem recip_deg_apply_s3 (ei : IVec S2x800000 32) (r : Fin 50000) :
    Host.divf (broadcastInDim S50000 ![] Facts₀.bcast_S_S50000 (constant (F := Ideal) S_ .f32 0x3F800000#32)) (degArr ei) (ix1 r)
      = Ideal.div oneC (degmF ei r) := by
  rw [hostDivf_apply]; exact congrArg₂ Ideal.div rfl rfl

/-- The reciprocal entry count of a graph, as the first host stretch of the run leaves it. -/
theorem recip_norm_apply_s3 (bt : IVec S50000 32) (g : Fin 128) :
    Host.divf (broadcastInDim S128 ![] Facts₀.bcast_S_S128 (constant (F := Ideal) S_ .f32 0x3F800000#32)) (normArr bt) (ix1 g)
      = Ideal.div oneC (normF bt g) := by
  rw [hostDivf_apply]; exact congrArg₂ Ideal.div rfl rfl

/-- Row 0 of the 2 × 128 statistics block, sliced off and flattened, read at a graph. -/
theorem stat_row0_apply_s3 (x : FVec Ideal S2x128 .f32) (g : Fin 128) :
    shapeCast S128 (extractStridedSlice S1x128 ![0, 0] x Facts₀.slices_S2x128_S1x128_0_0) Facts₀.shapeCasts_S1x128_S128 (ix1 g)
      = x (ix2 (0 : Fin 2) g) := by
  rw [shapeCast_1a_a_apply, extractStridedSlice_apply _ x _ (ix2 (0 : Fin 1) g) (ix2 (0 : Fin 2) g) (by
    intro a; fin_cases a
    · rfl
    · show g.val = 0 + g.val
      omega)]

/-- Row 1 of the 2 × 128 statistics block, sliced off and flattened, read at a graph. -/
theorem stat_row1_apply_s3 (x : FVec Ideal S2x128 .f32) (g : Fin 128) :
    shapeCast S128 (extractStridedSlice S1x128 ![1, 0] x Facts₀.slices_S2x128_S1x128_1_0) Facts₀.shapeCasts_S1x128_S128 (ix1 g)
      = x (ix2 (1 : Fin 2) g) := by
  rw [shapeCast_1a_a_apply, extractStridedSlice_apply _ x _ (ix2 (0 : Fin 1) g) (ix2 (1 : Fin 2) g) (by
    intro a; fin_cases a
    · rfl
    · show g.val = 0 + g.val
      omega)]

/-- The host's reciprocal root at an index. -/
theorem hostRsqrt_apply_s3 {s : Shape} (x : FVec Ideal s .f32) (i : s.Idx) : Host.rsqrt x i = Ideal.rsqrt (x i) := rfl

/-- The small constant spread over the 128 graphs, read at a graph. -/
theorem eps_apply_s3 (g : Fin 128) :
    broadcastInDim S128 ![] Facts₀.bcast_S_S128 (constant (F := Ideal) S_ .f32 0x3727C5AC#32) (ix1 g) = epsC := rfl

/-- The batch column read at a node is the node's graph number. -/
theorem bcol_apply_s3 (bI : Fin 50000 → Fin 128) (hb : ∀ r : Fin 50000, btOf m c (ix1 r) = BitVec.ofNat 32 (bI r).val)
    (bcol : IVec S50000x1 32) (hv : bcol = shapeCast _ (btOf m c) Facts₀.shapeCasts_S50000_S50000x1) (r : Fin 50000) :
    bcol (ix2 r (0 : Fin 1)) = BitVec.ofNat 32 (bI r).val := by
  rw [hv, shapeCast_apply (btOf m c) Facts₀.shapeCasts_S50000_S50000x1 (ix2 r (0 : Fin 1)) (ix1 r) (by
    rw [Shape.rowMajor_val_two, Shape.rowMajor_val_one]
    show r.val = r.val * 1 + 0
    omega)]
  exact hb r

/-- The linear part of a layer over the launched integer arguments: the scaled neighbour average, the input and
    the layer's weights. -/
abbrev linOf_s3 (xin : Mat 50000 64) (Wl : Mat 64 64) (bl : Fin 64 → EReal) (Wr : Mat 64 64) : Mat 50000 64 :=
  sageLin (aggK oneC (AggF (eiOf m c) xin) (degmF (eiOf m c))) xin Wl Wr bl

section Stage3
variable (in3 : Mat 50000 64) (hL : Live m c (W10 (F := Ideal) m ρ c))
  (h88 : (W10 (F := Ideal) m ρ c (Proc.devRef .tc main_v88) : FVec Ideal S50000x64 .f32) = mk2 in3)
include hL

/-! ## The host stretch before the third layer's statistics kernel -/

include h88 in
/-- The neighbour sum of the third layer's input times the reciprocal clamped degrees, as the stretch leaves it. -/
theorem W11_v101_s3 :
    (W11 (F := Ideal) m ρ c (Proc.devRef .tc main_v101) : FVec Ideal S50000x64 .f32)
      = mk2 (aggK oneC (AggF (eiOf m c) in3) (degmF (eiOf m c))) := by
  have e : (W11 (F := Ideal) m ρ c (Proc.devRef .tc main_v101) : FVec Ideal S50000x64 .f32)
      = mulf (aggArr (eiOf m c) (mk2 in3))
          (broadcastInDim S50000x64 ![0, 1] Facts₀.bcast_S50000x1_S50000x64_0_1
            (broadcastInDim S50000x1 ![0] Facts₀.bcast_S50000_S50000x1_0
              (Host.divf (broadcastInDim S50000 ![] Facts₀.bcast_S_S50000 (constant S_ .f32 0x3F800000#32)) (degArr (eiOf m c))))) := by
    show StableHlo.after hostOps6 (W10 (F := Ideal) m ρ c) (Proc.devRef .tc main_v101) = _
    after_results_simp
    rw [hL.v1, hL.v3, hL.v12, h88]
    rfl
  rw [e]
  apply ext2; intro r k
  rw [mulf_apply, mk2_apply, bcast_node_apply_s3, recip_deg_apply_s3]
  rfl

/-- The third layer's bias as a one-row array, as the stretch leaves it. -/
theorem W11_v102_s3 :
    unRow (W11 (F := Ideal) m ρ c (Proc.devRef .tc main_v102) : FVec Ideal S1x64 .f32) = (PK m c).bl2 := by
  have e : (W11 (F := Ideal) m ρ c (Proc.devRef .tc main_v102) : FVec Ideal S1x64 .f32)
      = shapeCast S1x64 (m ((c.tc : Thread nD τ).loc main_arg8) : FVec Ideal S64 .f32) Facts₀.shapeCasts_S64_S1x64 := by
    show StableHlo.after hostOps6 (W10 (F := Ideal) m ρ c) (Proc.devRef .tc main_v102) = _
    after_results_simp
    rw [hL.arg main_arg8 (by decide)]
    rfl
  funext j
  unfold unRow
  rw [e, shapeCast_a_1a_apply]
  rfl

/-- The batch column is still the launched batch array when the statistics kernel starts. -/
theorem W11_v4_s3 :
    (W11 (F := Ideal) m ρ c (Proc.devRef .tc main_v4) : IVec S50000x1 32)
      = shapeCast _ (btOf m c) Facts₀.shapeCasts_S50000_S50000x1 :=
  (W11_of_s3 m ρ c main_v4 (by decide)).trans hL.v4

/-! ## The third layer's statistics kernel -/

include h88 in
/-- After the statistics kernel its first output is the third layer's linear part. -/
theorem W12_v103_0_s3 :
    (W12 (F := Ideal) m ρ c (Proc.devRef .tc main_v103_0) : FVec Ideal S50000x64 .f32)
      = mk2 (linOf_s3 m c in3 (PK m c).Wl2 (PK m c).bl2 (PK m c).Wr2) := by
  refine (W12_arr m ρ c 6).trans ?_
  rw [RegionSage6.value_lin (V11 m ρ) c _ _ _ _ _ (W11_v101_s3 m ρ c in3 hL h88)
    ((W11_of_s3 m ρ c main_v88 (by decide)).trans h88)
    ((W11_of_s3 m ρ c main_arg7 (by decide)).trans (hL.arg main_arg7 (by decide))) rfl
    ((W11_of_s3 m ρ c main_arg9 (by decide)).trans (hL.arg main_arg9 (by decide))), W11_v102_s3 m ρ c hL]
  rfl

include h88 in
/-- After the statistics kernel its second output holds the per-graph sums of the linear part's row sums and row
    sums of squares. -/
theorem W12_v103_1_s3 (bI : Fin 50000 → Fin 128) (hb : ∀ r : Fin 50000, btOf m c (ix1 r) = BitVec.ofNat 32 (bI r).val) (g : Fin 128) :
    (W12 (F := Ideal) m ρ c (Proc.devRef .tc main_v103_1) : FVec Ideal S2x128 .f32) (ix2 (0 : Fin 2) g)
        = statSum bI (rowSum (linOf_s3 m c in3 (PK m c).Wl2 (PK m c).bl2 (PK m c).Wr2)) g
      ∧ (W12 (F := Ideal) m ρ c (Proc.devRef .tc main_v103_1) : FVec Ideal S2x128 .f32) (ix2 (1 : Fin 2) g)
        = statSum bI (rowSq (linOf_s3 m c in3 (PK m c).Wl2 (PK m c).bl2 (PK m c).Wr2)) g := by
  have h := RegionSage6.value_stats (V11 m ρ) c bI _ _ _ _ _ _ (W11_v101_s3 m ρ c in3 hL h88)
    ((W11_of_s3 m ρ c main_v88 (by decide)).trans h88)
    ((W11_of_s3 m ρ c main_arg7 (by decide)).trans (hL.arg main_arg7 (by decide))) rfl
    ((W11_of_s3 m ρ c main_arg9 (by decide)).trans (hL.arg main_arg9 (by decide))) rfl
    (bcol_apply_s3 m c bI hb _ (W11_v4_s3 m ρ c hL)) g
  rw [W11_v102_s3 m ρ c hL] at h
  rw [W12_arr m ρ c 7]
  exact h

/-- The reciprocal entry counts are still what the first host stretch of the run left when the second host stretch
    of this layer starts. -/
theorem W12_v22_s3 :
    (W12 (F := Ideal) m ρ c (Proc.devRef .tc main_v22) : FVec Ideal S128 .f32)
      = Host.divf (broadcastInDim S128 ![] Facts₀.bcast_S_S128 (constant S_ .f32 0x3F800000#32)) (normArr (btOf m c)) :=
  (W12_of_ne m ρ c main_v22 (by decide)).trans ((W11_of_s3 m ρ c main_v22 (by decide)).trans hL.v22)

/-- The batch column is still the launched batch array when the normalising kernel starts. -/
theorem W13_v4_s3 :
    (W13 (F := Ideal) m ρ c (Proc.devRef .tc main_v4) : IVec S50000x1 32)
      = shapeCast _ (btOf m c) Facts₀.shapeCasts_S50000_S50000x1 :=
  (W13_of_s3 m ρ c main_v4 (by decide)).trans ((W12_in5_s3 m ρ c).trans (W11_v4_s3 m ρ c hL))

/-! ## The host stretch after the third layer's statistics kernel -/

section Host7
variable (bI : Fin 50000 → Fin 128) (hb : ∀ r : Fin 50000, btOf m c (ix1 r) = BitVec.ofNat 32 (bI r).val)

include h88 hb in
/-- The per-graph means as the stretch leaves them, as a one-row array. -/
theorem W13_v115_s3 :
    unRow (W13 (F := Ideal) m ρ c (Proc.devRef .tc main_v115) : FVec Ideal S1x128 .f32)
      = meanK oneC (normF (btOf m c)) bI (linOf_s3 m c in3 (PK m c).Wl2 (PK m c).bl2 (PK m c).Wr2) := by
  have e : (W13 (F := Ideal) m ρ c (Proc.devRef .tc main_v115) : FVec Ideal S1x128 .f32)
      = shapeCast S1x128
          (mulf (F := Ideal) (φ := .f32)
            (shapeCast S128 (extractStridedSlice S1x128 ![0, 0]
              (W12 (F := Ideal) m ρ c (Proc.devRef .tc main_v103_1) : FVec Ideal S2x128 .f32) Facts₀.slices_S2x128_S1x128_0_0)
              Facts₀.shapeCasts_S1x128_S128)
            (W12 (F := Ideal) m ρ c (Proc.devRef .tc main_v22) : FVec Ideal S128 .f32))
          Facts₀.shapeCasts_S128_S1x128 := by
    show StableHlo.after hostOps7 (W12 (F := Ideal) m ρ c) (Proc.devRef .tc main_v115) = _
    after_results_simp
    rfl
  funext g
  unfold unRow
  rw [e, shapeCast_a_1a_apply, mulf_apply, stat_row0_apply_s3, (W12_v103_1_s3 m ρ c in3 hL h88 bI hb g).1,
    W12_v22_s3 m ρ c hL, recip_norm_apply_s3]
  rfl

include h88 hb in
/-- The per-graph reciprocal deviations as the stretch leaves them, as a one-row array. -/
theorem W13_v116_s3 :
    unRow (W13 (F := Ideal) m ρ c (Proc.devRef .tc main_v116) : FVec Ideal S1x128 .f32)
      = invstdK oneC epsC (normF (btOf m c)) bI (linOf_s3 m c in3 (PK m c).Wl2 (PK m c).bl2 (PK m c).Wr2) := by
  have e : (W13 (F := Ideal) m ρ c (Proc.devRef .tc main_v116) : FVec Ideal S1x128 .f32)
      = shapeCast S1x128
          (Host.rsqrt (F := Ideal) (φ := .f32) (addf
            (subf
              (mulf
                (shapeCast S128 (extractStridedSlice S1x128 ![1, 0]
                  (W12 (F := Ideal) m ρ c (Proc.devRef .tc main_v103_1) : FVec Ideal S2x128 .f32) Facts₀.slices_S2x128_S1x128_1_0)
                  Facts₀.shapeCasts_S1x128_S128)
                (W12 (F := Ideal) m ρ c (Proc.devRef .tc main_v22) : FVec Ideal S128 .f32))
              (mulf
                (mulf
                  (shapeCast S128 (extractStridedSlice S1x128 ![0, 0]
                    (W12 (F := Ideal) m ρ c (Proc.devRef .tc main_v103_1) : FVec Ideal S2x128 .f32) Facts₀.slices_S2x128_S1x128_0_0)
                    Facts₀.shapeCasts_S1x128_S128)
                  (W12 (F := Ideal) m ρ c (Proc.devRef .tc main_v22) : FVec Ideal S128 .f32))
                (mulf
                  (shapeCast S128 (extractStridedSlice S1x128 ![0, 0]
                    (W12 (F := Ideal) m ρ c (Proc.devRef .tc main_v103_1) : FVec Ideal S2x128 .f32) Facts₀.slices_S2x128_S1x128_0_0)
                    Facts₀.shapeCasts_S1x128_S128)
                  (W12 (F := Ideal) m ρ c (Proc.devRef .tc main_v22) : FVec Ideal S128 .f32))))
            (broadcastInDim S128 ![] Facts₀.bcast_S_S128 (constant S_ .f32 0x3727C5AC#32))))
          Facts₀.shapeCasts_S128_S1x128 := by
    show StableHlo.after hostOps7 (W12 (F := Ideal) m ρ c) (Proc.devRef .tc main_v116) = _
    after_results_simp
    rfl
  funext g
  unfold unRow
  rw [e, shapeCast_a_1a_apply, hostRsqrt_apply_s3, addf_apply, subf_apply, mulf_apply, mulf_apply, mulf_apply,
    stat_row0_apply_s3, stat_row1_apply_s3, (W12_v103_1_s3 m ρ c in3 hL h88 bI hb g).1, (W12_v103_1_s3 m ρ c in3 hL h88 bI hb g).2,
    W12_v22_s3 m ρ c hL, recip_norm_apply_s3, eps_apply_s3]
  rfl

end Host7

/-- A float argument neither the first host stretch nor the statistics kernel touches is as launched when the second
    host stretch starts. -/
theorem W12_arg_s3 (b : Ref sig .tc) (hb : b ∈ argRefs) (h6 : b ∉ hostOps6_W_s3) (hw : ∀ w, Pipeline.arrRef spec6 w ≠ b) :
    W12 (F := Ideal) m ρ c (Proc.devRef .tc b) = m ((c.tc : Thread nD τ).loc b) :=
  (W12_of_ne m ρ c b hw).trans ((W11_of_s3 m ρ c b h6).trans (hL.arg b hb))

/-- The third layer's normalisation scale as a one-row array. -/
theorem W13_v117_s3 :
    unRow (W13 (F := Ideal) m ρ c (Proc.devRef .tc main_v117) : FVec Ideal S1x64 .f32) = (PK m c).lnw2 := by
  have e : (W13 (F := Ideal) m ρ c (Proc.devRef .tc main_v117) : FVec Ideal S1x64 .f32)
      = shapeCast S1x64 (m ((c.tc : Thread nD τ).loc main_arg16) : FVec Ideal S64 .f32) Facts₀.shapeCasts_S64_S1x64 := by
    show StableHlo.after hostOps7 (W12 (F := Ideal) m ρ c) (Proc.devRef .tc main_v117) = _
    after_results_simp
    rw [W12_arg_s3 m ρ c hL main_arg16 (by decide) (by decide) (by decide)]
    rfl
  funext j
  unfold unRow
  rw [e, shapeCast_a_1a_apply]
  rfl

/-- The third layer's normalisation shift as a one-row array. -/
theorem W13_v118_s3 :
    unRow (W13 (F := Ideal) m ρ c (Proc.devRef .tc main_v118) : FVec Ideal S1x64 .f32) = (PK m c).lnb2 := by
  have e : (W13 (F := Ideal) m ρ c (Proc.devRef .tc main_v118) : FVec Ideal S1x64 .f32)
      = shapeCast S1x64 (m ((c.tc : Thread nD τ).loc main_arg17) : FVec Ideal S64 .f32) Facts₀.shapeCasts_S64_S1x64 := by
    show StableHlo.after hostOps7 (W12 (F := Ideal) m ρ c) (Proc.devRef .tc main_v118) = _
    after_results_simp
    rw [W12_arg_s3 m ρ c hL main_arg17 (by decide) (by decide) (by decide)]
    rfl
  funext j
  unfold unRow
  rw [e, shapeCast_a_1a_apply]
  rfl

/-- The third layer's rectifier slope as a one-entry array. -/
theorem W13_v119_s3 :
    (W13 (F := Ideal) m ρ c (Proc.devRef .tc main_v119) : FVec Ideal S1x1 .f32) (ix2 (0 : Fin 1) (0 : Fin 1)) = (PK m c).a2 := by
  have e : (W13 (F := Ideal) m ρ c (Proc.devRef .tc main_v119) : FVec Ideal S1x1 .f32)
      = shapeCast S1x1 (m ((c.tc : Thread nD τ).loc main_arg20) : FVec Ideal S1 .f32) Facts₀.shapeCasts_S1_S1x1 := by
    show StableHlo.after hostOps7 (W12 (F := Ideal) m ρ c) (Proc.devRef .tc main_v119) = _
    after_results_simp
    rw [W12_arg_s3 m ρ c hL main_arg20 (by decide) (by decide) (by decide)]
    rfl
  rw [e, shapeCast_a_1a_apply]
  rfl

/-! ## The normalising kernel -/

include h88 in
/-- After the normalising kernel its output is the third layer's output. -/
theorem W14_v120_s3 (bI : Fin 50000 → Fin 128) (hb : ∀ r : Fin 50000, btOf m c (ix1 r) = BitVec.ofNat 32 (bI r).val) :
    (W14 (F := Ideal) m ρ c (Proc.devRef .tc main_v120) : FVec Ideal S50000x64 .f32)
      = mk2 (layerOf m c bI in3 (PK m c).Wl2 (PK m c).bl2 (PK m c).Wr2 (PK m c).lnw2 (PK m c).lnb2 (PK m c).a2) := by
  refine (W14_arr m ρ c 7).trans ?_
  rw [RegionLn7.value (V13 m ρ) c bI _
    (W13 (F := Ideal) m ρ c (Proc.devRef .tc main_v115)) (W13 (F := Ideal) m ρ c (Proc.devRef .tc main_v116))
    (W13 (F := Ideal) m ρ c (Proc.devRef .tc main_v4)) (W13 (F := Ideal) m ρ c (Proc.devRef .tc main_v117))
    (W13 (F := Ideal) m ρ c (Proc.devRef .tc main_v118)) (W13 (F := Ideal) m ρ c (Proc.devRef .tc main_v119))
    ((W13_of_s3 m ρ c main_v103_0 (by decide)).trans (W12_v103_0_s3 m ρ c in3 hL h88)) rfl rfl rfl rfl rfl rfl
    (bcol_apply_s3 m c bI hb _ (W13_v4_s3 m ρ c hL)),
    W13_v115_s3 m ρ c in3 hL h88 bI hb, W13_v116_s3 m ρ c in3 hL h88 bI hb, W13_v117_s3 m ρ c hL, W13_v118_s3 m ρ c hL,
    W13_v119_s3 m ρ c hL]
  rfl

end Stage3

/-- After the last kernel the result buffer holds the third layer of `in3`. -/
theorem stage3 (bI : Fin 50000 → Fin 128) (hb : ∀ r : Fin 50000, btOf m c (ix1 r) = BitVec.ofNat 32 (bI r).val)
    (in3 : Mat 50000 64) (hL : Live m c (W10 (F := Ideal) m ρ c))
    (h88 : (W10 (F := Ideal) m ρ c (Proc.devRef .tc main_v88) : FVec Ideal S50000x64 .f32) = mk2 in3) :
    (W14 (F := Ideal) m ρ c (Proc.devRef .tc main_v120) : FVec Ideal S50000x64 .f32)
      = mk2 (layerOf m c bI in3 (PK m c).Wl2 (PK m c).bl2 (PK m c).Wr2 (PK m c).lnw2 (PK m c).lnb2 (PK m c).a2) :=
  W14_v120_s3 m ρ c in3 hL h88 bI hb

end Cert.Gnn.KChain

end
-- ==== Proof.KChain.lean ====
/-
  The kernel program's result buffer at the last segment boundary is the network computed the tiled way.
-/
import proofs.«430900_j38714835206722_1_alg».proof.Proof.KChainDefs
import proofs.«430900_j38714835206722_1_alg».proof.Proof.KChain1
import proofs.«430900_j38714835206722_1_alg».proof.Proof.KChain2
import proofs.«430900_j38714835206722_1_alg».proof.Proof.KChain3
import Idealize.ShloMosaic.Lib.StableHlo.Run
import Idealize.ShloMosaic.Lib.Pipeline.Value
import Idealize.ShloMosaic.Lib.ValueIdx
import Idealize.ShloMosaic.Lib.ValueLayout

set_option maxRecDepth 16384

noncomputable section

namespace Cert.Gnn.KChain

open Idealize.ShloMosaic Idealize.ShloMosaic.TcCoe Idealize.ShloMosaic.ValueIdx Idealize.ShloMosaic.Pipeline
open Cert.KernelIdeal Cert.KernelIdeal.Gen Cert.Gnn

variable (m : (ℓ : Loc nD τ sig) → Buf (Elt Ideal) ℓ) (ρ : Dev nD → PrngReg) (c : Dev nD)

/-- The result buffer after the last kernel is the network, the tiled way, of the launched arguments. -/
theorem kernel_value (bI : Fin 50000 → Fin 128) (hb : ∀ r : Fin 50000, btOf m c (ix1 r) = BitVec.ofNat 32 (bI r).val) :
    (W14 (F := Ideal) m ρ c (Proc.devRef .tc main_v120) : FVec Ideal S50000x64 .f32)
      = mk2 (netK oneC epsC (normF (btOf m c)) (degmF (eiOf m c)) (AggF (eiOf m c)) bI (PK m c)) := by
  obtain ⟨hL5, h54, h55⟩ := stage1 m ρ c bI hb
  obtain ⟨hL10, h88⟩ := stage2 m ρ c bI hb _ _ hL5 h54 h55
  exact stage3 m ρ c bI hb _ hL10 h88

end Cert.Gnn.KChain

end
-- ==== Proof.RefRun.lean ====
/-
  The array program runs to the end without a fault, its result buffer at the last operation's stage of the launched
  arguments and its arguments unchanged.

  The program is a straight line of 306 host operations, each writing one buffer of its own and reading buffers
  written before it or arguments. What a buffer holds after the line is the fold of the operations' results over the
  launch contents: at its own result buffer an operation leaves its function of what its operands held, at every
  other buffer what was there. Unfolded from the last operation back, the result buffer holds the composition of the
  operations' functions over the launched arguments, which is the last stage with every earlier stage unfolded. No
  operation writes an argument's buffer, so each argument ends as launched.
-/
import proofs.«430900_j38714835206722_1_alg».proof.Proof.RefOps
import proofs.«430900_j38714835206722_1_alg».proof.Proof.RefReadP

set_option maxRecDepth 65536

noncomputable section

namespace Cert.Gnn.RefRun

open Cert.ReferenceIdeal Cert.ReferenceIdeal.Gen Cert.ReferenceIdeal.Value Cert.ReferenceIdeal.Read
open Idealize.ShloMosaic Idealize.ShloMosaic.TcCoe Idealize.SL.Sem Idealize.ShloMosaic.StableHlo

variable {F : FTy → Type} [FloatOps F]

/-- The program's argument buffers. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

/-- An operation that writes one buffer, not an argument's, writes no argument's. -/
theorem not_writes_arg {op : HloOp τ sig (Elt F)} {y : Ref sig .tc} (hw : op.writes = {Proc.devRef .tc y}) (hy : y ∉ argRefs) :
    ∀ r ∈ argRefs, Proc.devRef (τ := τ) .tc r ∉ op.writes := by
  intro r hr hm
  rw [hw, Finset.mem_singleton] at hm
  exact hy (Proc.devRef_injective _ hm ▸ hr)

set_option maxHeartbeats 0 in
/-- Every operation determines its results. -/
theorem ops_fresh : (ops : List (HloOp τ sig (Elt F))).Forall fun op => op.fresh = ∅ := by
  unfold ops
  repeat (first | refine ⟨rfl, ?_⟩ | exact rfl)

set_option maxHeartbeats 0 in
/-- No operation writes an argument's buffer. -/
theorem ops_keep_args : (ops : List (HloOp τ sig (Elt F))).Forall fun op => ∀ r ∈ argRefs, Proc.devRef (τ := τ) .tc r ∉ op.writes := by
  unfold ops
  repeat (first | refine ⟨not_writes_arg rfl (by decide), ?_⟩ | exact not_writes_arg rfl (by decide))

/-- An argument's buffer holds after the whole line what it held before. -/
theorem after_ops_arg (V : Valuation τ sig (Elt F)) {r : Ref sig .tc} (hr : r ∈ argRefs) :
    after (ops (F := F)) V (Proc.devRef .tc r) = V (Proc.devRef .tc r) :=
  after_of_forall_not_mem ops V fun op hop => List.forall_iff_forall_mem.mp ops_keep_args op hop r hr

set_option maxHeartbeats 0 in
/-- The result buffer holds after the whole line the last stage of what the arguments' buffers held before it. -/
theorem after_ops_v245 (V : Valuation τ sig (Elt F)) :
    after (ops (F := F)) V (Proc.devRef .tc main_v245) = val_main_v245 (F := F) (V (Proc.devRef .tc main_arg0)) (V (Proc.devRef .tc main_arg1)) (V (Proc.devRef .tc main_arg2)) (V (Proc.devRef .tc main_arg3)) (V (Proc.devRef .tc main_arg4)) (V (Proc.devRef .tc main_arg5)) (V (Proc.devRef .tc main_arg6)) (V (Proc.devRef .tc main_arg7)) (V (Proc.devRef .tc main_arg8)) (V (Proc.devRef .tc main_arg9)) (V (Proc.devRef .tc main_arg10)) (V (Proc.devRef .tc main_arg11)) (V (Proc.devRef .tc main_arg12)) (V (Proc.devRef .tc main_arg13)) (V (Proc.devRef .tc main_arg14)) (V (Proc.devRef .tc main_arg15)) (V (Proc.devRef .tc main_arg16)) (V (Proc.devRef .tc main_arg17)) (V (Proc.devRef .tc main_arg18)) (V (Proc.devRef .tc main_arg19)) (V (Proc.devRef .tc main_arg20)) (V (Proc.devRef .tc main_arg21)) (V (Proc.devRef .tc main_arg22)) := by
  after_results_simp <;> rfl

/-- Every weakly fair execution terminates without a fault, with the result at the last stage of the launched
    arguments and every argument unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v245)
        = val_main_v245 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) (m ((c.tc : Thread nD τ).loc main_arg13)) (m ((c.tc : Thread nD τ).loc main_arg14)) (m ((c.tc : Thread nD τ).loc main_arg15)) (m ((c.tc : Thread nD τ).loc main_arg16)) (m ((c.tc : Thread nD τ).loc main_arg17)) (m ((c.tc : Thread nD τ).loc main_arg18)) (m ((c.tc : Thread nD τ).loc main_arg19)) (m ((c.tc : Thread nD τ).loc main_arg20)) (m ((c.tc : Thread nD τ).loc main_arg21)) (m ((c.tc : Thread nD τ).loc main_arg22))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22) :=
  (θ_run defs _ _).mono (fun _ h c => ⟨(h c main_v245).trans (after_ops_v245 _),
      (h c main_arg0).trans (after_ops_arg _ (by decide)),
      (h c main_arg1).trans (after_ops_arg _ (by decide)),
      (h c main_arg2).trans (after_ops_arg _ (by decide)),
      (h c main_arg3).trans (after_ops_arg _ (by decide)),
      (h c main_arg4).trans (after_ops_arg _ (by decide)),
      (h c main_arg5).trans (after_ops_arg _ (by decide)),
      (h c main_arg6).trans (after_ops_arg _ (by decide)),
      (h c main_arg7).trans (after_ops_arg _ (by decide)),
      (h c main_arg8).trans (after_ops_arg _ (by decide)),
      (h c main_arg9).trans (after_ops_arg _ (by decide)),
      (h c main_arg10).trans (after_ops_arg _ (by decide)),
      (h c main_arg11).trans (after_ops_arg _ (by decide)),
      (h c main_arg12).trans (after_ops_arg _ (by decide)),
      (h c main_arg13).trans (after_ops_arg _ (by decide)),
      (h c main_arg14).trans (after_ops_arg _ (by decide)),
      (h c main_arg15).trans (after_ops_arg _ (by decide)),
      (h c main_arg16).trans (after_ops_arg _ (by decide)),
      (h c main_arg17).trans (after_ops_arg _ (by decide)),
      (h c main_arg18).trans (after_ops_arg _ (by decide)),
      (h c main_arg19).trans (after_ops_arg _ (by decide)),
      (h c main_arg20).trans (after_ops_arg _ (by decide)),
      (h c main_arg21).trans (after_ops_arg _ (by decide)),
      (h c main_arg22).trans (after_ops_arg _ (by decide))⟩)
    (run_seq scopedRefs_eq scopedSems_eq defs main (fun _ => ops) main_eq (fun _ => ops_sub) m ρ
      (fun _ => List.forall_iff_forall_mem.mp ops_fresh))

end Cert.Gnn.RefRun

end
-- ==== Proof.RefBatchOps.lean ====
/-
  The two batch-indexed operations of the array program, read at an index, when the batch words are the graph
  numbers: rows added per graph into a zero `128 × 64` array, and a per-graph vector read back per node (a negative
  number would be wrapped by 128 and a large one clamped; a graph number is neither).
-/
import proofs.«430900_j38714835206722_1_alg».proof.Proof.Gen.ReferenceIdeal
import proofs.«430900_j38714835206722_1_alg».proof.Proof.Shapes
import Idealize.ShloMosaic.PureOps.Ideal.Laws
import Idealize.ShloMosaic.Lib.ValueIdx
import Idealize.ShloMosaic.Lib.StableHlo.Predicate

noncomputable section

namespace Cert.Gnn

open Idealize.ShloMosaic Idealize.ShloMosaic.ValueIdx Cert.ReferenceIdeal

/-! ## The batch column -/

/-- A vector laid out as a one-column array reads, at `(r, 0)`, its entry `r`. -/
theorem column_apply (w : IVec S50000 32) (r : Fin 50000) (c : Fin 1) :
    broadcastInDim S50000x1 ![0] Facts₀.bcast_S50000_S50000x1_0 w (ix2 r c) = w (ix1 r) := by
  show w _ = w _
  refine congrArg w (funext fun a => ?_)
  match a with
  | ⟨0, _⟩ => rfl

/-- Two index pairs are equal exactly when their coordinates are. -/
theorem ix2_eq_ix2_iff {m n : Nat} (a c : Fin m) (b d : Fin n) : ix2 a b = ix2 c d ↔ a = c ∧ b = d := by
  constructor
  · intro h
    have h0 : ix2 a b 0 = ix2 c d 0 := congrFun h 0
    have h1 : ix2 a b 1 = ix2 c d 1 := congrFun h 1
    exact ⟨h0, h1⟩
  · rintro ⟨rfl, rfl⟩; rfl

/-- A graph number, as a 32-bit word read signed, is itself. -/
theorem toInt_graphWord (n : Fin 128) : (BitVec.ofNat 32 n.val).toInt = (n.val : Int) :=
  StableHlo.Predicate.toInt_ofNat_small n.val (by have := n.isLt; omega)

/-! ## The scatter: where a row of the updates lands -/

/-- On the scattered axis the window starts at the row's index word, read signed. -/
theorem scatter_start_row (idx : IVec S50000x1 32) (r : Fin 50000) (j' : Fin 64) :
    scatter_S128x64_S50000x1_S50000x64_1_0_0_1.start (ix2 r j') idx ⟨0, by decide⟩ = (idx (ix2 r 0)).toInt := by
  unfold ScatterDims.start
  rw [dif_pos (by decide)]
  refine congrArg (fun k => (idx k).toInt) (funext fun b => Fin.ext ?_)
  match b with
  | ⟨0, _⟩ => rfl
  | ⟨1, _⟩ => rfl

/-- On the channel axis the window starts at `0`. -/
theorem scatter_start_col (idx : IVec S50000x1 32) (r : Fin 50000) (j' : Fin 64) :
    scatter_S128x64_S50000x1_S50000x64_1_0_0_1.start (ix2 r j') idx ⟨1, by decide⟩ = 0 := by
  unfold ScatterDims.start
  rw [dif_neg (by decide)]

/-- The window has no extent on the scattered axis. -/
theorem scatter_window_row (r : Fin 50000) (j' : Fin 64) :
    scatter_S128x64_S50000x1_S50000x64_1_0_0_1.window (ix2 r j') ⟨0, by decide⟩ = 0 := by
  unfold ScatterDims.window
  rw [dif_neg (by decide)]

/-- On the channel axis the window coordinate is the update's channel. -/
theorem scatter_window_col (r : Fin 50000) (j' : Fin 64) :
    scatter_S128x64_S50000x1_S50000x64_1_0_0_1.window (ix2 r j') ⟨1, by decide⟩ = j'.val := by
  unfold ScatterDims.window
  rw [dif_pos (by decide)]
  rfl

/-- A row of the updates whose index word is the graph number `n` lands, channel by channel, on row `n`. -/
theorem scatter_resultIdx (idx : IVec S50000x1 32) (r : Fin 50000) (j' : Fin 64) (n : Fin 128)
    (hn : idx (ix2 r 0) = BitVec.ofNat 32 n.val) :
    scatter_S128x64_S50000x1_S50000x64_1_0_0_1.resultIdx? (ix2 r j') idx = some (ix2 n j') := by
  have h0 : scatter_S128x64_S50000x1_S50000x64_1_0_0_1.start (ix2 r j') idx ⟨0, by decide⟩
      + scatter_S128x64_S50000x1_S50000x64_1_0_0_1.window (ix2 r j') ⟨0, by decide⟩ = (n.val : Int) := by
    rw [scatter_start_row, scatter_window_row, hn, toInt_graphWord]; simp
  have h1 : scatter_S128x64_S50000x1_S50000x64_1_0_0_1.start (ix2 r j') idx ⟨1, by decide⟩
      + scatter_S128x64_S50000x1_S50000x64_1_0_0_1.window (ix2 r j') ⟨1, by decide⟩ = (j'.val : Int) := by
    rw [scatter_start_col, scatter_window_col]; simp
  unfold ScatterDims.resultIdx?
  have hall : ∀ a : Fin S128x64.rank,
      0 ≤ scatter_S128x64_S50000x1_S50000x64_1_0_0_1.start (ix2 r j') idx a
          + scatter_S128x64_S50000x1_S50000x64_1_0_0_1.window (ix2 r j') a ∧
        scatter_S128x64_S50000x1_S50000x64_1_0_0_1.start (ix2 r j') idx a
          + scatter_S128x64_S50000x1_S50000x64_1_0_0_1.window (ix2 r j') a < S128x64.size a := by
    intro a
    match a with
    | ⟨0, _⟩ =>
      rw [h0]
      have := n.isLt
      exact ⟨Int.natCast_nonneg _, by exact_mod_cast this⟩
    | ⟨1, _⟩ =>
      rw [h1]
      have := j'.isLt
      exact ⟨Int.natCast_nonneg _, by exact_mod_cast this⟩
  rw [dif_pos hall]
  refine congrArg some (funext fun a => Fin.ext ?_)
  match a with
  | ⟨0, _⟩ =>
    show (scatter_S128x64_S50000x1_S50000x64_1_0_0_1.start (ix2 r j') idx ⟨0, by decide⟩
      + scatter_S128x64_S50000x1_S50000x64_1_0_0_1.window (ix2 r j') ⟨0, by decide⟩).toNat = n.val
    rw [h0]; exact Int.toNat_natCast _
  | ⟨1, _⟩ =>
    show (scatter_S128x64_S50000x1_S50000x64_1_0_0_1.start (ix2 r j') idx ⟨1, by decide⟩
      + scatter_S128x64_S50000x1_S50000x64_1_0_0_1.window (ix2 r j') ⟨1, by decide⟩).toNat = j'.val
    rw [h1]; exact Int.toNat_natCast _

/-- Rows added per graph into a zero `128 × 64` array: entry `(g, j)` is the sum over the rows of graph `g`. -/
theorem segScatter_apply (bt : IVec S50000 32) (bI : Fin 50000 → Fin 128)
    (hb : ∀ r : Fin 50000, bt (ix1 r) = BitVec.ofNat 32 (bI r).val) (upd : FVec Ideal S50000x64 .f32) (g : Fin 128) (j : Fin 64) :
    Host.scatterAdd scatter_S128x64_S50000x1_S50000x64_1_0_0_1
        (broadcastInDim S128x64 ![] Facts₀.bcast_S_S128x64 (constant S_ .f32 0x00000000#32))
        (broadcastInDim S50000x1 ![0] Facts₀.bcast_S50000_S50000x1_0 bt) upd (ix2 g j)
      = segSum bI (un2 upd) g j := by
  -- every row's index word is its graph number, so update `(r, j')` lands on `(bI r, j')`
  have hland : ∀ (r : Fin 50000) (j' : Fin 64),
      scatter_S128x64_S50000x1_S50000x64_1_0_0_1.resultIdx? (ix2 r j')
          (broadcastInDim S50000x1 ![0] Facts₀.bcast_S50000_S50000x1_0 bt) = some (ix2 (bI r) j') :=
    fun r j' => scatter_resultIdx _ r j' (bI r) ((column_apply bt r 0).trans (hb r))
  show Ideal.hostScatterAdd scatter_S128x64_S50000x1_S50000x64_1_0_0_1 _ _ upd (ix2 g j) = _
  unfold Ideal.hostScatterAdd segSum
  -- the operand is the zero array
  have hz : broadcastInDim S128x64 ![] Facts₀.bcast_S_S128x64 (constant (F := Ideal) S_ .f32 0x00000000#32) (ix2 g j) = 0 :=
    Ideal.ofBits_zero_f32
  rw [hz, zero_add, Finset.sum_filter, sum_idx2, Finset.sum_filter]
  refine Finset.sum_congr rfl fun r _ => ?_
  by_cases hg : bI r = g
  · -- a row of graph `g`: of its entries exactly the one in channel `j` lands on `(g, j)`
    rw [if_pos hg]
    have hcol : ∀ j' : Fin 64,
        (if scatter_S128x64_S50000x1_S50000x64_1_0_0_1.resultIdx? (ix2 r j')
            (broadcastInDim S50000x1 ![0] Facts₀.bcast_S50000_S50000x1_0 bt) = some (ix2 g j) then upd (ix2 r j') else 0)
          = if j' = j then upd (ix2 r j') else 0 := by
      intro j'
      rw [hland r j', hg]
      by_cases hj : j' = j
      · rw [if_pos hj, if_pos (by rw [hj])]
      · rw [if_neg hj, if_neg (fun h => hj ((ix2_eq_ix2_iff _ _ _ _).mp (Option.some.inj h)).2)]
    rw [Finset.sum_congr rfl fun j' _ => hcol j', Finset.sum_ite_eq' Finset.univ j, if_pos (Finset.mem_univ j)]
    rfl
  · -- a row of another graph lands elsewhere
    rw [if_neg hg]
    refine Finset.sum_eq_zero fun j' _ => ?_
    rw [hland r j', if_neg (fun h => hg ((ix2_eq_ix2_iff _ _ _ _).mp (Option.some.inj h)).1)]

/-! ## The gather: which entry a node reads -/

/-- The wrap of a negative index by 128 leaves a graph number as it is: read signed it is not negative. -/
theorem wrap_graphWord (n : Fin 128) :
    Scalar.select (IntOp.cmpi .slt (BitVec.ofNat 32 n.val) 0#32) (IntOp.addi (BitVec.ofNat 32 n.val) 128#32) (BitVec.ofNat 32 n.val)
      = BitVec.ofNat 32 n.val := by
  have hlt : (BitVec.ofNat 32 n.val).toNat < 2 ^ 31 := by
    rw [BitVec.toNat_ofNat]; have := n.isLt; omega
  have hc : IntOp.cmpi .slt (BitVec.ofNat 32 n.val) 0#32 = 0#1 :=
    eq_zero_of_ne_one fun h => Nat.not_lt_zero _ ((StableHlo.Predicate.slt_iff_toNat hlt (by decide)).mp h)
  rw [hc, select_zero]

/-- The start of the one-entry slice: the node's index word read signed, kept inside `[0, 127]`. -/
theorem gather_start (idx : IVec S50000x1 32) (r : Fin 50000) :
    gather_S128_S50000x1_S50000_n_0_n_n_0_1_1.start (ix1 r) idx ⟨0, by decide⟩
      = min (idx (ix2 r 0)).toInt.toNat 127 := by
  unfold GatherDims.start
  rw [dif_pos (by decide)]
  refine congrArg (fun k => min (idx k).toInt.toNat 127) (funext fun b => Fin.ext ?_)
  match b with
  | ⟨0, _⟩ => rfl
  | ⟨1, _⟩ => rfl

/-- A node whose index word is the graph number `n` reads entry `n`. -/
theorem gather_operandIdx (idx : IVec S50000x1 32) (r : Fin 50000) (n : Fin 128)
    (hn : idx (ix2 r 0) = BitVec.ofNat 32 n.val) :
    gather_S128_S50000x1_S50000_n_0_n_n_0_1_1.operandIdx (ix1 r) idx = ix1 n := by
  funext a
  match a with
  | ⟨0, _⟩ =>
    refine Fin.ext ?_
    show gather_S128_S50000x1_S50000_n_0_n_n_0_1_1.start (ix1 r) idx ⟨0, by decide⟩
        + gather_S128_S50000x1_S50000_n_0_n_n_0_1_1.batchCoord (ix1 r) ⟨0, by decide⟩
        + gather_S128_S50000x1_S50000_n_0_n_n_0_1_1.offCoord (ix1 r) ⟨0, by decide⟩ = n.val
    rw [gather_start, hn, toInt_graphWord, Int.toNat_natCast,
      GatherDims.batchCoord_eq_zero _ _ _ (by decide), GatherDims.offCoord_eq_zero _ _ _ (by decide)]
    have := n.isLt
    omega

/-- A per-graph vector read back per node through the batch numbers: node `r` reads graph `bI r`. -/
theorem batchGather_apply (bt : IVec S50000 32) (bI : Fin 50000 → Fin 128)
    (hb : ∀ r : Fin 50000, bt (ix1 r) = BitVec.ofNat 32 (bI r).val) (v : FVec Ideal S128 .f32) (r : Fin 50000) :
    Host.gather gather_S128_S50000x1_S50000_n_0_n_n_0_1_1 v
        (broadcastInDim S50000x1 ![0] Facts₀.bcast_S50000_S50000x1_0
          (select (cmpi .slt bt (broadcastInDim S50000 ![] Facts₀.bcast_S_S50000 (constantI S_ 32 0#32)))
            (addi bt (broadcastInDim S50000 ![] Facts₀.bcast_S_S50000 (constantI S_ 32 128#32))) bt)) (ix1 r)
      = v (ix1 (bI r)) := by
  unfold Host.gather
  refine congrArg v (gather_operandIdx _ r (bI r) ?_)
  rw [column_apply]
  show Scalar.select (IntOp.cmpi .slt (bt (ix1 r)) 0#32) (IntOp.addi (bt (ix1 r)) 128#32) (bt (ix1 r)) = _
  rw [hb r, wrap_graphWord]

end Cert.Gnn

end
-- ==== Proof.RefLayer1.lean ====
/-
  The array program's first layer, read one operation at a time, is the layer computed the array way: the neighbour
  sum divided by the clamped degree, the two matrix products and the bias; then per graph the mean, the centred
  entries, the variance and its root read back per node; the scale, the shift and the leaky rectifier.
-/
import proofs.«430900_j38714835206722_1_alg».proof.Proof.RefReadP
import proofs.«430900_j38714835206722_1_alg».proof.Proof.HostTerms
import proofs.«430900_j38714835206722_1_alg».proof.Proof.RefBatchOps
import proofs.«430900_j38714835206722_1_alg».proof.Proof.LibPlainDot

import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gnn.Ref

open Idealize.ShloMosaic Idealize.ShloMosaic.ValueIdx Cert.ReferenceIdeal Cert.ReferenceIdeal.Read Cert.Gnn

/-! ## The stages the two programs share -/

/-- The neighbour sum stage is the shared neighbour sum of the features. -/
theorem v13_eq (x0 : (⟨S50000x64, .f32⟩ : BufTy).Contents (Elt Ideal)) (x21 : (⟨S2x800000, .i32⟩ : BufTy).Contents (Elt Ideal)) :
    val_main_v13 (F := Ideal) x0 x21 = aggArr x21 x0 := rfl

/-- The clamped degree stage is the shared clamped degree. -/
theorem v19_eq (x21 : (⟨S2x800000, .i32⟩ : BufTy).Contents (Elt Ideal)) :
    val_main_v19 (F := Ideal) x21 = degArr x21 := rfl

/-- The count-and-scale stage is the shared number of entries averaged over. -/
theorem v36_eq (x22 : (⟨S50000, .i32⟩ : BufTy).Contents (Elt Ideal)) :
    val_main_v36 (F := Ideal) x22 = normArr x22 := rfl

/-! ## Where the layout operations read -/

theorem idx20_21 (r : Fin 50000) (j : Fin 64) : idx_main_v20 (idx_main_v21 (ix2 r j)) = ix1 r := by
  funext a; match a with | ⟨0, _⟩ => rfl
theorem idx24_25 (r : Fin 50000) (j : Fin 64) : idx_main_v24 (idx_main_v25 (ix2 r j)) = ix1 j := by
  funext a; match a with | ⟨0, _⟩ => rfl
theorem idx49_50 (r : Fin 50000) (j : Fin 64) : idx_main_v49 (idx_main_v50 (ix2 r j)) = ix1 r := by
  funext a; match a with | ⟨0, _⟩ => rfl
theorem idx68_69 (r : Fin 50000) (j : Fin 64) : idx_main_v68 (idx_main_v69 (ix2 r j)) = ix1 r := by
  funext a; match a with | ⟨0, _⟩ => rfl
theorem idx71_72 (r : Fin 50000) (j : Fin 64) : idx_main_v71 (idx_main_v72 (ix2 r j)) = ix1 j := by
  funext a; match a with | ⟨0, _⟩ => rfl
theorem idx74_75 (r : Fin 50000) (j : Fin 64) : idx_main_v74 (idx_main_v75 (ix2 r j)) = ix1 j := by
  funext a; match a with | ⟨0, _⟩ => rfl
theorem lidx23 (r : Fin 50000) (j k : Fin 64) : lidx_main_v23 (ix2 r j) k = ix2 r k := by
  funext a; match a with | ⟨0, _⟩ => rfl | ⟨1, _⟩ => rfl
theorem ridx23 (r : Fin 50000) (j k : Fin 64) : ridx_main_v23 (ix2 r j) k = ix2 k j := by
  funext a; match a with | ⟨0, _⟩ => rfl | ⟨1, _⟩ => rfl
theorem lidx27 (r : Fin 50000) (j k : Fin 64) : lidx_main_v27 (ix2 r j) k = ix2 r k := by
  funext a; match a with | ⟨0, _⟩ => rfl | ⟨1, _⟩ => rfl
theorem ridx27 (r : Fin 50000) (j k : Fin 64) : ridx_main_v27 (ix2 r j) k = ix2 k j := by
  funext a; match a with | ⟨0, _⟩ => rfl | ⟨1, _⟩ => rfl
theorem idx40 (g : Fin 128) (k : Fin 64) : idx_main_v40 (ix1 g) k = ix2 g k := by
  funext a; match a with | ⟨0, _⟩ => rfl | ⟨1, _⟩ => rfl
theorem idx56 (g : Fin 128) (k : Fin 64) : idx_main_v56 (ix1 g) k = ix2 g k := by
  funext a; match a with | ⟨0, _⟩ => rfl | ⟨1, _⟩ => rfl

/-- The leaky rectifier as the array program spells it: where `y ≥ 0` take `y`, else `a · y`. -/
theorem select_oge_eq_prelu (a y : EReal) : Scalar.select (Ideal.cmp .oge y 0) y (a * y) = prelu a y := by
  unfold Scalar.select Ideal.cmp prelu
  by_cases h : (0 : EReal) ≤ y
  · simp [h]
  · simp [h]

section
variable (x0 : (⟨S50000x64, .f32⟩ : BufTy).Contents (Elt Ideal)) (x1 : (⟨S64x64, .f32⟩ : BufTy).Contents (Elt Ideal))
  (x2 : (⟨S64, .f32⟩ : BufTy).Contents (Elt Ideal)) (x3 : (⟨S64x64, .f32⟩ : BufTy).Contents (Elt Ideal))
  (x12 x13 : (⟨S64, .f32⟩ : BufTy).Contents (Elt Ideal)) (x18 : (⟨S1, .f32⟩ : BufTy).Contents (Elt Ideal))
  (x21 : (⟨S2x800000, .i32⟩ : BufTy).Contents (Elt Ideal)) (x22 : (⟨S50000, .i32⟩ : BufTy).Contents (Elt Ideal))
  (bI : Fin 50000 → Fin 128)

/-! ## The linear part -/

/-- The linear part of the first layer, as the specification writes it. -/
abbrev lin1 : Mat 50000 64 :=
  sageLin (aggR (AggF x21 (un2 x0)) (degmF x21)) (un2 x0) (un2 x1) (un2 x3) (un1 x2)

/-- The neighbour sum divided by the clamped degree, at an entry. -/
theorem v22_entry (r : Fin 50000) (j : Fin 64) :
    val_main_v22 (F := Ideal) x0 x21 (ix2 r j) = aggR (AggF x21 (un2 x0)) (degmF x21) r j := by
  rw [val_main_v22_apply, val_main_v21_apply, val_main_v20_apply, idx20_21, v13_eq, v19_eq]
  show Ideal.div (aggArr x21 x0 (ix2 r j)) (degArr x21 (ix1 r))
    = Ideal.div (aggArr x21 (mk2 (un2 x0)) (ix2 r j)) (degArr x21 (ix1 r))
  rw [mk2_un2]

/-- The linear part, at an entry. -/
theorem v28_entry (r : Fin 50000) (j : Fin 64) :
    val_main_v28 (F := Ideal) x0 x1 x2 x3 x21 (ix2 r j) = lin1 x0 x1 x2 x3 x21 r j := by
  rw [val_main_v28_apply, val_main_v26_apply, val_main_v23_apply, val_main_v27_apply, val_main_v25_apply,
    val_main_v24_apply, idx24_25]
  simp only [lidx23, ridx23, lidx27, ridx27, v22_entry]
  rfl

/-- The linear part as a whole array. -/
theorem v28_eq : val_main_v28 (F := Ideal) x0 x1 x2 x3 x21 = mk2 (lin1 x0 x1 x2 x3 x21) :=
  ext2 fun r j => v28_entry x0 x1 x2 x3 x21 r j

/-! ## The statistics per graph -/

/-- The rows of the linear part added per graph. -/
theorem v39_entry (hb : ∀ r : Fin 50000, x22 (ix1 r) = BitVec.ofNat 32 (bI r).val) (g : Fin 128) (k : Fin 64) :
    val_main_v39 (F := Ideal) x0 x1 x2 x3 x21 x22 (ix2 g k) = segSum bI (lin1 x0 x1 x2 x3 x21) g k := by
  unfold val_main_v39
  rw [v28_eq]
  exact segScatter_apply x22 bI hb (mk2 (lin1 x0 x1 x2 x3 x21)) g k

/-- The mean of a graph. -/
theorem v41_entry (hb : ∀ r : Fin 50000, x22 (ix1 r) = BitVec.ofNat 32 (bI r).val) (g : Fin 128) :
    val_main_v41 (F := Ideal) x0 x1 x2 x3 x21 x22 (ix1 g) = meanR (normF x22) bI (lin1 x0 x1 x2 x3 x21) g := by
  rw [val_main_v41_apply, val_main_v40_apply, v36_eq]
  simp only [idx40, v39_entry x0 x1 x2 x3 x21 x22 bI hb]
  show Ideal.div (Ideal.ofBits .f32 0x00000000#32 + ∑ k : Fin 64, segSum bI (lin1 x0 x1 x2 x3 x21) g k) (normArr x22 (ix1 g))
    = Ideal.div (∑ j : Fin 64, segSum bI (lin1 x0 x1 x2 x3 x21) g j) (normArr x22 (ix1 g))
  rw [Ideal.ofBits_zero_f32, zero_add]

/-- The mean read back per node. -/
theorem v48_entry (hb : ∀ r : Fin 50000, x22 (ix1 r) = BitVec.ofNat 32 (bI r).val) (r : Fin 50000) :
    val_main_v48 (F := Ideal) x0 x1 x2 x3 x21 x22 (ix1 r) = meanR (normF x22) bI (lin1 x0 x1 x2 x3 x21) (bI r) := by
  unfold val_main_v48
  refine (batchGather_apply x22 bI hb (val_main_v41 (F := Ideal) x0 x1 x2 x3 x21 x22) r).trans ?_
  exact v41_entry x0 x1 x2 x3 x21 x22 bI hb (bI r)

/-- The centred entry. -/
theorem v51_entry (hb : ∀ r : Fin 50000, x22 (ix1 r) = BitVec.ofNat 32 (bI r).val) (r : Fin 50000) (j : Fin 64) :
    val_main_v51 (F := Ideal) x0 x1 x2 x3 x21 x22 (ix2 r j) = centred (normF x22) bI (lin1 x0 x1 x2 x3 x21) r j := by
  rw [val_main_v51_apply, val_main_v50_apply, val_main_v49_apply, idx49_50, v28_entry,
    v48_entry x0 x1 x2 x3 x21 x22 bI hb]
  rfl

/-- The squared centred entries, as a matrix. -/
theorem v52_un2 (hb : ∀ r : Fin 50000, x22 (ix1 r) = BitVec.ofNat 32 (bI r).val) :
    un2 (val_main_v52 (F := Ideal) x0 x1 x2 x3 x21 x22)
      = fun r j => centred (normF x22) bI (lin1 x0 x1 x2 x3 x21) r j * centred (normF x22) bI (lin1 x0 x1 x2 x3 x21) r j := by
  funext r j
  show val_main_v52 (F := Ideal) x0 x1 x2 x3 x21 x22 (ix2 r j) = _
  rw [val_main_v52_apply, v51_entry x0 x1 x2 x3 x21 x22 bI hb]
  rfl

/-- The variance of a graph. -/
theorem v57_entry (hb : ∀ r : Fin 50000, x22 (ix1 r) = BitVec.ofNat 32 (bI r).val) (g : Fin 128) :
    val_main_v57 (F := Ideal) x0 x1 x2 x3 x21 x22 (ix1 g) = varR (normF x22) bI (lin1 x0 x1 x2 x3 x21) g := by
  have h55 : ∀ k : Fin 64, val_main_v55 (F := Ideal) x0 x1 x2 x3 x21 x22 (ix2 g k)
      = segSum bI (fun r j => centred (normF x22) bI (lin1 x0 x1 x2 x3 x21) r j
          * centred (normF x22) bI (lin1 x0 x1 x2 x3 x21) r j) g k := by
    intro k
    unfold val_main_v55
    refine (segScatter_apply x22 bI hb (val_main_v52 (F := Ideal) x0 x1 x2 x3 x21 x22) g k).trans ?_
    rw [v52_un2 x0 x1 x2 x3 x21 x22 bI hb]
  rw [val_main_v57_apply, val_main_v56_apply, v36_eq]
  simp only [idx56, h55]
  show Ideal.div (Ideal.ofBits .f32 0x00000000#32 + ∑ k : Fin 64, segSum bI _ g k) (normArr x22 (ix1 g))
    = Ideal.div (∑ j : Fin 64, segSum bI _ g j) (normArr x22 (ix1 g))
  rw [Ideal.ofBits_zero_f32, zero_add]

/-- The root of the variance plus the small constant, read back per node. -/
theorem v67_entry (hb : ∀ r : Fin 50000, x22 (ix1 r) = BitVec.ofNat 32 (bI r).val) (r : Fin 50000) :
    val_main_v67 (F := Ideal) x0 x1 x2 x3 x21 x22 (ix1 r)
      = Ideal.sqrt (varR (normF x22) bI (lin1 x0 x1 x2 x3 x21) (bI r) + epsC) := by
  unfold val_main_v67
  refine (batchGather_apply x22 bI hb (val_main_v60 (F := Ideal) x0 x1 x2 x3 x21 x22) r).trans ?_
  rw [val_main_v60_apply, val_main_v59_apply, val_main_v58_apply, val_main_cst_14_apply,
    v57_entry x0 x1 x2 x3 x21 x22 bI hb]
  simp only [Ideal.hostUnary_sqrt_def, Ideal.addf_def, Ideal.ofBits_def]
  rfl

/-! ## The normalisation and the rectifier -/

/-- The normalised, scaled and shifted entry. -/
theorem v76_entry (hb : ∀ r : Fin 50000, x22 (ix1 r) = BitVec.ofNat 32 (bI r).val) (r : Fin 50000) (j : Fin 64) :
    val_main_v76 (F := Ideal) x0 x1 x2 x3 x12 x13 x21 x22 (ix2 r j)
      = (Ideal.div (centred (normF x22) bI (lin1 x0 x1 x2 x3 x21) r j)
          (Ideal.sqrt (varR (normF x22) bI (lin1 x0 x1 x2 x3 x21) (bI r) + epsC)) * un1 x12 j) + un1 x13 j := by
  rw [val_main_v76_apply, val_main_v73_apply, val_main_v70_apply, val_main_v69_apply, val_main_v68_apply, idx68_69,
    val_main_v72_apply, val_main_v71_apply, idx71_72, val_main_v75_apply, val_main_v74_apply, idx74_75,
    v51_entry x0 x1 x2 x3 x21 x22 bI hb, v67_entry x0 x1 x2 x3 x21 x22 bI hb]
  rfl

/-- The layer of the specification at an entry: the rectifier of the normalised, scaled and shifted entry. -/
theorem layerR_entry (a : EReal) (r : Fin 50000) (j : Fin 64) :
    mk2 (layerR epsC (normF x22) (degmF x21) (AggF x21) bI (un2 x0) (un2 x1) (un1 x2) (un2 x3) (un1 x12) (un1 x13) a) (ix2 r j)
      = prelu a ((Ideal.div (centred (normF x22) bI (lin1 x0 x1 x2 x3 x21) r j)
          (Ideal.sqrt (varR (normF x22) bI (lin1 x0 x1 x2 x3 x21) (bI r) + epsC)) * un1 x12 j) + un1 x13 j) := by
  show lnApplyR epsC (normF x22) bI (lin1 x0 x1 x2 x3 x21) (un1 x12) (un1 x13) a r j = _
  rfl

/-- The slope, a one-entry array reshaped to a scalar, is its entry. -/
theorem v79_entry (i : S_.Idx) : val_main_v79 (F := Ideal) x18 i = x18 (ix1 (0 : Fin 1)) := by
  unfold val_main_v79
  refine shapeCast_apply x18 _ i (ix1 (0 : Fin 1)) ?_
  have h1 : (S_.rowMajor i).val < 1 := (S_.rowMajor i).isLt
  rw [Shape.rowMajor_val_one]
  show (0 : Nat) = _
  omega

end

/-- The first layer's output stage is the layer of the node features, the array way. -/
theorem layer1 (x0 : (⟨S50000x64, .f32⟩ : BufTy).Contents (Elt Ideal)) (x1 : (⟨S64x64, .f32⟩ : BufTy).Contents (Elt Ideal)) (x2 : (⟨S64, .f32⟩ : BufTy).Contents (Elt Ideal)) (x3 : (⟨S64x64, .f32⟩ : BufTy).Contents (Elt Ideal))
    (x12 x13 : (⟨S64, .f32⟩ : BufTy).Contents (Elt Ideal)) (x18 : (⟨S1, .f32⟩ : BufTy).Contents (Elt Ideal)) (x21 : (⟨S2x800000, .i32⟩ : BufTy).Contents (Elt Ideal)) (x22 : (⟨S50000, .i32⟩ : BufTy).Contents (Elt Ideal))
    (bI : Fin 50000 → Fin 128) (hb : ∀ r : Fin 50000, x22 (ix1 r) = BitVec.ofNat 32 (bI r).val) :
    val_main_v82 (F := Ideal) x0 x1 x2 x3 x12 x13 x18 x21 x22
      = mk2 (layerR epsC (normF x22) (degmF x21) (AggF x21) bI (un2 x0) (un2 x1) (un1 x2) (un2 x3) (un1 x12) (un1 x13) (x18 (ix1 (0 : Fin 1)))) := by
  refine ext2 fun r j => ?_
  rw [layerR_entry, val_main_v82_apply, val_main_v78_apply, val_main_v81_apply, val_main_v80_apply, v79_entry,
    val_main_v77_apply, val_main_cst_17_apply, v76_entry x0 x1 x2 x3 x12 x13 x21 x22 bI hb]
  simp only [Ideal.cmpf_def, Ideal.mulf_def, Ideal.ofBits_def, Ideal.ofBits_zero_f32]
  exact select_oge_eq_prelu _ _

end Cert.Gnn.Ref

end
-- ==== Proof.RefLayer2.lean ====
/-
  The array program's second layer, read one operation at a time, is the layer computed the array way, of whatever
  its input stage holds.
-/
import proofs.«430900_j38714835206722_1_alg».proof.Proof.RefReadP
import proofs.«430900_j38714835206722_1_alg».proof.Proof.HostTerms
import proofs.«430900_j38714835206722_1_alg».proof.Proof.RefBatchOps
import proofs.«430900_j38714835206722_1_alg».proof.Proof.LibPlainDot

import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gnn.Ref

open Idealize.ShloMosaic Idealize.ShloMosaic.ValueIdx Cert.ReferenceIdeal Cert.ReferenceIdeal.Read Cert.Gnn

/-! ### Indices from their coordinates' values -/

/-- A two-axis index whose coordinates have the values of `a` and `b` is the pair `(a, b)`. -/
theorem idx_eq_ix2 {n0 n1 : Nat} (i : (⟨2, ![n0, n1]⟩ : Shape).Idx) (a : Fin n0) (b : Fin n1)
    (h0 : (i 0).val = a.val) (h1 : (i 1).val = b.val) : i = ix2 a b := by
  funext d
  match d with
  | ⟨0, _⟩ => exact Fin.ext h0
  | ⟨1, _⟩ => exact Fin.ext h1

/-- A one-axis index whose coordinate has the value of `a` is `a`. -/
theorem idx_eq_ix1 {n : Nat} (i : (⟨1, ![n]⟩ : Shape).Idx) (a : Fin n) (h0 : (i 0).val = a.val) : i = ix1 a := by
  funext d
  match d with
  | ⟨0, _⟩ => exact Fin.ext h0

/-- The first product reads its left operand at `(r, k)` and its right operand at `(k, j)`. -/
theorem lidx_v104_ix2 (r : Fin 50000) (j k : Fin 64) : lidx_main_v104 (ix2 r j) k = ix2 r k := idx_eq_ix2 _ _ _ rfl rfl
theorem ridx_v104_ix2 (r : Fin 50000) (j k : Fin 64) : ridx_main_v104 (ix2 r j) k = ix2 k j := idx_eq_ix2 _ _ _ rfl rfl
/-- So does the second. -/
theorem lidx_v108_ix2 (r : Fin 50000) (j k : Fin 64) : lidx_main_v108 (ix2 r j) k = ix2 r k := idx_eq_ix2 _ _ _ rfl rfl
theorem ridx_v108_ix2 (r : Fin 50000) (j k : Fin 64) : ridx_main_v108 (ix2 r j) k = ix2 k j := idx_eq_ix2 _ _ _ rfl rfl

/-! ### The shared host terms -/

/-- The gather of the input's source rows added into the destination rows is the neighbour sum of the input. -/
theorem v94_eq_aggArr (x0 : (⟨S50000x64, .f32⟩ : BufTy).Contents (Elt Ideal)) (x1 : (⟨S64x64, .f32⟩ : BufTy).Contents (Elt Ideal)) (x2 : (⟨S64, .f32⟩ : BufTy).Contents (Elt Ideal)) (x3 x10 : (⟨S64x64, .f32⟩ : BufTy).Contents (Elt Ideal)) (x12 x13 : (⟨S64, .f32⟩ : BufTy).Contents (Elt Ideal)) (x18 : (⟨S1, .f32⟩ : BufTy).Contents (Elt Ideal)) (x21 : (⟨S2x800000, .i32⟩ : BufTy).Contents (Elt Ideal)) (x22 : (⟨S50000, .i32⟩ : BufTy).Contents (Elt Ideal)) (in2 : Mat 50000 64) (hin : val_main_v84 (F := Ideal) x0 x1 x2 x3 x10 x12 x13 x18 x21 x22 = mk2 in2) :
    val_main_v94 (F := Ideal) x0 x1 x2 x3 x10 x12 x13 x18 x21 x22 = aggArr x21 (mk2 in2) := by
  unfold val_main_v94 val_main_v91
  rw [hin]
  rfl

/-- The count of the edges landing on a node, at least one, is the clamped in-degree. -/
theorem v100_eq_degArr (x21 : (⟨S2x800000, .i32⟩ : BufTy).Contents (Elt Ideal)) : val_main_v100 (F := Ideal) x21 = degArr x21 := rfl

/-- The node count per graph, at least one, times 64, is the number of entries averaged over. -/
theorem v117_eq_normArr (x22 : (⟨S50000, .i32⟩ : BufTy).Contents (Elt Ideal)) : val_main_v117 (F := Ideal) x22 = normArr x22 := rfl

/-! ### The linear part -/

/-- The neighbour sum over the clamped degree, at an entry. -/
theorem v103_ix2 (x0 : (⟨S50000x64, .f32⟩ : BufTy).Contents (Elt Ideal)) (x1 : (⟨S64x64, .f32⟩ : BufTy).Contents (Elt Ideal)) (x2 : (⟨S64, .f32⟩ : BufTy).Contents (Elt Ideal)) (x3 x10 : (⟨S64x64, .f32⟩ : BufTy).Contents (Elt Ideal)) (x12 x13 : (⟨S64, .f32⟩ : BufTy).Contents (Elt Ideal)) (x18 : (⟨S1, .f32⟩ : BufTy).Contents (Elt Ideal)) (x21 : (⟨S2x800000, .i32⟩ : BufTy).Contents (Elt Ideal)) (x22 : (⟨S50000, .i32⟩ : BufTy).Contents (Elt Ideal)) (in2 : Mat 50000 64) (hin : val_main_v84 (F := Ideal) x0 x1 x2 x3 x10 x12 x13 x18 x21 x22 = mk2 in2) (r : Fin 50000) (k : Fin 64) :
    val_main_v103 (F := Ideal) x0 x1 x2 x3 x10 x12 x13 x18 x21 x22 (ix2 r k) = aggR (AggF x21 in2) (degmF x21) r k := by
  rw [val_main_v103_apply, val_main_v102_apply, val_main_v101_apply, v94_eq_aggArr x0 x1 x2 x3 x10 x12 x13 x18 x21 x22 in2 hin, v100_eq_degArr,
    show idx_main_v101 (idx_main_v102 (ix2 r k)) = ix1 r from idx_eq_ix1 _ _ rfl]
  rfl

/-- The linear part as a whole array: the aggregate times the left weights, plus the bias, plus the input times the
    right weights. -/
theorem v109_eq (x0 : (⟨S50000x64, .f32⟩ : BufTy).Contents (Elt Ideal)) (x1 : (⟨S64x64, .f32⟩ : BufTy).Contents (Elt Ideal)) (x2 : (⟨S64, .f32⟩ : BufTy).Contents (Elt Ideal)) (x3 x4 : (⟨S64x64, .f32⟩ : BufTy).Contents (Elt Ideal)) (x5 : (⟨S64, .f32⟩ : BufTy).Contents (Elt Ideal)) (x6 x10 : (⟨S64x64, .f32⟩ : BufTy).Contents (Elt Ideal)) (x12 x13 : (⟨S64, .f32⟩ : BufTy).Contents (Elt Ideal)) (x18 : (⟨S1, .f32⟩ : BufTy).Contents (Elt Ideal)) (x21 : (⟨S2x800000, .i32⟩ : BufTy).Contents (Elt Ideal)) (x22 : (⟨S50000, .i32⟩ : BufTy).Contents (Elt Ideal)) (in2 : Mat 50000 64) (hin : val_main_v84 (F := Ideal) x0 x1 x2 x3 x10 x12 x13 x18 x21 x22 = mk2 in2) :
    val_main_v109 (F := Ideal) x0 x1 x2 x3 x4 x5 x6 x10 x12 x13 x18 x21 x22 = mk2 (sageLin (aggR (AggF x21 in2) (degmF x21)) in2 (un2 x4) (un2 x6) (un1 x5)) := by
  refine ext2 fun r j => ?_
  rw [val_main_v109_apply, val_main_v107_apply, val_main_v104_apply, val_main_v108_apply, val_main_v106_apply,
    val_main_v105_apply, hin,
    show idx_main_v105 (idx_main_v106 (ix2 r j)) = ix1 j from idx_eq_ix1 _ _ rfl]
  simp only [lidx_v104_ix2, ridx_v104_ix2, lidx_v108_ix2, ridx_v108_ix2, v103_ix2 x0 x1 x2 x3 x10 x12 x13 x18 x21 x22 in2 hin]
  rfl

/-! ### The statistics per graph -/

/-- A reduce over the 64 channels reads row `g` at channel `k`. -/
theorem idx_v121_ix (g : Fin 128) (k : Fin 64) : idx_main_v121 (ix1 g) k = ix2 g k := idx_eq_ix2 _ _ _ rfl rfl
theorem idx_v137_ix (g : Fin 128) (k : Fin 64) : idx_main_v137 (ix1 g) k = ix2 g k := idx_eq_ix2 _ _ _ rfl rfl

/-- The per-graph mean of the linear part: the rows of a graph summed, then the channels, over the entry count. -/
theorem v122_ix1 (x0 : (⟨S50000x64, .f32⟩ : BufTy).Contents (Elt Ideal)) (x1 : (⟨S64x64, .f32⟩ : BufTy).Contents (Elt Ideal)) (x2 : (⟨S64, .f32⟩ : BufTy).Contents (Elt Ideal)) (x3 x4 : (⟨S64x64, .f32⟩ : BufTy).Contents (Elt Ideal)) (x5 : (⟨S64, .f32⟩ : BufTy).Contents (Elt Ideal)) (x6 x10 : (⟨S64x64, .f32⟩ : BufTy).Contents (Elt Ideal)) (x12 x13 : (⟨S64, .f32⟩ : BufTy).Contents (Elt Ideal)) (x18 : (⟨S1, .f32⟩ : BufTy).Contents (Elt Ideal)) (x21 : (⟨S2x800000, .i32⟩ : BufTy).Contents (Elt Ideal)) (x22 : (⟨S50000, .i32⟩ : BufTy).Contents (Elt Ideal)) (bI : Fin 50000 → Fin 128) (hb : ∀ r : Fin 50000, x22 (ix1 r) = BitVec.ofNat 32 (bI r).val) (in2 : Mat 50000 64) (hin : val_main_v84 (F := Ideal) x0 x1 x2 x3 x10 x12 x13 x18 x21 x22 = mk2 in2) (g : Fin 128) :
    val_main_v122 (F := Ideal) x0 x1 x2 x3 x4 x5 x6 x10 x12 x13 x18 x21 x22 (ix1 g) = meanR (normF x22) bI (sageLin (aggR (AggF x21 in2) (degmF x21)) in2 (un2 x4) (un2 x6) (un1 x5)) g := by
  have hseg : ∀ k : Fin 64, val_main_v120 (F := Ideal) x0 x1 x2 x3 x4 x5 x6 x10 x12 x13 x18 x21 x22 (ix2 g k) = segSum bI (sageLin (aggR (AggF x21 in2) (degmF x21)) in2 (un2 x4) (un2 x6) (un1 x5)) g k := by
    intro k
    unfold val_main_v120
    rw [v109_eq x0 x1 x2 x3 x4 x5 x6 x10 x12 x13 x18 x21 x22 in2 hin]
    exact segScatter_apply x22 bI hb (mk2 (sageLin (aggR (AggF x21 in2) (degmF x21)) in2 (un2 x4) (un2 x6) (un1 x5))) g k
  rw [val_main_v122_apply, val_main_v121_apply, v117_eq_normArr, val_main_cst_29_apply, Ideal.ofBits_def,
    Ideal.ofBits_zero_f32, zero_add]
  simp only [idx_v121_ix, hseg]
  rfl

/-- The mean read back per node: node `r` reads its graph's. -/
theorem v129_ix1 (x0 : (⟨S50000x64, .f32⟩ : BufTy).Contents (Elt Ideal)) (x1 : (⟨S64x64, .f32⟩ : BufTy).Contents (Elt Ideal)) (x2 : (⟨S64, .f32⟩ : BufTy).Contents (Elt Ideal)) (x3 x4 : (⟨S64x64, .f32⟩ : BufTy).Contents (Elt Ideal)) (x5 : (⟨S64, .f32⟩ : BufTy).Contents (Elt Ideal)) (x6 x10 : (⟨S64x64, .f32⟩ : BufTy).Contents (Elt Ideal)) (x12 x13 : (⟨S64, .f32⟩ : BufTy).Contents (Elt Ideal)) (x18 : (⟨S1, .f32⟩ : BufTy).Contents (Elt Ideal)) (x21 : (⟨S2x800000, .i32⟩ : BufTy).Contents (Elt Ideal)) (x22 : (⟨S50000, .i32⟩ : BufTy).Contents (Elt Ideal)) (bI : Fin 50000 → Fin 128) (hb : ∀ r : Fin 50000, x22 (ix1 r) = BitVec.ofNat 32 (bI r).val) (in2 : Mat 50000 64) (hin : val_main_v84 (F := Ideal) x0 x1 x2 x3 x10 x12 x13 x18 x21 x22 = mk2 in2) (r : Fin 50000) :
    val_main_v129 (F := Ideal) x0 x1 x2 x3 x4 x5 x6 x10 x12 x13 x18 x21 x22 (ix1 r) = meanR (normF x22) bI (sageLin (aggR (AggF x21 in2) (degmF x21)) in2 (un2 x4) (un2 x6) (un1 x5)) (bI r) := by
  unfold val_main_v129
  exact (batchGather_apply x22 bI hb _ r).trans (v122_ix1 x0 x1 x2 x3 x4 x5 x6 x10 x12 x13 x18 x21 x22 bI hb in2 hin (bI r))

/-- The centred linear part as a whole array. -/
theorem v132_eq (x0 : (⟨S50000x64, .f32⟩ : BufTy).Contents (Elt Ideal)) (x1 : (⟨S64x64, .f32⟩ : BufTy).Contents (Elt Ideal)) (x2 : (⟨S64, .f32⟩ : BufTy).Contents (Elt Ideal)) (x3 x4 : (⟨S64x64, .f32⟩ : BufTy).Contents (Elt Ideal)) (x5 : (⟨S64, .f32⟩ : BufTy).Contents (Elt Ideal)) (x6 x10 : (⟨S64x64, .f32⟩ : BufTy).Contents (Elt Ideal)) (x12 x13 : (⟨S64, .f32⟩ : BufTy).Contents (Elt Ideal)) (x18 : (⟨S1, .f32⟩ : BufTy).Contents (Elt Ideal)) (x21 : (⟨S2x800000, .i32⟩ : BufTy).Contents (Elt Ideal)) (x22 : (⟨S50000, .i32⟩ : BufTy).Contents (Elt Ideal)) (bI : Fin 50000 → Fin 128) (hb : ∀ r : Fin 50000, x22 (ix1 r) = BitVec.ofNat 32 (bI r).val) (in2 : Mat 50000 64) (hin : val_main_v84 (F := Ideal) x0 x1 x2 x3 x10 x12 x13 x18 x21 x22 = mk2 in2) :
    val_main_v132 (F := Ideal) x0 x1 x2 x3 x4 x5 x6 x10 x12 x13 x18 x21 x22 = mk2 (centred (normF x22) bI (sageLin (aggR (AggF x21 in2) (degmF x21)) in2 (un2 x4) (un2 x6) (un1 x5))) := by
  refine ext2 fun r j => ?_
  rw [val_main_v132_apply, val_main_v131_apply, val_main_v130_apply, v109_eq x0 x1 x2 x3 x4 x5 x6 x10 x12 x13 x18 x21 x22 in2 hin,
    show idx_main_v130 (idx_main_v131 (ix2 r j)) = ix1 r from idx_eq_ix1 _ _ rfl,
    v129_ix1 x0 x1 x2 x3 x4 x5 x6 x10 x12 x13 x18 x21 x22 bI hb in2 hin r]
  rfl

/-- The squared centred entries as a whole array. -/
theorem v133_eq (x0 : (⟨S50000x64, .f32⟩ : BufTy).Contents (Elt Ideal)) (x1 : (⟨S64x64, .f32⟩ : BufTy).Contents (Elt Ideal)) (x2 : (⟨S64, .f32⟩ : BufTy).Contents (Elt Ideal)) (x3 x4 : (⟨S64x64, .f32⟩ : BufTy).Contents (Elt Ideal)) (x5 : (⟨S64, .f32⟩ : BufTy).Contents (Elt Ideal)) (x6 x10 : (⟨S64x64, .f32⟩ : BufTy).Contents (Elt Ideal)) (x12 x13 : (⟨S64, .f32⟩ : BufTy).Contents (Elt Ideal)) (x18 : (⟨S1, .f32⟩ : BufTy).Contents (Elt Ideal)) (x21 : (⟨S2x800000, .i32⟩ : BufTy).Contents (Elt Ideal)) (x22 : (⟨S50000, .i32⟩ : BufTy).Contents (Elt Ideal)) (bI : Fin 50000 → Fin 128) (hb : ∀ r : Fin 50000, x22 (ix1 r) = BitVec.ofNat 32 (bI r).val) (in2 : Mat 50000 64) (hin : val_main_v84 (F := Ideal) x0 x1 x2 x3 x10 x12 x13 x18 x21 x22 = mk2 in2) :
    val_main_v133 (F := Ideal) x0 x1 x2 x3 x4 x5 x6 x10 x12 x13 x18 x21 x22
      = mk2 (fun r j => centred (normF x22) bI (sageLin (aggR (AggF x21 in2) (degmF x21)) in2 (un2 x4) (un2 x6) (un1 x5)) r j * centred (normF x22) bI (sageLin (aggR (AggF x21 in2) (degmF x21)) in2 (un2 x4) (un2 x6) (un1 x5)) r j) := by
  refine ext2 fun r j => ?_
  rw [val_main_v133_apply, v132_eq x0 x1 x2 x3 x4 x5 x6 x10 x12 x13 x18 x21 x22 bI hb in2 hin]
  rfl

/-- The per-graph variance: the squared centred entries of a graph summed over the entry count. -/
theorem v138_ix1 (x0 : (⟨S50000x64, .f32⟩ : BufTy).Contents (Elt Ideal)) (x1 : (⟨S64x64, .f32⟩ : BufTy).Contents (Elt Ideal)) (x2 : (⟨S64, .f32⟩ : BufTy).Contents (Elt Ideal)) (x3 x4 : (⟨S64x64, .f32⟩ : BufTy).Contents (Elt Ideal)) (x5 : (⟨S64, .f32⟩ : BufTy).Contents (Elt Ideal)) (x6 x10 : (⟨S64x64, .f32⟩ : BufTy).Contents (Elt Ideal)) (x12 x13 : (⟨S64, .f32⟩ : BufTy).Contents (Elt Ideal)) (x18 : (⟨S1, .f32⟩ : BufTy).Contents (Elt Ideal)) (x21 : (⟨S2x800000, .i32⟩ : BufTy).Contents (Elt Ideal)) (x22 : (⟨S50000, .i32⟩ : BufTy).Contents (Elt Ideal)) (bI : Fin 50000 → Fin 128) (hb : ∀ r : Fin 50000, x22 (ix1 r) = BitVec.ofNat 32 (bI r).val) (in2 : Mat 50000 64) (hin : val_main_v84 (F := Ideal) x0 x1 x2 x3 x10 x12 x13 x18 x21 x22 = mk2 in2) (g : Fin 128) :
    val_main_v138 (F := Ideal) x0 x1 x2 x3 x4 x5 x6 x10 x12 x13 x18 x21 x22 (ix1 g) = varR (normF x22) bI (sageLin (aggR (AggF x21 in2) (degmF x21)) in2 (un2 x4) (un2 x6) (un1 x5)) g := by
  have hseg : ∀ k : Fin 64, val_main_v136 (F := Ideal) x0 x1 x2 x3 x4 x5 x6 x10 x12 x13 x18 x21 x22 (ix2 g k)
      = segSum bI (fun r j => centred (normF x22) bI (sageLin (aggR (AggF x21 in2) (degmF x21)) in2 (un2 x4) (un2 x6) (un1 x5)) r j * centred (normF x22) bI (sageLin (aggR (AggF x21 in2) (degmF x21)) in2 (un2 x4) (un2 x6) (un1 x5)) r j) g k := by
    intro k
    unfold val_main_v136
    rw [v133_eq x0 x1 x2 x3 x4 x5 x6 x10 x12 x13 x18 x21 x22 bI hb in2 hin]
    exact segScatter_apply x22 bI hb (mk2 _) g k
  rw [val_main_v138_apply, val_main_v137_apply, v117_eq_normArr, val_main_cst_33_apply, Ideal.ofBits_def,
    Ideal.ofBits_zero_f32, zero_add]
  simp only [idx_v137_ix, hseg]
  rfl

/-- The root of the variance plus `eps`, read back per node. -/
theorem v148_ix1 (x0 : (⟨S50000x64, .f32⟩ : BufTy).Contents (Elt Ideal)) (x1 : (⟨S64x64, .f32⟩ : BufTy).Contents (Elt Ideal)) (x2 : (⟨S64, .f32⟩ : BufTy).Contents (Elt Ideal)) (x3 x4 : (⟨S64x64, .f32⟩ : BufTy).Contents (Elt Ideal)) (x5 : (⟨S64, .f32⟩ : BufTy).Contents (Elt Ideal)) (x6 x10 : (⟨S64x64, .f32⟩ : BufTy).Contents (Elt Ideal)) (x12 x13 : (⟨S64, .f32⟩ : BufTy).Contents (Elt Ideal)) (x18 : (⟨S1, .f32⟩ : BufTy).Contents (Elt Ideal)) (x21 : (⟨S2x800000, .i32⟩ : BufTy).Contents (Elt Ideal)) (x22 : (⟨S50000, .i32⟩ : BufTy).Contents (Elt Ideal)) (bI : Fin 50000 → Fin 128) (hb : ∀ r : Fin 50000, x22 (ix1 r) = BitVec.ofNat 32 (bI r).val) (in2 : Mat 50000 64) (hin : val_main_v84 (F := Ideal) x0 x1 x2 x3 x10 x12 x13 x18 x21 x22 = mk2 in2) (r : Fin 50000) :
    val_main_v148 (F := Ideal) x0 x1 x2 x3 x4 x5 x6 x10 x12 x13 x18 x21 x22 (ix1 r) = Ideal.sqrt (varR (normF x22) bI (sageLin (aggR (AggF x21 in2) (degmF x21)) in2 (un2 x4) (un2 x6) (un1 x5)) (bI r) + epsC) := by
  unfold val_main_v148
  refine (batchGather_apply x22 bI hb _ r).trans ?_
  rw [val_main_v141_apply, val_main_v140_apply, val_main_v139_apply, val_main_cst_34_apply,
    v138_ix1 x0 x1 x2 x3 x4 x5 x6 x10 x12 x13 x18 x21 x22 bI hb in2 hin (bI r), Ideal.hostUnary_sqrt_def, Ideal.addf_def, Ideal.ofBits_def]
  unfold epsC
  rfl

/-! ### The normalised entries and the rectifier -/

/-- The normalised entry before the rectifier: the centred entry over the root, scaled and shifted per channel. -/
theorem v157_ix2 (x0 : (⟨S50000x64, .f32⟩ : BufTy).Contents (Elt Ideal)) (x1 : (⟨S64x64, .f32⟩ : BufTy).Contents (Elt Ideal)) (x2 : (⟨S64, .f32⟩ : BufTy).Contents (Elt Ideal)) (x3 x4 : (⟨S64x64, .f32⟩ : BufTy).Contents (Elt Ideal)) (x5 : (⟨S64, .f32⟩ : BufTy).Contents (Elt Ideal)) (x6 x10 : (⟨S64x64, .f32⟩ : BufTy).Contents (Elt Ideal)) (x12 x13 x14 x15 : (⟨S64, .f32⟩ : BufTy).Contents (Elt Ideal)) (x18 : (⟨S1, .f32⟩ : BufTy).Contents (Elt Ideal)) (x21 : (⟨S2x800000, .i32⟩ : BufTy).Contents (Elt Ideal)) (x22 : (⟨S50000, .i32⟩ : BufTy).Contents (Elt Ideal)) (bI : Fin 50000 → Fin 128) (hb : ∀ r : Fin 50000, x22 (ix1 r) = BitVec.ofNat 32 (bI r).val) (in2 : Mat 50000 64) (hin : val_main_v84 (F := Ideal) x0 x1 x2 x3 x10 x12 x13 x18 x21 x22 = mk2 in2) (r : Fin 50000) (j : Fin 64) :
    val_main_v157 (F := Ideal) x0 x1 x2 x3 x4 x5 x6 x10 x12 x13 x14 x15 x18 x21 x22 (ix2 r j)
      = (Ideal.div (centred (normF x22) bI (sageLin (aggR (AggF x21 in2) (degmF x21)) in2 (un2 x4) (un2 x6) (un1 x5)) r j) (Ideal.sqrt (varR (normF x22) bI (sageLin (aggR (AggF x21 in2) (degmF x21)) in2 (un2 x4) (un2 x6) (un1 x5)) (bI r) + epsC)) * un1 x14 j) + un1 x15 j := by
  rw [val_main_v157_apply, val_main_v154_apply, val_main_v151_apply, val_main_v150_apply, val_main_v149_apply,
    val_main_v153_apply, val_main_v152_apply, val_main_v156_apply, val_main_v155_apply,
    v132_eq x0 x1 x2 x3 x4 x5 x6 x10 x12 x13 x18 x21 x22 bI hb in2 hin,
    show idx_main_v149 (idx_main_v150 (ix2 r j)) = ix1 r from idx_eq_ix1 _ _ rfl,
    show idx_main_v152 (idx_main_v153 (ix2 r j)) = ix1 j from idx_eq_ix1 _ _ rfl,
    show idx_main_v155 (idx_main_v156 (ix2 r j)) = ix1 j from idx_eq_ix1 _ _ rfl,
    v148_ix1 x0 x1 x2 x3 x4 x5 x6 x10 x12 x13 x18 x21 x22 bI hb in2 hin r]
  rfl

/-- The slope, a one-entry vector reshaped to a scalar, is that entry. -/
theorem v160_apply (x19 : (⟨S1, .f32⟩ : BufTy).Contents (Elt Ideal)) (i : S_.Idx) : val_main_v160 (F := Ideal) x19 i = x19 (ix1 (0 : Fin 1)) := by
  unfold val_main_v160
  refine shapeCast_apply x19 _ i (ix1 (0 : Fin 1)) ?_
  rw [Shape.rowMajor_val_one]
  have h := (S_.rowMajor i).isLt
  have h1 : S_.numel = 1 := by decide
  show 0 = (S_.rowMajor i).val
  omega

/-- Selecting `y` where `y ≥ 0` and `a * y` elsewhere is the leaky rectifier with slope `a`. -/
theorem select_ge_zero_eq_prelu (a y : EReal) :
    Scalar.select (FloatOps.cmpf (F := Ideal) (φ := .f32) .oge y (FloatOps.ofBits (F := Ideal) .f32 0x00000000#32)) y (FloatOps.mulf (F := Ideal) (φ := .f32) a y)
      = prelu a y := by
  rw [Ideal.cmpf_def, Ideal.ofBits_def, Ideal.ofBits_zero_f32, Ideal.mulf_def]
  unfold prelu Ideal.cmp Scalar.select
  by_cases h : (0 : EReal) ≤ y
  · rw [if_pos h, if_pos (by simp [h])]
  · rw [if_neg h, if_neg (by simp [h])]

/-- The second layer's output stage is the layer, the array way, of the second layer's input. -/
theorem layer2 (x0 : (⟨S50000x64, .f32⟩ : BufTy).Contents (Elt Ideal)) (x1 : (⟨S64x64, .f32⟩ : BufTy).Contents (Elt Ideal)) (x2 : (⟨S64, .f32⟩ : BufTy).Contents (Elt Ideal)) (x3 x4 : (⟨S64x64, .f32⟩ : BufTy).Contents (Elt Ideal))
    (x5 : (⟨S64, .f32⟩ : BufTy).Contents (Elt Ideal)) (x6 x10 : (⟨S64x64, .f32⟩ : BufTy).Contents (Elt Ideal)) (x12 x13 x14 x15 : (⟨S64, .f32⟩ : BufTy).Contents (Elt Ideal)) (x18 x19 : (⟨S1, .f32⟩ : BufTy).Contents (Elt Ideal))
    (x21 : (⟨S2x800000, .i32⟩ : BufTy).Contents (Elt Ideal)) (x22 : (⟨S50000, .i32⟩ : BufTy).Contents (Elt Ideal))
    (bI : Fin 50000 → Fin 128) (hb : ∀ r : Fin 50000, x22 (ix1 r) = BitVec.ofNat 32 (bI r).val) (in2 : Mat 50000 64)
    (hin : val_main_v84 (F := Ideal) x0 x1 x2 x3 x10 x12 x13 x18 x21 x22 = mk2 in2) :
    val_main_v163 (F := Ideal) x0 x1 x2 x3 x4 x5 x6 x10 x12 x13 x14 x15 x18 x19 x21 x22
      = mk2 (layerR epsC (normF x22) (degmF x21) (AggF x21) bI in2 (un2 x4) (un1 x5) (un2 x6) (un1 x14) (un1 x15) (x19 (ix1 (0 : Fin 1)))) := by
  refine ext2 fun r j => ?_
  rw [val_main_v163_apply, val_main_v159_apply, val_main_v162_apply, val_main_v161_apply, val_main_v158_apply,
    val_main_cst_37_apply, v160_apply, v157_ix2 x0 x1 x2 x3 x4 x5 x6 x10 x12 x13 x14 x15 x18 x21 x22 bI hb in2 hin r j, select_ge_zero_eq_prelu]
  rfl

end Cert.Gnn.Ref

end
-- ==== Proof.RefLayer3.lean ====
/-
  The array program's third layer, read one operation at a time, is the layer computed the array way, of whatever
  its input stage holds.
-/
import proofs.«430900_j38714835206722_1_alg».proof.Proof.RefReadP
import proofs.«430900_j38714835206722_1_alg».proof.Proof.HostTerms
import proofs.«430900_j38714835206722_1_alg».proof.Proof.RefBatchOps
import proofs.«430900_j38714835206722_1_alg».proof.Proof.LibPlainDot

import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gnn.Ref

open Idealize.ShloMosaic Idealize.ShloMosaic.ValueIdx Cert.ReferenceIdeal Cert.ReferenceIdeal.Read Cert.Gnn

section Stages

variable {x0 : (⟨S50000x64, .f32⟩ : BufTy).Contents (Elt Ideal)} {x1 : (⟨S64x64, .f32⟩ : BufTy).Contents (Elt Ideal)} {x2 : (⟨S64, .f32⟩ : BufTy).Contents (Elt Ideal)} {x3 x4 : (⟨S64x64, .f32⟩ : BufTy).Contents (Elt Ideal)}
    {x5 : (⟨S64, .f32⟩ : BufTy).Contents (Elt Ideal)} {x6 x7 : (⟨S64x64, .f32⟩ : BufTy).Contents (Elt Ideal)} {x8 : (⟨S64, .f32⟩ : BufTy).Contents (Elt Ideal)} {x9 x10 x11 : (⟨S64x64, .f32⟩ : BufTy).Contents (Elt Ideal)}
    {x12 x13 x14 x15 x16 x17 : (⟨S64, .f32⟩ : BufTy).Contents (Elt Ideal)} {x18 x19 x20 : (⟨S1, .f32⟩ : BufTy).Contents (Elt Ideal)}
    {x21 : (⟨S2x800000, .i32⟩ : BufTy).Contents (Elt Ideal)} {x22 : (⟨S50000, .i32⟩ : BufTy).Contents (Elt Ideal)}

/-! ## The shared host terms -/

/-- The clamped in-degree stage is the shared in-degree array. -/
theorem deg_stage : val_main_v182 (F := Ideal) x21 = degArr x21 := rfl

/-- The entries-per-graph stage is the shared count array. -/
theorem norm_stage : val_main_v199 (F := Ideal) x22 = normArr x22 := rfl

/-- The neighbour-sum stage is the shared neighbour sum of the layer's input stage. -/
theorem agg_stage : val_main_v176 (F := Ideal) x0 x1 x2 x3 x4 x5 x6 x10 x11 x12 x13 x14 x15 x18 x19 x21 x22 = aggArr x21 (val_main_v166 (F := Ideal) x0 x1 x2 x3 x4 x5 x6 x10 x11 x12 x13 x14 x15 x18 x19 x21 x22) := rfl

/-! ## Indices of the layout operations and the products, by coordinates -/

/-- The degree column spread over the channels reads node `r`'s degree at every `(r, j)`. -/
theorem deg_bcast (r : Fin 50000) (j : Fin 64) : val_main_v184 (F := Ideal) x21 (ix2 r j) = val_main_v182 (F := Ideal) x21 (ix1 r) := by
  rw [val_main_v184_apply, val_main_v183_apply]
  exact congrArg (val_main_v182 (F := Ideal) x21) (funext fun a => match a with | ⟨0, _⟩ => rfl)

/-- The bias row spread over the nodes reads channel `j`'s bias at every `(r, j)`. -/
theorem bias_bcast (r : Fin 50000) (j : Fin 64) : val_main_v188 (F := Ideal) x8 (ix2 r j) = x8 (ix1 j) := by
  rw [val_main_v188_apply, val_main_v187_apply]
  exact congrArg x8 (funext fun a => match a with | ⟨0, _⟩ => rfl)

/-- The scale row spread over the nodes reads channel `j`'s scale at every `(r, j)`. -/
theorem scale_bcast (r : Fin 50000) (j : Fin 64) : val_main_v235 (F := Ideal) x16 (ix2 r j) = x16 (ix1 j) := by
  rw [val_main_v235_apply, val_main_v234_apply]
  exact congrArg x16 (funext fun a => match a with | ⟨0, _⟩ => rfl)

/-- The shift row spread over the nodes reads channel `j`'s shift at every `(r, j)`. -/
theorem shift_bcast (r : Fin 50000) (j : Fin 64) : val_main_v238 (F := Ideal) x17 (ix2 r j) = x17 (ix1 j) := by
  rw [val_main_v238_apply, val_main_v237_apply]
  exact congrArg x17 (funext fun a => match a with | ⟨0, _⟩ => rfl)

/-- The first product reads its left operand at `(r, k)` … -/
theorem lidx186 (r : Fin 50000) (j k : Fin 64) : lidx_main_v186 (ix2 r j) k = ix2 r k :=
  funext fun a => match a with | ⟨0, _⟩ => rfl | ⟨1, _⟩ => rfl
/-- … and its right operand at `(k, j)`. -/
theorem ridx186 (r : Fin 50000) (j k : Fin 64) : ridx_main_v186 (ix2 r j) k = ix2 k j :=
  funext fun a => match a with | ⟨0, _⟩ => rfl | ⟨1, _⟩ => rfl
/-- The second product reads its left operand at `(r, k)` … -/
theorem lidx190 (r : Fin 50000) (j k : Fin 64) : lidx_main_v190 (ix2 r j) k = ix2 r k :=
  funext fun a => match a with | ⟨0, _⟩ => rfl | ⟨1, _⟩ => rfl
/-- … and its right operand at `(k, j)`. -/
theorem ridx190 (r : Fin 50000) (j k : Fin 64) : ridx_main_v190 (ix2 r j) k = ix2 k j :=
  funext fun a => match a with | ⟨0, _⟩ => rfl | ⟨1, _⟩ => rfl
/-- The sum over the channels of graph `g`'s row reads `(g, k)`, for the row sums … -/
theorem idx203 (g : Fin 128) (k : Fin 64) : idx_main_v203 (ix1 g) k = ix2 g k :=
  funext fun a => match a with | ⟨0, _⟩ => rfl | ⟨1, _⟩ => rfl
/-- … and for the sums of squares. -/
theorem idx219 (g : Fin 128) (k : Fin 64) : idx_main_v219 (ix1 g) k = ix2 g k :=
  funext fun a => match a with | ⟨0, _⟩ => rfl | ⟨1, _⟩ => rfl

/-! ## The linear part -/

/-- The scaled neighbour sum: the neighbour sum of the input divided by the clamped in-degree. -/
theorem agg_entry (in3 : Mat 50000 64)
    (hin : val_main_v166 (F := Ideal) x0 x1 x2 x3 x4 x5 x6 x10 x11 x12 x13 x14 x15 x18 x19 x21 x22 = mk2 in3) (r : Fin 50000) (k : Fin 64) :
    val_main_v185 (F := Ideal) x0 x1 x2 x3 x4 x5 x6 x10 x11 x12 x13 x14 x15 x18 x19 x21 x22 (ix2 r k) = aggR (AggF x21 in3) (degmF x21) r k := by
  rw [val_main_v185_apply, Ideal.hostDivf_def, deg_bcast, agg_stage, deg_stage, hin]
  rfl

/-- The linear part as a whole array. -/
theorem lin_stage (in3 : Mat 50000 64)
    (hin : val_main_v166 (F := Ideal) x0 x1 x2 x3 x4 x5 x6 x10 x11 x12 x13 x14 x15 x18 x19 x21 x22 = mk2 in3) :
    val_main_v191 (F := Ideal) x0 x1 x2 x3 x4 x5 x6 x7 x8 x9 x10 x11 x12 x13 x14 x15 x18 x19 x21 x22
      = mk2 (sageLin (aggR (AggF x21 in3) (degmF x21)) in3 (un2 x7) (un2 x9) (un1 x8)) := by
  refine ext2 fun r j => ?_
  rw [val_main_v191_apply, val_main_v189_apply, val_main_v186_apply, val_main_v190_apply, bias_bcast, hin]
  simp only [Ideal.addf_def, lidx186, ridx186, lidx190, ridx190, agg_entry in3 hin]
  rfl

/-! ## The statistics per graph -/

variable {bI : Fin 50000 → Fin 128}

/-- The rows of the linear part added per graph. -/
theorem seg_lin (hb : ∀ r : Fin 50000, x22 (ix1 r) = BitVec.ofNat 32 (bI r).val) {H : Mat 50000 64}
    (hH : val_main_v191 (F := Ideal) x0 x1 x2 x3 x4 x5 x6 x7 x8 x9 x10 x11 x12 x13 x14 x15 x18 x19 x21 x22 = mk2 H) (g : Fin 128) (j : Fin 64) :
    val_main_v202 (F := Ideal) x0 x1 x2 x3 x4 x5 x6 x7 x8 x9 x10 x11 x12 x13 x14 x15 x18 x19 x21 x22 (ix2 g j) = segSum bI H g j := by
  unfold val_main_v202 val_main_v200 val_main_cst_48 val_main_v201
  rw [hH]
  exact segScatter_apply x22 bI hb (mk2 H) g j

/-- A graph's mean: its row sums summed over the channels, over the number of its entries. -/
theorem mean_entry (hb : ∀ r : Fin 50000, x22 (ix1 r) = BitVec.ofNat 32 (bI r).val) {H : Mat 50000 64}
    (hH : val_main_v191 (F := Ideal) x0 x1 x2 x3 x4 x5 x6 x7 x8 x9 x10 x11 x12 x13 x14 x15 x18 x19 x21 x22 = mk2 H) (g : Fin 128) :
    val_main_v204 (F := Ideal) x0 x1 x2 x3 x4 x5 x6 x7 x8 x9 x10 x11 x12 x13 x14 x15 x18 x19 x21 x22 (ix1 g) = meanR (normF x22) bI H g := by
  rw [val_main_v204_apply, val_main_v203_apply, Ideal.hostDivf_def, norm_stage, val_main_cst_49_apply]
  simp only [Ideal.ofBits_def, Ideal.ofBits_zero_f32, zero_add, idx203, seg_lin hb hH]
  rfl

/-- The mean read back per node: node `r` reads its graph's. -/
theorem mean_node (hb : ∀ r : Fin 50000, x22 (ix1 r) = BitVec.ofNat 32 (bI r).val) {H : Mat 50000 64}
    (hH : val_main_v191 (F := Ideal) x0 x1 x2 x3 x4 x5 x6 x7 x8 x9 x10 x11 x12 x13 x14 x15 x18 x19 x21 x22 = mk2 H) (r : Fin 50000) :
    val_main_v211 (F := Ideal) x0 x1 x2 x3 x4 x5 x6 x7 x8 x9 x10 x11 x12 x13 x14 x15 x18 x19 x21 x22 (ix1 r) = meanR (normF x22) bI H (bI r) := by
  unfold val_main_v211 val_main_v210 val_main_v209 val_main_v206 val_main_v208 val_main_v205 val_main_v207 val_main_c_50 val_main_c_51
  exact (batchGather_apply x22 bI hb _ r).trans (mean_entry hb hH (bI r))

/-- The per-node mean spread over the channels. -/
theorem mean_bcast (r : Fin 50000) (j : Fin 64) :
    val_main_v213 (F := Ideal) x0 x1 x2 x3 x4 x5 x6 x7 x8 x9 x10 x11 x12 x13 x14 x15 x18 x19 x21 x22 (ix2 r j) = val_main_v211 (F := Ideal) x0 x1 x2 x3 x4 x5 x6 x7 x8 x9 x10 x11 x12 x13 x14 x15 x18 x19 x21 x22 (ix1 r) := by
  rw [val_main_v213_apply, val_main_v212_apply]
  exact congrArg (val_main_v211 (F := Ideal) x0 x1 x2 x3 x4 x5 x6 x7 x8 x9 x10 x11 x12 x13 x14 x15 x18 x19 x21 x22) (funext fun a => match a with | ⟨0, _⟩ => rfl)

/-- The centred array. -/
theorem centred_stage (hb : ∀ r : Fin 50000, x22 (ix1 r) = BitVec.ofNat 32 (bI r).val) {H : Mat 50000 64}
    (hH : val_main_v191 (F := Ideal) x0 x1 x2 x3 x4 x5 x6 x7 x8 x9 x10 x11 x12 x13 x14 x15 x18 x19 x21 x22 = mk2 H) :
    val_main_v214 (F := Ideal) x0 x1 x2 x3 x4 x5 x6 x7 x8 x9 x10 x11 x12 x13 x14 x15 x18 x19 x21 x22 = mk2 (centred (normF x22) bI H) := by
  refine ext2 fun r j => ?_
  rw [val_main_v214_apply, Ideal.subf_def, mean_bcast, mean_node hb hH, hH]
  rfl

/-- The squared centred entries. -/
theorem sq_stage (hb : ∀ r : Fin 50000, x22 (ix1 r) = BitVec.ofNat 32 (bI r).val) {H : Mat 50000 64}
    (hH : val_main_v191 (F := Ideal) x0 x1 x2 x3 x4 x5 x6 x7 x8 x9 x10 x11 x12 x13 x14 x15 x18 x19 x21 x22 = mk2 H) :
    val_main_v215 (F := Ideal) x0 x1 x2 x3 x4 x5 x6 x7 x8 x9 x10 x11 x12 x13 x14 x15 x18 x19 x21 x22 = mk2 (fun r j => centred (normF x22) bI H r j * centred (normF x22) bI H r j) := by
  refine ext2 fun r j => ?_
  rw [val_main_v215_apply, Ideal.mulf_def, centred_stage hb hH]
  rfl

/-- The rows of the squares added per graph. -/
theorem seg_sq (hb : ∀ r : Fin 50000, x22 (ix1 r) = BitVec.ofNat 32 (bI r).val) {C : Mat 50000 64}
    (hC : val_main_v215 (F := Ideal) x0 x1 x2 x3 x4 x5 x6 x7 x8 x9 x10 x11 x12 x13 x14 x15 x18 x19 x21 x22 = mk2 C) (g : Fin 128) (j : Fin 64) :
    val_main_v218 (F := Ideal) x0 x1 x2 x3 x4 x5 x6 x7 x8 x9 x10 x11 x12 x13 x14 x15 x18 x19 x21 x22 (ix2 g j) = segSum bI C g j := by
  unfold val_main_v218 val_main_v216 val_main_cst_52 val_main_v217
  rw [hC]
  exact segScatter_apply x22 bI hb (mk2 C) g j

/-- A graph's variance: the mean of its squared centred entries. -/
theorem var_entry (hb : ∀ r : Fin 50000, x22 (ix1 r) = BitVec.ofNat 32 (bI r).val) {H : Mat 50000 64}
    (hH : val_main_v191 (F := Ideal) x0 x1 x2 x3 x4 x5 x6 x7 x8 x9 x10 x11 x12 x13 x14 x15 x18 x19 x21 x22 = mk2 H) (g : Fin 128) :
    val_main_v220 (F := Ideal) x0 x1 x2 x3 x4 x5 x6 x7 x8 x9 x10 x11 x12 x13 x14 x15 x18 x19 x21 x22 (ix1 g) = varR (normF x22) bI H g := by
  rw [val_main_v220_apply, val_main_v219_apply, Ideal.hostDivf_def, norm_stage, val_main_cst_53_apply]
  simp only [Ideal.ofBits_def, Ideal.ofBits_zero_f32, zero_add, idx219, seg_sq hb (sq_stage hb hH)]
  rfl

/-- A graph's deviation: the root of its variance plus `eps`. -/
theorem root_entry (hb : ∀ r : Fin 50000, x22 (ix1 r) = BitVec.ofNat 32 (bI r).val) {H : Mat 50000 64}
    (hH : val_main_v191 (F := Ideal) x0 x1 x2 x3 x4 x5 x6 x7 x8 x9 x10 x11 x12 x13 x14 x15 x18 x19 x21 x22 = mk2 H) (g : Fin 128) :
    val_main_v223 (F := Ideal) x0 x1 x2 x3 x4 x5 x6 x7 x8 x9 x10 x11 x12 x13 x14 x15 x18 x19 x21 x22 (ix1 g) = Ideal.sqrt (varR (normF x22) bI H g + epsC) := by
  rw [val_main_v223_apply, Ideal.hostUnary_sqrt_def, val_main_v222_apply, Ideal.addf_def, var_entry hb hH, val_main_v221_apply,
    val_main_cst_54_apply]
  rfl

/-- The deviation read back per node. -/
theorem root_node (hb : ∀ r : Fin 50000, x22 (ix1 r) = BitVec.ofNat 32 (bI r).val) {H : Mat 50000 64}
    (hH : val_main_v191 (F := Ideal) x0 x1 x2 x3 x4 x5 x6 x7 x8 x9 x10 x11 x12 x13 x14 x15 x18 x19 x21 x22 = mk2 H) (r : Fin 50000) :
    val_main_v230 (F := Ideal) x0 x1 x2 x3 x4 x5 x6 x7 x8 x9 x10 x11 x12 x13 x14 x15 x18 x19 x21 x22 (ix1 r) = Ideal.sqrt (varR (normF x22) bI H (bI r) + epsC) := by
  unfold val_main_v230 val_main_v229 val_main_v228 val_main_v225 val_main_v227 val_main_v224 val_main_v226 val_main_c_55 val_main_c_56
  exact (batchGather_apply x22 bI hb _ r).trans (root_entry hb hH (bI r))

/-- The per-node deviation spread over the channels. -/
theorem root_bcast (r : Fin 50000) (j : Fin 64) :
    val_main_v232 (F := Ideal) x0 x1 x2 x3 x4 x5 x6 x7 x8 x9 x10 x11 x12 x13 x14 x15 x18 x19 x21 x22 (ix2 r j) = val_main_v230 (F := Ideal) x0 x1 x2 x3 x4 x5 x6 x7 x8 x9 x10 x11 x12 x13 x14 x15 x18 x19 x21 x22 (ix1 r) := by
  rw [val_main_v232_apply, val_main_v231_apply]
  exact congrArg (val_main_v230 (F := Ideal) x0 x1 x2 x3 x4 x5 x6 x7 x8 x9 x10 x11 x12 x13 x14 x15 x18 x19 x21 x22) (funext fun a => match a with | ⟨0, _⟩ => rfl)

/-! ## The normalised, scaled and shifted entry, and the rectifier -/

/-- The entry before the rectifier. -/
theorem affine_entry (hb : ∀ r : Fin 50000, x22 (ix1 r) = BitVec.ofNat 32 (bI r).val) {H : Mat 50000 64}
    (hH : val_main_v191 (F := Ideal) x0 x1 x2 x3 x4 x5 x6 x7 x8 x9 x10 x11 x12 x13 x14 x15 x18 x19 x21 x22 = mk2 H) (r : Fin 50000) (j : Fin 64) :
    val_main_v239 (F := Ideal) x0 x1 x2 x3 x4 x5 x6 x7 x8 x9 x10 x11 x12 x13 x14 x15 x16 x17 x18 x19 x21 x22 (ix2 r j)
      = Ideal.div (centred (normF x22) bI H r j) (Ideal.sqrt (varR (normF x22) bI H (bI r) + epsC)) * un1 x16 j + un1 x17 j := by
  rw [val_main_v239_apply, val_main_v236_apply, val_main_v233_apply, Ideal.addf_def, Ideal.mulf_def, Ideal.hostDivf_def,
    root_bcast, root_node hb hH, scale_bcast, shift_bcast, centred_stage hb hH]
  rfl

/-- The slope, a one-entry array read as a scalar and spread over the whole array. -/
theorem slope_bcast (r : Fin 50000) (j : Fin 64) : val_main_v243 (F := Ideal) x20 (ix2 r j) = x20 (ix1 (0 : Fin 1)) := by
  rw [val_main_v243_apply]
  unfold val_main_v242 shapeCast
  exact congrArg x20 ((eq_ix1 _).trans (congrArg ix1 (Subsingleton.elim _ _)))

/-- The zero array the rectifier compares with. -/
theorem zero_bcast (r : Fin 50000) (j : Fin 64) : val_main_v240 (F := Ideal) (ix2 r j) = 0 := by
  rw [val_main_v240_apply, val_main_cst_57_apply, Ideal.ofBits_def, Ideal.ofBits_zero_f32]

/-- The select on "the entry is at least zero" between the entry and the slope times the entry is the leaky rectifier. -/
theorem select_ge_zero (a y : EReal) : Scalar.select (Ideal.cmp .oge y 0) y (a * y) = prelu a y := by
  unfold Scalar.select Ideal.cmp prelu
  by_cases h : (0 : EReal) ≤ y
  · simp [h]
  · simp [h]

/-- The output stage is the normalisation of the linear part. -/
theorem out_stage (hb : ∀ r : Fin 50000, x22 (ix1 r) = BitVec.ofNat 32 (bI r).val) {H : Mat 50000 64}
    (hH : val_main_v191 (F := Ideal) x0 x1 x2 x3 x4 x5 x6 x7 x8 x9 x10 x11 x12 x13 x14 x15 x18 x19 x21 x22 = mk2 H) :
    val_main_v245 (F := Ideal) x0 x1 x2 x3 x4 x5 x6 x7 x8 x9 x10 x11 x12 x13 x14 x15 x16 x17 x18 x19 x20 x21 x22
      = mk2 (lnApplyR epsC (normF x22) bI H (un1 x16) (un1 x17) (x20 (ix1 (0 : Fin 1)))) := by
  refine ext2 fun r j => ?_
  rw [val_main_v245_apply, val_main_v241_apply, val_main_v244_apply, Ideal.cmpf_def, Ideal.mulf_def, slope_bcast, zero_bcast,
    affine_entry hb hH, select_ge_zero]
  rfl

end Stages

/-- The result stage is the layer, the array way, of the third layer's input. -/
theorem layer3 (x0 : (⟨S50000x64, .f32⟩ : BufTy).Contents (Elt Ideal)) (x1 : (⟨S64x64, .f32⟩ : BufTy).Contents (Elt Ideal)) (x2 : (⟨S64, .f32⟩ : BufTy).Contents (Elt Ideal)) (x3 x4 : (⟨S64x64, .f32⟩ : BufTy).Contents (Elt Ideal))
    (x5 : (⟨S64, .f32⟩ : BufTy).Contents (Elt Ideal)) (x6 x7 : (⟨S64x64, .f32⟩ : BufTy).Contents (Elt Ideal)) (x8 : (⟨S64, .f32⟩ : BufTy).Contents (Elt Ideal)) (x9 x10 x11 : (⟨S64x64, .f32⟩ : BufTy).Contents (Elt Ideal))
    (x12 x13 x14 x15 x16 x17 : (⟨S64, .f32⟩ : BufTy).Contents (Elt Ideal)) (x18 x19 x20 : (⟨S1, .f32⟩ : BufTy).Contents (Elt Ideal))
    (x21 : (⟨S2x800000, .i32⟩ : BufTy).Contents (Elt Ideal)) (x22 : (⟨S50000, .i32⟩ : BufTy).Contents (Elt Ideal))
    (bI : Fin 50000 → Fin 128) (hb : ∀ r : Fin 50000, x22 (ix1 r) = BitVec.ofNat 32 (bI r).val) (in3 : Mat 50000 64)
    (hin : val_main_v166 (F := Ideal) x0 x1 x2 x3 x4 x5 x6 x10 x11 x12 x13 x14 x15 x18 x19 x21 x22 = mk2 in3) :
    val_main_v245 (F := Ideal) x0 x1 x2 x3 x4 x5 x6 x7 x8 x9 x10 x11 x12 x13 x14 x15 x16 x17 x18 x19 x20 x21 x22
      = mk2 (layerR epsC (normF x22) (degmF x21) (AggF x21) bI in3 (un2 x7) (un1 x8) (un2 x9) (un1 x16) (un1 x17) (x20 (ix1 (0 : Fin 1)))) := by
  rw [out_stage hb (lin_stage in3 hin)]
  rfl

end Cert.Gnn.Ref

end
-- ==== Proof.RefValue.lean ====
/-
  The array program's result stage is the network computed the array way: the three layers joined by the two skip
  connections, each a sum of earlier stages and one matrix product.
-/
import proofs.«430900_j38714835206722_1_alg».proof.Proof.RefReadP
import proofs.«430900_j38714835206722_1_alg».proof.Proof.HostTerms
import proofs.«430900_j38714835206722_1_alg».proof.Proof.RefBatchOps
import proofs.«430900_j38714835206722_1_alg».proof.Proof.LibPlainDot
import proofs.«430900_j38714835206722_1_alg».proof.Proof.RefLayer1
import proofs.«430900_j38714835206722_1_alg».proof.Proof.RefLayer2
import proofs.«430900_j38714835206722_1_alg».proof.Proof.RefLayer3
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.Gnn.Ref

open Idealize.ShloMosaic Idealize.ShloMosaic.ValueIdx Cert.ReferenceIdeal Cert.ReferenceIdeal.Read Cert.Gnn

/-- The dot product of stage 83 reads its left operand at `(r, k)` and its right operand at `(k, j)`. -/
theorem lidx83 (r : Fin 50000) (j k : Fin 64) : lidx_main_v83 (ix2 r j) k = ix2 r k :=
  funext fun a => Fin.ext (by match a with | ⟨0, _⟩ => rfl | ⟨1, _⟩ => rfl)
theorem ridx83 (r : Fin 50000) (j k : Fin 64) : ridx_main_v83 (ix2 r j) k = ix2 k j :=
  funext fun a => Fin.ext (by match a with | ⟨0, _⟩ => rfl | ⟨1, _⟩ => rfl)

/-- The dot product of stage 165 reads its left operand at `(r, k)` and its right operand at `(k, j)`. -/
theorem lidx165 (r : Fin 50000) (j k : Fin 64) : lidx_main_v165 (ix2 r j) k = ix2 r k :=
  funext fun a => Fin.ext (by match a with | ⟨0, _⟩ => rfl | ⟨1, _⟩ => rfl)
theorem ridx165 (r : Fin 50000) (j k : Fin 64) : ridx_main_v165 (ix2 r j) k = ix2 k j :=
  funext fun a => Fin.ext (by match a with | ⟨0, _⟩ => rfl | ⟨1, _⟩ => rfl)

/-- The second layer's input stage is the first skip connection of the first layer's output. -/
theorem skip1_stage (x0 : (⟨S50000x64, .f32⟩ : BufTy).Contents (Elt Ideal)) (x1 : (⟨S64x64, .f32⟩ : BufTy).Contents (Elt Ideal)) (x2 : (⟨S64, .f32⟩ : BufTy).Contents (Elt Ideal)) (x3 x10 : (⟨S64x64, .f32⟩ : BufTy).Contents (Elt Ideal))
    (x12 x13 : (⟨S64, .f32⟩ : BufTy).Contents (Elt Ideal)) (x18 : (⟨S1, .f32⟩ : BufTy).Contents (Elt Ideal)) (x21 : (⟨S2x800000, .i32⟩ : BufTy).Contents (Elt Ideal)) (x22 : (⟨S50000, .i32⟩ : BufTy).Contents (Elt Ideal)) :
    val_main_v84 (F := Ideal) x0 x1 x2 x3 x10 x12 x13 x18 x21 x22
      = mk2 (skip1 (un2 (val_main_v82 (F := Ideal) x0 x1 x2 x3 x12 x13 x18 x21 x22)) (un2 x0) (un2 x10)) := by
  refine ext2 fun r j => ?_
  rw [val_main_v84_apply, val_main_v83_apply]
  simp only [lidx83, ridx83]
  rfl

/-- The third layer's input stage is the second skip connection of the first two layers' outputs. -/
theorem skip2_stage (x0 : (⟨S50000x64, .f32⟩ : BufTy).Contents (Elt Ideal)) (x1 : (⟨S64x64, .f32⟩ : BufTy).Contents (Elt Ideal)) (x2 : (⟨S64, .f32⟩ : BufTy).Contents (Elt Ideal)) (x3 x4 : (⟨S64x64, .f32⟩ : BufTy).Contents (Elt Ideal))
    (x5 : (⟨S64, .f32⟩ : BufTy).Contents (Elt Ideal)) (x6 x10 x11 : (⟨S64x64, .f32⟩ : BufTy).Contents (Elt Ideal)) (x12 x13 x14 x15 : (⟨S64, .f32⟩ : BufTy).Contents (Elt Ideal)) (x18 x19 : (⟨S1, .f32⟩ : BufTy).Contents (Elt Ideal))
    (x21 : (⟨S2x800000, .i32⟩ : BufTy).Contents (Elt Ideal)) (x22 : (⟨S50000, .i32⟩ : BufTy).Contents (Elt Ideal)) :
    val_main_v166 (F := Ideal) x0 x1 x2 x3 x4 x5 x6 x10 x11 x12 x13 x14 x15 x18 x19 x21 x22
      = mk2 (skip2 (un2 (val_main_v82 (F := Ideal) x0 x1 x2 x3 x12 x13 x18 x21 x22))
          (un2 (val_main_v163 (F := Ideal) x0 x1 x2 x3 x4 x5 x6 x10 x12 x13 x14 x15 x18 x19 x21 x22)) (un2 x0) (un2 x11)) := by
  refine ext2 fun r j => ?_
  rw [val_main_v166_apply, val_main_v164_apply, val_main_v165_apply]
  simp only [lidx165, ridx165]
  rfl

/-- The result stage is the network, the array way, of the arguments. -/
theorem ref_value (x0 : (⟨S50000x64, .f32⟩ : BufTy).Contents (Elt Ideal)) (x1 : (⟨S64x64, .f32⟩ : BufTy).Contents (Elt Ideal)) (x2 : (⟨S64, .f32⟩ : BufTy).Contents (Elt Ideal)) (x3 x4 : (⟨S64x64, .f32⟩ : BufTy).Contents (Elt Ideal))
    (x5 : (⟨S64, .f32⟩ : BufTy).Contents (Elt Ideal)) (x6 x7 : (⟨S64x64, .f32⟩ : BufTy).Contents (Elt Ideal)) (x8 : (⟨S64, .f32⟩ : BufTy).Contents (Elt Ideal)) (x9 x10 x11 : (⟨S64x64, .f32⟩ : BufTy).Contents (Elt Ideal))
    (x12 x13 x14 x15 x16 x17 : (⟨S64, .f32⟩ : BufTy).Contents (Elt Ideal)) (x18 x19 x20 : (⟨S1, .f32⟩ : BufTy).Contents (Elt Ideal))
    (x21 : (⟨S2x800000, .i32⟩ : BufTy).Contents (Elt Ideal)) (x22 : (⟨S50000, .i32⟩ : BufTy).Contents (Elt Ideal))
    (bI : Fin 50000 → Fin 128) (hb : ∀ r : Fin 50000, x22 (ix1 r) = BitVec.ofNat 32 (bI r).val) :
    val_main_v245 (F := Ideal) x0 x1 x2 x3 x4 x5 x6 x7 x8 x9 x10 x11 x12 x13 x14 x15 x16 x17 x18 x19 x20 x21 x22
      = mk2 (netR epsC (normF x22) (degmF x21) (AggF x21) bI
          (paramsOf x0 x1 x2 x3 x4 x5 x6 x7 x8 x9 x10 x11 x12 x13 x14 x15 x16 x17 x18 x19 x20)) := by
  have h1 := layer1 x0 x1 x2 x3 x12 x13 x18 x21 x22 bI hb
  have s1 := skip1_stage x0 x1 x2 x3 x10 x12 x13 x18 x21 x22
  rw [h1, un2_mk2] at s1
  have h2 := layer2 x0 x1 x2 x3 x4 x5 x6 x10 x12 x13 x14 x15 x18 x19 x21 x22 bI hb _ s1
  have s2 := skip2_stage x0 x1 x2 x3 x4 x5 x6 x10 x11 x12 x13 x14 x15 x18 x19 x21 x22
  rw [h1, h2, un2_mk2, un2_mk2] at s2
  exact layer3 x0 x1 x2 x3 x4 x5 x6 x7 x8 x9 x10 x11 x12 x13 x14 x15 x16 x17 x18 x19 x20 x21 x22 bI hb _ s2

end Cert.Gnn.Ref

end
-- ==== Proof.MathStats.lean ====
/-
  The tiled side's per-graph statistics are real numbers, and which ones.

  An indicator-weighted sum over the 128 graphs selects the node's own graph; the tile-by-tile weighted sum of a
  per-row quantity is the sum over the rows of the graph; so the tiled mean is the graph's mean, and the mean square
  minus the squared mean is the graph's variance (the count of a graph that has a node is the number of entries
  averaged over), whence the reciprocal deviation.
-/
import proofs.«430900_j38714835206722_1_alg».proof.Proof.Spec

noncomputable section

namespace Cert.Gnn

open Idealize.ShloMosaic

/-! ## Sums of real numbers inside the extended reals -/

/-- The inclusion of the reals commutes with finite sums. -/
theorem ereal_coe_sum_stats {ι : Type} (s : Finset ι) (f : ι → ℝ) :
    ((∑ i ∈ s, f i : ℝ) : EReal) = ∑ i ∈ s, ((f i : ℝ) : EReal) := by
  classical
  refine Finset.induction_on s ?_ ?_
  · simp
  · intro a s ha ih
    rw [Finset.sum_insert ha, Finset.sum_insert ha, EReal.coe_add, ih]

/-! ## The 25 tiles of 2000 rows are the 50000 rows -/

/-- Every row is row `r mod 2000` of tile `r / 2000`, and of no other tile. -/
theorem row_pair_bijective : Function.Bijective (fun p : Fin 25 × Fin 2000 => row p.1 p.2) := by
  rw [Function.bijective_iff_has_inverse]
  refine ⟨fun r => (⟨r.val / 2000, by have := r.isLt; omega⟩, ⟨r.val % 2000, Nat.mod_lt _ (by norm_num)⟩), ?_, ?_⟩
  · rintro ⟨⟨t, ht⟩, ⟨r', hr'⟩⟩
    refine Prod.ext (Fin.ext ?_) (Fin.ext ?_)
    · show (2000 * t + r') / 2000 = t
      omega
    · show (2000 * t + r') % 2000 = r'
      omega
  · rintro ⟨r, hr⟩
    refine Fin.ext ?_
    show 2000 * (r / 2000) + r % 2000 = r
    omega

/-- A sum taken tile by tile is the sum over all rows. -/
theorem sum_tiles_eq_sum_rows (F : Fin 50000 → EReal) :
    ∑ t : Fin 25, ∑ r' : Fin 2000, F (row t r') = ∑ r : Fin 50000, F r :=
  (Fintype.sum_prod_type' (fun t r' => F (row t r'))).symm.trans (row_pair_bijective.sum_comp F)

/-! ## The count of a graph -/

/-- The number of entries averaged over is positive: it is at least 64. -/
theorem normRe_pos (bI : Fin 50000 → Fin 128) (g : Fin 128) : 0 < normRe bI g := by
  unfold normRe
  have h1 : (1 : ℝ) ≤ max (cntRe bI g) 1 := le_max_right _ _
  exact mul_pos (lt_of_lt_of_le one_pos h1) (by norm_num)

/-- At the graph of an actual node the number of entries averaged over is 64 per node of the graph. -/
theorem normRe_graph_of_node (bI : Fin 50000 → Fin 128) (r0 : Fin 50000) :
    normRe bI (bI r0) = ((Finset.univ.filter (fun r => bI r = bI r0)).card : ℝ) * 64 := by
  unfold normRe cntRe
  have h1 : 1 ≤ (Finset.univ.filter (fun r => bI r = bI r0)).card :=
    Finset.card_pos.mpr ⟨r0, by simp⟩
  rw [max_eq_left (by exact_mod_cast h1)]

/-! ## The variance as mean square minus squared mean, over the reals -/

/-- The sum of squared deviations from any number `μ`, expanded. -/
theorem sum_sq_sub_expand (s : Finset (Fin 50000)) (hr : Fin 50000 → Fin 64 → ℝ) (μ : ℝ) :
    ∑ r ∈ s, ∑ j : Fin 64, (hr r j - μ) ^ 2
      = (∑ r ∈ s, ∑ j : Fin 64, hr r j * hr r j) - 2 * μ * (∑ r ∈ s, ∑ j : Fin 64, hr r j)
        + (s.card : ℝ) * 64 * μ ^ 2 := by
  have h1 : ∀ r j, (hr r j - μ) ^ 2 = hr r j * hr r j - 2 * μ * hr r j + μ ^ 2 := fun r j => by ring
  simp only [h1, Finset.sum_add_distrib, Finset.sum_sub_distrib, ← Finset.mul_sum, Finset.sum_const,
    Finset.card_univ, Fintype.card_fin, nsmul_eq_mul]
  push_cast
  ring

/-- With `μ = S / N` the mean of `N` numbers of sum `S` and sum of squares `Q`, the mean squared deviation is
    `Q / N - μ²`. -/
theorem mean_sq_dev_eq (Q S N μ c : ℝ) (hN : N ≠ 0) (hμ : μ = S / N) (hc : c = N) :
    (Q - 2 * μ * S + c * μ ^ 2) / N = Q / N - μ * μ := by
  subst hc
  subst hμ
  field_simp
  ring

/-- At the graph of an actual node the variance is the mean square minus the squared mean. -/
theorem varRe_eq_mean_sq_sub (bI : Fin 50000 → Fin 128) (hr : Fin 50000 → Fin 64 → ℝ) (r0 : Fin 50000) :
    varRe bI hr (bI r0)
      = (∑ r ∈ Finset.univ.filter (fun r => bI r = bI r0), ∑ j : Fin 64, hr r j * hr r j) / normRe bI (bI r0)
        - meanRe bI hr (bI r0) * meanRe bI hr (bI r0) := by
  have hN : normRe bI (bI r0) ≠ 0 := (normRe_pos bI (bI r0)).ne'
  unfold varRe
  rw [sum_sq_sub_expand]
  exact mean_sq_dev_eq _ _ _ _ _ hN rfl (normRe_graph_of_node bI r0).symm

/-! ## The five statements -/

/-- An indicator-weighted sum over the graphs is the value at the node's graph. -/
theorem ohv_sum (b : Fin 128) (v : Fin 128 → EReal) : ∑ g : Fin 128, ohv b g * v g = v b := by
  rw [Finset.sum_eq_single b]
  · unfold ohv
    rw [if_pos rfl, one_mul]
  · intro g _ hg
    unfold ohv
    rw [if_neg hg, zero_mul]
  · intro h
    exact absurd (Finset.mem_univ b) h

/-- The tile-by-tile indicator-weighted sum is the sum over the rows of the graph. -/
theorem statSum_eq (bI : Fin 50000 → Fin 128) (f : Fin 50000 → EReal) (g : Fin 128) :
    statSum bI f g = ∑ r ∈ Finset.univ.filter (fun r => bI r = g), f r := by
  unfold statSum
  rw [sum_tiles_eq_sum_rows (fun r => ohv (bI r) g * f r), Finset.sum_filter]
  refine Finset.sum_congr rfl fun r _ => ?_
  unfold ohv
  by_cases h : bI r = g
  · rw [if_pos h.symm, if_pos h, one_mul]
  · rw [if_neg (fun h' => h h'.symm), if_neg h, zero_mul]

/-- The tiled mean of real entries is the graph's mean. -/
theorem meanK_coe {one : EReal} {norm : Fin 128 → EReal} {bI : Fin 50000 → Fin 128} (hone : one = 1)
    (hnorm : ∀ g, norm g = ((normRe bI g : ℝ) : EReal)) (hr : Fin 50000 → Fin 64 → ℝ) (g : Fin 128) :
    meanK one norm bI (fun r j => ((hr r j : ℝ) : EReal)) g = ((meanRe bI hr g : ℝ) : EReal) := by
  have hN : normRe bI g ≠ 0 := (normRe_pos bI g).ne'
  have h1 : ∀ r, rowSum (fun r j => ((hr r j : ℝ) : EReal)) r = ((∑ j : Fin 64, hr r j : ℝ) : EReal) :=
    fun r => (ereal_coe_sum_stats Finset.univ (fun j => hr r j)).symm
  unfold meanK
  rw [statSum_eq, hnorm g, hone, Ideal.div_coe hN, one_mul]
  simp only [h1]
  rw [← ereal_coe_sum_stats, ← EReal.coe_mul]
  unfold meanRe
  rw [mul_one_div]

/-- The tiled reciprocal deviation of real entries, at the graph of a node, is the reciprocal root of the graph's
    variance plus `e`. -/
theorem invstdK_coe {one : EReal} {norm : Fin 128 → EReal} {bI : Fin 50000 → Fin 128} (hone : one = 1)
    (hnorm : ∀ g, norm g = ((normRe bI g : ℝ) : EReal)) {e : ℝ} (he : 0 < e) (hr : Fin 50000 → Fin 64 → ℝ)
    (r0 : Fin 50000) :
    invstdK one ((e : ℝ) : EReal) norm bI (fun r j => ((hr r j : ℝ) : EReal)) (bI r0)
      = (((Real.sqrt (varRe bI hr (bI r0) + e))⁻¹ : ℝ) : EReal) := by
  have hN : 0 < normRe bI (bI r0) := normRe_pos bI (bI r0)
  -- the mean square of the graph, as a real number
  have h1 : ∀ r, rowSq (fun r j => ((hr r j : ℝ) : EReal)) r = ((∑ j : Fin 64, hr r j * hr r j : ℝ) : EReal) :=
    fun r => by
      rw [ereal_coe_sum_stats]
      unfold rowSq
      exact Finset.sum_congr rfl fun j _ => (EReal.coe_mul _ _).symm
  have hsq : statSum bI (rowSq (fun r j => ((hr r j : ℝ) : EReal))) (bI r0) * Ideal.div one (norm (bI r0))
      = (((∑ r ∈ Finset.univ.filter (fun r => bI r = bI r0), ∑ j : Fin 64, hr r j * hr r j)
            / normRe bI (bI r0) : ℝ) : EReal) := by
    rw [statSum_eq, hnorm (bI r0), hone, Ideal.div_coe hN.ne', one_mul]
    simp only [h1]
    rw [← ereal_coe_sum_stats, ← EReal.coe_mul, mul_one_div]
  -- the variance is not negative, so the number under the root is positive
  have hv : 0 ≤ varRe bI hr (bI r0) := by
    unfold varRe
    exact div_nonneg (Finset.sum_nonneg fun r _ => Finset.sum_nonneg fun j _ => sq_nonneg _) hN.le
  have hpos : 0 < varRe bI hr (bI r0) + e := add_pos_of_nonneg_of_pos hv he
  unfold invstdK
  rw [hsq, meanK_coe hone hnorm hr (bI r0), ← EReal.coe_mul, ← EReal.coe_sub, ← EReal.coe_add,
    ← varRe_eq_mean_sq_sub, Ideal.rsqrt_coe, if_neg (not_lt.mpr hpos.le), if_neg hpos.ne']

/-- A graph's variance is not negative. -/
theorem varRe_nonneg (bI : Fin 50000 → Fin 128) (hr : Fin 50000 → Fin 64 → ℝ) (g : Fin 128) : 0 ≤ varRe bI hr g := by
  unfold varRe
  exact div_nonneg (Finset.sum_nonneg fun r _ => Finset.sum_nonneg fun j _ => sq_nonneg _) (normRe_pos bI g).le

end Cert.Gnn

end
-- ==== Proof.MathLayer.lean ====
/-
  A layer computed the tiled way is the layer computed the array way, on finite arguments, and it is finite; so are
  the skip connections; hence the two networks agree.

  The array side's mean and variance of real entries are the graph's mean and variance; dividing the centred entry
  by the root of the variance plus `e` is multiplying it by the reciprocal root; dividing the neighbour sum by a
  degree that is a real number at least one is multiplying by its reciprocal.
-/
import proofs.«430900_j38714835206722_1_alg».proof.Proof.Spec
import proofs.«430900_j38714835206722_1_alg».proof.Proof.MathStats

noncomputable section

namespace Cert.Gnn

open Idealize.ShloMosaic

/-! ## Real numbers inside the extended reals -/

/-- A finite sum of real numbers, taken in the extended reals, is the real sum. -/
theorem coe_sum_real {ι : Type} (s : Finset ι) (f : ι → ℝ) :
    ∑ i ∈ s, ((f i : ℝ) : EReal) = ((∑ i ∈ s, f i : ℝ) : EReal) := by
  classical
  induction s using Finset.induction_on with
  | empty => simp
  | insert a s ha ih => rw [Finset.sum_insert ha, Finset.sum_insert ha, EReal.coe_add, ih]

/-- The sum of two real numbers is a real number. -/
theorem real_add {x y : EReal} (hx : ∃ v : ℝ, x = (v : EReal)) (hy : ∃ v : ℝ, y = (v : EReal)) :
    ∃ v : ℝ, x + y = (v : EReal) := by
  obtain ⟨a, rfl⟩ := hx
  obtain ⟨b, rfl⟩ := hy
  exact ⟨a + b, (EReal.coe_add a b).symm⟩

/-- The product of two real numbers is a real number. -/
theorem real_mul {x y : EReal} (hx : ∃ v : ℝ, x = (v : EReal)) (hy : ∃ v : ℝ, y = (v : EReal)) :
    ∃ v : ℝ, x * y = (v : EReal) := by
  obtain ⟨a, rfl⟩ := hx
  obtain ⟨b, rfl⟩ := hy
  exact ⟨a * b, (EReal.coe_mul a b).symm⟩

/-- A finite sum of real numbers is a real number. -/
theorem real_sum {ι : Type} (s : Finset ι) (f : ι → EReal) (h : ∀ i ∈ s, ∃ v : ℝ, f i = (v : EReal)) :
    ∃ v : ℝ, ∑ i ∈ s, f i = (v : EReal) := by
  refine ⟨∑ i ∈ s, (f i).toReal, ?_⟩
  rw [← coe_sum_real]
  apply Finset.sum_congr rfl
  intro i hi
  obtain ⟨v, hv⟩ := h i hi
  rw [hv, EReal.toReal_coe]

/-- A matrix of real entries is the image of a real matrix. -/
theorem fin2_exists_real {a b : Nat} {f : Mat a b} (hf : Fin2 f) :
    ∃ fr : Fin a → Fin b → ℝ, f = fun r j => ((fr r j : ℝ) : EReal) := by
  refine ⟨fun r j => (f r j).toReal, ?_⟩
  funext r j
  obtain ⟨v, hv⟩ := hf r j
  show f r j = (((f r j).toReal : ℝ) : EReal)
  rw [hv, EReal.toReal_coe]

/-- The leaky rectifier of real numbers is a real number. -/
theorem prelu_real (a y : ℝ) : ∃ v : ℝ, prelu (a : EReal) (y : EReal) = (v : EReal) := by
  unfold prelu
  split_ifs
  · exact ⟨y, rfl⟩
  · exact ⟨a * y, (EReal.coe_mul a y).symm⟩

/-- The number of entries averaged over is not zero. -/
theorem normRe_ne_zero (bI : Fin 50000 → Fin 128) (g : Fin 128) : normRe bI g ≠ 0 := by
  unfold normRe
  have h1 : (1 : ℝ) ≤ max (cntRe bI g) 1 := le_max_right _ _
  exact (mul_pos (lt_of_lt_of_le one_pos h1) (by norm_num)).ne'

/-! ## The linear part -/

/-- Multiplying by the reciprocal of a degree that is a real number at least one is dividing by it. -/
theorem aggK_eq_aggR {one : EReal} {degm : Fin 50000 → EReal} (hone : one = 1)
    (hdeg : ∀ r, ∃ d : ℝ, 1 ≤ d ∧ degm r = ((d : ℝ) : EReal)) (S : Mat 50000 64) :
    aggK one S degm = aggR S degm := by
  funext r k
  obtain ⟨d, hd1, hd⟩ := hdeg r
  have hd0 : d ≠ 0 := (lt_of_lt_of_le one_pos hd1).ne'
  unfold aggK aggR
  rw [hd, hone, Ideal.div_coe hd0, Ideal.div_coe hd0, one_mul]

/-- A finite neighbour sum divided by such a degree is finite. -/
theorem aggR_fin {S : Mat 50000 64} {degm : Fin 50000 → EReal} (hS : Fin2 S)
    (hdeg : ∀ r, ∃ d : ℝ, 1 ≤ d ∧ degm r = ((d : ℝ) : EReal)) : Fin2 (aggR S degm) := by
  intro r k
  obtain ⟨d, hd1, hd⟩ := hdeg r
  have hd0 : d ≠ 0 := (lt_of_lt_of_le one_pos hd1).ne'
  obtain ⟨s, hs⟩ := hS r k
  refine ⟨s * (1 / d), ?_⟩
  unfold aggR
  rw [hd, hs, Ideal.div_coe hd0, EReal.coe_mul]

/-- The linear part of finite arguments is finite. -/
theorem sageLin_fin {n : Nat} {agg x : Mat n 64} {Wl Wr : Mat 64 64} {bl : Fin 64 → EReal}
    (hagg : Fin2 agg) (hx : Fin2 x) (hWl : Fin2 Wl) (hWr : Fin2 Wr) (hbl : Fin1 bl) :
    Fin2 (sageLin agg x Wl Wr bl) := by
  intro r j
  unfold sageLin
  exact real_add (real_add (real_sum _ _ (fun k _ => real_mul (hagg r k) (hWl k j))) (hbl j))
    (real_sum _ _ (fun k _ => real_mul (hx r k) (hWr k j)))

/-! ## The array side's statistics -/
/-- The array side's mean of real entries is the graph's mean. -/
theorem meanR_coe {norm : Fin 128 → EReal} {bI : Fin 50000 → Fin 128}
    (hnorm : ∀ g, norm g = ((normRe bI g : ℝ) : EReal)) (hr : Fin 50000 → Fin 64 → ℝ) (g : Fin 128) :
    meanR norm bI (fun r j => ((hr r j : ℝ) : EReal)) g = ((meanRe bI hr g : ℝ) : EReal) := by
  have hn : normRe bI g ≠ 0 := normRe_ne_zero bI g
  simp only [meanR, segSum]
  rw [hnorm g, Ideal.div_coe hn]
  simp only [coe_sum_real]
  rw [← EReal.coe_mul, mul_one_div, meanRe, Finset.sum_comm]

/-- The centred entry of real entries is the entry minus the graph's mean. -/
theorem centred_coe {norm : Fin 128 → EReal} {bI : Fin 50000 → Fin 128}
    (hnorm : ∀ g, norm g = ((normRe bI g : ℝ) : EReal)) (hr : Fin 50000 → Fin 64 → ℝ) (r : Fin 50000) (j : Fin 64) :
    centred norm bI (fun r j => ((hr r j : ℝ) : EReal)) r j = ((hr r j - meanRe bI hr (bI r) : ℝ) : EReal) := by
  simp only [centred]
  rw [meanR_coe hnorm, ← EReal.coe_sub]

/-- The array side's variance of real entries is the graph's variance. -/
theorem varR_coe {norm : Fin 128 → EReal} {bI : Fin 50000 → Fin 128}
    (hnorm : ∀ g, norm g = ((normRe bI g : ℝ) : EReal)) (hr : Fin 50000 → Fin 64 → ℝ) (g : Fin 128) :
    varR norm bI (fun r j => ((hr r j : ℝ) : EReal)) g = ((varRe bI hr g : ℝ) : EReal) := by
  have hn : normRe bI g ≠ 0 := normRe_ne_zero bI g
  simp only [varR, segSum, centred_coe hnorm]
  rw [hnorm g, Ideal.div_coe hn]
  simp only [← EReal.coe_mul, coe_sum_real]
  -- over the rows of graph `g` the mean taken off is the mean of `g`
  have key : (∑ j : Fin 64, ∑ r ∈ Finset.univ.filter (fun r => bI r = g),
        (hr r j - meanRe bI hr (bI r)) * (hr r j - meanRe bI hr (bI r)))
      = ∑ r ∈ Finset.univ.filter (fun r => bI r = g), ∑ j : Fin 64, (hr r j - meanRe bI hr g) ^ 2 := by
    rw [Finset.sum_comm]
    apply Finset.sum_congr rfl
    intro r hrg
    have hg : bI r = g := (Finset.mem_filter.mp hrg).2
    apply Finset.sum_congr rfl
    intro j _
    rw [hg, sq]
  rw [key, mul_one_div, varRe]

/-! ## The two normalisations of a real matrix -/

/-- The array side's normalisation of real entries: the centred entry times the reciprocal root of the variance
    plus `e`, scaled, shifted and rectified. -/
theorem lnApplyR_coe {norm : Fin 128 → EReal} {bI : Fin 50000 → Fin 128}
    (hnorm : ∀ g, norm g = ((normRe bI g : ℝ) : EReal)) {e : ℝ} (he : 0 < e) (hr : Fin 50000 → Fin 64 → ℝ)
    (lnw lnb : Fin 64 → EReal) (a : EReal) :
    lnApplyR ((e : ℝ) : EReal) norm bI (fun r j => ((hr r j : ℝ) : EReal)) lnw lnb a
      = fun r j => prelu a
          (((((hr r j - meanRe bI hr (bI r)) * (Real.sqrt (varRe bI hr (bI r) + e))⁻¹ : ℝ) : EReal) * lnw j) + lnb j) := by
  funext r j
  have hv : 0 < varRe bI hr (bI r) + e := by
    have := varRe_nonneg bI hr (bI r)
    linarith
  have hs : Real.sqrt (varRe bI hr (bI r) + e) ≠ 0 := (Real.sqrt_pos.mpr hv).ne'
  simp only [lnApplyR]
  rw [centred_coe hnorm, varR_coe hnorm, ← EReal.coe_add, Ideal.sqrt_coe, if_neg (not_lt.mpr hv.le),
    Ideal.div_coe hs, ← EReal.coe_mul, one_div]

/-- The tiled side's normalisation of real entries, from its own statistics, is the same expression. -/
theorem lnApplyK_coe {one : EReal} {norm : Fin 128 → EReal} {bI : Fin 50000 → Fin 128} (hone : one = 1)
    (hnorm : ∀ g, norm g = ((normRe bI g : ℝ) : EReal)) {e : ℝ} (he : 0 < e) (hr : Fin 50000 → Fin 64 → ℝ)
    (lnw lnb : Fin 64 → EReal) (a : EReal) :
    lnApplyK bI (fun r j => ((hr r j : ℝ) : EReal))
        (meanK one norm bI (fun r j => ((hr r j : ℝ) : EReal)))
        (invstdK one ((e : ℝ) : EReal) norm bI (fun r j => ((hr r j : ℝ) : EReal))) lnw lnb a
      = fun r j => prelu a
          (((((hr r j - meanRe bI hr (bI r)) * (Real.sqrt (varRe bI hr (bI r) + e))⁻¹ : ℝ) : EReal) * lnw j) + lnb j) := by
  funext r j
  simp only [lnApplyK]
  rw [ohv_sum, ohv_sum, meanK_coe hone hnorm, invstdK_coe hone hnorm he, ← EReal.coe_sub, ← EReal.coe_mul]

/-! ## A layer -/

/-- One layer: the tiled way and the array way agree on finite arguments. -/
theorem layer_eq {one eps : EReal} {norm : Fin 128 → EReal} {degm : Fin 50000 → EReal}
    {Agg : Mat 50000 64 → Mat 50000 64} {bI : Fin 50000 → Fin 128}
    (hone : one = 1) (heps : ∃ e : ℝ, 0 < e ∧ eps = ((e : ℝ) : EReal))
    (hnorm : ∀ g, norm g = ((normRe bI g : ℝ) : EReal))
    (hdeg : ∀ r, ∃ d : ℝ, 1 ≤ d ∧ degm r = ((d : ℝ) : EReal))
    (hAgg : ∀ f, Fin2 f → Fin2 (Agg f))
    {xin : Mat 50000 64} {Wl Wr : Mat 64 64} {bl : Fin 64 → EReal} (lnw lnb : Fin 64 → EReal) (a : EReal)
    (hx : Fin2 xin) (hWl : Fin2 Wl) (hbl : Fin1 bl) (hWr : Fin2 Wr) :
    layerK one eps norm degm Agg bI xin Wl bl Wr lnw lnb a = layerR eps norm degm Agg bI xin Wl bl Wr lnw lnb a := by
  obtain ⟨e, he, rfl⟩ := heps
  have hh : Fin2 (sageLin (aggR (Agg xin) degm) xin Wl Wr bl) :=
    sageLin_fin (aggR_fin (hAgg xin hx) hdeg) hx hWl hWr hbl
  obtain ⟨hr, hhr⟩ := fin2_exists_real hh
  unfold layerK layerR
  rw [aggK_eq_aggR hone hdeg, hhr, lnApplyK_coe hone hnorm he, lnApplyR_coe hnorm he]

/-- One layer of finite arguments is finite. -/
theorem layerR_fin {eps : EReal} {norm : Fin 128 → EReal} {degm : Fin 50000 → EReal}
    {Agg : Mat 50000 64 → Mat 50000 64} {bI : Fin 50000 → Fin 128}
    (heps : ∃ e : ℝ, 0 < e ∧ eps = ((e : ℝ) : EReal))
    (hnorm : ∀ g, norm g = ((normRe bI g : ℝ) : EReal))
    (hdeg : ∀ r, ∃ d : ℝ, 1 ≤ d ∧ degm r = ((d : ℝ) : EReal))
    (hAgg : ∀ f, Fin2 f → Fin2 (Agg f))
    {xin : Mat 50000 64} {Wl Wr : Mat 64 64} {bl lnw lnb : Fin 64 → EReal} {a : EReal}
    (hx : Fin2 xin) (hWl : Fin2 Wl) (hbl : Fin1 bl) (hWr : Fin2 Wr) (hlnw : Fin1 lnw) (hlnb : Fin1 lnb)
    (ha : ∃ v : ℝ, a = ((v : ℝ) : EReal)) :
    Fin2 (layerR eps norm degm Agg bI xin Wl bl Wr lnw lnb a) := by
  obtain ⟨e, he, rfl⟩ := heps
  obtain ⟨av, rfl⟩ := ha
  have hh : Fin2 (sageLin (aggR (Agg xin) degm) xin Wl Wr bl) :=
    sageLin_fin (aggR_fin (hAgg xin hx) hdeg) hx hWl hWr hbl
  obtain ⟨hr, hhr⟩ := fin2_exists_real hh
  unfold layerR
  rw [hhr, lnApplyR_coe hnorm he]
  intro r j
  obtain ⟨w, hw⟩ := hlnw j
  obtain ⟨b, hb⟩ := hlnb j
  simp only [hw, hb, ← EReal.coe_mul, ← EReal.coe_add]
  exact prelu_real av _

/-- The skip connections of finite arguments are finite. -/
theorem skip1_fin {h1 x : Mat 50000 64} {W : Mat 64 64} (hh : Fin2 h1) (hx : Fin2 x) (hW : Fin2 W) : Fin2 (skip1 h1 x W) := by
  intro r j
  unfold skip1
  exact real_add (hh r j) (real_sum _ _ (fun k _ => real_mul (hx r k) (hW k j)))

theorem skip2_fin {h1 h2 x : Mat 50000 64} {W : Mat 64 64} (hh1 : Fin2 h1) (hh2 : Fin2 h2) (hx : Fin2 x) (hW : Fin2 W) :
    Fin2 (skip2 h1 h2 x W) := by
  intro r j
  unfold skip2
  exact real_add (real_add (hh1 r j) (hh2 r j)) (real_sum _ _ (fun k _ => real_mul (hx r k) (hW k j)))

/-- The two networks agree on finite arguments. -/
theorem net_eq {one eps : EReal} {norm : Fin 128 → EReal} {degm : Fin 50000 → EReal}
    {Agg : Mat 50000 64 → Mat 50000 64} {bI : Fin 50000 → Fin 128}
    (hone : one = 1) (heps : ∃ e : ℝ, 0 < e ∧ eps = ((e : ℝ) : EReal))
    (hnorm : ∀ g, norm g = ((normRe bI g : ℝ) : EReal))
    (hdeg : ∀ r, ∃ d : ℝ, 1 ≤ d ∧ degm r = ((d : ℝ) : EReal))
    (hAgg : ∀ f, Fin2 f → Fin2 (Agg f)) (P : Params) (hP : P.Finite) :
    netK one eps norm degm Agg bI P = netR eps norm degm Agg bI P := by
  -- the first layer, on the input features
  have e1 := layer_eq hone heps hnorm hdeg hAgg P.lnw0 P.lnb0 P.a0 hP.x hP.Wl0 hP.bl0 hP.Wr0
  have f1 : Fin2 (layerR eps norm degm Agg bI P.x P.Wl0 P.bl0 P.Wr0 P.lnw0 P.lnb0 P.a0) :=
    layerR_fin heps hnorm hdeg hAgg hP.x hP.Wl0 hP.bl0 hP.Wr0 hP.lnw0 hP.lnb0 hP.a0
  -- the second layer, on the first skip connection
  have s1 := skip1_fin f1 hP.x hP.s0
  have e2 := layer_eq hone heps hnorm hdeg hAgg P.lnw1 P.lnb1 P.a1 s1 hP.Wl1 hP.bl1 hP.Wr1
  have f2 := layerR_fin heps hnorm hdeg hAgg s1 hP.Wl1 hP.bl1 hP.Wr1 hP.lnw1 hP.lnb1 hP.a1
  -- the third layer, on the second skip connection
  have s2 := skip2_fin f1 f2 hP.x hP.s1
  have e3 := layer_eq hone heps hnorm hdeg hAgg P.lnw2 P.lnb2 P.a2 s2 hP.Wl2 hP.bl2 hP.Wr2
  simp only [netK, netR]
  rw [e1, e2, e3]

end Cert.Gnn

end
-- ==== Proof.Consts.lean ====
/-
  The float constants the two programs spell, as the extended reals their bit patterns denote.
-/
import proofs.«430900_j38714835206722_1_alg».proof.Proof.HostTerms

noncomputable section

namespace Cert.Gnn

open Idealize.ShloMosaic

/-- `0.0` denotes 0. -/
theorem ofBits_zero : Ideal.ofBits .f32 0x00000000#32 = 0 := by
  simp [Ideal.ofBits, Ideal.ieee]

/-- `1.0` denotes 1. -/
theorem oneC_eq : oneC = 1 := by
  unfold oneC
  simp [Ideal.ofBits, Ideal.ieee, -EReal.coe_mul]; norm_num

/-- `64.0` denotes the real 64. -/
theorem ofBits_64 : Ideal.ofBits .f32 0x42800000#32 = ((64 : ℝ) : EReal) := by
  simp [Ideal.ofBits, Ideal.ieee, -EReal.coe_mul]; norm_num

/-- The float nearest `1e-5` denotes a positive real. -/
theorem epsC_pos : ∃ e : ℝ, 0 < e ∧ epsC = ((e : ℝ) : EReal) := by
  refine ⟨(10995116 : ℝ) / 2 ^ 40, by positivity, ?_⟩
  unfold epsC
  simp [Ideal.ofBits, Ideal.ieee, -EReal.coe_mul]; norm_num

end Cert.Gnn

end
-- ==== Proof.HostFacts.lean ====
/-
  What the shared host quantities are: the neighbour sum keeps finiteness, the clamped degree is a real number at
  least one, and the per-graph normaliser is the graph's node count, at least one, times 64, when the batch words are
  the graph numbers.
-/
import proofs.«430900_j38714835206722_1_alg».proof.Proof.HostTerms
import proofs.«430900_j38714835206722_1_alg».proof.Proof.Consts
import Idealize.ShloMosaic.PureOps.Ideal.Laws
import Idealize.ShloMosaic.Lib.ValueIdx
import Idealize.ShloMosaic.Lib.ValueIdxRank1
import Idealize.ShloMosaic.Lib.StableHlo.Predicate

noncomputable section

namespace Cert.Gnn

open Idealize.ShloMosaic Idealize.ShloMosaic.ValueIdx Cert.KernelIdeal

namespace HostFacts

/-- A finite sum of real numbers, each read as an extended real, is a real number. -/
theorem exists_real_sum {ι : Type} (s : Finset ι) (u : ι → EReal) (h : ∀ j ∈ s, ∃ v : ℝ, u j = (v : EReal)) :
    ∃ v : ℝ, ∑ j ∈ s, u j = (v : EReal) := by
  classical
  revert h
  refine Finset.induction_on s ?_ ?_
  · intro _
    exact ⟨0, by rw [Finset.sum_empty, EReal.coe_zero]⟩
  · intro a s ha ih h
    obtain ⟨va, hva⟩ := h a (Finset.mem_insert_self a s)
    obtain ⟨vs, hvs⟩ := ih (fun j hj => h j (Finset.mem_insert_of_mem hj))
    exact ⟨va + vs, by rw [Finset.sum_insert ha, hva, hvs, EReal.coe_add]⟩

/-- A sum of ones is the number of its terms. -/
theorem sum_one_eq_card {ι : Type} (s : Finset ι) : ∑ _j ∈ s, (1 : EReal) = ((s.card : ℝ) : EReal) := by
  rw [Finset.sum_const, ← EReal.coe_one, ← EReal.coe_nsmul, nsmul_eq_mul, mul_one]

/-- The larger of two real numbers, read as an extended real. -/
theorem coe_max_real (a b : ℝ) : max (a : EReal) (b : EReal) = ((max a b : ℝ) : EReal) :=
  (EReal.coe_strictMono.monotone.map_max).symm

/-- An array that repeats one float constant reads that constant's value everywhere. -/
theorem scalarArr_apply {t : Shape} (h : S_.BroadcastsInDim t ![]) (b : BitVec 32) (i : t.Idx) :
    broadcastInDim t ![] h (constant (F := Ideal) S_ .f32 b) i = Ideal.ofBits .f32 b := rfl

/-- The float `1.0` denotes 1, at the pattern itself. -/
theorem ofBits_one : Ideal.ofBits .f32 0x3F800000#32 = 1 := oneC_eq

/-- The accumulating scatter at an entry: the operand's entry plus the sum of the updates landing there. -/
theorem hostScatterAdd_real {s si u : Shape} {w : Nat} (d : ScatterDims s si u) (x : FVec Ideal s .f32) (idx : IVec si w)
    (upd : FVec Ideal u .f32) (i : s.Idx) (hx : ∃ v : ℝ, x i = (v : EReal)) (hu : ∀ j, ∃ v : ℝ, upd j = (v : EReal)) :
    ∃ v : ℝ, Host.scatterAdd d x idx upd i = (v : EReal) := by
  have key : ∀ S : Finset u.Idx, ∃ v : ℝ, x i + ∑ j ∈ S, upd j = (v : EReal) := by
    intro S
    obtain ⟨a, ha⟩ := hx
    obtain ⟨b, hb⟩ := exists_real_sum S upd (fun j _ => hu j)
    exact ⟨a + b, by rw [ha, hb, EReal.coe_add]⟩
  unfold Host.scatterAdd
  rw [Ideal.hostScatterAdd_def]
  unfold Ideal.hostScatterAdd
  exact key _

/-- A scatter of ones into zeros counts, at every entry, the updates landing there. -/
theorem hostScatterAdd_count {s si u : Shape} {w : Nat} (d : ScatterDims s si u) (x : FVec Ideal s .f32) (idx : IVec si w)
    (upd : FVec Ideal u .f32) (i : s.Idx) (hx : x i = 0) (hu : ∀ j, upd j = 1) :
    ∃ S : Finset u.Idx, (∀ j, j ∈ S ↔ d.resultIdx? j idx = some i) ∧
      Host.scatterAdd d x idx upd i = ((S.card : ℝ) : EReal) := by
  have key : ∀ S : Finset u.Idx, x i + ∑ j ∈ S, upd j = ((S.card : ℝ) : EReal) := by
    intro S
    rw [hx, zero_add, Finset.sum_congr rfl (fun j _ => hu j), sum_one_eq_card]
  unfold Host.scatterAdd
  rw [Ideal.hostScatterAdd_def]
  unfold Ideal.hostScatterAdd
  exact ⟨_, fun j => by rw [Finset.mem_filter]; exact and_iff_right (Finset.mem_univ j), key _⟩

/-- A vector kept as an `n × 1` column reads, at row `p`, the vector at `p`. -/
theorem column_apply {α : Type} {n : Nat} (h : (⟨1, ![n]⟩ : Shape).BroadcastsInDim ⟨2, ![n, 1]⟩ ![0])
    (v : (⟨1, ![n]⟩ : Shape).Idx → α) (p : Fin n) (q : Fin 1) :
    broadcastInDim ⟨2, ![n, 1]⟩ ![0] h v (ix2 p q) = v (ix1 p) := by
  have hi : (ix2 p q : (⟨2, ![n, 1]⟩ : Shape).Idx) = StableHlo.Predicate.ixP p := by
    funext a
    match a with
    | ⟨0, _⟩ => rfl
    | ⟨1, _⟩ => exact (Subsingleton.elim (α := Fin 1) _ _)
  have ho : (ix1 p : (⟨1, ![n]⟩ : Shape).Idx) = Shape.Idx.ofFin p := Shape.Idx.eq_ofFin (ix1 p)
  rw [hi, ho]
  exact StableHlo.Predicate.bcast_col1 h v p

/-- A scatter of one scalar per row of an `n × 1` index column into a vector of `N` entries, the index vector on
    axis 1 and no window axes: update `r` lands at entry `g` exactly when the index word of row `r`, read signed, is `g`. -/
theorem rowScatter_resultIdx {N n w : Nat} (d : ScatterDims ⟨1, ![N]⟩ ⟨2, ![n, 1]⟩ ⟨1, ![n]⟩)
    (hiw : d.insertedWindowDims = [0]) (hsd : d.scatterDimsToOperandDims = [0]) (hivd : d.indexVectorDim = 1)
    (idx : IVec ⟨2, ![n, 1]⟩ w) (r : Fin n) (g : Fin N) :
    d.resultIdx? (ix1 r) idx = some (ix1 g) ↔ (idx (ix2 r 0)).toInt = (g.val : Int) := by
  have hm : (0 : Fin 1) ∈ d.scatterDimsToOperandDims := by rw [hsd]; exact List.mem_singleton.mpr rfl
  have hs : ∀ a, d.start (ix1 r) idx a = (idx (ix2 r 0)).toInt := by
    intro a
    have ha : a = 0 := Subsingleton.elim _ _
    subst ha
    unfold ScatterDims.start
    rw [dif_pos hm]
    congr 2
    funext b
    match b with
    | ⟨0, _⟩ =>
      unfold ScatterDims.siIdx
      rw [dif_neg (by rw [hivd]; simp)]
      unfold ScatterDims.siCoord
      apply Fin.ext
      simp only [Fin.val_cast]
      have e : ∀ X : Fin 1, ((ix1 r : (⟨1, ![n]⟩ : Shape).Idx) X).val = r.val := fun X => by
        have hX : X = 0 := Subsingleton.elim _ _
        subst hX; rfl
      exact e _
    | ⟨1, _⟩ =>
      unfold ScatterDims.siIdx
      rw [dif_pos (by rw [hivd])]
      apply Fin.ext
      show List.idxOf (0 : Fin 1) d.scatterDimsToOperandDims = 0
      rw [hsd]; simp
  have hw : ∀ a, d.window (ix1 r) a = 0 := by
    intro a
    have ha : a = 0 := Subsingleton.elim _ _
    subst ha
    unfold ScatterDims.window
    rw [dif_neg]
    show (0 : Fin 1) ∉ Shape.kept _ d.insertedWindowDims
    rw [hiw]
    simp [Shape.kept]
  have hsz : ∀ a : Fin 1, (⟨1, ![N]⟩ : Shape).size a = N := by
    intro a
    have ha : a = 0 := Subsingleton.elim _ _
    subst ha; rfl
  have hg := g.isLt
  unfold ScatterDims.resultIdx?
  split
  · next h =>
    have h0 := h 0
    rw [hs, hw] at h0
    constructor
    · intro e
      have e1 := congrArg Fin.val (congrFun (Option.some.inj e) 0)
      have e2 : (d.start (ix1 r) idx 0 + (d.window (ix1 r) 0 : Nat)).toNat = g.val := e1
      rw [hs, hw] at e2
      omega
    · intro e
      congr 1
      funext a
      have ha : a = 0 := Subsingleton.elim _ _
      subst ha
      apply Fin.ext
      show (d.start (ix1 r) idx 0 + (d.window (ix1 r) 0 : Nat)).toNat = g.val
      rw [hs, hw]
      omega
  · next h =>
    constructor
    · intro e; exact absurd e (by simp)
    · intro e
      exfalso
      apply h
      intro a
      rw [hs, hw, hsz, e]
      constructor <;> omega

/-- The batch numbers kept as a column read, at row `r`, the batch word of node `r`. -/
theorem batchColT_apply (bt : IVec S50000 32) (r : Fin 50000) : batchColT bt (ix2 r 0) = bt (ix1 r) :=
  column_apply Facts₀.bcast_S50000_S50000x1_0 bt r 0

end HostFacts

/-- The neighbour sum of a finite matrix is finite. -/
theorem AggF_fin (ei : IVec S2x800000 32) (f : Mat 50000 64) (hf : Fin2 f) : Fin2 (AggF ei f) := by
  intro r j
  show ∃ v : ℝ, aggArr ei (mk2 f) (ix2 r j) = (v : EReal)
  exact HostFacts.hostScatterAdd_real scatter_S50000x64_S800000x1_S800000x64_1_0_0_1
    (broadcastInDim S50000x64 ![] Facts₀.bcast_S_S50000x64 (constant (F := Ideal) S_ .f32 0x00000000#32)) (dstColT ei)
    (Host.gather gather_S50000x64_S800000x1_S800000x64_1_0_n_n_0_1_164 (mk2 f) (srcColT ei)) (ix2 r j)
    ⟨0, by rw [HostFacts.scalarArr_apply, ofBits_zero, EReal.coe_zero]⟩ (fun j' => hf _ _)

/-- The clamped in-degree is a real number at least one. -/
theorem degmF_real (ei : IVec S2x800000 32) (r : Fin 50000) : ∃ d : ℝ, 1 ≤ d ∧ degmF ei r = ((d : ℝ) : EReal) := by
  show ∃ d : ℝ, 1 ≤ d ∧ degArr ei (ix1 r) = ((d : ℝ) : EReal)
  obtain ⟨S, -, hS⟩ := HostFacts.hostScatterAdd_count scatter_S50000_S800000x1_S800000_n_0_0_1
    (broadcastInDim S50000 ![] Facts₀.bcast_S_S50000 (constant (F := Ideal) S_ .f32 0x00000000#32)) (dstColT ei)
    (broadcastInDim S800000 ![] Facts₀.bcast_S_S800000 (constant (F := Ideal) S_ .f32 0x3F800000#32)) (ix1 r)
    (by rw [HostFacts.scalarArr_apply, ofBits_zero]) (fun j => by rw [HostFacts.scalarArr_apply, HostFacts.ofBits_one])
  have hd : degArr ei (ix1 r)
      = maximumf (Host.scatterAdd scatter_S50000_S800000x1_S800000_n_0_0_1
        (broadcastInDim S50000 ![] Facts₀.bcast_S_S50000 (constant (F := Ideal) S_ .f32 0x00000000#32)) (dstColT ei)
        (broadcastInDim S800000 ![] Facts₀.bcast_S_S800000 (constant (F := Ideal) S_ .f32 0x3F800000#32)))
          (broadcastInDim S50000 ![] Facts₀.bcast_S_S50000 (constant (F := Ideal) S_ .f32 0x3F800000#32)) (ix1 r) := rfl
  refine ⟨max (S.card : ℝ) 1, le_max_right _ _, ?_⟩
  rw [hd, maximumf_apply, hS, HostFacts.scalarArr_apply, HostFacts.ofBits_one, ← EReal.coe_one, HostFacts.coe_max_real]

/-- The normaliser of graph `g` is its node count, at least one, times 64. -/
theorem normF_eq (bt : IVec S50000 32) (bI : Fin 50000 → Fin 128)
    (hb : ∀ r : Fin 50000, bt (ix1 r) = BitVec.ofNat 32 (bI r).val) (g : Fin 128) :
    normF bt g = ((normRe bI g : ℝ) : EReal) := by
  show normArr bt (ix1 g) = ((normRe bI g : ℝ) : EReal)
  obtain ⟨S, hSm, hS⟩ := HostFacts.hostScatterAdd_count scatter_S128_S50000x1_S50000_n_0_0_1
    (broadcastInDim S128 ![] Facts₀.bcast_S_S128 (constant (F := Ideal) S_ .f32 0x00000000#32)) (batchColT bt)
    (broadcastInDim S50000 ![] Facts₀.bcast_S_S50000 (constant (F := Ideal) S_ .f32 0x3F800000#32)) (ix1 g)
    (by rw [HostFacts.scalarArr_apply, ofBits_zero]) (fun j => by rw [HostFacts.scalarArr_apply, HostFacts.ofBits_one])
  have hcard : S.card = (Finset.univ.filter (fun r => bI r = g)).card := by
    refine Finset.card_equiv idxEquiv1 (fun j => ?_)
    obtain ⟨r, rfl⟩ : ∃ r, j = ix1 r := ⟨j 0, eq_ix1 j⟩
    show ix1 r ∈ S ↔ r ∈ Finset.univ.filter (fun r => bI r = g)
    rw [hSm, Finset.mem_filter, HostFacts.rowScatter_resultIdx scatter_S128_S50000x1_S50000_n_0_0_1 rfl rfl rfl,
      HostFacts.batchColT_apply, hb r, StableHlo.Predicate.toInt_ofNat_small _ (lt_trans (bI r).isLt (by norm_num))]
    constructor
    · intro e
      exact ⟨Finset.mem_univ _, Fin.ext (by exact_mod_cast e)⟩
    · rintro ⟨-, rfl⟩
      rfl
  have hn : normArr bt (ix1 g)
      = mulf (maximumf (Host.scatterAdd scatter_S128_S50000x1_S50000_n_0_0_1
        (broadcastInDim S128 ![] Facts₀.bcast_S_S128 (constant (F := Ideal) S_ .f32 0x00000000#32)) (batchColT bt)
        (broadcastInDim S50000 ![] Facts₀.bcast_S_S50000 (constant (F := Ideal) S_ .f32 0x3F800000#32)))
          (broadcastInDim S128 ![] Facts₀.bcast_S_S128 (constant (F := Ideal) S_ .f32 0x3F800000#32))) (broadcastInDim S128 ![] Facts₀.bcast_S_S128 (constant (F := Ideal) S_ .f32 0x42800000#32)) (ix1 g) := rfl
  rw [hn, mulf_apply, maximumf_apply, hS, HostFacts.scalarArr_apply, HostFacts.scalarArr_apply, HostFacts.ofBits_one, ofBits_64, ← EReal.coe_one,
    HostFacts.coe_max_real, ← EReal.coe_mul, hcard]
  rfl

end Cert.Gnn

end
-- ==== Proof.PreDecode.lean ====
/-
  What the precondition says of a memory: every float argument array holds real numbers, and every batch word is a
  graph number below 128.

  The precondition is a conjunction of 23 facts, each an "all entries" reduction of a comparison: twenty-one that an
  array's absolute values are below +infinity, and two that the batch words are at least 0 and below 128 as signed
  numbers.
-/
import proofs.«430900_j38714835206722_1_alg».proof.Defs
import proofs.«430900_j38714835206722_1_alg».proof.Proof.Gen.Pre_finite_inputs
import proofs.«430900_j38714835206722_1_alg».proof.Proof.KChainDefs
import Idealize.ShloMosaic.Lib.ReduceAll
import Idealize.ShloMosaic.Lib.StableHlo.Predicate
import Idealize.ShloMosaic.Lib.ValueIdx

set_option maxRecDepth 16384

noncomputable section

namespace Cert.Gnn

open Idealize.ShloMosaic Idealize.ShloMosaic.TcCoe Idealize.ShloMosaic.ValueIdx Cert.KernelIdeal

/-- The shape with no axis has one index. -/
instance subsingleton_scalar_idx : Subsingleton (⟨0, ![]⟩ : Shape).Idx := ⟨fun a b => funext fun d => d.elim0⟩

/-- An entrywise conjunction of two arrays of truth values is true at an index exactly when both are. -/
theorem andi_apply_eq_one {s : Shape} (X Y : IVec s 1) (i : s.Idx) :
    andi X Y i = 1#1 ↔ X i = 1#1 ∧ Y i = 1#1 := IntOp.andi_eq_one

/-- The float pattern of +infinity denotes the top element. -/
theorem ofBits_inf_eq_top : Ideal.ofBits .f32 0x7F800000#32 = (⊤ : EReal) := by simp [Ideal.ofBits, Ideal.ieee]

/-- An extended real whose absolute value tests below +infinity is a real number. -/
theorem real_of_abs_lt_inf (x : EReal)
    (h : Ideal.cmp .olt (max x (-x)) (Ideal.ofBits .f32 0x7F800000#32) = 1#1) : ∃ v : ℝ, x = (v : EReal) := by
  rw [ofBits_inf_eq_top] at h
  induction x using EReal.rec with
  | bot => exact absurd h (by simp [Ideal.cmp])
  | coe v => exact ⟨v, rfl⟩
  | top => exact absurd h (by simp [Ideal.cmp])

/-- If the test "absolute value below +infinity", taken over all entries of an array of any shape and reduced by
    conjunction to one truth value, comes out true, then every entry of the array is a real number. -/
theorem entries_real_of_all_abs_lt_inf {s u : Shape} {axes : List (Fin s.rank)} (x : FVec Ideal s .f32)
    (hb : (⟨0, ![]⟩ : Shape).BroadcastsInDim s (![] : Fin 0 → Fin s.rank)) (init : u.Idx → BitVec 1)
    (hr : s.ReducesTo axes (⟨0, ![]⟩ : Shape)) (hu : 0 < u.numel)
    (e : Host.reduce IntOp.andi
        (cmpf .olt (Host.absf x) (broadcastInDim s ![] hb (constant (⟨0, ![]⟩ : Shape) .f32 0x7F800000#32))) init hr hu ix0 = 1#1)
    (i : s.Idx) : ∃ v : ℝ, x i = (v : EReal) :=
  real_of_abs_lt_inf (x i) (Host.reduce_andi_all _ init hr hu ix0 e i)

/-- A 32-bit word that is at least 0 and below 128 as a signed number is below 128 as an unsigned number. -/
theorem toNat_lt_of_signed_range (w : BitVec 32) (h0 : (0#32 : BitVec 32).toInt ≤ w.toInt)
    (h1 : w.toInt < (128#32 : BitVec 32).toInt) : w.toNat < 128 := by
  have e0 : (0#32 : BitVec 32).toInt = 0 := by decide
  have e1 : (128#32 : BitVec 32).toInt = 128 := by decide
  rw [e0] at h0
  rw [e1] at h1
  have hw := w.isLt
  have hc := BitVec.toInt_eq_toNat_cond w
  split at hc <;> omega

/-- If the two signed tests "at least 0" and "below 128", each taken over all entries of an array of words and reduced
    by conjunction to one truth value, come out true, then every word is below 128 as an unsigned number. -/
theorem words_lt_of_all_in_range {s u u' : Shape} {axes : List (Fin s.rank)} (b : IVec s 32)
    (hb : (⟨0, ![]⟩ : Shape).BroadcastsInDim s (![] : Fin 0 → Fin s.rank)) (init : u.Idx → BitVec 1) (init' : u'.Idx → BitVec 1)
    (hr : s.ReducesTo axes (⟨0, ![]⟩ : Shape)) (hu : 0 < u.numel) (hu' : 0 < u'.numel)
    (e0 : Host.reduce IntOp.andi
        (cmpi .sge b (broadcastInDim s ![] hb (constantI (⟨0, ![]⟩ : Shape) 32 0#32))) init hr hu ix0 = 1#1)
    (e1 : Host.reduce IntOp.andi
        (cmpi .slt b (broadcastInDim s ![] hb (constantI (⟨0, ![]⟩ : Shape) 32 128#32))) init' hr hu' ix0 = 1#1)
    (i : s.Idx) : (b i).toNat < 128 :=
  toNat_lt_of_signed_range (b i)
    (IntOp.cmpi_sge.1 (Host.reduce_andi_all _ init hr hu ix0 e0 i))
    (IntOp.cmpi_slt.1 (Host.reduce_andi_all _ init' hr hu' ix0 e1 i))

/-- A 32-bit word is the word of its unsigned value. -/
theorem eq_ofNat_toNat (w : BitVec 32) : w = BitVec.ofNat 32 w.toNat := by
  apply BitVec.eq_of_toNat_eq
  rw [BitVec.toNat_ofNat]
  have := w.isLt
  omega

/-- Under the precondition the network's parameters are finite and the batch words are graph numbers. -/
theorem decode (m : (ℓ : Loc nD τ sig) → Buf (Elt Ideal) ℓ) (hpre : Cert.Pre_KernelIdeal m) (c : Dev nD) :
    (KChain.PK m c).Finite
    ∧ ∃ bI : Fin 50000 → Fin 128, ∀ r : Fin 50000, KChain.btOf m c (ix1 r) = BitVec.ofNat 32 (bI r).val := by
  -- the precondition's one truth value, and the chain of operations that computes it, part by part
  have h := congrFun (hpre c) ix0
  unfold Cert.Pre_finite_inputs.fn at h
  dsimp only at h
  unfold Cert.Pre_finite_inputs.fn_part1 at h
  dsimp only at h
  unfold Cert.Pre_finite_inputs.fn_part2 at h
  dsimp only at h
  unfold Cert.Pre_finite_inputs.fn_part3 at h
  dsimp only at h
  unfold Cert.Pre_finite_inputs.fn_part4 at h
  dsimp only at h
  unfold Cert.Pre_finite_inputs.fn_part5 at h
  dsimp only at h
  unfold Cert.Pre_finite_inputs.fn_part6 at h
  dsimp only at h
  -- it is the conjunction of 23 reductions: one per float argument, in argument order, then the two on the batch words
  simp only [andi_apply_eq_one] at h
  obtain ⟨⟨⟨⟨⟨⟨⟨⟨⟨⟨⟨⟨⟨⟨⟨⟨⟨⟨⟨⟨⟨⟨h0, h1⟩, h2⟩, h3⟩, h4⟩, h5⟩, h6⟩, h7⟩, h8⟩, h9⟩, h10⟩, h11⟩, h12⟩, h13⟩, h14⟩, h15⟩, h16⟩,
    h17⟩, h18⟩, h19⟩, h20⟩, hge⟩, hlt⟩ := h
  refine ⟨?_, ?_⟩
  · -- every float argument: the entry at a row and column, or at a position, is an entry of the array
    exact
      { x := fun r j => entries_real_of_all_abs_lt_inf _ _ _ _ _ h0 (ix2 r j)
        Wl0 := fun r j => entries_real_of_all_abs_lt_inf _ _ _ _ _ h1 (ix2 r j)
        bl0 := fun j => entries_real_of_all_abs_lt_inf _ _ _ _ _ h2 (ix1 j)
        Wr0 := fun r j => entries_real_of_all_abs_lt_inf _ _ _ _ _ h3 (ix2 r j)
        Wl1 := fun r j => entries_real_of_all_abs_lt_inf _ _ _ _ _ h4 (ix2 r j)
        bl1 := fun j => entries_real_of_all_abs_lt_inf _ _ _ _ _ h5 (ix1 j)
        Wr1 := fun r j => entries_real_of_all_abs_lt_inf _ _ _ _ _ h6 (ix2 r j)
        Wl2 := fun r j => entries_real_of_all_abs_lt_inf _ _ _ _ _ h7 (ix2 r j)
        bl2 := fun j => entries_real_of_all_abs_lt_inf _ _ _ _ _ h8 (ix1 j)
        Wr2 := fun r j => entries_real_of_all_abs_lt_inf _ _ _ _ _ h9 (ix2 r j)
        s0 := fun r j => entries_real_of_all_abs_lt_inf _ _ _ _ _ h10 (ix2 r j)
        s1 := fun r j => entries_real_of_all_abs_lt_inf _ _ _ _ _ h11 (ix2 r j)
        lnw0 := fun j => entries_real_of_all_abs_lt_inf _ _ _ _ _ h12 (ix1 j)
        lnb0 := fun j => entries_real_of_all_abs_lt_inf _ _ _ _ _ h13 (ix1 j)
        lnw1 := fun j => entries_real_of_all_abs_lt_inf _ _ _ _ _ h14 (ix1 j)
        lnb1 := fun j => entries_real_of_all_abs_lt_inf _ _ _ _ _ h15 (ix1 j)
        lnw2 := fun j => entries_real_of_all_abs_lt_inf _ _ _ _ _ h16 (ix1 j)
        lnb2 := fun j => entries_real_of_all_abs_lt_inf _ _ _ _ _ h17 (ix1 j)
        a0 := entries_real_of_all_abs_lt_inf _ _ _ _ _ h18 (ix1 (0 : Fin 1))
        a1 := entries_real_of_all_abs_lt_inf _ _ _ _ _ h19 (ix1 (0 : Fin 1))
        a2 := entries_real_of_all_abs_lt_inf _ _ _ _ _ h20 (ix1 (0 : Fin 1)) }
  · -- every batch word is below 128 unsigned, so it is the word of a graph number
    have hb : ∀ r : Fin 50000, (KChain.btOf m c (ix1 r)).toNat < 128 := fun r =>
      words_lt_of_all_in_range _ _ _ _ _ _ _ hge hlt (ix1 r)
    exact ⟨fun r => ⟨(KChain.btOf m c (ix1 r)).toNat, hb r⟩, fun r => eq_ofNat_toNat _⟩

end Cert.Gnn

end
-- ==== Proof.lean ====
/-
  The certificate of a three-layer graph network against its array reference: the three programs run to the end with
  their arguments unchanged, and the idealized kernel program and the idealized reference end with equal results.

  The kernel program is eight tiled kernels among stretches of host operations. Its result buffer ends at what the
  fold of its segments leaves there, and that is the network computed the tiled way: per graph the statistics by
  indicator-weighted sums, the variance as mean square minus squared mean, a node's mean and reciprocal deviation
  selected by indicators, the neighbour sum scaled by the reciprocal degree. The reference's result ends at its last
  operation's stage, which is the network computed the array way: rows summed per graph, centred first, divided by
  the root, the neighbour sum divided by the degree. Under the precondition every float argument is finite and every
  batch word is a graph number below 128, and there the two ways agree layer by layer.
-/
import proofs.«430900_j38714835206722_1_alg».proof.Defs
import proofs.«430900_j38714835206722_1_alg».proof.Proof.Gen.Kernel
import proofs.«430900_j38714835206722_1_alg».proof.Proof.Gen.Kernel.Skeleton
import proofs.«430900_j38714835206722_1_alg».proof.Proof.Gen.Kernel.Launch
import proofs.«430900_j38714835206722_1_alg».proof.Proof.Gen.Kernel.Points
import proofs.«430900_j38714835206722_1_alg».proof.Proof.Gen.Kernel.Frame
import proofs.«430900_j38714835206722_1_alg».proof.Proof.Gen.KernelIdeal
import proofs.«430900_j38714835206722_1_alg».proof.Proof.Gen.KernelIdeal.Skeleton
import proofs.«430900_j38714835206722_1_alg».proof.Proof.Gen.KernelIdeal.Launch
import proofs.«430900_j38714835206722_1_alg».proof.Proof.Gen.KernelIdeal.Points
import proofs.«430900_j38714835206722_1_alg».proof.Proof.Gen.KernelIdeal.Frame
import proofs.«430900_j38714835206722_1_alg».proof.Proof.Gen.ReferenceIdeal
import proofs.«430900_j38714835206722_1_alg».proof.Proof.Gen.Pre_finite_inputs
import proofs.«430900_j38714835206722_1_alg».proof.Proof.KernelRun
import proofs.«430900_j38714835206722_1_alg».proof.Proof.KChain
import proofs.«430900_j38714835206722_1_alg».proof.Proof.RefRun
import proofs.«430900_j38714835206722_1_alg».proof.Proof.RefValue
import proofs.«430900_j38714835206722_1_alg».proof.Proof.MathLayer
import proofs.«430900_j38714835206722_1_alg».proof.Proof.HostFacts
import proofs.«430900_j38714835206722_1_alg».proof.Proof.Consts
import proofs.«430900_j38714835206722_1_alg».proof.Proof.PreDecode
import Idealize.ShloMosaic.Adequacy
import Idealize.ShloMosaic.Init

set_option maxRecDepth 16384

noncomputable section

namespace Cert.Proof

open Idealize.ShloMosaic Idealize.ShloMosaic.TcCoe Idealize.SL.Sem Cert.Gnn

/-- The word-level kernel program runs to the end with its arguments unchanged. -/
theorem frame_k : Cert.frame_Kernel := fun m ρ _ => Cert.Kernel.Gen.frame m ρ

/-- The idealized kernel program runs to the end with its arguments unchanged. -/
theorem frame_ki : Cert.frame_KernelIdeal := fun m ρ _ => Cert.KernelIdeal.Gen.frame m ρ

/-- The idealized reference runs to the end with its arguments unchanged: its run, the result dropped. -/
theorem frame_ri : Cert.frame_ReferenceIdeal := fun m ρ _ =>
  (θ_run Cert.ReferenceIdeal.defs _ _).mono (fun _ h c => (h c).2) (Cert.Gnn.RefRun.run (F := Ideal) m ρ)

/-- From memories agreeing on the arguments both idealized programs end with the same result: the network the tiled
    way and the network the array way agree on finite parameters and graph numbers below 128. -/
theorem algebraic : Cert.algebraic_KernelIdeal_ReferenceIdeal := by
  intro m ρ m' ρ' hpre hagree
  refine ⟨fun c => Cert.KernelIdeal.Gen.W14 (F := Ideal) m ρ c (Proc.devRef .tc Cert.KernelIdeal.main_v120),
    Cert.KernelIdeal.Gen.run_value m ρ, ?_⟩
  refine (θ_run Cert.ReferenceIdeal.defs _ _).mono (fun r h c => ⟨(h c).1.trans ?_, (h c).2⟩)
    (Cert.Gnn.RefRun.run (F := Ideal) m' ρ')
  obtain ⟨hfin, bI, hb⟩ := Cert.Gnn.decode m hpre c
  rw [(hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2.1, (hagree c).2.2.2.2.2.2.2.2.2.1, (hagree c).2.2.2.2.2.2.2.2.2.2.1, (hagree c).2.2.2.2.2.2.2.2.2.2.2.1, (hagree c).2.2.2.2.2.2.2.2.2.2.2.2.1, (hagree c).2.2.2.2.2.2.2.2.2.2.2.2.2.1, (hagree c).2.2.2.2.2.2.2.2.2.2.2.2.2.2.1, (hagree c).2.2.2.2.2.2.2.2.2.2.2.2.2.2.2.1, (hagree c).2.2.2.2.2.2.2.2.2.2.2.2.2.2.2.2.1, (hagree c).2.2.2.2.2.2.2.2.2.2.2.2.2.2.2.2.2.1, (hagree c).2.2.2.2.2.2.2.2.2.2.2.2.2.2.2.2.2.2.1, (hagree c).2.2.2.2.2.2.2.2.2.2.2.2.2.2.2.2.2.2.2.1, (hagree c).2.2.2.2.2.2.2.2.2.2.2.2.2.2.2.2.2.2.2.2.1, (hagree c).2.2.2.2.2.2.2.2.2.2.2.2.2.2.2.2.2.2.2.2.2.1, (hagree c).2.2.2.2.2.2.2.2.2.2.2.2.2.2.2.2.2.2.2.2.2.2]
  refine (Cert.Gnn.Ref.ref_value _ _ _ _ _ _ _ _ _ _ _ _ _ _ _ _ _ _ _ _ _ _ _ bI hb).trans ?_
  refine Eq.trans ?_ (Cert.Gnn.KChain.kernel_value m ρ c bI hb).symm
  exact congrArg mk2 (Cert.Gnn.net_eq oneC_eq epsC_pos (normF_eq _ bI hb) (degmF_real _) (AggF_fin _) _ hfin).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
